-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  main_v3
-- ==== Kernel.lean ====
abbrev S256x256 : Shape := ⟨2, ![256, 256]⟩
abbrev S2x3x32x256 : Shape := ⟨4, ![2, 3, 32, 256]⟩
abbrev S2x3 : Shape := ⟨2, ![2, 3]⟩
abbrev S_ : Shape := ⟨0, ![]⟩
abbrev S1x1 : Shape := ⟨2, ![1, 1]⟩
abbrev S1x1x32x256 : Shape := ⟨4, ![1, 1, 32, 256]⟩
abbrev S32x256 : Shape := ⟨2, ![32, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S2x3x32x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v28 : BitVec 32 := Scalar.muli v2 c8_i32_14
  let v29 : BitVec 32 := Scalar.addi c0_i32_15 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v30 : BitVec 32 := Scalar.muli v5 c4_i32_16
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v17 : BitVec 32 := Scalar.addi v8 c1_i32_7
  let c4_i32_8 : BitVec 32 := 4#32
  let c0_i32 : BitVec 32 := 0#32
  let v18 : BitVec 1 := Scalar.cmpi .eq c4_i32_8 c0_i32
  let c1_i32_9 : BitVec 32 := 1#32
  let v19 : BitVec 32 := Scalar.select v18 c1_i32_9 c4_i32_8
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c1_i32_17 : BitVec 32 := 1#32
  let v32 : BitVec 32 := Scalar.muli v27 c1_i32_17
  let v33 : BitVec 32 := Scalar.addi v31 v32
  v33.toNat
def k0_dev2 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v45 : BitVec 32 := Scalar.muli v2 c8_i32_26
  let v46 : BitVec 32 := Scalar.addi c0_i32_27 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_28 : BitVec 32 := 4#32
  let v47 : BitVec 32 := Scalar.muli v5 c4_i32_28
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v34 : BitVec 32 := Scalar.addi v8 c2_i32_18
  let c4_i32_19 : BitVec 32 := 4#32
  let c0_i32_20 : BitVec 32 := 0#32
  let v35 : BitVec 1 := Scalar.cmpi .eq c4_i32_19 c0_i32_20
  let c1_i32_21 : BitVec 32 := 1#32
  let v36 : BitVec 32 := Scalar.select v35 c1_i32_21 c4_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c1_i32_29 : BitVec 32 := 1#32
  let v49 : BitVec 32 := Scalar.muli v44 c1_i32_29
  let v50 : BitVec 32 := Scalar.addi v48 v49
  v50.toNat
def k0_dev3 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v62 : BitVec 32 := Scalar.muli v2 c8_i32_37
  let v63 : BitVec 32 := Scalar.addi c0_i32_38 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v64 : BitVec 32 := Scalar.muli v5 c4_i32_39
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v51 : BitVec 32 := Scalar.addi v8 c3_i32
  let c4_i32_30 : BitVec 32 := 4#32
  let c0_i32_31 : BitVec 32 := 0#32
  let v52 : BitVec 1 := Scalar.cmpi .eq c4_i32_30 c0_i32_31
  let c1_i32_32 : BitVec 32 := 1#32
  let v53 : BitVec 32 := Scalar.select v52 c1_i32_32 c4_i32_30
  let v54 : BitVec 32 := Scalar.remsi v51 v53
  let c0_i32_34 : BitVec 32 := 0#32
  let v56 : BitVec 1 := Scalar.cmpi .slt v54 c0_i32_34
  let c0_i32_35 : BitVec 32 := 0#32
  let v57 : BitVec 1 := Scalar.cmpi .slt v53 c0_i32_35
  let v58 : BitVec 1 := Scalar.xori v56 v57
  let c0_i32_33 : BitVec 32 := 0#32
  let v55 : BitVec 1 := Scalar.cmpi .ne v54 c0_i32_33
  let v59 : BitVec 1 := Scalar.andi v58 v55
  let v60 : BitVec 32 := Scalar.addi v54 v53
  let v61 : BitVec 32 := Scalar.select v59 v60 v54
  let c1_i32_40 : BitVec 32 := 1#32
  let v66 : BitVec 32 := Scalar.muli v61 c1_i32_40
  let v67 : BitVec 32 := Scalar.addi v65 v66
  v67.toNat
def k0_dev4 (d0 : Dev nD) : Nat :=
  let c0_i32_43 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_42 : BitVec 32 := 8#32
  let v68 : BitVec 32 := Scalar.muli v12 c8_i32_42
  let v69 : BitVec 32 := Scalar.addi c0_i32_43 v68
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_44 : BitVec 32 := 4#32
  let v70 : BitVec 32 := Scalar.muli v13 c4_i32_44
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v72 : BitVec 32 := Scalar.muli v8 c1_i32_45
  let v73 : BitVec 32 := Scalar.addi v71 v72
  v73.toNat
def k0_dev5 (d0 : Dev nD) : Nat :=
  let c0_i32_48 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_47 : BitVec 32 := 8#32
  let v74 : BitVec 32 := Scalar.muli v14 c8_i32_47
  let v75 : BitVec 32 := Scalar.addi c0_i32_48 v74
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v76 : BitVec 32 := Scalar.muli v5 c4_i32_49
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v78 : BitVec 32 := Scalar.muli v8 c1_i32_50
  let v79 : BitVec 32 := Scalar.addi v77 v78
  v79.toNat
def k0_dev6 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v80 : BitVec 32 := Scalar.muli v2 c8_i32_52
  let v81 : BitVec 32 := Scalar.addi c0_i32_53 v80
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_54 : BitVec 32 := 4#32
  let v82 : BitVec 32 := Scalar.muli v15 c4_i32_54
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v84 : BitVec 32 := Scalar.muli v8 c1_i32_55
  let v85 : BitVec 32 := Scalar.addi v83 v84
  v85.toNat
def k0_off1 (d0 : Dev nD) (c0_i32_56 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let v86 : BitVec 32 := Scalar.addi v11 c0_i32_56
  let c0_i32_76 : BitVec 32 := 0#32
  ![v86.toNat, 0]
def k0_dev7 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v98 : BitVec 32 := Scalar.muli v2 c8_i32_70
  let v99 : BitVec 32 := Scalar.addi c0_i32_71 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v100 : BitVec 32 := Scalar.muli v5 c4_i32_72
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_57 : BitVec 32 := 3#32
  let v87 : BitVec 32 := Scalar.addi v8 c3_i32_57
  let c4_i32_58 : BitVec 32 := 4#32
  let c0_i32_59 : BitVec 32 := 0#32
  let v88 : BitVec 1 := Scalar.cmpi .eq c4_i32_58 c0_i32_59
  let c1_i32_60 : BitVec 32 := 1#32
  let v89 : BitVec 32 := Scalar.select v88 c1_i32_60 c4_i32_58
  let v90 : BitVec 32 := Scalar.remsi v87 v89
  let c0_i32_62 : BitVec 32 := 0#32
  let v92 : BitVec 1 := Scalar.cmpi .slt v90 c0_i32_62
  let c0_i32_63 : BitVec 32 := 0#32
  let v93 : BitVec 1 := Scalar.cmpi .slt v89 c0_i32_63
  let v94 : BitVec 1 := Scalar.xori v92 v93
  let c0_i32_61 : BitVec 32 := 0#32
  let v91 : BitVec 1 := Scalar.cmpi .ne v90 c0_i32_61
  let v95 : BitVec 1 := Scalar.andi v94 v91
  let v96 : BitVec 32 := Scalar.addi v90 v89
  let v97 : BitVec 32 := Scalar.select v95 v96 v90
  let c1_i32_73 : BitVec 32 := 1#32
  let v102 : BitVec 32 := Scalar.muli v97 c1_i32_73
  let v103 : BitVec 32 := Scalar.addi v101 v102
  v103.toNat
def k0_dev8 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v123 : BitVec 32 := Scalar.muli v2 c8_i32_91
  let v124 : BitVec 32 := Scalar.addi c0_i32_92 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v125 : BitVec 32 := Scalar.muli v5 c4_i32_93
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v112 : BitVec 32 := Scalar.addi v8 c2_i32_78
  let c4_i32_79 : BitVec 32 := 4#32
  let c0_i32_80 : BitVec 32 := 0#32
  let v113 : BitVec 1 := Scalar.cmpi .eq c4_i32_79 c0_i32_80
  let c1_i32_81 : BitVec 32 := 1#32
  let v114 : BitVec 32 := Scalar.select v113 c1_i32_81 c4_i32_79
  let v115 : BitVec 32 := Scalar.remsi v112 v114
  let c0_i32_83 : BitVec 32 := 0#32
  let v117 : BitVec 1 := Scalar.cmpi .slt v115 c0_i32_83
  let c0_i32_84 : BitVec 32 := 0#32
  let v118 : BitVec 1 := Scalar.cmpi .slt v114 c0_i32_84
  let v119 : BitVec 1 := Scalar.xori v117 v118
  let c0_i32_82 : BitVec 32 := 0#32
  let v116 : BitVec 1 := Scalar.cmpi .ne v115 c0_i32_82
  let v120 : BitVec 1 := Scalar.andi v119 v116
  let v121 : BitVec 32 := Scalar.addi v115 v114
  let v122 : BitVec 32 := Scalar.select v120 v121 v115
  let c1_i32_94 : BitVec 32 := 1#32
  let v127 : BitVec 32 := Scalar.muli v122 c1_i32_94
  let v128 : BitVec 32 := Scalar.addi v126 v127
  v128.toNat
def k0_dev9 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v148 : BitVec 32 := Scalar.muli v2 c8_i32_112
  let v149 : BitVec 32 := Scalar.addi c0_i32_113 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v150 : BitVec 32 := Scalar.muli v5 c4_i32_114
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v137 : BitVec 32 := Scalar.addi v8 c1_i32_99
  let c4_i32_100 : BitVec 32 := 4#32
  let c0_i32_101 : BitVec 32 := 0#32
  let v138 : BitVec 1 := Scalar.cmpi .eq c4_i32_100 c0_i32_101
  let c1_i32_102 : BitVec 32 := 1#32
  let v139 : BitVec 32 := Scalar.select v138 c1_i32_102 c4_i32_100
  let v140 : BitVec 32 := Scalar.remsi v137 v139
  let c0_i32_104 : BitVec 32 := 0#32
  let v142 : BitVec 1 := Scalar.cmpi .slt v140 c0_i32_104
  let c0_i32_105 : BitVec 32 := 0#32
  let v143 : BitVec 1 := Scalar.cmpi .slt v139 c0_i32_105
  let v144 : BitVec 1 := Scalar.xori v142 v143
  let c0_i32_103 : BitVec 32 := 0#32
  let v141 : BitVec 1 := Scalar.cmpi .ne v140 c0_i32_103
  let v145 : BitVec 1 := Scalar.andi v144 v141
  let v146 : BitVec 32 := Scalar.addi v140 v139
  let v147 : BitVec 32 := Scalar.select v145 v146 v140
  let c1_i32_115 : BitVec 32 := 1#32
  let v152 : BitVec 32 := Scalar.muli v147 c1_i32_115
  let v153 : BitVec 32 := Scalar.addi v151 v152
  v153.toNat
def k0_dev10 (d0 : Dev nD) : Nat :=
  let c0_i32_133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_132 : BitVec 32 := 8#32
  let v173 : BitVec 32 := Scalar.muli v2 c8_i32_132
  let v174 : BitVec 32 := Scalar.addi c0_i32_133 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_134 : BitVec 32 := 4#32
  let v175 : BitVec 32 := Scalar.muli v5 c4_i32_134
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_119 : BitVec 32 := 3#32
  let v162 : BitVec 32 := Scalar.addi v8 c3_i32_119
  let c4_i32_120 : BitVec 32 := 4#32
  let c0_i32_121 : BitVec 32 := 0#32
  let v163 : BitVec 1 := Scalar.cmpi .eq c4_i32_120 c0_i32_121
  let c1_i32_122 : BitVec 32 := 1#32
  let v164 : BitVec 32 := Scalar.select v163 c1_i32_122 c4_i32_120
  let v165 : BitVec 32 := Scalar.remsi v162 v164
  let c0_i32_124 : BitVec 32 := 0#32
  let v167 : BitVec 1 := Scalar.cmpi .slt v165 c0_i32_124
  let c0_i32_125 : BitVec 32 := 0#32
  let v168 : BitVec 1 := Scalar.cmpi .slt v164 c0_i32_125
  let v169 : BitVec 1 := Scalar.xori v167 v168
  let c0_i32_123 : BitVec 32 := 0#32
  let v166 : BitVec 1 := Scalar.cmpi .ne v165 c0_i32_123
  let v170 : BitVec 1 := Scalar.andi v169 v166
  let v171 : BitVec 32 := Scalar.addi v165 v164
  let v172 : BitVec 32 := Scalar.select v170 v171 v165
  let c1_i32_135 : BitVec 32 := 1#32
  let v177 : BitVec 32 := Scalar.muli v172 c1_i32_135
  let v178 : BitVec 32 := Scalar.addi v176 v177
  v178.toNat
def k0_dev11 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v198 : BitVec 32 := Scalar.muli v2 c8_i32_153
  let v199 : BitVec 32 := Scalar.addi c0_i32_154 v198
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_155 : BitVec 32 := 4#32
  let v200 : BitVec 32 := Scalar.muli v5 c4_i32_155
  let v201 : BitVec 32 := Scalar.addi v199 v200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_140 : BitVec 32 := 2#32
  let v187 : BitVec 32 := Scalar.addi v8 c2_i32_140
  let c4_i32_141 : BitVec 32 := 4#32
  let c0_i32_142 : BitVec 32 := 0#32
  let v188 : BitVec 1 := Scalar.cmpi .eq c4_i32_141 c0_i32_142
  let c1_i32_143 : BitVec 32 := 1#32
  let v189 : BitVec 32 := Scalar.select v188 c1_i32_143 c4_i32_141
  let v190 : BitVec 32 := Scalar.remsi v187 v189
  let c0_i32_145 : BitVec 32 := 0#32
  let v192 : BitVec 1 := Scalar.cmpi .slt v190 c0_i32_145
  let c0_i32_146 : BitVec 32 := 0#32
  let v193 : BitVec 1 := Scalar.cmpi .slt v189 c0_i32_146
  let v194 : BitVec 1 := Scalar.xori v192 v193
  let c0_i32_144 : BitVec 32 := 0#32
  let v191 : BitVec 1 := Scalar.cmpi .ne v190 c0_i32_144
  let v195 : BitVec 1 := Scalar.andi v194 v191
  let v196 : BitVec 32 := Scalar.addi v190 v189
  let v197 : BitVec 32 := Scalar.select v195 v196 v190
  let c1_i32_156 : BitVec 32 := 1#32
  let v202 : BitVec 32 := Scalar.muli v197 c1_i32_156
  let v203 : BitVec 32 := Scalar.addi v201 v202
  v203.toNat
def k0_dev12 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v223 : BitVec 32 := Scalar.muli v2 c8_i32_174
  let v224 : BitVec 32 := Scalar.addi c0_i32_175 v223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v225 : BitVec 32 := Scalar.muli v5 c4_i32_176
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v212 : BitVec 32 := Scalar.addi v8 c1_i32_161
  let c4_i32_162 : BitVec 32 := 4#32
  let c0_i32_163 : BitVec 32 := 0#32
  let v213 : BitVec 1 := Scalar.cmpi .eq c4_i32_162 c0_i32_163
  let c1_i32_164 : BitVec 32 := 1#32
  let v214 : BitVec 32 := Scalar.select v213 c1_i32_164 c4_i32_162
  let v215 : BitVec 32 := Scalar.remsi v212 v214
  let c0_i32_166 : BitVec 32 := 0#32
  let v217 : BitVec 1 := Scalar.cmpi .slt v215 c0_i32_166
  let c0_i32_167 : BitVec 32 := 0#32
  let v218 : BitVec 1 := Scalar.cmpi .slt v214 c0_i32_167
  let v219 : BitVec 1 := Scalar.xori v217 v218
  let c0_i32_165 : BitVec 32 := 0#32
  let v216 : BitVec 1 := Scalar.cmpi .ne v215 c0_i32_165
  let v220 : BitVec 1 := Scalar.andi v219 v216
  let v221 : BitVec 32 := Scalar.addi v215 v214
  let v222 : BitVec 32 := Scalar.select v220 v221 v215
  let c1_i32_177 : BitVec 32 := 1#32
  let v227 : BitVec 32 := Scalar.muli v222 c1_i32_177
  let v228 : BitVec 32 := Scalar.addi v226 v227
  v228.toNat
def k0_off2 (d0 : Dev nD) (c0_i32_220 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let v269 : BitVec 32 := Scalar.addi v11 c0_i32_220
  let v270 : Index := Scalar.indexCast v269
  let c0 : Index := 0#32
  ![v270.toNat, 0]
def k0_dev13 (d0 : Dev nD) : Nat :=
  let c0_i32_237 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_236 : BitVec 32 := 8#32
  let v284 : BitVec 32 := Scalar.muli v12 c8_i32_236
  let v285 : BitVec 32 := Scalar.addi c0_i32_237 v284
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_238 : BitVec 32 := 4#32
  let v286 : BitVec 32 := Scalar.muli v13 c4_i32_238
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v288 : BitVec 32 := Scalar.muli v8 c1_i32_239
  let v289 : BitVec 32 := Scalar.addi v287 v288
  v289.toNat
def k0_dev14 (d0 : Dev nD) : Nat :=
  let c0_i32_247 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_246 : BitVec 32 := 8#32
  let v296 : BitVec 32 := Scalar.muli v14 c8_i32_246
  let v297 : BitVec 32 := Scalar.addi c0_i32_247 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_248 : BitVec 32 := 4#32
  let v298 : BitVec 32 := Scalar.muli v5 c4_i32_248
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v300 : BitVec 32 := Scalar.muli v8 c1_i32_249
  let v301 : BitVec 32 := Scalar.addi v299 v300
  v301.toNat
def k0_dev15 (d0 : Dev nD) : Nat :=
  let c0_i32_257 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_256 : BitVec 32 := 8#32
  let v308 : BitVec 32 := Scalar.muli v2 c8_i32_256
  let v309 : BitVec 32 := Scalar.addi c0_i32_257 v308
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_258 : BitVec 32 := 4#32
  let v310 : BitVec 32 := Scalar.muli v15 c4_i32_258
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v312 : BitVec 32 := Scalar.muli v8 c1_i32_259
  let v313 : BitVec 32 := Scalar.addi v311 v312
  v313.toNat
def k0_dev16 (d0 : Dev nD) : Nat :=
  let c0_i32_321 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_320 : BitVec 32 := 8#32
  let v368 : BitVec 32 := Scalar.muli v12 c8_i32_320
  let v369 : BitVec 32 := Scalar.addi c0_i32_321 v368
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_322 : BitVec 32 := 4#32
  let v370 : BitVec 32 := Scalar.muli v13 c4_i32_322
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v372 : BitVec 32 := Scalar.muli v8 c1_i32_323
  let v373 : BitVec 32 := Scalar.addi v371 v372
  v373.toNat
def k0_dev17 (d0 : Dev nD) : Nat :=
  let c0_i32_331 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_330 : BitVec 32 := 8#32
  let v380 : BitVec 32 := Scalar.muli v14 c8_i32_330
  let v381 : BitVec 32 := Scalar.addi c0_i32_331 v380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_332 : BitVec 32 := 4#32
  let v382 : BitVec 32 := Scalar.muli v5 c4_i32_332
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v384 : BitVec 32 := Scalar.muli v8 c1_i32_333
  let v385 : BitVec 32 := Scalar.addi v383 v384
  v385.toNat
def k0_dev18 (d0 : Dev nD) : Nat :=
  let c0_i32_341 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_340 : BitVec 32 := 8#32
  let v392 : BitVec 32 := Scalar.muli v2 c8_i32_340
  let v393 : BitVec 32 := Scalar.addi c0_i32_341 v392
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_342 : BitVec 32 := 4#32
  let v394 : BitVec 32 := Scalar.muli v15 c4_i32_342
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v396 : BitVec 32 := Scalar.muli v8 c1_i32_343
  let v397 : BitVec 32 := Scalar.addi v395 v396
  v397.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_6 : (6#32 : BitVec 32).msb = false
  inb_S2x3_S1x1_0_2 : ∀ a, (![0, 2] : Fin 2 → Nat) a + S1x1.size a ≤ S2x3.size a
  squeezes_S1x1_S_ : S1x1.Squeezes S_
  inb_S2x3x32x256_S1x1x32x256_0_2_0_0 : ∀ a, (![0, 2, 0, 0] : Fin 4 → Nat) a + S1x1x32x256.size a ≤ S2x3x32x256.size a
  squeezes_S1x1x32x256_S32x256 : S1x1x32x256.Squeezes S32x256
  inb_S2x3_S1x1_0_1 : ∀ a, (![0, 1] : Fin 2 → Nat) a + S1x1.size a ≤ S2x3.size a
  inb_S2x3x32x256_S1x1x32x256_0_1_0_0 : ∀ a, (![0, 1, 0, 0] : Fin 4 → Nat) a + S1x1x32x256.size a ≤ S2x3x32x256.size a
  inb_S2x3_S1x1_0_0 : ∀ a, (![0, 0] : Fin 2 → Nat) a + S1x1.size a ≤ S2x3.size a
  inb_S2x3x32x256_S1x1x32x256_0_0_0_0 : ∀ a, (![0, 0, 0, 0] : Fin 4 → Nat) a + S1x1x32x256.size a ≤ S2x3x32x256.size a
  inb_S2x3_S1x1_1_2 : ∀ a, (![1, 2] : Fin 2 → Nat) a + S1x1.size a ≤ S2x3.size a
  inb_S2x3x32x256_S1x1x32x256_1_2_0_0 : ∀ a, (![1, 2, 0, 0] : Fin 4 → Nat) a + S1x1x32x256.size a ≤ S2x3x32x256.size a
  inb_S2x3_S1x1_1_1 : ∀ a, (![1, 1] : Fin 2 → Nat) a + S1x1.size a ≤ S2x3.size a
  inb_S2x3x32x256_S1x1x32x256_1_1_0_0 : ∀ a, (![1, 1, 0, 0] : Fin 4 → Nat) a + S1x1x32x256.size a ≤ S2x3x32x256.size a
  inb_S2x3_S1x1_1_0 : ∀ a, (![1, 0] : Fin 2 → Nat) a + S1x1.size a ≤ S2x3.size a
  inb_S2x3x32x256_S1x1x32x256_1_0_0_0 : ∀ a, (![1, 0, 0, 0] : Fin 4 → Nat) a + S1x1x32x256.size a ≤ S2x3x32x256.size a
  h_S32x256 : 0 < S32x256.numel
  shapeCasts_S32x256_S32x256 : S32x256.ShapeCasts S32x256
  h_S1x1x32x256 : 0 < S1x1x32x256.numel
  shapeCasts_S1x1x32x256_S32x256 : S1x1x32x256.ShapeCasts S32x256
  hcc0_scratch1 : 2 + S2x3.numel ≤ 26
  hcc0_scratch2 : 8 + S2x3.numel ≤ 26
  hcc0_scratch3 : 14 + S2x3.numel ≤ 26
  hcc0_scratch4 : 20 + S2x3.numel ≤ 26
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off1_inb : ∀ d0 : Dev nD, ∀ (r : Fin 2), ∀ a, (k0_off1 d0 (BitVec.ofNat 32 (32 * r.val))) a + S32x256.size a ≤ S256x256.size a
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off2_inb : ∀ d0 : Dev nD, ∀ (r : Fin 2), ∀ a, (k0_off2 d0 (BitVec.ofNat 32 (32 * r.val))) a + S32x256.size a ≤ S256x256.size a
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  hstage0_0 : ∀ j, (stage0_0 j).IsWhole
  hstage0_1 : ∀ j, (stage0_1 j).IsWhole

variable [Facts₀]

abbrev cc0_scratch1 : DmaSems sig S2x3 := SemArray.consecutive 2 S2x3 hcc0_scratch1
abbrev cc0_scratch2 : DmaSems sig S2x3 := SemArray.consecutive 8 S2x3 hcc0_scratch2
abbrev cc0_scratch3 : DmaSems sig S2x3 := SemArray.consecutive 14 S2x3 hcc0_scratch3
abbrev cc0_scratch4 : DmaSems sig S2x3 := SemArray.consecutive 20 S2x3 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x256 : Shape := ⟨2, ![1024, 256]⟩
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x256x256, .f32⟩
  | .hbm, ⟨2, _⟩ => ⟨S_, .f32⟩
  | .hbm, ⟨3, _⟩ => ⟨S256x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1024x256_S4x256x256 : S1024x256.ShapeCasts S4x256x256
  reducesTo_S4x256x256_S256x256_d0 : S4x256x256.ReducesTo [0] S256x256
  h_S_ : 0 < S_.numel

variable [Facts₀]

class Facts : Prop extends Facts₀ where

variable [Facts]
-- ==== Proof.Mesh.lean ====
/- The mesh of sixteen devices as the kernel sees it: device `c` sits at position
   (c / 8, c / 4 % 2, c % 4) of the 2 × 2 × 4 mesh. The kernel talks to its three neighbours along the last axis
   (a ring of four) and to the three other devices of its 2 × 2 plane. Each device-id chain the kernel computes is
   identified here with one of those two families, and the families' group laws are decided over the sixteen devices. -/
import proofs.«900719_g7700000000000720_dist_ar_v7x_xyz2x2x4_z_m256_n256_f32_1_alg».proof.Proof.Gen.KernelIdeal

noncomputable section

namespace Cert.KernelIdeal.AR

open Cert.KernelIdeal Cert.KernelIdeal.Gen
open Idealize.ShloMosaic

/-- The device `k` steps further round the ring of four along the last mesh axis. -/
def zs (c : Dev nD) (k : ℕ) : Dev nD :=
  ⟨(c.val / 4) * 4 + (c.val + k) % 4, by have := c.isLt; simp only [nD] at this ⊢; omega⟩

/-- The three other devices of `c`'s 2 × 2 plane: both plane coordinates flipped, the first flipped, the second flipped. -/
def xp (c : Dev nD) : Fin 3 → Dev nD
  | 0 => ⟨((c.val % 4) + 12) - (8 * (c.val / 8) + 4 * ((c.val / 4) % 2)), by have := c.isLt; simp only [nD] at this ⊢; omega⟩
  | 1 => ⟨(4 * ((c.val / 4) % 2) + (c.val % 4) + 8) - 8 * (c.val / 8), by have := c.isLt; simp only [nD] at this ⊢; omega⟩
  | 2 => ⟨(8 * (c.val / 8) + (c.val % 4) + 4) - 4 * ((c.val / 4) % 2), by have := c.isLt; simp only [nD] at this ⊢; omega⟩

/-- The first row of the quarter of the 256 rows that device `c` reduces: 64 rows per position in the plane. -/
def qo (c : Dev nD) : ℕ := 128 * (c.val / 8) + 64 * ((c.val / 4) % 2)

/-! ## The kernel's device chains -/

theorem dev1_eq (c : Dev nD) : (⟨k0_dev1 c, k0_dev1_lt c⟩ : Dev nD) = zs c 1 := Fin.ext (by revert c; decide +kernel)
theorem dev2_eq (c : Dev nD) : (⟨k0_dev2 c, k0_dev2_lt c⟩ : Dev nD) = zs c 2 := Fin.ext (by revert c; decide +kernel)
theorem dev3_eq (c : Dev nD) : (⟨k0_dev3 c, k0_dev3_lt c⟩ : Dev nD) = zs c 3 := Fin.ext (by revert c; decide +kernel)
theorem dev4_eq (c : Dev nD) : (⟨k0_dev4 c, k0_dev4_lt c⟩ : Dev nD) = xp c 0 := Fin.ext (k0_dev4_eq c)
theorem dev5_eq (c : Dev nD) : (⟨k0_dev5 c, k0_dev5_lt c⟩ : Dev nD) = xp c 1 := Fin.ext (k0_dev5_eq c)
theorem dev6_eq (c : Dev nD) : (⟨k0_dev6 c, k0_dev6_lt c⟩ : Dev nD) = xp c 2 := Fin.ext (k0_dev6_eq c)
theorem dev7_eq (c : Dev nD) : (⟨k0_dev7 c, k0_dev7_lt c⟩ : Dev nD) = zs c 3 := Fin.ext (by revert c; decide +kernel)
theorem dev8_eq (c : Dev nD) : (⟨k0_dev8 c, k0_dev8_lt c⟩ : Dev nD) = zs c 2 := Fin.ext (by revert c; decide +kernel)
theorem dev9_eq (c : Dev nD) : (⟨k0_dev9 c, k0_dev9_lt c⟩ : Dev nD) = zs c 1 := Fin.ext (by revert c; decide +kernel)
theorem dev10_eq (c : Dev nD) : (⟨k0_dev10 c, k0_dev10_lt c⟩ : Dev nD) = zs c 3 := Fin.ext (by revert c; decide +kernel)
theorem dev11_eq (c : Dev nD) : (⟨k0_dev11 c, k0_dev11_lt c⟩ : Dev nD) = zs c 2 := Fin.ext (by revert c; decide +kernel)
theorem dev12_eq (c : Dev nD) : (⟨k0_dev12 c, k0_dev12_lt c⟩ : Dev nD) = zs c 1 := Fin.ext (by revert c; decide +kernel)
theorem dev13_eq (c : Dev nD) : (⟨k0_dev13 c, k0_dev13_lt c⟩ : Dev nD) = xp c 0 := Fin.ext (k0_dev13_eq c)
theorem dev14_eq (c : Dev nD) : (⟨k0_dev14 c, k0_dev14_lt c⟩ : Dev nD) = xp c 1 := Fin.ext (k0_dev14_eq c)
theorem dev15_eq (c : Dev nD) : (⟨k0_dev15 c, k0_dev15_lt c⟩ : Dev nD) = xp c 2 := Fin.ext (k0_dev15_eq c)
theorem dev16_eq (c : Dev nD) : (⟨k0_dev16 c, k0_dev16_lt c⟩ : Dev nD) = xp c 0 := Fin.ext (k0_dev16_eq c)
theorem dev17_eq (c : Dev nD) : (⟨k0_dev17 c, k0_dev17_lt c⟩ : Dev nD) = xp c 1 := Fin.ext (k0_dev17_eq c)
theorem dev18_eq (c : Dev nD) : (⟨k0_dev18 c, k0_dev18_lt c⟩ : Dev nD) = xp c 2 := Fin.ext (k0_dev18_eq c)

/-! ## The two families' laws, decided over the sixteen devices -/

theorem zs_zs (c : Dev nD) : ∀ k : Fin 4, zs (zs c k.val) (4 - k.val) = c := by revert c; decide
theorem zs_back (c : Dev nD) : ∀ k : Fin 4, zs (zs c (4 - k.val)) k.val = c := by revert c; decide
theorem xp_xp (c : Dev nD) : ∀ i : Fin 3, xp (xp c i) i = c := by revert c; decide
theorem zs_ne (c : Dev nD) : ∀ k : Fin 4, k.val ≠ 0 → zs c k.val ≠ c := by revert c; decide
theorem xp_ne (c : Dev nD) : ∀ i : Fin 3, xp c i ≠ c := by revert c; decide
theorem qo_zs (c : Dev nD) : ∀ k : Fin 4, qo (zs c k.val) = qo c := by revert c; decide
theorem zs_xp (c : Dev nD) : ∀ (k : Fin 4) (i : Fin 3), zs (xp c i) k.val = xp (zs c k.val) i := by revert c; decide

/-- The permutation of the devices that moves each `k` steps round its ring. -/
def zsEquiv (k : Fin 4) : Dev nD ≃ Dev nD :=
  ⟨fun c => zs c k.val, fun c => zs c (4 - k.val), fun c => zs_zs c k, fun c => zs_back c k⟩
/-- The involution of the devices that swaps each with its `i`-th plane neighbour. -/
def xpEquiv (i : Fin 3) : Dev nD ≃ Dev nD := ⟨fun c => xp c i, fun c => xp c i, fun c => xp_xp c i, fun c => xp_xp c i⟩

/-- The two row offsets the kernel computes (for its transfers and for its loads and stores) are one. -/
theorem off1_eq_off2 (c : Dev nD) (h : Fin 2) :
    k0_off1 c (BitVec.ofNat 32 (32 * h.val)) = k0_off2 c (BitVec.ofNat 32 (32 * h.val)) := by rw [k0_off1_eq, k0_off2_eq]
theorem off1_eq_qo (c : Dev nD) (h : Fin 2) : k0_off1 c (BitVec.ofNat 32 (32 * h.val)) = ![qo c + 32 * h.val, 0] := by rw [k0_off1_eq]; rfl

end Cert.KernelIdeal.AR

end
-- ==== Proof.Core.lean ====
/- The shared vocabulary of the all-reduce's proof: the resource algebra, the memory views the kernel's transfers,
   loads and stores go through, its twenty-five semaphore cells a device, the contents every buffer ends at, the
   schedule of who pays which cell with what, what each device owes at launch, and the pipeline's proof data.

   The protocol. Device `c` reduces the quarter `[qo c, qo c + 64)` of the 256 rows, in two halves of 32 rows.
   * Entry: `c` signals the barrier semaphore of its three ring neighbours and of its three plane neighbours, and waits
     for six. A signal hands its receiver the part of the signaller's memory the receiver is about to write.
   * Ring phase: `c` sends each half of its own quarter of `x` to slot `(h, k - 1)` of the landing buffer of the device
     `k` steps on, `k = 3, 2, 1`; once its own three slots of a half have landed it adds them to its own rows of `x` and
     stores the sum in its rows of the result.
   * Plane phase: it sends that half of the result to the same rows of the result on its three plane neighbours.
   * Exit: it waits for its six plane sends and the six plane transfers into it, then for its six ring sends. -/
import proofs.«900719_g7700000000000720_dist_ar_v7x_xyz2x2x4_z_m256_n256_f32_1_alg».proof.Proof.Mesh
import proofs.«900719_g7700000000000720_dist_ar_v7x_xyz2x2x4_z_m256_n256_f32_1_alg».proof.Proof.Gen.KernelIdeal.Skeleton
import proofs.«900719_g7700000000000720_dist_ar_v7x_xyz2x2x4_z_m256_n256_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 6`) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The views -/

abbrev xM : Memref sig .tc .vmem S256x256 .f32 := Memref.whole cc0_stg0_0
abbrev oM : Memref sig .tc .vmem S256x256 .f32 := Memref.whole cc0_stg1_0
abbrev zM : Memref sig .tc .vmem S2x3x32x256 .f32 := Memref.whole cc0_scratch0

/-- The 32 rows of half `h` of device `c`'s quarter, as a rectangle of the 256 × 256 arrays. -/
abbrev rowRect (c : Dev nD) (h : Fin 2) : Rect S256x256 :=
  Rect.unit (s := S256x256) (k0_off1 c (BitVec.ofNat 32 (32 * h.val))) S32x256.size (k0_off1_inb c h)
/-- The same rows through the offsets the kernel computes for its loads and stores. -/
abbrev rowRect2 (c : Dev nD) (h : Fin 2) : Rect S256x256 :=
  Rect.unit (s := S256x256) (k0_off2 c (BitVec.ofNat 32 (32 * h.val))) S32x256.size (k0_off2_inb c h)

/-- Half `h` of `c`'s quarter of the staged `x`; of the staged result. The view is of whichever device's buffer it is read at. -/
abbrev xRow (c : Dev nD) (h : Fin 2) : Memref sig .tc .vmem S32x256 .f32 := xM.slice (rowRect c h) (fun _ => rfl)
abbrev oRow (c : Dev nD) (h : Fin 2) : Memref sig .tc .vmem S32x256 .f32 := oM.slice (rowRect c h) (fun _ => rfl)

theorem slot_inb (h : Fin 2) (kk : Fin 3) : ∀ a, (![h.val, kk.val, 0, 0] : Fin 4 → Nat) a + S1x1x32x256.size a ≤ S2x3x32x256.size a := by
  have := h.isLt; have := kk.isLt
  intro a; fin_cases a <;> simp <;> omega

/-- Slot `(h, kk)` of the landing buffer as the loads read it: a 1 × 1 × 32 × 256 rectangle. -/
abbrev slotRect (h : Fin 2) (kk : Fin 3) : Rect S2x3x32x256 :=
  Rect.unit (s := S2x3x32x256) ![h.val, kk.val, 0, 0] S1x1x32x256.size (slot_inb h kk)

/-- Slot `(h, kk)` of the landing buffer as the transfers write it: 32 × 256. -/
abbrev zSlot (h : Fin 2) (kk : Fin 3) : Memref sig .tc .vmem S32x256 .f32 :=
  (zM.slice (slotRect h kk) (fun _ => rfl)).squeeze S32x256 squeezes_S1x1x32x256_S32x256

/-! ## The semaphore cells -/

/-- The runtime's barrier semaphore of collective id 0. -/
abbrev barS : Sem sig := (SemArray.scalar (sig.barrier 0 rfl) : Sems sig S_).sem
/-- The kernel's twenty-four DMA semaphores: ring sends 0–5, ring receives 6–11, plane sends 12–17, plane receives 18–23,
    each block indexed `3 h + kk`. -/
def dsem (j : Fin 24) : DmaSem sig := ⟨j.val + 2, by have := j.isLt; show j.val + 2 < 26; omega⟩
/-- The index of the semaphore of class `cls` (0 ring send, 1 ring receive, 2 plane send, 3 plane receive), half `h`, lane `kk`. -/
def dix (cls : Fin 4) (h : Fin 2) (kk : Fin 3) : Fin 24 :=
  ⟨6 * cls.val + 3 * h.val + kk.val, by have := cls.isLt; have := h.isLt; have := kk.isLt; omega⟩

abbrev barCell (c : Dev nD) : GSem nD τ sig := ((c : Thread nD τ), .reg barS)
abbrev dCell (c : Dev nD) (j : Fin 24) : GSem nD τ sig := ((c : Thread nD τ), .dma (dsem j))

/-- The kernel's own (scoped) semaphores, as the launch theorem indexes them. -/
abbrev osem : Fin 24 → SemLoc sig := fun j => .dma (dsem j)
/-- All twenty-five of the protocol's: the barrier first. -/
def csem (k : Fin 25) : SemLoc sig := if h : k.val = 0 then .reg barS else .dma (dsem ⟨k.val - 1, by have := k.isLt; omega⟩)
abbrev kcell (ck : Dev nD × Fin 25) : GSem nD τ sig := ((ck.1 : Thread nD τ), csem ck.2)

/-- The units a 32 × 256 block of f32 credits a DMA semaphore. -/
abbrev N : ℕ := (xRow (0 : Dev nD) 0).view.dmaCredit

/-- The class, half and lane of a DMA semaphore index. -/
def jcls (j : Fin 24) : Fin 4 := ⟨j.val / 6, by have := j.isLt; omega⟩
def jh (j : Fin 24) : Fin 2 := ⟨(j.val % 6) / 3, by omega⟩
def jk (j : Fin 24) : Fin 3 := ⟨j.val % 3, by omega⟩

/-! ## Contents -/

/-- The staged `x` of device `c`: its argument array. -/
def xstg (c : Dev nD) : (cc0_stg0_0 : Ref sig .tc).ty.Contents (Elt F) :=
  (win0_0.blk (0 : Fin 1)).view.read (Elt F) ((s₀ m ρ).mem ((c : Thread nD τ).loc main_arg0))

/-- The device that sends into slot `kk` of `c`'s landing buffer: `kk + 1` steps back round the ring. -/
def zsrc (c : Dev nD) (kk : Fin 3) : Dev nD := zs c (3 - kk.val)

/-- What lands in slot `(h, kk)` of `c`'s landing buffer: half `h` of its sender's quarter of `x` (the same rows as `c`'s own). -/
def zval (c : Dev nD) (h : Fin 2) (kk : Fin 3) : S32x256.Idx → Elt F .f32 :=
  (xRow (zsrc c kk) h).view.read (Elt F) (xstg m ρ (zsrc c kk))

/-- One slot of the landing buffer rewritten. -/
def zput (c : Dev nD) (h : Fin 2) (kk : Fin 3) (f : (cc0_scratch0 : Ref sig .tc).ty.Contents (Elt F)) :
    (cc0_scratch0 : Ref sig .tc).ty.Contents (Elt F) :=
  (zSlot h kk).view.write (Elt F) f (zval m ρ c h kk) Finset.univ

/-- The landing buffer of `c` once all six transfers into it have landed. -/
def ZV (c : Dev nD) : (cc0_scratch0 : Ref sig .tc).ty.Contents (Elt F) :=
  zput m ρ c 1 2 (zput m ρ c 1 1 (zput m ρ c 1 0 (zput m ρ c 0 2 (zput m ρ c 0 1 (zput m ρ c 0 0 (fun _ => Classical.arbitrary _))))))

/-- Half `h` of the sum device `c` stores: its own rows of `x` plus its three landed slots, as the kernel adds them. -/
def sumv (c : Dev nD) : Fin 2 → FVec F S32x256 .f32
  | ⟨0, _⟩ => k0_pay2 (k0_pay1
      (xM.view.readAt (Elt F) (rowRect2 c 0).toLoadRect (xstg m ρ c))
      (zM.view.readAt (Elt F) (slotRect 0 0).toLoadRect (ZV m ρ c))
      (zM.view.readAt (Elt F) (slotRect 0 1).toLoadRect (ZV m ρ c)))
      (zM.view.readAt (Elt F) (slotRect 0 2).toLoadRect (ZV m ρ c))
  | ⟨_ + 1, _⟩ => k0_pay3
      (xM.view.readAt (Elt F) (rowRect2 c 1).toLoadRect (xstg m ρ c))
      (zM.view.readAt (Elt F) (slotRect 1 0).toLoadRect (ZV m ρ c))
      (zM.view.readAt (Elt F) (slotRect 1 1).toLoadRect (ZV m ρ c))
      (zM.view.readAt (Elt F) (slotRect 1 2).toLoadRect (ZV m ρ c))

/-- The four devices of `c`'s plane: itself, then its three neighbours. -/
def pl (c : Dev nD) (j : Fin 4) : Dev nD := if h : j.val = 0 then c else xp c ⟨j.val - 1, by have := j.isLt; omega⟩

/-- One half-quarter of the result rewritten with the sum of the device that reduces it. -/
def oput (e : Dev nD) (h : Fin 2) (f : (cc0_stg1_0 : Ref sig .tc).ty.Contents (Elt F)) :
    (cc0_stg1_0 : Ref sig .tc).ty.Contents (Elt F) :=
  (oRow e h).view.write (Elt F) f (sumv m ρ e h) Finset.univ

/-- The staged result of `c` at exit: every half-quarter at the sum of the device of `c`'s plane that reduces it. -/
def OUTV (c : Dev nD) : (cc0_stg1_0 : Ref sig .tc).ty.Contents (Elt F) :=
  oput m ρ (pl c 3) 1 (oput m ρ (pl c 3) 0 (oput m ρ (pl c 2) 1 (oput m ρ (pl c 2) 0
    (oput m ρ (pl c 1) 1 (oput m ρ (pl c 1) 0 (oput m ρ (pl c 0) 1 (oput m ρ (pl c 0) 0 (fun _ => Classical.arbitrary _))))))))

/-! ## Shares -/

/-- The shares of a half-quarter of `x` lent to its three ring sends (`kk = 0, 1, 2`); the fourth quarter stays for the load. -/
def zshare : Fin 3 → PosShare TreeShare
  | 0 => fullShare.left.left
  | 1 => fullShare.left.right
  | 2 => fullShare.right.left
def keepShare : PosShare TreeShare := fullShare.right.right
/-- The shares of a half-quarter of the result lent to its three plane sends. -/
def xyshare : Fin 3 → PosShare TreeShare
  | 0 => fullShare.left
  | 1 => fullShare.right.left
  | 2 => fullShare.right.right

/-! ## The schedule -/

/-- The barrier duty a ring neighbour pays (`dd < 3`), a plane neighbour pays (`3 + i`); a lane reversed. -/
def lo6 (dd : Fin 3) : Fin 6 := ⟨dd.val, by omega⟩
def hi6 (i : Fin 3) : Fin 6 := ⟨i.val + 3, by omega⟩
def rev3 (dd : Fin 3) : Fin 3 := ⟨2 - dd.val, by omega⟩

/-- For a barrier duty `dd < 3`: the lane of the two slots it hands over. For `dd ≥ 3`: which plane neighbour pays it. -/
def barKk (dd : Fin 6) : Fin 3 := ⟨2 - dd.val % 3, by omega⟩
def barI (dd : Fin 6) : Fin 3 := ⟨dd.val % 3, by omega⟩

/-- What duty `dd` of `o`'s barrier cell hands `o`: from the ring neighbour `dd + 1` steps back (`dd < 3`), the two slots
    `(·, 2 - dd)` of its landing buffer, which `o` fills; from plane neighbour `dd - 3`, `o`'s quarter of its result. -/
def barPay (o : Dev nD) (dd : Fin 6) : sProp 𝕄 :=
  if dd.val < 3 then
    iprop((∃ f, ((zSlot 0 (barKk dd)).view.loc ((zs o (3 - dd.val) : Dev nD) : Thread nD τ) ↦[(zSlot 0 (barKk dd)).view.set]{fullShare} f))
        ∗ (∃ f, ((zSlot 1 (barKk dd)).view.loc ((zs o (3 - dd.val) : Dev nD) : Thread nD τ) ↦[(zSlot 1 (barKk dd)).view.set]{fullShare} f)))
  else
    iprop((∃ f, ((oRow o 0).view.loc ((xp o (barI dd) : Dev nD) : Thread nD τ) ↦[(oRow o 0).view.set]{fullShare} f))
        ∗ (∃ f, ((oRow o 1).view.loc ((xp o (barI dd) : Dev nD) : Thread nD τ) ↦[(oRow o 1).view.set]{fullShare} f)))

/-- What the one duty of `o`'s DMA cell `j` hands `o`: a ring send, its share of the source rows back; a ring receive, the
    slot at what landed; a plane send, its share of the result rows back; a plane receive, the neighbour's rows of `o`'s result. -/
def dmaPay (o : Dev nD) (j : Fin 24) : sProp 𝕄 :=
  match jcls j with
  | 0 => ((xRow o (jh j)).view.loc (o : Thread nD τ) ↦[(xRow o (jh j)).view.set]{zshare (jk j)} xstg m ρ o)
  | 1 => ((zSlot (jh j) (jk j)).view.loc (o : Thread nD τ) ↦[(zSlot (jh j) (jk j)).view.set]{fullShare} ZV m ρ o)
  | 2 => ((oRow o (jh j)).view.loc (o : Thread nD τ) ↦[(oRow o (jh j)).view.set]{xyshare (jk j)} OUTV m ρ o)
  | 3 => ((oRow (xp o (jk j)) (jh j)).view.loc (o : Thread nD τ) ↦[(oRow (xp o (jk j)) (jh j)).view.set]{fullShare} OUTV m ρ o)

/-- One round, round 0. A barrier cell: six duties of one unit. A DMA cell of the kernel's: one duty, duty 0, of a block's credit. -/
def sched : Rounds.Schedule (GSem nD τ sig) (Fin 6) 𝕄 where
  duties g r :=
    if r = 0 ∧ g.1.2 = .tc then
      (match g.2 with
        | .reg _ => Finset.univ
        | .dma s => if 2 ≤ s.val then {0} else ∅)
    else ∅
  unitless _ := False
  amount g _ _ := match g.2 with | .reg _ => 1 | .dma _ => N
  payload g _ d :=
    match g.2 with
    | .reg _ => barPay g.1.1 d
    | .dma s => if h : 2 ≤ s.val then dmaPay m ρ g.1.1 ⟨s.val - 2, by have := s.isLt; have : sig.nDmaSem = 26 := rfl; omega⟩ else iprop(emp)
  amount_pos g _ _ _ := by
    cases g.2 with
    | reg _ => exact Nat.one_pos
    | dma _ => exact View.dmaCredit_pos _ (by decide)

/-! ## What each device owes at launch, in the order it pays -/

/-- Device `c`'s eighteen dues in program order: six barrier units, six ring receive credits, six plane receive credits. -/
def dues (c : Dev nD) : List (GSem nD τ sig × ℕ) :=
  [ (barCell (zs c 1), 1), (barCell (zs c 2), 1), (barCell (zs c 3), 1),
    (barCell (xp c 0), 1), (barCell (xp c 1), 1), (barCell (xp c 2), 1),
    (dCell (zs c 3) (dix 1 0 2), N), (dCell (zs c 2) (dix 1 0 1), N), (dCell (zs c 1) (dix 1 0 0), N),
    (dCell (zs c 3) (dix 1 1 2), N), (dCell (zs c 2) (dix 1 1 1), N), (dCell (zs c 1) (dix 1 1 0), N),
    (dCell (xp c 0) (dix 3 0 0), N), (dCell (xp c 1) (dix 3 0 1), N), (dCell (xp c 2) (dix 3 0 2), N),
    (dCell (xp c 0) (dix 3 1 0), N), (dCell (xp c 1) (dix 3 1 1), N), (dCell (xp c 2) (dix 3 1 2), N) ]

/-- The tallies of a list of dues, the FIRST due the outermost summand: paying it peels it off by `rfl`. -/
def owedOf : List (GSem nD τ sig × ℕ) → CellTallies nD τ sig Unit
  | [] => 0
  | d :: ds => owedOf ds + tallyAt d.1 () d.2

/-- What `c` still owes after its first `n` payments. -/
def owedFrom (c : Dev nD) (n : ℕ) : CellTallies nD τ sig Unit := owedOf ((dues c).drop n)
def O₀ (c : Dev nD) : CellTallies nD τ sig Unit := owedFrom c 0

def L (g : GSem nD τ sig) : Finset Unit := if g.1.2 = .tc then {()} else ∅
/-- Barrier cells at 1, ring receive cells at 2, plane receive cells at 3, everything else (staging, sends) at 0. -/
def lv (g : GSem nD τ sig) (_ : Unit) : ℕ :=
  match g.2 with
  | .reg _ => 1
  | .dma s => if 8 ≤ s.val ∧ s.val < 14 then 2 else if 20 ≤ s.val then 3 else 0

/-! ## The ghost state a device's body starts from -/

/-- The invariants of all the protocol's cells, under the names `K` the launch allocated them at, and that every cell has
    reached round 0: both persistent, and the same for every device. -/
def records (K : Dev nD × Fin 25 → ℕ) : sProp 𝕄 :=
  iprop((bigSep Finset.univ fun ck : Dev nD × Fin 25 => cellInv ER (sched m ρ) (K ck) (kcell ck))
    ∗ bigSep Finset.univ fun ck : Dev nD × Fin 25 => reached ER (kcell ck) 0)

/-- The duty tokens device `c` pays with: its six barrier duties on its neighbours' cells, the one duty of each of its
    own twelve send cells, of its ring neighbours' six receive cells it fills and of its plane neighbours' six. -/
def payToks (c : Dev nD) : sProp 𝕄 :=
  iprop((bigSep Finset.univ fun dd : Fin 3 => dutyTok ER (barCell (zs c (dd.val + 1))) 0 (lo6 dd))
    ∗ (bigSep Finset.univ fun i : Fin 3 => dutyTok ER (barCell (xp c i)) 0 (hi6 i))
    ∗ (bigSep Finset.univ fun hk : Fin 2 × Fin 3 => dutyTok ER (dCell c (dix 0 hk.1 hk.2)) 0 (0 : Fin 6))
    ∗ (bigSep Finset.univ fun hk : Fin 2 × Fin 3 => dutyTok ER (dCell (zs c (hk.2.val + 1)) (dix 1 hk.1 hk.2)) 0 (0 : Fin 6))
    ∗ (bigSep Finset.univ fun hk : Fin 2 × Fin 3 => dutyTok ER (dCell c (dix 2 hk.1 hk.2)) 0 (0 : Fin 6))
    ∗ (bigSep Finset.univ fun hk : Fin 2 × Fin 3 => dutyTok ER (dCell (xp c hk.2) (dix 3 hk.1 hk.2)) 0 (0 : Fin 6)))

/-- What stays with device `c`: its positions at round 0 of its twenty-five cells, and the tokens of the duties it pays. -/
def linear (c : Dev nD) : sProp 𝕄 :=
  iprop((bigSep Finset.univ fun k : Fin 25 => atPos ER (kcell (c, k)) 0 ∅ 0) ∗ payToks c)

def ghost (K : Dev nD × Fin 25 → ℕ) (c : Dev nD) : sProp 𝕄 := iprop(records m ρ K ∗ linear c)

/-- The credit the launch deals `c` for the cells others pay: six barrier units and a block's credit on each receive cell. -/
def creds (c : Dev nD) : sProp 𝕄 :=
  iprop(cred (tallyAt (barCell c) () 6)
    ∗ (bigSep Finset.univ fun hk : Fin 2 × Fin 3 => cred (tallyAt (dCell c (dix 1 hk.1 hk.2)) () N))
    ∗ (bigSep Finset.univ fun hk : Fin 2 × Fin 3 => cred (tallyAt (dCell c (dix 3 hk.1 hk.2)) () N)))

/-- What device `c`'s body starts from: the ghost state at some names, its credit and the level facts. -/
def start (c : Dev nD) : sProp 𝕄 :=
  iprop((∃ K, ghost m ρ K c) ∗ creds c ∗ levAts L lv)

def Φ₀ (c : Dev nD) : sProp 𝕄 :=
  iprop(start m ρ c ∗ ∃ f : Buf (Elt F) ((c : Thread nD τ).loc cc0_scratch0), (((c : Thread nD τ).loc cc0_scratch0) ↦{fullShare} f))
/-- After the point: the landing buffer at what landed, the twenty-four own semaphores at zero. -/
def Φ₁ (c : Dev nD) : sProp 𝕄 :=
  iprop((((c : Thread nD τ).loc cc0_scratch0) ↦{fullShare} ZV m ρ c) ∗ bigSep Finset.univ fun j : Fin 24 => semVal (dCell c j) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OUTV m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.AR

end
-- ==== Proof.Tables.lean ====
/- The schedule's tables: which duties each cell has, what each is worth, what a round expects, and what each duty
   hands its cell's owner, cell by cell. -/
import proofs.«900719_g7700000000000720_dist_ar_v7x_xyz2x2x4_z_m256_n256_f32_1_alg».proof.Proof.Core

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The index arithmetic: a DMA semaphore's number, and its class, half and lane -/

/-- The kernel's DMA semaphore `j` is the runtime's number `j + 2`. -/
theorem dsem_val (j : Fin 24) : (dsem j).val = j.val + 2 := rfl
theorem two_le_dsem (j : Fin 24) : 2 ≤ (dsem j).val := Nat.le_add_left 2 j.val
/-- Taking the 2 off again gives the index back. -/
theorem dsem_back (j : Fin 24) (hj : (dsem j).val - 2 < 24) : (⟨(dsem j).val - 2, hj⟩ : Fin 24) = j :=
  Fin.ext (show j.val + 2 - 2 = j.val from Nat.add_sub_cancel j.val 2)

/-- The index `6 cls + 3 h + kk` decodes to its class, half and lane. -/
theorem jcls_dix (cls : Fin 4) (h : Fin 2) (kk : Fin 3) : jcls (dix cls h kk) = cls := by
  have := h.isLt; have := kk.isLt
  exact Fin.ext (show (6 * cls.val + 3 * h.val + kk.val) / 6 = cls.val by omega)
theorem jh_dix (cls : Fin 4) (h : Fin 2) (kk : Fin 3) : jh (dix cls h kk) = h := by
  have := h.isLt; have := kk.isLt
  exact Fin.ext (show ((6 * cls.val + 3 * h.val + kk.val) % 6) / 3 = h.val by omega)
theorem jk_dix (cls : Fin 4) (h : Fin 2) (kk : Fin 3) : jk (dix cls h kk) = kk := by
  have := kk.isLt
  exact Fin.ext (show (6 * cls.val + 3 * h.val + kk.val) % 3 = kk.val by omega)

/-- The lanes of the barrier's duties: a ring duty `dd` names lane `2 - dd`, a plane duty `3 + i` names neighbour `i`. -/
theorem barKk_lo6 (dd : Fin 3) : barKk (lo6 dd) = rev3 dd := by
  have := dd.isLt
  exact Fin.ext (show 2 - dd.val % 3 = 2 - dd.val by omega)
theorem barI_hi6 (i : Fin 3) : barI (hi6 i) = i := by
  have := i.isLt
  exact Fin.ext (show (i.val + 3) % 3 = i.val by omega)

/-! ## Every payload can be stored in a cell's invariant -/

instance sched_payload_storable (g : GSem nD τ sig) (r : ℕ) (d : Fin 6) :
    BI.Storable (upEmb : UEmb _ 𝕄) ((sched (F := F) m ρ).payload g r d) := by
  dsimp only [sched]
  unfold barPay dmaPay
  (repeat' split) <;> infer_instance

section Tables
variable (c : Dev nD)

theorem duties_bar : (sched (F := F) m ρ).duties (barCell c) 0 = Finset.univ := by
  dsimp only [sched]; exact if_pos ⟨rfl, rfl⟩
theorem duties_d (j : Fin 24) : (sched (F := F) m ρ).duties (dCell c j) 0 = {0} := by
  dsimp only [sched]; rw [if_pos ⟨rfl, rfl⟩]; exact if_pos (two_le_dsem j)
theorem duties_later (g : GSem nD τ sig) : ∀ r, 1 ≤ r → (sched (F := F) m ρ).duties g r = ∅ :=
  fun r hr => by dsimp only [sched]; exact if_neg fun h => by omega

theorem amount_bar (d : Fin 6) : (sched (F := F) m ρ).amount (barCell c) 0 d = 1 := rfl
theorem amount_d (j : Fin 24) (d : Fin 6) : (sched (F := F) m ρ).amount (dCell c j) 0 d = N := rfl

/-- Six duties of one unit each. -/
theorem expect_bar : (sched (F := F) m ρ).expect (barCell c) 0 = 6 := by
  unfold Schedule.expect Schedule.amountOf
  rw [duties_bar, Finset.sum_congr rfl fun d _ => amount_bar m ρ c d, Finset.sum_const, Finset.card_univ, Fintype.card_fin, smul_eq_mul]
/-- One duty of a block's credit. -/
theorem expect_d (j : Fin 24) : (sched (F := F) m ρ).expect (dCell c j) 0 = N := by
  unfold Schedule.expect Schedule.amountOf; rw [duties_d, Finset.sum_singleton, amount_d]

theorem payload_bar (d : Fin 6) : (sched (F := F) m ρ).payload (barCell c) 0 d = barPay c d := rfl
theorem payload_d (j : Fin 24) (d : Fin 6) : (sched (F := F) m ρ).payload (dCell c j) 0 d = dmaPay m ρ c j := by
  dsimp only [sched]
  rw [dif_pos (two_le_dsem j)]
  exact congrArg (dmaPay m ρ c) (dsem_back j _)

/-- The whole of the barrier cell's round, no duty taken: the six neighbours' payloads. -/
theorem rest_bar : bigSep ((sched (F := F) m ρ).duties (barCell c) 0 \ ∅) (fun d => (sched (F := F) m ρ).payload (barCell c) 0 d)
    = iprop(barPay c 0 ∗ barPay c 1 ∗ barPay c 2 ∗ barPay c 3 ∗ barPay c 4 ∗ barPay c 5) := by
  rw [Finset.sdiff_empty, duties_bar, bigSep_univ_eq_bigSepL [0, 1, 2, 3, 4, 5] (by decide) (by decide),
    bigSepL_cons_cons, bigSepL_cons_cons, bigSepL_cons_cons, bigSepL_cons_cons, bigSepL_cons_cons, bigSepL_singleton,
    payload_bar, payload_bar, payload_bar, payload_bar, payload_bar, payload_bar]
  rfl
theorem rest_d (j : Fin 24) : bigSep ((sched (F := F) m ρ).duties (dCell c j) 0 \ ∅) (fun d => (sched (F := F) m ρ).payload (dCell c j) 0 d)
    = dmaPay m ρ c j := by
  rw [Finset.sdiff_empty, duties_d, bigSep_singleton, payload_d]

/-! ## The payloads spelt out -/

theorem dmaPay_zsend (h : Fin 2) (kk : Fin 3) : dmaPay m ρ c (dix 0 h kk)
    = ((xRow c h).view.loc (c : Thread nD τ) ↦[(xRow c h).view.set]{zshare kk} xstg m ρ c) := by
  unfold dmaPay; rw [jcls_dix, jh_dix, jk_dix]
theorem dmaPay_zrecv (h : Fin 2) (kk : Fin 3) : dmaPay m ρ c (dix 1 h kk)
    = ((zSlot h kk).view.loc (c : Thread nD τ) ↦[(zSlot h kk).view.set]{fullShare} ZV m ρ c) := by
  unfold dmaPay; rw [jcls_dix, jh_dix, jk_dix]
theorem dmaPay_xysend (h : Fin 2) (i : Fin 3) : dmaPay m ρ c (dix 2 h i)
    = ((oRow c h).view.loc (c : Thread nD τ) ↦[(oRow c h).view.set]{xyshare i} OUTV m ρ c) := by
  unfold dmaPay; rw [jcls_dix, jh_dix, jk_dix]
theorem dmaPay_xyrecv (h : Fin 2) (i : Fin 3) : dmaPay m ρ c (dix 3 h i)
    = ((oRow (xp c i) h).view.loc (c : Thread nD τ) ↦[(oRow (xp c i) h).view.set]{fullShare} OUTV m ρ c) := by
  unfold dmaPay; rw [jcls_dix, jh_dix, jk_dix]

/-- Barrier duty `dd < 3`, paid by the ring neighbour `dd + 1` steps back: the two slots of lane `2 - dd` of ITS landing buffer. -/
theorem barPay_z (dd : Fin 3) : barPay (F := F) c (lo6 dd)
    = iprop((∃ f, ((zSlot 0 (rev3 dd)).view.loc ((zs c (3 - dd.val) : Dev nD) : Thread nD τ) ↦[(zSlot 0 (rev3 dd)).view.set]{fullShare} f))
        ∗ (∃ f, ((zSlot 1 (rev3 dd)).view.loc ((zs c (3 - dd.val) : Dev nD) : Thread nD τ) ↦[(zSlot 1 (rev3 dd)).view.set]{fullShare} f))) := by
  unfold barPay
  rw [if_pos (show (lo6 dd).val < 3 from dd.isLt), barKk_lo6]
  rfl
/-- Barrier duty `3 + i`, paid by plane neighbour `i`: `c`'s quarter of the neighbour's staged result. -/
theorem barPay_xy (i : Fin 3) : barPay (F := F) c (hi6 i)
    = iprop((∃ f, ((oRow c 0).view.loc ((xp c i : Dev nD) : Thread nD τ) ↦[(oRow c 0).view.set]{fullShare} f))
        ∗ (∃ f, ((oRow c 1).view.loc ((xp c i : Dev nD) : Thread nD τ) ↦[(oRow c 1).view.set]{fullShare} f))) := by
  unfold barPay
  rw [if_neg (show ¬ (hi6 i).val < 3 from Nat.not_lt.mpr (Nat.le_add_left 3 i.val)), barI_hi6]

end Tables

/-- info: 'Cert.KernelIdeal.AR.rest_bar' depends on axioms: [propext, Classical.choice, Quot.sound] -/
#guard_msgs in #print axioms rest_bar
/-- info: 'Cert.KernelIdeal.AR.sched_payload_storable' depends on axioms: [propext, Classical.choice, Quot.sound] -/
#guard_msgs in #print axioms sched_payload_storable

end Cert.KernelIdeal.AR

end
-- ==== Proof.Owes.lean ====
/- What a device owes after each of its eighteen payments, the levels that order its waits below what it then owes, and
   the credit the launch deals it for the cells its neighbours pay. -/
import proofs.«900719_g7700000000000720_dist_ar_v7x_xyz2x2x4_z_m256_n256_f32_1_alg».proof.Proof.Core

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cells carry a level -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

/-- Every cell of a TensorCore carries a level at its one index. -/
theorem mem_L {g : GSem nD τ sig} (h : g.1.2 = .tc) (u : Unit) : u ∈ L g := by
  unfold L; rw [if_pos h]; exact Finset.mem_singleton.mpr rfl

/-! ## The dues, one by one -/

omit [FloatOps F] in
/-- Paying the next due peels it off what is owed. -/
theorem owedFrom_succ (c : Dev nD) (n : Fin 18) :
    owedFrom c n.val = owedFrom c (n.val + 1) + tallyAt ((dues c).get ⟨n.val, by simp [dues]⟩).1 () ((dues c).get ⟨n.val, by simp [dues]⟩).2 := by
  fin_cases n <;> rfl
omit [FloatOps F] in
theorem owedFrom_18 (c : Dev nD) : owedFrom c 18 = 0 := rfl

theorem dues_length (c : Dev nD) : (dues c).length = 18 := rfl

/-- A list of dues is owed only at the cells it names. -/
theorem owedOf_pos {l : List (GSem nD τ sig × ℕ)} {g : GSem nD τ sig} {u : Unit} (h : 0 < owedOf l g u) : ∃ d ∈ l, g = d.1 := by
  induction l with
  | nil => exact absurd h (Nat.lt_irrefl 0)
  | cons d ds ih =>
    rcases Pipeline.add_pos_cases (D₁ := owedOf ds) (D₂ := tallyAt d.1 () d.2) h with h | h
    · obtain ⟨e, he, rfl⟩ := ih h; exact ⟨e, List.mem_cons_of_mem _ he, rfl⟩
    · exact ⟨d, List.mem_cons_self, (Pipeline.tallyAt_pos h).1⟩

/-- The `i`-th due names a cell of a TensorCore: at level 1 the six barrier dues, at level 2 the six ring receive dues
    (semaphores 8 to 13), at level 3 the six plane receive dues (semaphores 20 to 25). -/
theorem dues_lv (c : Dev nD) (i : Fin 18) (u : Unit) :
    ((dues c)[i.val]'(by rw [dues_length]; exact i.isLt)).1.1.2 = .tc
      ∧ lv ((dues c)[i.val]'(by rw [dues_length]; exact i.isLt)).1 u = i.val / 6 + 1 := by
  fin_cases i <;> exact ⟨rfl, rfl⟩

/-- What is still owed after `n` payments is owed to TensorCore cells, at level `n / 6 + 1` or above: the dues are paid
    in the order of their levels. -/
theorem owedFrom_pos (c : Dev nD) (n : ℕ) {g : GSem nD τ sig} {u : Unit} (h : 0 < owedFrom c n g u) :
    g.1.2 = .tc ∧ n / 6 + 1 ≤ lv g u := by
  obtain ⟨d, hd, rfl⟩ := owedOf_pos h
  obtain ⟨i, hi, rfl⟩ := List.mem_drop_iff_getElem.mp hd
  have hi' : n + i < 18 := by rw [dues_length] at hi; omega
  have key := dues_lv c ⟨n + i, hi'⟩ u
  refine ⟨key.1, ?_⟩
  rw [key.2]
  show n / 6 + 1 ≤ (n + i) / 6 + 1
  omega

/-! ## The waits' evidence -/

omit [FloatOps F] in
/-- The pipeline's staging cells sit below everything a device ever owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L := L) (lev := lv) (mem_L rfl ()) fun g i hg => ?_
    have key := owedFrom_pos c 0 hg
    refine ⟨mem_L key.1 i, ?_⟩
    have h0 : lv ((c : Thread nD τ), SemLoc.dma q) () = 0 := by
      show (if 8 ≤ q.val ∧ q.val < 14 then 2 else if 20 ≤ q.val then 3 else 0) = 0
      rw [if_neg (by omega), if_neg (by omega)]
    rw [h0]; have := key.2; omega
  · rw [MayWait_zero]; iintro -; iempintro
omit [FloatOps F] in
/-- At its barrier wait a device owes receive credits only: above its barrier cell. -/
theorem mayWait_bar (c : Dev nD) : (levAts L lv : sProp 𝕄) ⊢ MayWait (c : Thread nD τ) (.reg barS) () (owedFrom c 6) := by
  refine Pipeline.mayWait_of_levAts (L := L) (lev := lv) (mem_L rfl ()) fun g i hg => ?_
  have key := owedFrom_pos c 6 hg
  refine ⟨mem_L key.1 i, ?_⟩
  show 1 < lv g i
  have := key.2; omega
omit [FloatOps F] in
/-- At a ring receive wait a device owes plane receive credits only: above its ring receive cells. -/
theorem mayWait_zrecv (c : Dev nD) (h : Fin 2) (kk : Fin 3) (n : ℕ) (hn : 12 ≤ n) :
    (levAts L lv : sProp 𝕄) ⊢ MayWait (c : Thread nD τ) (.dma (dsem (dix 1 h kk))) () (owedFrom c n) := by
  refine Pipeline.mayWait_of_levAts (L := L) (lev := lv) (mem_L rfl ()) fun g i hg => ?_
  have key := owedFrom_pos c n hg
  refine ⟨mem_L key.1 i, ?_⟩
  have h2 : lv ((c : Thread nD τ), SemLoc.dma (dsem (dix 1 h kk))) () = 2 := by
    fin_cases h <;> fin_cases kk <;> rfl
  rw [h2]; have := key.2; omega

/-! ## The launch credit

Each of a device's eighteen dues names the same semaphore of a device that is a permutation of the payer (a step round
the ring, a flip in the plane), so summed over the payers each due credits every device's own semaphore once. -/

omit [FloatOps F] in
/-- A due to the device `k` steps on round the ring credits `c` from the device `k'` steps on, `k + k'` a full turn. -/
theorem cred_zs (sm : SemLoc sig) (k k' : ℕ) (h1 : ∀ c : Dev nD, zs (zs c k') k = c) (h2 : ∀ d : Dev nD, zs (zs d k) k' = d) (n : ℕ) (c : Dev nD) :
    (Pipeline.launchCred (fun d : Dev nD => (tallyAt (((zs d k : Dev nD) : Thread nD τ), sm) () n : CellTallies nD τ sig Unit)) c : sProp 𝕄)
      ⊢ cred (tallyAt ((c : Thread nD τ), sm) () n) :=
  Pipeline.launchCred_tallyAt sm (fun d => zs d k) (fun d => zs d k') h1 h2 () n c

omit [FloatOps F] in
/-- A due to the `i`-th plane neighbour credits `c` from its own `i`-th plane neighbour. -/
theorem cred_xp (sm : SemLoc sig) (i : Fin 3) (n : ℕ) (c : Dev nD) :
    (Pipeline.launchCred (fun d : Dev nD => (tallyAt (((xp d i : Dev nD) : Thread nD τ), sm) () n : CellTallies nD τ sig Unit)) c : sProp 𝕄)
      ⊢ cred (tallyAt ((c : Thread nD τ), sm) () n) :=
  Pipeline.launchCred_tallyAt sm (fun d => xp d i) (fun d => xp d i) (fun d => xp_xp d i) (fun d => xp_xp d i) () n c

omit [FloatOps F] in
/-- The launch credit under the eighteen dues is the eighteen launch credits under one due each. -/
theorem launchCred_split (c : Dev nD) :
    (Pipeline.launchCred O₀ c : sProp 𝕄) =
      iprop((((((((((((((((((Pipeline.launchCred (fun _ : Dev nD => (0 : CellTallies nD τ sig Unit)) c
        ∗ Pipeline.launchCred (fun d : Dev nD => (tallyAt (dCell (xp d 2) (dix 3 1 2)) () N : CellTallies nD τ sig Unit)) c)
        ∗ Pipeline.launchCred (fun d : Dev nD => (tallyAt (dCell (xp d 1) (dix 3 1 1)) () N : CellTallies nD τ sig Unit)) c)
        ∗ Pipeline.launchCred (fun d : Dev nD => (tallyAt (dCell (xp d 0) (dix 3 1 0)) () N : CellTallies nD τ sig Unit)) c)
        ∗ Pipeline.launchCred (fun d : Dev nD => (tallyAt (dCell (xp d 2) (dix 3 0 2)) () N : CellTallies nD τ sig Unit)) c)
        ∗ Pipeline.launchCred (fun d : Dev nD => (tallyAt (dCell (xp d 1) (dix 3 0 1)) () N : CellTallies nD τ sig Unit)) c)
        ∗ Pipeline.launchCred (fun d : Dev nD => (tallyAt (dCell (xp d 0) (dix 3 0 0)) () N : CellTallies nD τ sig Unit)) c)
        ∗ Pipeline.launchCred (fun d : Dev nD => (tallyAt (dCell (zs d 1) (dix 1 1 0)) () N : CellTallies nD τ sig Unit)) c)
        ∗ Pipeline.launchCred (fun d : Dev nD => (tallyAt (dCell (zs d 2) (dix 1 1 1)) () N : CellTallies nD τ sig Unit)) c)
        ∗ Pipeline.launchCred (fun d : Dev nD => (tallyAt (dCell (zs d 3) (dix 1 1 2)) () N : CellTallies nD τ sig Unit)) c)
        ∗ Pipeline.launchCred (fun d : Dev nD => (tallyAt (dCell (zs d 1) (dix 1 0 0)) () N : CellTallies nD τ sig Unit)) c)
        ∗ Pipeline.launchCred (fun d : Dev nD => (tallyAt (dCell (zs d 2) (dix 1 0 1)) () N : CellTallies nD τ sig Unit)) c)
        ∗ Pipeline.launchCred (fun d : Dev nD => (tallyAt (dCell (zs d 3) (dix 1 0 2)) () N : CellTallies nD τ sig Unit)) c)
        ∗ Pipeline.launchCred (fun d : Dev nD => (tallyAt (barCell (xp d 2)) () 1 : CellTallies nD τ sig Unit)) c)
        ∗ Pipeline.launchCred (fun d : Dev nD => (tallyAt (barCell (xp d 1)) () 1 : CellTallies nD τ sig Unit)) c)
        ∗ Pipeline.launchCred (fun d : Dev nD => (tallyAt (barCell (xp d 0)) () 1 : CellTallies nD τ sig Unit)) c)
        ∗ Pipeline.launchCred (fun d : Dev nD => (tallyAt (barCell (zs d 3)) () 1 : CellTallies nD τ sig Unit)) c)
        ∗ Pipeline.launchCred (fun d : Dev nD => (tallyAt (barCell (zs d 2)) () 1 : CellTallies nD τ sig Unit)) c)
        ∗ Pipeline.launchCred (fun d : Dev nD => (tallyAt (barCell (zs d 1)) () 1 : CellTallies nD τ sig Unit)) c) := by
  rw [← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add]
  rfl

omit [FloatOps F] in
/-- Six units on one cell are one credit of six. -/
theorem cred_six (g : GSem nD τ sig) :
    iprop(cred (tallyAt g () 1) ∗ cred (tallyAt g () 1) ∗ cred (tallyAt g () 1) ∗ cred (tallyAt g () 1) ∗ cred (tallyAt g () 1) ∗ cred (tallyAt g () 1))
      ⊢ (cred (tallyAt g () 6) : sProp 𝕄) := by
  rw [show (tallyAt g () 6 : CellTallies nD τ sig Unit)
      = tallyAt g () 1 + (tallyAt g () 1 + (tallyAt g () 1 + (tallyAt g () 1 + (tallyAt g () 1 + tallyAt g () 1)))) from by
    rw [tallyAt_add, tallyAt_add, tallyAt_add, tallyAt_add, tallyAt_add]]
  exact (sep_mono_right <| (sep_mono_right <| (sep_mono_right <| (sep_mono_right (cred_add _ _).2).trans (cred_add _ _).2).trans
    (cred_add _ _).2).trans (cred_add _ _).2).trans (cred_add _ _).2

omit [FloatOps F] in
/-- The six (half, lane) pairs, listed. -/
theorem bigSep_six (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

omit [FloatOps F] in
/-- The launch credit: what the sixteen devices together owe each of `c`'s cells. -/
theorem creds_intro (c : Dev nD) : (Pipeline.launchCred O₀ c : sProp 𝕄) ⊢ creds c := by
  rw [launchCred_split (F := F) c]
  unfold creds
  rw [bigSep_six, bigSep_six]
  iintro ⟨⟨⟨⟨⟨⟨⟨⟨⟨⟨⟨⟨⟨⟨⟨⟨⟨⟨-, P12⟩, P11⟩, P10⟩, P02⟩, P01⟩, P00⟩, Z10⟩, Z11⟩, Z12⟩, Z00⟩, Z01⟩, Z02⟩, B5⟩, B4⟩, B3⟩, B2⟩, B1⟩, B0⟩
  ihave B0' := (cred_zs (F := F) (.reg barS) 1 3 (fun c => zs_back c 1) (fun d => zs_zs d 1) 1 c) $$ B0
  ihave B1' := (cred_zs (F := F) (.reg barS) 2 2 (fun c => zs_back c 2) (fun d => zs_zs d 2) 1 c) $$ B1
  ihave B2' := (cred_zs (F := F) (.reg barS) 3 1 (fun c => zs_back c 3) (fun d => zs_zs d 3) 1 c) $$ B2
  ihave B3' := (cred_xp (F := F) (.reg barS) 0 1 c) $$ B3
  ihave B4' := (cred_xp (F := F) (.reg barS) 1 1 c) $$ B4
  ihave B5' := (cred_xp (F := F) (.reg barS) 2 1 c) $$ B5
  ihave Z02' := (cred_zs (F := F) (.dma (dsem (dix 1 0 2))) 3 1 (fun c => zs_back c 3) (fun d => zs_zs d 3) N c) $$ Z02
  ihave Z01' := (cred_zs (F := F) (.dma (dsem (dix 1 0 1))) 2 2 (fun c => zs_back c 2) (fun d => zs_zs d 2) N c) $$ Z01
  ihave Z00' := (cred_zs (F := F) (.dma (dsem (dix 1 0 0))) 1 3 (fun c => zs_back c 1) (fun d => zs_zs d 1) N c) $$ Z00
  ihave Z12' := (cred_zs (F := F) (.dma (dsem (dix 1 1 2))) 3 1 (fun c => zs_back c 3) (fun d => zs_zs d 3) N c) $$ Z12
  ihave Z11' := (cred_zs (F := F) (.dma (dsem (dix 1 1 1))) 2 2 (fun c => zs_back c 2) (fun d => zs_zs d 2) N c) $$ Z11
  ihave Z10' := (cred_zs (F := F) (.dma (dsem (dix 1 1 0))) 1 3 (fun c => zs_back c 1) (fun d => zs_zs d 1) N c) $$ Z10
  ihave P00' := (cred_xp (F := F) (.dma (dsem (dix 3 0 0))) 0 N c) $$ P00
  ihave P01' := (cred_xp (F := F) (.dma (dsem (dix 3 0 1))) 1 N c) $$ P01
  ihave P02' := (cred_xp (F := F) (.dma (dsem (dix 3 0 2))) 2 N c) $$ P02
  ihave P10' := (cred_xp (F := F) (.dma (dsem (dix 3 1 0))) 0 N c) $$ P10
  ihave P11' := (cred_xp (F := F) (.dma (dsem (dix 3 1 1))) 1 N c) $$ P11
  ihave P12' := (cred_xp (F := F) (.dma (dsem (dix 3 1 2))) 2 N c) $$ P12
  isplitl [B0' B1' B2' B3' B4' B5']
  · iapply (cred_six (F := F) (barCell c))
    isplitl [B0']; · iexact B0'
    isplitl [B1']; · iexact B1'
    isplitl [B2']; · iexact B2'
    isplitl [B3']; · iexact B3'
    isplitl [B4']; · iexact B4'
    iexact B5'
  isplitl [Z00' Z01' Z02' Z10' Z11' Z12']
  ·
    isplitl [Z00']; · iexact Z00'
    isplitl [Z01']; · iexact Z01'
    isplitl [Z02']; · iexact Z02'
    isplitl [Z10']; · iexact Z10'
    isplitl [Z11']; · iexact Z11'
    iexact Z12'
  ·
    isplitl [P00']; · iexact P00'
    isplitl [P01']; · iexact P01'
    isplitl [P02']; · iexact P02'
    isplitl [P10']; · iexact P10'
    isplitl [P11']; · iexact P11'
    iexact P12'

/-- info: 'Cert.KernelIdeal.AR.creds_intro' depends on axioms: [propext, Classical.choice, Quot.sound] -/
#guard_msgs in #print axioms creds_intro
/-- info: 'Cert.KernelIdeal.AR.mayWait_zrecv' depends on axioms: [propext, Classical.choice, Quot.sound] -/
#guard_msgs in #print axioms mayWait_zrecv

end Cert.KernelIdeal.AR

end
-- ==== Proof.Regions.lean ====
/- The three staged buffers of a device cut into the parts the protocol hands round: the result into the eight half-quarters
   of the device's plane, the landing buffer into its six slots, `x` into the two halves of the device's own quarter and
   the rest; a part's full share into the shares lent to its transfers; and the footprints of the kernel's loads and its
   store inside those parts. -/
import proofs.«900719_g7700000000000720_dist_ar_v7x_xyz2x2x4_z_m256_n256_f32_1_alg».proof.Proof.Core
import Idealize.ShloMosaic.Rules.PointsTo
import Idealize.ShloMosaic.Lib.Pipeline.Value

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The element sets of the views, and membership in them -/

/-- A half-quarter of either 256 × 256 buffer is its rectangle of rows; a slot of the landing buffer, re-indexed as
    32 × 256, keeps the elements of its 1 × 1 × 32 × 256 rectangle. -/
theorem xRow_set (c : Dev nD) (h : Fin 2) : (xRow c h).view.set = (rowRect c h).set := View.set_slice_whole _ _
theorem oRow_set (c : Dev nD) (h : Fin 2) : (oRow c h).view.set = (rowRect c h).set := View.set_slice_whole _ _
theorem zSlot_set (h : Fin 2) (kk : Fin 3) : (zSlot h kk).view.set = (slotRect h kk).set :=
  (View.set_reshape _ _).trans (View.set_slice_whole _ _)

/-- An index lies in half `h` of `c`'s quarter exactly when its row lies in the 32 rows from `qo c + 32 h`:
    the column axis is kept whole. -/
theorem mem_rowRect (c : Dev nD) (h : Fin 2) (i : S256x256.Idx) :
    i ∈ (rowRect c h).set ↔ qo c + 32 * h.val ≤ (i 0).val ∧ (i 0).val < qo c + 32 * h.val + 32 := by
  rw [Rect.mem_set_unit, off1_eq_qo, Fin.forall_fin_two]
  have h1 : (i 1).val < 256 := (i 1).isLt
  simp only [Matrix.cons_val_zero, Matrix.cons_val_one]
  omega

/-- The two spellings of the row offsets give one rectangle of elements. -/
theorem mem_rowRect2 (c : Dev nD) (h : Fin 2) (i : S256x256.Idx) :
    i ∈ (rowRect2 c h).set ↔ i ∈ (rowRect c h).set := by
  rw [Rect.mem_set_unit, Rect.mem_set_unit, off1_eq_off2]

theorem rowRect2_set (c : Dev nD) (h : Fin 2) : (rowRect2 c h).set = (rowRect c h).set := by
  ext i; exact mem_rowRect2 c h i

/-- An index lies in slot `(h, kk)` exactly when its first two coordinates are `h` and `kk`: the last two axes are kept whole. -/
theorem mem_slotRect (h : Fin 2) (kk : Fin 3) (i : S2x3x32x256.Idx) :
    i ∈ (slotRect h kk).set ↔ (i 0).val = h.val ∧ (i 1).val = kk.val := by
  rw [Rect.mem_set_unit]
  have h2 : (i 2).val < 32 := (i 2).isLt
  have h3 : (i 3).val < 256 := (i 3).isLt
  simp [Fin.forall_fin_succ]
  omega

/-! ## The four quarters of a plane

The first rows of the quarters of the four devices of a plane are multiples of 64, pairwise different, and are all of
0, 64, 128, 192: decided over the sixteen devices. -/

theorem qo_pl_mod (c : Dev nD) : ∀ j : Fin 4, qo (pl c j) % 64 = 0 := by revert c; decide
theorem qo_pl_inj (c : Dev nD) : ∀ j j' : Fin 4, qo (pl c j) = qo (pl c j') → j = j' := by revert c; decide
theorem qo_pl_surj (c : Dev nD) : ∀ p : Fin 4, ∃ j : Fin 4, qo (pl c j) = 64 * p.val := by revert c; decide

/-! ## Disjointness -/

omit [FloatOps F] in
/-- Two different slots of the landing buffer share no element. -/
theorem zSlot_disj (h h' : Fin 2) (kk kk' : Fin 3) (hne : (h, kk) ≠ (h', kk')) :
    Disjoint (zSlot h kk).view.set (zSlot h' kk').view.set := by
  rw [zSlot_set, zSlot_set, Finset.disjoint_left]
  intro i h1 h2
  rw [mem_slotRect] at h1 h2
  have e1 : h = h' := Fin.ext (by omega)
  have e2 : kk = kk' := Fin.ext (by omega)
  exact hne (by rw [e1, e2])

omit [FloatOps F] in
/-- Two different half-quarters of one plane share no row. -/
theorem oRow_disj (c : Dev nD) (j j' : Fin 4) (h h' : Fin 2) (hne : (j, h) ≠ (j', h')) :
    Disjoint (oRow (pl c j) h).view.set (oRow (pl c j') h').view.set := by
  rw [oRow_set, oRow_set, Finset.disjoint_left]
  intro i h1 h2
  rw [mem_rowRect] at h1 h2
  have m1 := qo_pl_mod c j
  have m2 := qo_pl_mod c j'
  -- two multiples of 64 whose blocks of 32 or 64 rows meet are equal
  have e : qo (pl c j) = qo (pl c j') := by omega
  have ej := qo_pl_inj c j j' e
  have eh : h = h' := Fin.ext (by omega)
  exact hne (by rw [ej, eh])

/-! ## The covers -/

/-- The rows of half-quarter `jh` of `c`'s plane, as elements of `c`'s staged result. -/
def oPart (c : Dev nD) (jh : Fin 4 × Fin 2) : Finset (Idx ((c : Thread nD τ).loc cc0_stg1_0)) := (oRow (pl c jh.1) jh.2).view.set
/-- Slot `hk`, as elements of `c`'s landing buffer. -/
def zPart (c : Dev nD) (hk : Fin 2 × Fin 3) : Finset (Idx ((c : Thread nD τ).loc cc0_scratch0)) := (zSlot hk.1 hk.2).view.set

/-- Row `r` lies in the quarter starting at `64 (r / 64)`, which some device of the plane reduces, in its half `r % 64 / 32`. -/
theorem out_cover (c : Dev nD) : (Finset.univ : Finset (Fin 4 × Fin 2)).biUnion (oPart c) = Finset.univ := by
  unfold oPart
  ext i
  simp only [Finset.mem_biUnion, Finset.mem_univ, true_and, iff_true]
  have h0 : (i 0).val < 256 := (i 0).isLt
  obtain ⟨j, hj⟩ := qo_pl_surj c ⟨(i 0).val / 64, by omega⟩
  refine ⟨(j, ⟨((i 0).val % 64) / 32, by omega⟩), ?_⟩
  rw [oRow_set]
  refine (mem_rowRect _ _ _).mpr ?_
  simp only at hj ⊢
  omega

/-- An index of the landing buffer lies in the slot its first two coordinates name. -/
theorem z_cover (c : Dev nD) : (Finset.univ : Finset (Fin 2 × Fin 3)).biUnion (zPart c) = Finset.univ := by
  unfold zPart
  ext i
  simp only [Finset.mem_biUnion, Finset.mem_univ, true_and, iff_true]
  refine ⟨(⟨(i 0).val, (i 0).isLt⟩, ⟨(i 1).val, (i 1).isLt⟩), ?_⟩
  rw [zSlot_set]
  exact (mem_slotRect _ _ _).mpr ⟨rfl, rfl⟩

/-- The two halves of a device's own quarter share no row. -/
theorem xRow_disj (c : Dev nD) : Disjoint (xRow c 0).view.set (xRow c 1).view.set := by
  rw [xRow_set, xRow_set, Finset.disjoint_left]
  intro i h1 h2
  rw [mem_rowRect] at h1 h2
  simp only [Fin.val_zero, Fin.val_one] at h1 h2
  omega

/-! ## The buffers cut and rejoined -/

omit [FloatOps F] in
/-- The staged result is the eight half-quarters of the device's plane. -/
theorem out_split (c : Dev nD) (f : Buf (Elt F) ((c : Thread nD τ).loc cc0_stg1_0)) :
    ((((c : Thread nD τ).loc cc0_stg1_0) ↦{fullShare} f : sProp 𝕄)) ⊣⊢
      bigSep (Finset.univ : Finset (Fin 4 × Fin 2)) fun jh =>
        ((oRow (pl c jh.1) jh.2).view.loc (c : Thread nD τ) ↦[(oRow (pl c jh.1) jh.2).view.set]{fullShare} f) := by
  refine BiEntails.of_eq ?_
  rw [← out_cover c]
  exact pointsTo_biUnion Finset.univ (oPart c) fun t _ t' _ hne => oRow_disj c t.1 t'.1 t.2 t'.2 hne

omit [FloatOps F] in
/-- The landing buffer is its six slots. -/
theorem z_split (c : Dev nD) (f : Buf (Elt F) ((c : Thread nD τ).loc cc0_scratch0)) :
    ((((c : Thread nD τ).loc cc0_scratch0) ↦{fullShare} f : sProp 𝕄)) ⊣⊢
      bigSep (Finset.univ : Finset (Fin 2 × Fin 3)) fun hk =>
        ((zSlot hk.1 hk.2).view.loc (c : Thread nD τ) ↦[(zSlot hk.1 hk.2).view.set]{fullShare} f) := by
  refine BiEntails.of_eq ?_
  rw [← z_cover c]
  exact pointsTo_biUnion Finset.univ (zPart c) fun t _ t' _ hne => zSlot_disj t.1 t'.1 t.2 t'.2 hne

/-- The rows of the staged `x` outside the device's own quarter. -/
def xRest (c : Dev nD) : Finset (Idx ((c : Thread nD τ).loc cc0_stg0_0)) :=
  (Finset.univ \ (xRow c 0).view.set) \ (xRow c 1).view.set

omit [FloatOps F] in
/-- The staged `x` is the two halves of the device's quarter and the rest. -/
theorem x_split (c : Dev nD) (f : Buf (Elt F) ((c : Thread nD τ).loc cc0_stg0_0)) :
    ((((c : Thread nD τ).loc cc0_stg0_0) ↦{fullShare} f : sProp 𝕄)) ⊣⊢
      iprop(((xRow c 0).view.loc (c : Thread nD τ) ↦[(xRow c 0).view.set]{fullShare} f)
        ∗ ((xRow c 1).view.loc (c : Thread nD τ) ↦[(xRow c 1).view.set]{fullShare} f)
        ∗ (((c : Thread nD τ).loc cc0_stg0_0) ↦[xRest c]{fullShare} f)) := by
  have hsub : ((xRow c 1).view.set : Finset (Idx ((c : Thread nD τ).loc cc0_stg0_0))) ⊆ Finset.univ \ (xRow c 0).view.set := by
    intro i hi
    exact Finset.mem_sdiff.mpr ⟨Finset.mem_univ _, fun h0 => Finset.disjoint_left.mp (xRow_disj c) h0 hi⟩
  exact (pointsTo_split_subset (Finset.subset_univ _)).trans (sep_congr_right (pointsTo_split_subset hsub))

omit [FloatOps F] in
/-- A full share is the three shares lent to the ring sends and the share kept for the load. -/
theorem share4 {ℓ : Loc nD τ sig} (I : Finset (Idx ℓ)) (f : Buf (Elt F) ℓ) :
    (ℓ ↦[I]{fullShare} f : sProp 𝕄) ⊣⊢
      iprop((ℓ ↦[I]{zshare 0} f) ∗ (ℓ ↦[I]{zshare 1} f) ∗ (ℓ ↦[I]{zshare 2} f) ∗ (ℓ ↦[I]{keepShare} f)) := by
  refine (pointsTo_share (PosShare.mem_left_op_right fullShare)).trans ?_
  refine (sep_congr (pointsTo_share (PosShare.mem_left_op_right fullShare.left))
    (pointsTo_share (PosShare.mem_left_op_right fullShare.right))).trans ?_
  exact sep_assoc

omit [FloatOps F] in
/-- A full share is the three shares lent to the plane sends. -/
theorem share3 {ℓ : Loc nD τ sig} (I : Finset (Idx ℓ)) (f : Buf (Elt F) ℓ) :
    (ℓ ↦[I]{fullShare} f : sProp 𝕄) ⊣⊢
      iprop((ℓ ↦[I]{xyshare 0} f) ∗ (ℓ ↦[I]{xyshare 1} f) ∗ (ℓ ↦[I]{xyshare 2} f)) := by
  refine (pointsTo_share (PosShare.mem_left_op_right fullShare)).trans ?_
  exact sep_congr_right (pointsTo_share (PosShare.mem_left_op_right fullShare.right))

/-! ## The loads' and the store's footprints -/

omit [FloatOps F] in
theorem xload_sub (c : Dev nD) (h : Fin 2) : xM.view.setOn (rowRect2 c h).toLoadRect.set ⊆ (xRow c h).view.set := by
  rw [xRow_set, ← rowRect2_set]
  intro i hi
  obtain ⟨x, hx, rfl⟩ := Finset.mem_map.mp hi
  exact hx
omit [FloatOps F] in
theorem oload_sub (c : Dev nD) (h : Fin 2) : oM.view.setOn (rowRect2 c h).toLoadRect.set ⊆ (oRow c h).view.set := by
  rw [oRow_set, ← rowRect2_set]
  intro i hi
  obtain ⟨x, hx, rfl⟩ := Finset.mem_map.mp hi
  exact hx
omit [FloatOps F] in
theorem zload_sub (h : Fin 2) (kk : Fin 3) : zM.view.setOn (slotRect h kk).toLoadRect.set ⊆ (zSlot h kk).view.set := by
  rw [zSlot_set]
  intro i hi
  obtain ⟨x, hx, rfl⟩ := Finset.mem_map.mp hi
  exact hx
omit [FloatOps F] in
theorem ostore_sub (c : Dev nD) (h : Fin 2) : (oM.access (rowRect2 c h)).setOn Finset.univ ⊆ (oRow c h).view.set := by
  rw [oRow_set, ← rowRect2_set]
  exact subset_of_eq (View.set_slice_whole _ _)

/-- info: 'Cert.KernelIdeal.AR.out_split' depends on axioms: [propext, Classical.choice, Quot.sound] -/
#guard_msgs in #print axioms out_split
/-- info: 'Cert.KernelIdeal.AR.z_split' depends on axioms: [propext, Classical.choice, Quot.sound] -/
#guard_msgs in #print axioms z_split

end Cert.KernelIdeal.AR

end
-- ==== Proof.Landing.lean ====
/- What lands where. A transfer writes its destination view from its source's contents; on the destination's elements the
   result is the named final contents of the buffer, whatever the buffer held before: a ring transfer's slot of the
   landing buffer, a plane transfer's half-quarter of the neighbour's result, and the kernel's own store of its sum. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Regions
import Idealize.ShloMosaic.Lib.Pipeline.Value

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Writing through a view at one of its own elements -/

/-- A write through a view on its whole index set does not depend, at an element under the view, on what the buffer held before. -/
theorem write_univ_base {Val : EltTy → Type} {κ : Kind} {sp : Space} {s : Shape} {e : EltTy} (v : View sig κ sp s e)
    (f g : v.ty.Contents Val) (w : s.Idx → Val e) {i : v.ty.Idx} (hi : i ∈ v.set) :
    v.write Val f w Finset.univ i = v.write Val g w Finset.univ i := by
  obtain ⟨x, rfl⟩ := View.exists_emb_of_mem_set v hi
  rw [View.write_emb_of_mem f w (Finset.mem_univ x), View.write_emb_of_mem g w (Finset.mem_univ x)]

/-- Writes through unit-stride rectangles of the same sizes at equal offsets are the same write. -/
theorem write_slice_unit_congr {Val : EltTy → Type} {κ : Kind} {sp : Space} {s : Shape} {e : EltTy} (v : View sig κ sp s e)
    {off off' size : Fin s.rank → Nat} (h : off = off') (p : ∀ a, off a + size a ≤ s.size a)
    (p' : ∀ a, off' a + size a ≤ s.size a) (f : v.ty.Contents Val) (w : (Rect.unit off size p).shape.Idx → Val e)
    (M : Finset (Rect.unit off size p).shape.Idx) :
    (v.slice (Rect.unit off size p)).write Val f w M = (v.slice (Rect.unit off' size p')).write Val f w M := by
  subst h; rfl

/-! ## One slot, one half-quarter rewritten -/

/-- Rewriting another slot leaves a slot's elements alone. -/
theorem zput_other (c : Dev nD) (h h' : Fin 2) (kk kk' : Fin 3) (hne : (h, kk) ≠ (h', kk'))
    (f : (cc0_scratch0 : Ref sig .tc).ty.Contents (Elt F)) {i : (cc0_scratch0 : Ref sig .tc).ty.Idx}
    (hi : i ∈ (zSlot h kk).view.set) : zput m ρ c h' kk' f i = f i :=
  View.write_of_not_mem _ _ _ (Finset.disjoint_left.mp (zSlot_disj h h' kk kk' hne) hi)

/-- Rewriting a slot gives, on its elements, the same over any two buffers. -/
theorem zput_self (c : Dev nD) (h : Fin 2) (kk : Fin 3) (f g : (cc0_scratch0 : Ref sig .tc).ty.Contents (Elt F))
    {i : (cc0_scratch0 : Ref sig .tc).ty.Idx} (hi : i ∈ (zSlot h kk).view.set) :
    zput m ρ c h kk f i = (zSlot h kk).view.write (Elt F) g (zval m ρ c h kk) Finset.univ i :=
  write_univ_base (zSlot h kk).view f g (zval m ρ c h kk) hi

/-- Rewriting another half-quarter of the plane leaves a half-quarter's elements alone. -/
theorem oput_other (c : Dev nD) (j j' : Fin 4) (h h' : Fin 2) (hne : (j, h) ≠ (j', h'))
    (f : (cc0_stg1_0 : Ref sig .tc).ty.Contents (Elt F)) {i : (cc0_stg1_0 : Ref sig .tc).ty.Idx}
    (hi : i ∈ (oRow (pl c j) h).view.set) : oput m ρ (pl c j') h' f i = f i :=
  View.write_of_not_mem _ _ _ (Finset.disjoint_left.mp (oRow_disj c j j' h h' hne) hi)

/-- Rewriting a half-quarter gives, on its elements, the same over any two buffers. -/
theorem oput_self (e : Dev nD) (h : Fin 2) (f g : (cc0_stg1_0 : Ref sig .tc).ty.Contents (Elt F))
    {i : (cc0_stg1_0 : Ref sig .tc).ty.Idx} (hi : i ∈ (oRow e h).view.set) :
    oput m ρ e h f i = (oRow e h).view.write (Elt F) g (sumv m ρ e h) Finset.univ i :=
  write_univ_base (oRow e h).view f g (sumv m ρ e h) hi

/-- The final landing buffer on the elements of slot `(h, kk)`: that slot written, over anything. -/
theorem ZV_at (c : Dev nD) (h : Fin 2) (kk : Fin 3) (g : (cc0_scratch0 : Ref sig .tc).ty.Contents (Elt F)) :
    ∀ i ∈ (zSlot h kk).view.set, ZV m ρ c i = (zSlot h kk).view.write (Elt F) g (zval m ρ c h kk) Finset.univ i := by
  intro i hi
  unfold ZV
  fin_cases h <;> fin_cases kk
  · rw [zput_other m ρ c 0 1 0 2 (by decide) _ hi, zput_other m ρ c 0 1 0 1 (by decide) _ hi,
      zput_other m ρ c 0 1 0 0 (by decide) _ hi, zput_other m ρ c 0 0 0 2 (by decide) _ hi,
      zput_other m ρ c 0 0 0 1 (by decide) _ hi]
    exact zput_self m ρ c 0 0 _ g hi
  · rw [zput_other m ρ c 0 1 1 2 (by decide) _ hi, zput_other m ρ c 0 1 1 1 (by decide) _ hi,
      zput_other m ρ c 0 1 1 0 (by decide) _ hi, zput_other m ρ c 0 0 1 2 (by decide) _ hi]
    exact zput_self m ρ c 0 1 _ g hi
  · rw [zput_other m ρ c 0 1 2 2 (by decide) _ hi, zput_other m ρ c 0 1 2 1 (by decide) _ hi,
      zput_other m ρ c 0 1 2 0 (by decide) _ hi]
    exact zput_self m ρ c 0 2 _ g hi
  · rw [zput_other m ρ c 1 1 0 2 (by decide) _ hi, zput_other m ρ c 1 1 0 1 (by decide) _ hi]
    exact zput_self m ρ c 1 0 _ g hi
  · rw [zput_other m ρ c 1 1 1 2 (by decide) _ hi]
    exact zput_self m ρ c 1 1 _ g hi
  · exact zput_self m ρ c 1 2 _ g hi

/-- The final staged result on the elements of the half-quarter of plane device `j`: that device's sum written, over anything. -/
theorem OUTV_at (c : Dev nD) (j : Fin 4) (h : Fin 2) (g : (cc0_stg1_0 : Ref sig .tc).ty.Contents (Elt F)) :
    ∀ i ∈ (oRow (pl c j) h).view.set, OUTV m ρ c i = (oRow (pl c j) h).view.write (Elt F) g (sumv m ρ (pl c j) h) Finset.univ i := by
  intro i hi
  unfold OUTV
  fin_cases j <;> fin_cases h
  · rw [oput_other m ρ c 0 3 0 1 (by decide) _ hi,
      oput_other m ρ c 0 3 0 0 (by decide) _ hi,
      oput_other m ρ c 0 2 0 1 (by decide) _ hi,
      oput_other m ρ c 0 2 0 0 (by decide) _ hi,
      oput_other m ρ c 0 1 0 1 (by decide) _ hi,
      oput_other m ρ c 0 1 0 0 (by decide) _ hi,
      oput_other m ρ c 0 0 0 1 (by decide) _ hi]
    exact oput_self m ρ (pl c 0) 0 _ g hi
  · rw [oput_other m ρ c 0 3 1 1 (by decide) _ hi,
      oput_other m ρ c 0 3 1 0 (by decide) _ hi,
      oput_other m ρ c 0 2 1 1 (by decide) _ hi,
      oput_other m ρ c 0 2 1 0 (by decide) _ hi,
      oput_other m ρ c 0 1 1 1 (by decide) _ hi,
      oput_other m ρ c 0 1 1 0 (by decide) _ hi]
    exact oput_self m ρ (pl c 0) 1 _ g hi
  · rw [oput_other m ρ c 1 3 0 1 (by decide) _ hi,
      oput_other m ρ c 1 3 0 0 (by decide) _ hi,
      oput_other m ρ c 1 2 0 1 (by decide) _ hi,
      oput_other m ρ c 1 2 0 0 (by decide) _ hi,
      oput_other m ρ c 1 1 0 1 (by decide) _ hi]
    exact oput_self m ρ (pl c 1) 0 _ g hi
  · rw [oput_other m ρ c 1 3 1 1 (by decide) _ hi,
      oput_other m ρ c 1 3 1 0 (by decide) _ hi,
      oput_other m ρ c 1 2 1 1 (by decide) _ hi,
      oput_other m ρ c 1 2 1 0 (by decide) _ hi]
    exact oput_self m ρ (pl c 1) 1 _ g hi
  · rw [oput_other m ρ c 2 3 0 1 (by decide) _ hi,
      oput_other m ρ c 2 3 0 0 (by decide) _ hi,
      oput_other m ρ c 2 2 0 1 (by decide) _ hi]
    exact oput_self m ρ (pl c 2) 0 _ g hi
  · rw [oput_other m ρ c 2 3 1 1 (by decide) _ hi,
      oput_other m ρ c 2 3 1 0 (by decide) _ hi]
    exact oput_self m ρ (pl c 2) 1 _ g hi
  · rw [oput_other m ρ c 3 3 0 1 (by decide) _ hi]
    exact oput_self m ρ (pl c 3) 0 _ g hi
  · exact oput_self m ρ (pl c 3) 1 _ g hi

/-- The final staged result on the device's own half-quarter: its own sum written, over anything. -/
theorem OUTV_own (c : Dev nD) (h : Fin 2) (g : (cc0_stg1_0 : Ref sig .tc).ty.Contents (Elt F)) :
    ∀ i ∈ (oRow c h).view.set, OUTV m ρ c i = (oRow c h).view.write (Elt F) g (sumv m ρ c h) Finset.univ i :=
  OUTV_at m ρ c 0 h g

/-- The sender into slot `kk` of the device `kk + 1` steps on from `c` is `c` itself. -/
theorem zsrc_zs (c : Dev nD) : ∀ kk : Fin 3, zsrc (zs c (kk.val + 1)) kk = c := by revert c; decide

/-- Seen from plane neighbour `i3` of `c`, the device `c` is its own plane neighbour `i3`. -/
theorem pl_xp (c : Dev nD) : ∀ i3 : Fin 3, pl (xp c i3) ⟨i3.val + 1, by omega⟩ = c := by revert c; decide

/-- A ring transfer from `c`, lane `kk` (to the device `kk + 1` steps on), lands that device's final slot. -/
theorem zland (c : Dev nD) (h : Fin 2) (kk : Fin 3)
    (fd : Buf (Elt F) ((zSlot h kk).view.loc ((zs c (kk.val + 1) : Dev nD) : Thread nD τ))) :
    ∀ i ∈ (zSlot h kk).view.set,
      (zSlot h kk).view.write (Elt F) fd ((xRow c h).view.read (Elt F) (xstg m ρ c)) Finset.univ i = ZV m ρ (zs c (kk.val + 1)) i := by
  intro i hi
  have hv : zval m ρ (zs c (kk.val + 1)) h kk = (xRow c h).view.read (Elt F) (xstg m ρ c) := by
    unfold zval; rw [zsrc_zs c kk]
  rw [ZV_at m ρ (zs c (kk.val + 1)) h kk fd i hi, hv]

/-- The kernel's store of its sum leaves its half-quarter at the final contents. -/
theorem ostore_eq (c : Dev nD) (h : Fin 2) (f : Buf (Elt F) ((c : Thread nD τ).loc cc0_stg1_0)) :
    ∀ i ∈ (oRow c h).view.set, (oM.access (rowRect2 c h)).write (Elt F) f (sumv m ρ c h) Finset.univ i = OUTV m ρ c i := by
  intro i hi
  have e := write_slice_unit_congr (Val := Elt F) oM.view (off1_eq_off2 c h).symm (k0_off2_inb c h) (k0_off1_inb c h)
    f (sumv m ρ c h) Finset.univ
  exact (congrFun e i).trans (OUTV_own m ρ c h f i hi).symm

/-- A plane transfer from `c` to neighbour `i3`, its source at the final contents on `c`'s half-quarter, lands the
    neighbour's final contents there. -/
theorem oland (c : Dev nD) (h : Fin 2) (i3 : Fin 3)
    (fd : Buf (Elt F) ((oRow c h).view.loc ((xp c i3 : Dev nD) : Thread nD τ)))
    (fs : Buf (Elt F) ((oRow c h).view.loc (c : Thread nD τ)))
    (hfs : ∀ i ∈ (oRow c h).view.set, fs i = OUTV m ρ c i) :
    ∀ i ∈ (oRow c h).view.set,
      (oRow c h).view.write (Elt F) fd ((oRow c h).view.read (Elt F) fs) Finset.univ i = OUTV m ρ (xp c i3) i := by
  intro i hi
  have hr : (oRow c h).view.read (Elt F) fs = sumv m ρ c h :=
    (View.read_congr hfs).trans ((View.read_congr (OUTV_own m ρ c h fs)).trans (View.read_write_univ (v := (oRow c h).view) (Val := Elt F) fs (sumv m ρ c h)))
  have h1 := OUTV_at m ρ (xp c i3) ⟨i3.val + 1, by omega⟩ h fd
  rw [pl_xp c i3] at h1
  rw [h1 i hi, hr]

/-- What the kernel's loads read: its own rows of `x` and its landed slots are the arguments of its sum. -/
theorem sumv_zero (c : Dev nD) : sumv m ρ c 0 = k0_pay2 (k0_pay1
      (xM.view.readAt (Elt F) (rowRect2 c 0).toLoadRect (xstg m ρ c))
      (zM.view.readAt (Elt F) (slotRect 0 0).toLoadRect (ZV m ρ c))
      (zM.view.readAt (Elt F) (slotRect 0 1).toLoadRect (ZV m ρ c)))
      (zM.view.readAt (Elt F) (slotRect 0 2).toLoadRect (ZV m ρ c)) := rfl
theorem sumv_one (c : Dev nD) : sumv m ρ c 1 = k0_pay3
      (xM.view.readAt (Elt F) (rowRect2 c 1).toLoadRect (xstg m ρ c))
      (zM.view.readAt (Elt F) (slotRect 1 0).toLoadRect (ZV m ρ c))
      (zM.view.readAt (Elt F) (slotRect 1 1).toLoadRect (ZV m ρ c))
      (zM.view.readAt (Elt F) (slotRect 1 2).toLoadRect (ZV m ρ c)) := rfl

/-- info: 'Cert.KernelIdeal.AR.zland' depends on axioms: [propext, Classical.choice, Quot.sound] -/
#guard_msgs in #print axioms zland

/-- info: 'Cert.KernelIdeal.AR.oland' depends on axioms: [propext, Classical.choice, Quot.sound] -/
#guard_msgs in #print axioms oland

/-- info: 'Cert.KernelIdeal.AR.ostore_eq' depends on axioms: [propext, Classical.choice, Quot.sound] -/
#guard_msgs in #print axioms ostore_eq

end Cert.KernelIdeal.AR

end
-- ==== Proof.Glue.lean ====
/- Finite conjunctions over the protocol's index sets written out member by member. -/
import proofs.«900719_g7700000000000720_dist_ar_v7x_xyz2x2x4_z_m256_n256_f32_1_alg».proof.Proof.Core

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) :=
  bigSep_univ_eq_bigSepL ([0, 1, 2] : List (Fin 3)) (by decide) (by decide) Φ
omit [FloatOps F] in
/-- The four classes of DMA cell, one by one. -/
theorem bigSep_cls4 (Φ : Fin 4 → sProp 𝕄) : bigSep Finset.univ Φ = iprop(Φ 0 ∗ Φ 1 ∗ Φ 2 ∗ Φ 3) :=
  bigSep_univ_eq_bigSepL ([0, 1, 2, 3] : List (Fin 4)) (by decide) (by decide) Φ
omit [FloatOps F] in
theorem bigSep_hk (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL ([(0, 0), (0, 1), (0, 2), (1, 0), (1, 1), (1, 2)] : List (Fin 2 × Fin 3)) (by decide) (by decide) Φ
omit [FloatOps F] in
theorem bigSep_jh (Φ : Fin 4 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL ([(0, 0), (0, 1), (1, 0), (1, 1), (2, 0), (2, 1), (3, 0), (3, 1)] : List (Fin 4 × Fin 2)) (by decide) (by decide) Φ
omit [FloatOps F] in
/-- The twenty-five cells of a device: the barrier cell and the twenty-four DMA cells. -/
theorem bigSep_fin25_split (Φ : Fin 25 → sProp 𝕄) :
    bigSep Finset.univ Φ = iprop(Φ 0 ∗ bigSep Finset.univ fun j : Fin 24 => Φ j.succ) := by
  have h0 : (0 : Fin 25) ∉ (Finset.univ : Finset (Fin 24)).map ⟨Fin.succ, Fin.succ_injective _⟩ := fun h => by
    obtain ⟨j, -, hj⟩ := Finset.mem_map.mp h
    exact Fin.succ_ne_zero j hj
  rw [Fin.univ_succ 24, Finset.cons_eq_insert, bigSep_insert h0, bigSep_map]
  rfl

/-- A DMA semaphore index is its class, half and lane, and back: `6 cls + 3 h + kk`. -/
def dixEquiv : Fin 4 × (Fin 2 × Fin 3) ≃ Fin 24 where
  toFun p := dix p.1 p.2.1 p.2.2
  invFun j := (jcls j, (jh j, jk j))
  left_inv := fun p => by revert p; decide
  right_inv := fun j => by revert j; decide

omit [FloatOps F] in
/-- The twenty-four DMA cells by class: ring sends, ring receives, plane sends, plane receives. -/
theorem bigSep_fin24_cls (Φ : Fin 24 → sProp 𝕄) :
    bigSep Finset.univ Φ = iprop((bigSep Finset.univ fun hk : Fin 2 × Fin 3 => Φ (dix 0 hk.1 hk.2))
      ∗ (bigSep Finset.univ fun hk : Fin 2 × Fin 3 => Φ (dix 1 hk.1 hk.2))
      ∗ (bigSep Finset.univ fun hk : Fin 2 × Fin 3 => Φ (dix 2 hk.1 hk.2))
      ∗ (bigSep Finset.univ fun hk : Fin 2 × Fin 3 => Φ (dix 3 hk.1 hk.2))) :=
  (bigSep_univ_equiv dixEquiv Φ).trans
    ((bigSep_univ_prod fun p : Fin 4 × (Fin 2 × Fin 3) => Φ (dixEquiv p)).trans
      (bigSep_cls4 fun a : Fin 4 => bigSep Finset.univ fun hk : Fin 2 × Fin 3 => Φ (dixEquiv (a, hk))))

omit [FloatOps F] in
theorem pl_zero (c : Dev nD) : pl c 0 = c := rfl
omit [FloatOps F] in
theorem pl_one (c : Dev nD) : pl c 1 = xp c 0 := rfl
omit [FloatOps F] in
theorem pl_two (c : Dev nD) : pl c 2 = xp c 1 := rfl
omit [FloatOps F] in
theorem pl_three (c : Dev nD) : pl c 3 = xp c 2 := rfl

/-- info: 'Cert.KernelIdeal.AR.bigSep_fin24_cls' depends on axioms: [propext, Classical.choice, Quot.sound] -/
#guard_msgs in #print axioms bigSep_fin24_cls
/-- info: 'Cert.KernelIdeal.AR.bigSep_fin25_split' depends on axioms: [propext, Classical.choice, Quot.sound] -/
#guard_msgs in #print axioms bigSep_fin25_split

end Cert.KernelIdeal.AR

end
-- ==== Proof.Steps.lean ====
/- The rules of the rounds discipline at this protocol's cells: one signal to a neighbour's barrier cell, one wait for the
   rest of a round of one of the device's own cells, one addressed transfer between two cells, one cell closed — each
   taking the cells' invariants out of the launch's records. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Tables
import proofs.«900719_g7700000000000720_dist_ar_v7x_xyz2x2x4_z_m256_n256_f32_1_alg».proof.Proof.Owes

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

omit [FloatOps F] in
theorem kcell_bar (t : Dev nD) : kcell (t, (0 : Fin 25)) = barCell t := rfl
omit [FloatOps F] in
theorem kcell_d (t : Dev nD) (j : Fin 24) : kcell (t, j.succ) = dCell t j := by
  show ((t : Thread nD τ), csem j.succ) = ((t : Thread nD τ), SemLoc.dma (dsem j))
  unfold csem
  rw [dif_neg (by simp)]
  exact congrArg (fun s => ((t : Thread nD τ), SemLoc.dma (dsem s))) (Fin.ext (by simp))

theorem inv_bar (t : Dev nD) : records m ρ K ⊢ cellInv ER (sched m ρ) (K (t, 0)) (barCell t) := by
  unfold records
  iintro ⟨HI, -⟩
  iapply (show (bigSep Finset.univ fun ck : Dev nD × Fin 25 => (cellInv ER (sched m ρ) (K ck) (kcell ck) : sProp 𝕄)) ⊢ cellInv ER (sched m ρ) (K (t, (0 : Fin 25))) (kcell (t, (0 : Fin 25))) from bigSep_elim (Finset.mem_univ _))
  iexact HI
theorem inv_d (t : Dev nD) (j : Fin 24) : records m ρ K ⊢ cellInv ER (sched m ρ) (K (t, j.succ)) (dCell t j) := by
  unfold records
  rw [← kcell_d t j]
  iintro ⟨HI, -⟩
  iapply (show (bigSep Finset.univ fun ck : Dev nD × Fin 25 => (cellInv ER (sched m ρ) (K ck) (kcell ck) : sProp 𝕄)) ⊢ cellInv ER (sched m ρ) (K (t, j.succ)) (kcell (t, j.succ)) from bigSep_elim (Finset.mem_univ _))
  iexact HI
theorem reached_bar (t : Dev nD) : records m ρ K ⊢ reached ER (barCell t) 0 := by
  unfold records
  iintro ⟨-, HR⟩
  iapply (show (bigSep Finset.univ fun ck : Dev nD × Fin 25 => (reached ER (kcell ck) 0 : sProp 𝕄)) ⊢ reached ER (kcell (t, (0 : Fin 25))) 0 from bigSep_elim (Finset.mem_univ _))
  iexact HR
theorem reached_d (t : Dev nD) (j : Fin 24) : records m ρ K ⊢ reached ER (dCell t j) 0 := by
  unfold records
  rw [← kcell_d t j]
  iintro ⟨-, HR⟩
  iapply (show (bigSep Finset.univ fun ck : Dev nD × Fin 25 => (reached ER (kcell ck) 0 : sProp 𝕄)) ⊢ reached ER (kcell (t, j.succ)) 0 from bigSep_elim (Finset.mem_univ _))
  iexact HR

instance records_persistent : BI.Persistent (records m ρ K) := by unfold records; infer_instance

section Rules

/-- A signal of one unit to device `t`'s barrier cell, paying its duty `dd`. -/
theorem step_signal {α : Type} {Q : α → sProp 𝕄} (c t : Dev nD) (dd : Fin 6) (O : CellTallies nD τ sig Unit) (W : Waits sig Unit)
    {k : PUnit → Prog (TpuEff nD τ sig (Elt F) Λ₀ .tc) α} (hr : τ.routes (c : Thread nD τ) (t : Thread nD τ) = true) :
    iprop(records m ρ K ∗ owes (c : Thread nD τ) (O + tallyAt (barCell t) () 1) W ∗ dutyTok ER (barCell t) 0 dd ∗ barPay t dd)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS 1) k) Q) := by
  iintro ⟨#HR, HO, Ht, Hp⟩
  iapply (Rounds.wp_signal 𝒱₀ ER (sched m ρ) (c : Thread nD τ) none (dst := (t : Thread nD τ)) (κ := K (t, 0))
      (d := dd) (by rw [duties_bar]; exact Finset.mem_univ _) (amount_bar m ρ t dd) () O rfl (hr := hr)) $$ [HO Ht Hp]
  isplitr; · iapply (inv_bar m ρ K t); iexact HR
  isplitl [HO]; · iexact HO
  isplitl [Ht]; · iexact Ht
  isplitl [Hp]; · rw [payload_bar]; iexact Hp
  iapply (reached_bar m ρ K t); iexact HR

/-- The wait for all six units of the device's own barrier cell. -/
theorem step_waitBar {α : Type} {Q : α → sProp 𝕄} (c : Dev nD) (O : CellTallies nD τ sig Unit) (W : Waits sig Unit)
    {k : PUnit → Prog (TpuEff nD τ sig (Elt F) Λ₀ .tc) α} :
    iprop(records m ρ K ∗ cred (tallyAt (barCell c) () 6) ∗ owes (c : Thread nD τ) O W ∗ MayWait (c : Thread nD τ) (.reg barS) () O
        ∗ atPos ER (barCell c) 0 ∅ 0)
      ⊢ iprop(((owes (c : Thread nD τ) O (insert (SemLoc.reg barS, ()) W) ∗ atPos ER (barCell c) 1 ∅ 0
              ∗ barPay c 0 ∗ barPay c 1 ∗ barPay c 2 ∗ barPay c 3 ∗ barPay c 4 ∗ barPay c 5)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 6) k) Q) := by
  iintro ⟨#HR, Hc, HO, Hm, Hat⟩ Hk
  iapply (Rounds.wp_wait_rest_token 𝒱₀ ER (sched m ρ) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hm Hat]
  · isplitr; · iapply (inv_bar m ρ K c); iexact HR
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  iapply (Entails.of_eq (rest_bar m ρ c)) $$ Hpay

/-- The wait for the one block's credit of the device's own DMA cell `j`. -/
theorem step_waitD {α : Type} {Q : α → sProp 𝕄} (c : Dev nD) (j : Fin 24) (O : CellTallies nD τ sig Unit) (W : Waits sig Unit)
    {sp sp' : Space} {s s' : Shape} {e e' : EltTy}
    {src : Memref sig .tc sp' s' e'} {dst : Memref sig .tc sp s e} {hsrc : src.view.WordExact} {hdst : dst.view.WordExact}
    (hN : dst.view.dmaCredit = N)
    {k : PUnit → Prog (TpuEff nD τ sig (Elt F) Λ₀ .tc) α} :
    iprop(records m ρ K ∗ cred (tallyAt (dCell c j) () N) ∗ owes (c : Thread nD τ) O W ∗ MayWait (c : Thread nD τ) (.dma (dsem j)) () O
        ∗ atPos ER (dCell c j) 0 ∅ 0)
      ⊢ iprop(((owes (c : Thread nD τ) O (insert (SemLoc.dma (dsem j), ()) W) ∗ atPos ER (dCell c j) 1 ∅ 0 ∗ dmaPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem j) src dst hsrc hdst) k) Q) := by
  iintro ⟨#HR, Hc, HO, Hm, Hat⟩ Hk
  iapply (Rounds.wp_wait_rest_token 𝒱₀ ER (sched m ρ) (c : Thread nD τ) none (κ := K (c, j.succ))
      (fun Kk => (wpE_waitDma2_eq 𝒱₀ (c : Thread nD τ) none Set.univ Kk).trans (by rw [hN])) (Set.mem_univ _) () (O := O) (W := W) (R := 0) (m := 0) (T := ∅)
      (by rw [Nat.zero_add, expect_d])) $$ [Hc HO Hm Hat]
  · isplitr; · iapply (inv_d m ρ K c j); iexact HR
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  iapply (Entails.of_eq (rest_d m ρ c j)) $$ Hpay

/-- One of the device's own DMA cells, its one round consumed, closed: its counter at zero is the device's again. -/
theorem step_close (c : Dev nD) (j : Fin 24) :
    iprop(records m ρ K ∗ atPos ER (dCell c j) 1 ∅ 0) ⊢ |={Set.univ}=> (semVal (dCell c j) 0 : sProp 𝕄) := by
  iintro ⟨#HR, Hat⟩
  iapply (Rounds.cell_close ER (sched m ρ) (Set.mem_univ (K (c, j.succ))) (fun h => h) (R := 0 + 1) (duties_later m ρ (dCell c j))) $$ [Hat]
  isplitr; · iapply (inv_d m ρ K c j); iexact HR
  iexact Hat

/-- An addressed transfer from the device's view `src` (held at share `q`) into `dst` on device `t`, completing on `t`'s
    DMA cell `jr` and, for the sender, on its own DMA cell `js`. -/
theorem step_send {α : Type} {Q : α → sProp 𝕄} (c t : Dev nD) (js jr : Fin 24) (O : CellTallies nD τ sig Unit) (W : Waits sig Unit)
    {src dst : Memref sig .tc .vmem S32x256 .f32}
    {hsc : (dst : Memref sig (Dev.tc t : Thread nD τ).2.kind .vmem S32x256 .f32).view.ref.isScScratch = false}
    {hsrc : src.view.WordExact} {hdst : dst.view.WordExact}
    {hsem : DmaTarget.Typed .vmem (.dma (dsem jr)) (.remote (Dev.tc t : Thread nD τ) dst (.dma (dsem js)) hsc)}
    (q : PosShare TreeShare) (fs : Buf (Elt F) (src.view.loc (c : Thread nD τ))) (fd : Buf (Elt F) (dst.view.loc (t : Thread nD τ)))
    (hN : dst.view.dmaCredit = N)
    (hpay₁ : (src.view.loc (c : Thread nD τ) ↦[src.view.set]{q} fs : sProp 𝕄) ⊢ dmaPay m ρ c js)
    (hpay₂ : (dst.view.loc (t : Thread nD τ) ↦[dst.view.set]{fullShare} (dst.view.write (Elt F) fd (src.view.read (Elt F) fs) Finset.univ) : sProp 𝕄)
      ⊢ dmaPay m ρ t jr)
    (hr : τ.routes (c : Thread nD τ) (t : Thread nD τ) = true)
    {k : PUnit → Prog (TpuEff nD τ sig (Elt F) Λ₀ .tc) α} :
    iprop(records m ρ K
        ∗ (src.view.loc (c : Thread nD τ) ↦[src.view.set]{q} fs) ∗ (dst.view.loc (t : Thread nD τ) ↦[dst.view.set]{fullShare} fd)
        ∗ owes (c : Thread nD τ) (O + tallyAt (dCell t jr) () N) W
        ∗ dutyTok ER (dCell c js) 0 (0 : Fin 6) ∗ dutyTok ER (dCell t jr) 0 (0 : Fin 6))
      ⊢ iprop(((cred (tallyAt (dCell c js) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) dst (.dma (dsem js)) hsc) (.dma (dsem jr)) hsrc hdst hsem) k) Q) := by
  iintro ⟨#HR, Hs, Hd, HO, Hts, Htr⟩
  iapply (Rounds.wp_send_pointsTo 𝒱₀ ER (sched m ρ) (c : Thread nD τ) none (c' := (t : Thread nD τ)) (src := src) (dst := dst) (q := q) (fs := fs)
      (κ₁ := K (c, js.succ)) (κ₂ := K (t, jr.succ)) (r₁ := 0) (r₂ := 0) (d₁ := (0 : Fin 6)) (d₂ := (0 : Fin 6)) (fd := fd)
      (by rw [duties_d]; exact Finset.mem_singleton_self _) (by rw [duties_d]; exact Finset.mem_singleton_self _)
      () () N (show dst.view.amount (SemLoc.dma (dsem jr)) = N from hN) (amount_d m ρ c js 0) (amount_d m ρ t jr 0) O rfl (W := W)
      (by rw [payload_d]; exact hpay₁) (by rw [payload_d]; exact hpay₂) (hr := hr)) $$ [Hs Hd HO Hts Htr]
  isplitr; · iapply (inv_d m ρ K c js); iexact HR
  isplitr; · iapply (inv_d m ρ K t jr); iexact HR
  isplitl [Hs]; · iexact Hs
  isplitl [Hd]; · iexact Hd
  isplitl [HO]; · iexact HO
  isplitl [Hts]; · iexact Hts
  isplitr; · iapply (reached_d m ρ K c js); iexact HR
  isplitl [Htr]; · iexact Htr
  iapply (reached_d m ρ K t jr); iexact HR

end Rules

/-- info: 'Cert.KernelIdeal.AR.step_send' depends on axioms: [propext, Classical.choice, Quot.sound] -/
#guard_msgs in #print axioms step_send

end Cert.KernelIdeal.AR

end
-- ==== Proof.Phases.lean ====
/- The pieces of memory and of ghost state the phases of a device's body pass on to one another. The phases: A the six
   barrier signals and the wait for six; B the six ring sends; C, for one half, the three ring receive waits, the loads,
   the sum stored and the three plane sends; D the twelve plane waits and the six ring send waits. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Tables
import proofs.«900719_g7700000000000720_dist_ar_v7x_xyz2x2x4_z_m256_n256_f32_1_alg».proof.Proof.Owes
import proofs.«900719_g7700000000000720_dist_ar_v7x_xyz2x2x4_z_m256_n256_f32_1_alg».proof.Proof.Regions
import proofs.«900719_g7700000000000720_dist_ar_v7x_xyz2x2x4_z_m256_n256_f32_1_alg».proof.Proof.Landing
import proofs.«900719_g7700000000000720_dist_ar_v7x_xyz2x2x4_z_m256_n256_f32_1_alg».proof.Proof.Glue
import proofs.«900719_g7700000000000720_dist_ar_v7x_xyz2x2x4_z_m256_n256_f32_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-! ## The pieces of memory the phases pass on -/

/-- Half `h` of `c`'s own quarter of its staged `x`, at share `q`. -/
abbrev xr (c : Dev nD) (h : Fin 2) (q : PosShare TreeShare) : sProp 𝕄 :=
  ((xRow c h).view.loc (c : Thread nD τ) ↦[(xRow c h).view.set]{q} xstg m ρ c)
/-- Slot `(h, kk)` of device `d`'s landing buffer, at some contents; at its final contents. -/
abbrev zAny (d : Dev nD) (h : Fin 2) (kk : Fin 3) : sProp 𝕄 :=
  iprop(∃ f, ((zSlot h kk).view.loc (d : Thread nD τ) ↦[(zSlot h kk).view.set]{fullShare} f))
abbrev zAt (d : Dev nD) (h : Fin 2) (kk : Fin 3) : sProp 𝕄 :=
  ((zSlot h kk).view.loc (d : Thread nD τ) ↦[(zSlot h kk).view.set]{fullShare} ZV m ρ d)
/-- The rows of half `h` of `e`'s quarter in device `d`'s staged result, at some contents; at `d`'s final contents and share `q`. -/
abbrev oAny (e : Dev nD) (h : Fin 2) (d : Dev nD) : sProp 𝕄 :=
  iprop(∃ f, ((oRow e h).view.loc (d : Thread nD τ) ↦[(oRow e h).view.set]{fullShare} f))
abbrev oAt (e : Dev nD) (h : Fin 2) (d : Dev nD) (q : PosShare TreeShare) : sProp 𝕄 :=
  ((oRow e h).view.loc (d : Thread nD τ) ↦[(oRow e h).view.set]{q} OUTV m ρ d)

/-- The token of the one duty of device `d`'s DMA cell `j`; the device's position at round `r` of its own cell `j`; a block's credit on it. -/
abbrev tokD (d : Dev nD) (j : Fin 24) : sProp 𝕄 := dutyTok ER (dCell d j) 0 (0 : Fin 6)
abbrev posD (c : Dev nD) (j : Fin 24) (r : ℕ) : sProp 𝕄 := atPos ER (dCell c j) r ∅ 0
abbrev credD (c : Dev nD) (j : Fin 24) : sProp 𝕄 := cred (tallyAt (dCell c j) () N)

end Cert.KernelIdeal.AR

end
-- ==== Proof.Pieces.lean ====
/- What a device's body starts from and ends at, as the pipeline states it, and the same resources spelt out piece by
   piece: the ghost state opened and the three staged buffers cut into the parts the protocol passes round. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Tables
import proofs.«900719_g7700000000000720_dist_ar_v7x_xyz2x2x4_z_m256_n256_f32_1_alg».proof.Proof.Owes
import proofs.«900719_g7700000000000720_dist_ar_v7x_xyz2x2x4_z_m256_n256_f32_1_alg».proof.Proof.Regions
import proofs.«900719_g7700000000000720_dist_ar_v7x_xyz2x2x4_z_m256_n256_f32_1_alg».proof.Proof.Landing
import proofs.«900719_g7700000000000720_dist_ar_v7x_xyz2x2x4_z_m256_n256_f32_1_alg».proof.Proof.Glue
import proofs.«900719_g7700000000000720_dist_ar_v7x_xyz2x2x4_z_m256_n256_f32_1_alg».proof.Proof.Steps
import proofs.«900719_g7700000000000720_dist_ar_v7x_xyz2x2x4_z_m256_n256_f32_1_alg».proof.Proof.Phases

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv ∗ ∃ f : Buf (Elt F) ((c : Thread nD τ).loc cc0_scratch0), (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (OUTV m ρ c))

/-- Everything the device holds once its ghost state is opened and its three staged buffers are cut. -/
def pieces (c : Dev nD) (W : Waits sig Unit) : sProp 𝕄 :=
  iprop(records m ρ K ∗ levAts L lv ∗ owes (c : Thread nD τ) (owedFrom c 0) W
    ∗ cred (tallyAt (barCell c) () 6) ∗ atPos ER (barCell c) 0 ∅ 0
    ∗ (credD c (dix 1 0 0) ∗ credD c (dix 1 0 1) ∗ credD c (dix 1 0 2) ∗ credD c (dix 1 1 0) ∗ credD c (dix 1 1 1) ∗ credD c (dix 1 1 2))
    ∗ (credD c (dix 3 0 0) ∗ credD c (dix 3 0 1) ∗ credD c (dix 3 0 2) ∗ credD c (dix 3 1 0) ∗ credD c (dix 3 1 1) ∗ credD c (dix 3 1 2))
    ∗ ((posD c (dix 0 0 0) 0 ∗ posD c (dix 0 0 1) 0 ∗ posD c (dix 0 0 2) 0 ∗ posD c (dix 0 1 0) 0 ∗ posD c (dix 0 1 1) 0 ∗ posD c (dix 0 1 2) 0)
      ∗ (posD c (dix 1 0 0) 0 ∗ posD c (dix 1 0 1) 0 ∗ posD c (dix 1 0 2) 0 ∗ posD c (dix 1 1 0) 0 ∗ posD c (dix 1 1 1) 0 ∗ posD c (dix 1 1 2) 0)
      ∗ (posD c (dix 2 0 0) 0 ∗ posD c (dix 2 0 1) 0 ∗ posD c (dix 2 0 2) 0 ∗ posD c (dix 2 1 0) 0 ∗ posD c (dix 2 1 1) 0 ∗ posD c (dix 2 1 2) 0)
      ∗ (posD c (dix 3 0 0) 0 ∗ posD c (dix 3 0 1) 0 ∗ posD c (dix 3 0 2) 0 ∗ posD c (dix 3 1 0) 0 ∗ posD c (dix 3 1 1) 0 ∗ posD c (dix 3 1 2) 0))
    ∗ (dutyTok ER (barCell (zs c 1)) 0 (lo6 0) ∗ dutyTok ER (barCell (zs c 2)) 0 (lo6 1) ∗ dutyTok ER (barCell (zs c 3)) 0 (lo6 2)
      ∗ dutyTok ER (barCell (xp c 0)) 0 (hi6 0) ∗ dutyTok ER (barCell (xp c 1)) 0 (hi6 1) ∗ dutyTok ER (barCell (xp c 2)) 0 (hi6 2))
    ∗ (tokD c (dix 0 0 0) ∗ tokD c (dix 0 0 1) ∗ tokD c (dix 0 0 2) ∗ tokD c (dix 0 1 0) ∗ tokD c (dix 0 1 1) ∗ tokD c (dix 0 1 2))
    ∗ (tokD (zs c 1) (dix 1 0 0) ∗ tokD (zs c 2) (dix 1 0 1) ∗ tokD (zs c 3) (dix 1 0 2) ∗ tokD (zs c 1) (dix 1 1 0) ∗ tokD (zs c 2) (dix 1 1 1) ∗ tokD (zs c 3) (dix 1 1 2))
    ∗ (tokD c (dix 2 0 0) ∗ tokD c (dix 2 0 1) ∗ tokD c (dix 2 0 2) ∗ tokD c (dix 2 1 0) ∗ tokD c (dix 2 1 1) ∗ tokD c (dix 2 1 2))
    ∗ (tokD (xp c 0) (dix 3 0 0) ∗ tokD (xp c 1) (dix 3 0 1) ∗ tokD (xp c 2) (dix 3 0 2) ∗ tokD (xp c 0) (dix 3 1 0) ∗ tokD (xp c 1) (dix 3 1 1) ∗ tokD (xp c 2) (dix 3 1 2))
    ∗ (zAny c 0 0 ∗ zAny c 0 1 ∗ zAny c 0 2 ∗ zAny c 1 0 ∗ zAny c 1 1 ∗ zAny c 1 2)
    ∗ (oAny c 0 c ∗ oAny c 1 c ∗ oAny (xp c 0) 0 c ∗ oAny (xp c 0) 1 c ∗ oAny (xp c 1) 0 c ∗ oAny (xp c 1) 1 c ∗ oAny (xp c 2) 0 c ∗ oAny (xp c 2) 1 c)
    ∗ (xr m ρ c 0 (zshare 0) ∗ xr m ρ c 0 (zshare 1) ∗ xr m ρ c 0 (zshare 2) ∗ xr m ρ c 1 (zshare 0) ∗ xr m ρ c 1 (zshare 1) ∗ xr m ρ c 1 (zshare 2))
    ∗ xr m ρ c 0 keepShare ∗ xr m ρ c 1 keepShare
    ∗ (((c : Thread nD τ).loc cc0_stg0_0) ↦[xRest c]{fullShare} xstg m ρ c))

/-- What the device holds after its last wait. -/
def leftovers (c : Dev nD) : sProp 𝕄 :=
  iprop(records m ρ K
    ∗ ((posD c (dix 0 0 0) 1 ∗ posD c (dix 0 0 1) 1 ∗ posD c (dix 0 0 2) 1 ∗ posD c (dix 0 1 0) 1 ∗ posD c (dix 0 1 1) 1 ∗ posD c (dix 0 1 2) 1)
      ∗ (posD c (dix 1 0 0) 1 ∗ posD c (dix 1 0 1) 1 ∗ posD c (dix 1 0 2) 1 ∗ posD c (dix 1 1 0) 1 ∗ posD c (dix 1 1 1) 1 ∗ posD c (dix 1 1 2) 1)
      ∗ (posD c (dix 2 0 0) 1 ∗ posD c (dix 2 0 1) 1 ∗ posD c (dix 2 0 2) 1 ∗ posD c (dix 2 1 0) 1 ∗ posD c (dix 2 1 1) 1 ∗ posD c (dix 2 1 2) 1)
      ∗ (posD c (dix 3 0 0) 1 ∗ posD c (dix 3 0 1) 1 ∗ posD c (dix 3 0 2) 1 ∗ posD c (dix 3 1 0) 1 ∗ posD c (dix 3 1 1) 1 ∗ posD c (dix 3 1 2) 1))
    ∗ (zAt m ρ c 0 0 ∗ zAt m ρ c 0 1 ∗ zAt m ρ c 0 2 ∗ zAt m ρ c 1 0 ∗ zAt m ρ c 1 1 ∗ zAt m ρ c 1 2)
    ∗ (oAt m ρ c 0 c (xyshare 0) ∗ oAt m ρ c 0 c (xyshare 1) ∗ oAt m ρ c 0 c (xyshare 2) ∗ oAt m ρ c 1 c (xyshare 0) ∗ oAt m ρ c 1 c (xyshare 1) ∗ oAt m ρ c 1 c (xyshare 2))
    ∗ (oAt m ρ (xp c 0) 0 c fullShare ∗ oAt m ρ (xp c 1) 0 c fullShare ∗ oAt m ρ (xp c 2) 0 c fullShare ∗ oAt m ρ (xp c 0) 1 c fullShare ∗ oAt m ρ (xp c 1) 1 c fullShare ∗ oAt m ρ (xp c 2) 1 c fullShare)
    ∗ (xr m ρ c 0 (zshare 0) ∗ xr m ρ c 0 (zshare 1) ∗ xr m ρ c 0 (zshare 2) ∗ xr m ρ c 1 (zshare 0) ∗ xr m ρ c 1 (zshare 1) ∗ xr m ρ c 1 (zshare 2))
    ∗ xr m ρ c 0 keepShare ∗ xr m ρ c 1 keepShare
    ∗ (((c : Thread nD τ).loc cc0_stg0_0) ↦[xRest c]{fullShare} xstg m ρ c))

end Cert.KernelIdeal.AR

end
-- ==== Proof.PhaseA.lean ====
/- The entry handshake of one device: six signals to its neighbours' barrier cells, each handing over the part of this
   device's memory that neighbour is about to write, and the wait for the six units the neighbours pay in turn, which
   bring the parts of their memory this device is about to write. -/
import proofs.«900719_g7700000000000720_dist_ar_v7x_xyz2x2x4_z_m256_n256_f32_1_alg».proof.Proof.Phases

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-! ## What the barrier's duties hand over, seen from the payer and from the owner -/

/-- Going dd + 1 steps on round the ring and then 3 - dd more is a full turn. -/
theorem phaseA_zs_turn (c : Dev nD) : ∀ dd : Fin 3, zs (zs c (dd.val + 1)) (3 - dd.val) = c := by revert c; decide

/-- The duty this device pays on the barrier cell of the device dd + 1 steps on: the two slots of lane 2 - dd of its OWN landing buffer. -/
theorem phaseA_sigPay_z (c : Dev nD) (dd : Fin 3) :
    barPay (F := F) (zs c (dd.val + 1)) (lo6 dd) = iprop(zAny c 0 (rev3 dd) ∗ zAny c 1 (rev3 dd)) := by
  rw [barPay_z, phaseA_zs_turn c dd]
/-- The duty this device pays on its i-th plane neighbour's barrier cell: that neighbour's quarter of its OWN staged result. -/
theorem phaseA_sigPay_xy (c : Dev nD) (i : Fin 3) :
    barPay (F := F) (xp c i) (hi6 i) = iprop(oAny (xp c i) 0 c ∗ oAny (xp c i) 1 c) := by
  rw [barPay_xy, xp_xp c i]
/-- What the ring neighbour 3 - dd steps on pays this device: the two slots of lane 2 - dd of that neighbour's landing buffer. -/
theorem phaseA_waitPay_z (c : Dev nD) (dd : Fin 3) :
    barPay (F := F) c (lo6 dd) = iprop(zAny (zs c (3 - dd.val)) 0 (rev3 dd) ∗ zAny (zs c (3 - dd.val)) 1 (rev3 dd)) := barPay_z c dd
/-- What the i-th plane neighbour pays this device: this device's quarter of that neighbour's staged result. -/
theorem phaseA_waitPay_xy (c : Dev nD) (i : Fin 3) :
    barPay (F := F) c (hi6 i) = iprop(oAny c 0 (xp c i) ∗ oAny c 1 (xp c i)) := barPay_xy c i

/-! ## A: the entry handshake -/

theorem phaseA' {α : Type} {Q : α → sProp 𝕄} (c t1 t2 t3 t4 t5 t6 : Dev nD)
    (h1 : t1 = zs c 1) (h2 : t2 = zs c 2) (h3 : t3 = zs c 3) (h4 : t4 = xp c 0) (h5 : t5 = xp c 1) (h6 : t6 = xp c 2)
    (W : Waits sig Unit) (k : PUnit → Prog (TpuEff nD τ sig (Elt F) Λ₀ .tc) α) :
    iprop((records m ρ K ∗ levAts L lv ∗ owes (c : Thread nD τ) (owedFrom c 0) W
        ∗ cred (tallyAt (barCell c) () 6) ∗ atPos ER (barCell c) 0 ∅ 0
        ∗ dutyTok ER (barCell (zs c 1)) 0 (lo6 0) ∗ dutyTok ER (barCell (zs c 2)) 0 (lo6 1) ∗ dutyTok ER (barCell (zs c 3)) 0 (lo6 2)
        ∗ dutyTok ER (barCell (xp c 0)) 0 (hi6 0) ∗ dutyTok ER (barCell (xp c 1)) 0 (hi6 1) ∗ dutyTok ER (barCell (xp c 2)) 0 (hi6 2)
        ∗ zAny c 0 2 ∗ zAny c 1 2 ∗ zAny c 0 1 ∗ zAny c 1 1 ∗ zAny c 0 0 ∗ zAny c 1 0
        ∗ oAny (xp c 0) 0 c ∗ oAny (xp c 0) 1 c ∗ oAny (xp c 1) 0 c ∗ oAny (xp c 1) 1 c ∗ oAny (xp c 2) 0 c ∗ oAny (xp c 2) 1 c)
      ∗ ((∃ W', owes (c : Thread nD τ) (owedFrom c 6) W') ∗ atPos ER (barCell c) 1 ∅ 0
          ∗ zAny (zs c 3) 0 2 ∗ zAny (zs c 3) 1 2 ∗ zAny (zs c 2) 0 1 ∗ zAny (zs c 2) 1 1 ∗ zAny (zs c 1) 0 0 ∗ zAny (zs c 1) 1 0
          ∗ oAny c 0 (xp c 0) ∗ oAny c 1 (xp c 0) ∗ oAny c 0 (xp c 1) ∗ oAny c 1 (xp c 1) ∗ oAny c 0 (xp c 2) ∗ oAny c 1 (xp c 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal ((t1 : Dev nD) : Thread nD τ) barS 1) fun _ =>
            .op (.semSignal ((t2 : Dev nD) : Thread nD τ) barS 1) fun _ =>
            .op (.semSignal ((t3 : Dev nD) : Thread nD τ) barS 1) fun _ =>
            .op (.semSignal ((t4 : Dev nD) : Thread nD τ) barS 1) fun _ =>
            .op (.semSignal ((t5 : Dev nD) : Thread nD τ) barS 1) fun _ =>
            .op (.semSignal ((t6 : Dev nD) : Thread nD τ) barS 1) fun _ =>
            .op (.semWait barS 6) k) Q := by
  subst h1 h2 h3 h4 h5 h6
  iintro ⟨⟨#HR, #Hlev, HO, Hc, Hat, Ht1, Ht2, Ht3, Ht4, Ht5, Ht6, Hz02, Hz12, Hz01, Hz11, Hz00, Hz10, Ho00, Ho01, Ho10, Ho11, Ho20, Ho21⟩, Hk⟩
  -- signal 1, to zs c 1: due 0 paid, duty lo6 0
  rw [show owedFrom c 0 = owedFrom c 1 + tallyAt (barCell (zs c 1)) () 1 from rfl]
  iapply (step_signal m ρ K c (zs c 1) (lo6 0) (owedFrom c 1) W (by routes)) $$ [HO Ht1 Hz02 Hz12]
  · isplitr; · iexact HR
    isplitl [HO]; · iexact HO
    isplitl [Ht1]; · iexact Ht1
    rw [show barPay (F := F) (zs c 1) (lo6 0) = iprop(zAny c 0 2 ∗ zAny c 1 2) from phaseA_sigPay_z c 0]
    isplitl [Hz02]; · iexact Hz02
    iexact Hz12
  iintro HO
  -- signal 2, to zs c 2: due 1 paid, duty lo6 1
  rw [show owedFrom c 1 = owedFrom c 2 + tallyAt (barCell (zs c 2)) () 1 from rfl]
  iapply (step_signal m ρ K c (zs c 2) (lo6 1) (owedFrom c 2) W (by routes)) $$ [HO Ht2 Hz01 Hz11]
  · isplitr; · iexact HR
    isplitl [HO]; · iexact HO
    isplitl [Ht2]; · iexact Ht2
    rw [show barPay (F := F) (zs c 2) (lo6 1) = iprop(zAny c 0 1 ∗ zAny c 1 1) from phaseA_sigPay_z c 1]
    isplitl [Hz01]; · iexact Hz01
    iexact Hz11
  iintro HO
  -- signal 3, to zs c 3: due 2 paid, duty lo6 2
  rw [show owedFrom c 2 = owedFrom c 3 + tallyAt (barCell (zs c 3)) () 1 from rfl]
  iapply (step_signal m ρ K c (zs c 3) (lo6 2) (owedFrom c 3) W (by routes)) $$ [HO Ht3 Hz00 Hz10]
  · isplitr; · iexact HR
    isplitl [HO]; · iexact HO
    isplitl [Ht3]; · iexact Ht3
    rw [show barPay (F := F) (zs c 3) (lo6 2) = iprop(zAny c 0 0 ∗ zAny c 1 0) from phaseA_sigPay_z c 2]
    isplitl [Hz00]; · iexact Hz00
    iexact Hz10
  iintro HO
  -- signal 4, to xp c 0: due 3 paid, duty hi6 0
  rw [show owedFrom c 3 = owedFrom c 4 + tallyAt (barCell (xp c 0)) () 1 from rfl]
  iapply (step_signal m ρ K c (xp c 0) (hi6 0) (owedFrom c 4) W (by routes)) $$ [HO Ht4 Ho00 Ho01]
  · isplitr; · iexact HR
    isplitl [HO]; · iexact HO
    isplitl [Ht4]; · iexact Ht4
    rw [show barPay (F := F) (xp c 0) (hi6 0) = iprop(oAny (xp c 0) 0 c ∗ oAny (xp c 0) 1 c) from phaseA_sigPay_xy c 0]
    isplitl [Ho00]; · iexact Ho00
    iexact Ho01
  iintro HO
  -- signal 5, to xp c 1: due 4 paid, duty hi6 1
  rw [show owedFrom c 4 = owedFrom c 5 + tallyAt (barCell (xp c 1)) () 1 from rfl]
  iapply (step_signal m ρ K c (xp c 1) (hi6 1) (owedFrom c 5) W (by routes)) $$ [HO Ht5 Ho10 Ho11]
  · isplitr; · iexact HR
    isplitl [HO]; · iexact HO
    isplitl [Ht5]; · iexact Ht5
    rw [show barPay (F := F) (xp c 1) (hi6 1) = iprop(oAny (xp c 1) 0 c ∗ oAny (xp c 1) 1 c) from phaseA_sigPay_xy c 1]
    isplitl [Ho10]; · iexact Ho10
    iexact Ho11
  iintro HO
  -- signal 6, to xp c 2: due 5 paid, duty hi6 2
  rw [show owedFrom c 5 = owedFrom c 6 + tallyAt (barCell (xp c 2)) () 1 from rfl]
  iapply (step_signal m ρ K c (xp c 2) (hi6 2) (owedFrom c 6) W (by routes)) $$ [HO Ht6 Ho20 Ho21]
  · isplitr; · iexact HR
    isplitl [HO]; · iexact HO
    isplitl [Ht6]; · iexact Ht6
    rw [show barPay (F := F) (xp c 2) (hi6 2) = iprop(oAny (xp c 2) 0 c ∗ oAny (xp c 2) 1 c) from phaseA_sigPay_xy c 2]
    isplitl [Ho20]; · iexact Ho20
    iexact Ho21
  iintro HO
  -- the wait for six: nothing but receive credits is owed, all above the barrier cell
  iapply (step_waitBar m ρ K c (owedFrom c 6) W) $$ [Hc HO Hat]
  · isplitr; · iexact HR
    isplitl [Hc]; · iexact Hc
    isplitl [HO]; · iexact HO
    isplitr; · iapply (mayWait_bar c); iexact Hlev
    iexact Hat
  rw [show barPay (F := F) c 0 = iprop(zAny (zs c 3) 0 2 ∗ zAny (zs c 3) 1 2) from phaseA_waitPay_z c 0,
    show barPay (F := F) c 1 = iprop(zAny (zs c 2) 0 1 ∗ zAny (zs c 2) 1 1) from phaseA_waitPay_z c 1,
    show barPay (F := F) c 2 = iprop(zAny (zs c 1) 0 0 ∗ zAny (zs c 1) 1 0) from phaseA_waitPay_z c 2,
    show barPay (F := F) c 3 = iprop(oAny c 0 (xp c 0) ∗ oAny c 1 (xp c 0)) from phaseA_waitPay_xy c 0,
    show barPay (F := F) c 4 = iprop(oAny c 0 (xp c 1) ∗ oAny c 1 (xp c 1)) from phaseA_waitPay_xy c 1,
    show barPay (F := F) c 5 = iprop(oAny c 0 (xp c 2) ∗ oAny c 1 (xp c 2)) from phaseA_waitPay_xy c 2]
  iintro ⟨HO, Hat, ⟨Ha0, Ha1⟩, ⟨Hb0, Hb1⟩, ⟨Hc0, Hc1⟩, ⟨Hd0, Hd1⟩, ⟨He0, He1⟩, ⟨Hf0, Hf1⟩⟩
  iapply Hk
  isplitl [HO]; · iexists _; iexact HO
  isplitl [Hat]; · iexact Hat
  isplitl [Ha0]; · iexact Ha0
  isplitl [Ha1]; · iexact Ha1
  isplitl [Hb0]; · iexact Hb0
  isplitl [Hb1]; · iexact Hb1
  isplitl [Hc0]; · iexact Hc0
  isplitl [Hc1]; · iexact Hc1
  isplitl [Hd0]; · iexact Hd0
  isplitl [Hd1]; · iexact Hd1
  isplitl [He0]; · iexact He0
  isplitl [He1]; · iexact He1
  isplitl [Hf0]; · iexact Hf0
  iexact Hf1

/-- info: 'Cert.KernelIdeal.AR.phaseA'' depends on axioms: [propext, Classical.choice, Quot.sound] -/
#guard_msgs in #print axioms phaseA'

end Cert.KernelIdeal.AR

end
-- ==== Proof.PhaseB.lean ====
/- The six ring sends of one device: each half of its quarter of `x` to the slot, in the landing buffer of the device
   `kk + 1` steps on, that the device owns for it; each send pays the one duty of the sender's own send cell and of the
   receiver's receive cell, and takes one due off what the sender owes. -/
import proofs.«900719_g7700000000000720_dist_ar_v7x_xyz2x2x4_z_m256_n256_f32_1_alg».proof.Proof.Phases
import Idealize.ShloMosaic.Rules.PointsTo

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- One ring send: half `h` of the device's quarter of `x`, lane `kk`, to slot `(h, kk)` of the device `t`, `kk + 1` steps on. It lends the
    lane's share of the source rows to the transfer, fills the slot the receiver handed over, and pays the receiver's due. -/
theorem sendZ {α : Type} {Q : α → sProp 𝕄} (c t : Dev nD) (h : Fin 2) (kk : Fin 3) (ht : zs c (kk.val + 1) = t)
    (O : CellTallies nD τ sig Unit) (W : Waits sig Unit)
    {hsc : ((zSlot h kk) : Memref sig (Dev.tc t : Thread nD τ).2.kind .vmem S32x256 .f32).view.ref.isScScratch = false}
    {hsrc : (xRow c h).view.WordExact} {hdst : (zSlot h kk).view.WordExact}
    {hsem : DmaTarget.Typed .vmem (.dma (dsem (dix 1 h kk))) (.remote (Dev.tc t : Thread nD τ) (zSlot h kk) (.dma (dsem (dix 0 h kk))) hsc)}
    (hr : τ.routes (c : Thread nD τ) (t : Thread nD τ) = true)
    {k : PUnit → Prog (TpuEff nD τ sig (Elt F) Λ₀ .tc) α} :
    iprop(records m ρ K ∗ xr m ρ c h (zshare kk) ∗ zAny t h kk
        ∗ owes (c : Thread nD τ) (O + tallyAt (dCell t (dix 1 h kk)) () N) W
        ∗ tokD c (dix 0 h kk) ∗ tokD t (dix 1 h kk))
      ⊢ iprop(((credD c (dix 0 h kk) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xRow c h) (.remote (Dev.tc t : Thread nD τ) (zSlot h kk) (.dma (dsem (dix 0 h kk))) hsc) (.dma (dsem (dix 1 h kk))) hsrc hdst hsem) k) Q) := by
  subst ht
  iintro ⟨#HR, Hx, ⟨%fd, Hz⟩, HO, Hts, Htr⟩
  iapply (step_send m ρ K c (zs c (kk.val + 1)) (dix 0 h kk) (dix 1 h kk) O W (src := xRow c h) (dst := zSlot h kk)
      (zshare kk) (xstg m ρ c) fd rfl
      (Entails.of_eq (dmaPay_zsend m ρ c h kk).symm)
      (Entails.of_eq ((pointsTo_congr (zland m ρ c h kk fd)).trans (dmaPay_zrecv m ρ (zs c (kk.val + 1)) h kk).symm))
      hr) $$ [Hx Hz HO Hts Htr]
  isplitr; · iexact HR
  isplitl [Hx]; · iexact Hx
  isplitl [Hz]; · iexact Hz
  isplitl [HO]; · iexact HO
  isplitl [Hts]; · iexact Hts
  iexact Htr

/-! ## B: the six ring sends -/

theorem phaseB' {α : Type} {Q : α → sProp 𝕄} (c u0 u1 u2 u3 u4 u5 : Dev nD)
    (e0 : u0 = zs c 3) (e1 : u1 = zs c 2) (e2 : u2 = zs c 1) (e3 : u3 = zs c 3) (e4 : u4 = zs c 2) (e5 : u5 = zs c 1)
    {hsc0 : ((zSlot 0 2) : Memref sig (Dev.tc u0 : Thread nD τ).2.kind .vmem S32x256 .f32).view.ref.isScScratch = false}
    {hsrc0 : (xRow c 0).view.WordExact} {hdst0 : (zSlot 0 2).view.WordExact}
    {hsem0 : DmaTarget.Typed .vmem (.dma (dsem (dix 1 0 2))) (.remote (Dev.tc u0 : Thread nD τ) (zSlot 0 2) (.dma (dsem (dix 0 0 2))) hsc0)}
    {hsc1 : ((zSlot 0 1) : Memref sig (Dev.tc u1 : Thread nD τ).2.kind .vmem S32x256 .f32).view.ref.isScScratch = false}
    {hsrc1 : (xRow c 0).view.WordExact} {hdst1 : (zSlot 0 1).view.WordExact}
    {hsem1 : DmaTarget.Typed .vmem (.dma (dsem (dix 1 0 1))) (.remote (Dev.tc u1 : Thread nD τ) (zSlot 0 1) (.dma (dsem (dix 0 0 1))) hsc1)}
    {hsc2 : ((zSlot 0 0) : Memref sig (Dev.tc u2 : Thread nD τ).2.kind .vmem S32x256 .f32).view.ref.isScScratch = false}
    {hsrc2 : (xRow c 0).view.WordExact} {hdst2 : (zSlot 0 0).view.WordExact}
    {hsem2 : DmaTarget.Typed .vmem (.dma (dsem (dix 1 0 0))) (.remote (Dev.tc u2 : Thread nD τ) (zSlot 0 0) (.dma (dsem (dix 0 0 0))) hsc2)}
    {hsc3 : ((zSlot 1 2) : Memref sig (Dev.tc u3 : Thread nD τ).2.kind .vmem S32x256 .f32).view.ref.isScScratch = false}
    {hsrc3 : (xRow c 1).view.WordExact} {hdst3 : (zSlot 1 2).view.WordExact}
    {hsem3 : DmaTarget.Typed .vmem (.dma (dsem (dix 1 1 2))) (.remote (Dev.tc u3 : Thread nD τ) (zSlot 1 2) (.dma (dsem (dix 0 1 2))) hsc3)}
    {hsc4 : ((zSlot 1 1) : Memref sig (Dev.tc u4 : Thread nD τ).2.kind .vmem S32x256 .f32).view.ref.isScScratch = false}
    {hsrc4 : (xRow c 1).view.WordExact} {hdst4 : (zSlot 1 1).view.WordExact}
    {hsem4 : DmaTarget.Typed .vmem (.dma (dsem (dix 1 1 1))) (.remote (Dev.tc u4 : Thread nD τ) (zSlot 1 1) (.dma (dsem (dix 0 1 1))) hsc4)}
    {hsc5 : ((zSlot 1 0) : Memref sig (Dev.tc u5 : Thread nD τ).2.kind .vmem S32x256 .f32).view.ref.isScScratch = false}
    {hsrc5 : (xRow c 1).view.WordExact} {hdst5 : (zSlot 1 0).view.WordExact}
    {hsem5 : DmaTarget.Typed .vmem (.dma (dsem (dix 1 1 0))) (.remote (Dev.tc u5 : Thread nD τ) (zSlot 1 0) (.dma (dsem (dix 0 1 0))) hsc5)}
    (W : Waits sig Unit) (k : PUnit → Prog (TpuEff nD τ sig (Elt F) Λ₀ .tc) α) :
    iprop((records m ρ K ∗ owes (c : Thread nD τ) (owedFrom c 6) W
        ∗ xr m ρ c 0 (zshare 0) ∗ xr m ρ c 0 (zshare 1) ∗ xr m ρ c 0 (zshare 2) ∗ xr m ρ c 1 (zshare 0) ∗ xr m ρ c 1 (zshare 1) ∗ xr m ρ c 1 (zshare 2)
        ∗ zAny (zs c 1) 0 0 ∗ zAny (zs c 2) 0 1 ∗ zAny (zs c 3) 0 2 ∗ zAny (zs c 1) 1 0 ∗ zAny (zs c 2) 1 1 ∗ zAny (zs c 3) 1 2
        ∗ tokD c (dix 0 0 0) ∗ tokD c (dix 0 0 1) ∗ tokD c (dix 0 0 2) ∗ tokD c (dix 0 1 0) ∗ tokD c (dix 0 1 1) ∗ tokD c (dix 0 1 2)
        ∗ tokD (zs c 1) (dix 1 0 0) ∗ tokD (zs c 2) (dix 1 0 1) ∗ tokD (zs c 3) (dix 1 0 2) ∗ tokD (zs c 1) (dix 1 1 0) ∗ tokD (zs c 2) (dix 1 1 1) ∗ tokD (zs c 3) (dix 1 1 2))
      ∗ ((∃ W', owes (c : Thread nD τ) (owedFrom c 12) W')
          ∗ credD c (dix 0 0 0) ∗ credD c (dix 0 0 1) ∗ credD c (dix 0 0 2) ∗ credD c (dix 0 1 0) ∗ credD c (dix 0 1 1) ∗ credD c (dix 0 1 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.enqueueDma (xRow c 0) (.remote (Dev.tc u0 : Thread nD τ) (zSlot 0 2) (.dma (dsem (dix 0 0 2))) hsc0) (.dma (dsem (dix 1 0 2))) hsrc0 hdst0 hsem0) fun _ =>
            .op (.enqueueDma (xRow c 0) (.remote (Dev.tc u1 : Thread nD τ) (zSlot 0 1) (.dma (dsem (dix 0 0 1))) hsc1) (.dma (dsem (dix 1 0 1))) hsrc1 hdst1 hsem1) fun _ =>
            .op (.enqueueDma (xRow c 0) (.remote (Dev.tc u2 : Thread nD τ) (zSlot 0 0) (.dma (dsem (dix 0 0 0))) hsc2) (.dma (dsem (dix 1 0 0))) hsrc2 hdst2 hsem2) fun _ =>
            .op (.enqueueDma (xRow c 1) (.remote (Dev.tc u3 : Thread nD τ) (zSlot 1 2) (.dma (dsem (dix 0 1 2))) hsc3) (.dma (dsem (dix 1 1 2))) hsrc3 hdst3 hsem3) fun _ =>
            .op (.enqueueDma (xRow c 1) (.remote (Dev.tc u4 : Thread nD τ) (zSlot 1 1) (.dma (dsem (dix 0 1 1))) hsc4) (.dma (dsem (dix 1 1 1))) hsrc4 hdst4 hsem4) fun _ =>
            .op (.enqueueDma (xRow c 1) (.remote (Dev.tc u5 : Thread nD τ) (zSlot 1 0) (.dma (dsem (dix 0 1 0))) hsc5) (.dma (dsem (dix 1 1 0))) hsrc5 hdst5 hsem5) k) Q := by
  subst e0 e1 e2 e3 e4 e5
  iintro ⟨⟨#HR, HO, X00, X01, X02, X10, X11, X12, Z00, Z01, Z02, Z10, Z11, Z12, S00, S01, S02, S10, S11, S12, R00, R01, R02, R10, R11, R12⟩, Hk⟩
  iapply (sendZ m ρ K c (zs c 3) 0 2 rfl (owedFrom c 7) W (by routes)) $$ [X02 Z02 HO S02 R02]
  · isplitr; · iexact HR
    isplitl [X02]; · iexact X02
    isplitl [Z02]; · iexact Z02
    isplitl [HO]; · iexact HO
    isplitl [S02]; · iexact S02
    iexact R02
  iintro ⟨C02, HO⟩
  iapply (sendZ m ρ K c (zs c 2) 0 1 rfl (owedFrom c 8) W (by routes)) $$ [X01 Z01 HO S01 R01]
  · isplitr; · iexact HR
    isplitl [X01]; · iexact X01
    isplitl [Z01]; · iexact Z01
    isplitl [HO]; · iexact HO
    isplitl [S01]; · iexact S01
    iexact R01
  iintro ⟨C01, HO⟩
  iapply (sendZ m ρ K c (zs c 1) 0 0 rfl (owedFrom c 9) W (by routes)) $$ [X00 Z00 HO S00 R00]
  · isplitr; · iexact HR
    isplitl [X00]; · iexact X00
    isplitl [Z00]; · iexact Z00
    isplitl [HO]; · iexact HO
    isplitl [S00]; · iexact S00
    iexact R00
  iintro ⟨C00, HO⟩
  iapply (sendZ m ρ K c (zs c 3) 1 2 rfl (owedFrom c 10) W (by routes)) $$ [X12 Z12 HO S12 R12]
  · isplitr; · iexact HR
    isplitl [X12]; · iexact X12
    isplitl [Z12]; · iexact Z12
    isplitl [HO]; · iexact HO
    isplitl [S12]; · iexact S12
    iexact R12
  iintro ⟨C12, HO⟩
  iapply (sendZ m ρ K c (zs c 2) 1 1 rfl (owedFrom c 11) W (by routes)) $$ [X11 Z11 HO S11 R11]
  · isplitr; · iexact HR
    isplitl [X11]; · iexact X11
    isplitl [Z11]; · iexact Z11
    isplitl [HO]; · iexact HO
    isplitl [S11]; · iexact S11
    iexact R11
  iintro ⟨C11, HO⟩
  iapply (sendZ m ρ K c (zs c 1) 1 0 rfl (owedFrom c 12) W (by routes)) $$ [X10 Z10 HO S10 R10]
  · isplitr; · iexact HR
    isplitl [X10]; · iexact X10
    isplitl [Z10]; · iexact Z10
    isplitl [HO]; · iexact HO
    isplitl [S10]; · iexact S10
    iexact R10
  iintro ⟨C10, HO⟩
  iapply Hk
  isplitl [HO]; · iexists W; iexact HO
  isplitl [C00]; · iexact C00
  isplitl [C01]; · iexact C01
  isplitl [C02]; · iexact C02
  isplitl [C10]; · iexact C10
  isplitl [C11]; · iexact C11
  iexact C12

/-- info: 'Cert.KernelIdeal.AR.phaseB'' depends on axioms: [propext, Classical.choice, Quot.sound] -/
#guard_msgs in #print axioms phaseB'

end Cert.KernelIdeal.AR

end
-- ==== Proof.PhaseC0.lean ====
/- Phase C of a device's body for half 0 of its quarter. The device waits for the three ring transfers into its slots
   `(0, 0)`, `(0, 1)`, `(0, 2)`: each wait sits below the plane receive credits it still owes, and hands it the slot at what
   landed. It loads its own 32 rows of `x` and the three slots, stores their sum in its rows of the result — which are
   then at their final contents — and sends those rows, lent in three shares, to the same rows of the result on its
   three plane neighbours, paying dues 12, 13 and 14. Each send leaves the credit of its send cell; the shares come back
   at the exit waits. -/
import proofs.«900719_g7700000000000720_dist_ar_v7x_xyz2x2x4_z_m256_n256_f32_1_alg».proof.Proof.Phases

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

omit [FloatOps F] in
/-- A slot of the landing buffer and a half-quarter of the result credit a DMA semaphore as a half-quarter of `x` does: the
    credit counts a 32 × 256 block of f32, whichever buffer holds it. -/
private theorem zSlot_credit (h : Fin 2) (kk : Fin 3) : (zSlot h kk).view.dmaCredit = N := rfl
omit [FloatOps F] in
private theorem oRow_credit (c : Dev nD) (h : Fin 2) : (oRow c h).view.dmaCredit = N := rfl

/-! ## C, half 0: the ring receive waits, the sum, the plane sends -/

theorem phaseC0' {α : Type} {Q : α → sProp 𝕄} (c p0 p1 p2 : Dev nD) (e0 : p0 = xp c 0) (e1 : p1 = xp c 1) (e2 : p2 = xp c 2)
    {hsrcw0 : (xRow c 0).view.WordExact} {hdstw0 : (zSlot 0 0).view.WordExact} {hsrcw1 : (xRow c 0).view.WordExact} {hdstw1 : (zSlot 0 1).view.WordExact} {hsrcw2 : (xRow c 0).view.WordExact} {hdstw2 : (zSlot 0 2).view.WordExact}
    {hlx : xM.view.LoadsAt (rowRect2 c 0).toLoadRect} {hlz0 : zM.view.LoadsAt (slotRect 0 0).toLoadRect} {hlz1 : zM.view.LoadsAt (slotRect 0 1).toLoadRect} {hlz2 : zM.view.LoadsAt (slotRect 0 2).toLoadRect}
    {hlo : oM.view.LoadsAt (rowRect2 c 0).toLoadRect} {hst : (oM.access (rowRect2 c 0)).Stores Finset.univ} {hsm : (Finset.univ : Finset (rowRect2 c 0).shape.Idx) = Finset.univ ∨ ∀ a, (rowRect2 c 0).stride a = 1}
    {hsc0 : ((oRow c 0) : Memref sig (Dev.tc p0 : Thread nD τ).2.kind .vmem S32x256 .f32).view.ref.isScScratch = false}
    {hsrc0 : (oRow c 0).view.WordExact} {hdst0 : (oRow c 0).view.WordExact}
    {hsem0 : DmaTarget.Typed .vmem (.dma (dsem (dix 3 0 0))) (.remote (Dev.tc p0 : Thread nD τ) (oRow c 0) (.dma (dsem (dix 2 0 0))) hsc0)}
    {hsc1 : ((oRow c 0) : Memref sig (Dev.tc p1 : Thread nD τ).2.kind .vmem S32x256 .f32).view.ref.isScScratch = false}
    {hsrc1 : (oRow c 0).view.WordExact} {hdst1 : (oRow c 0).view.WordExact}
    {hsem1 : DmaTarget.Typed .vmem (.dma (dsem (dix 3 0 1))) (.remote (Dev.tc p1 : Thread nD τ) (oRow c 0) (.dma (dsem (dix 2 0 1))) hsc1)}
    {hsc2 : ((oRow c 0) : Memref sig (Dev.tc p2 : Thread nD τ).2.kind .vmem S32x256 .f32).view.ref.isScScratch = false}
    {hsrc2 : (oRow c 0).view.WordExact} {hdst2 : (oRow c 0).view.WordExact}
    {hsem2 : DmaTarget.Typed .vmem (.dma (dsem (dix 3 0 2))) (.remote (Dev.tc p2 : Thread nD τ) (oRow c 0) (.dma (dsem (dix 2 0 2))) hsc2)}
    (W : Waits sig Unit) (k : PUnit → Prog (TpuEff nD τ sig (Elt F) Λ₀ .tc) α) :
    iprop((records m ρ K ∗ levAts L lv ∗ owes (c : Thread nD τ) (owedFrom c 12) W
        ∗ credD c (dix 1 0 0) ∗ credD c (dix 1 0 1) ∗ credD c (dix 1 0 2)
        ∗ posD c (dix 1 0 0) 0 ∗ posD c (dix 1 0 1) 0 ∗ posD c (dix 1 0 2) 0
        ∗ xr m ρ c 0 keepShare ∗ oAny c 0 c
        ∗ oAny c 0 (xp c 0) ∗ oAny c 0 (xp c 1) ∗ oAny c 0 (xp c 2)
        ∗ tokD c (dix 2 0 0) ∗ tokD c (dix 2 0 1) ∗ tokD c (dix 2 0 2)
        ∗ tokD (xp c 0) (dix 3 0 0) ∗ tokD (xp c 1) (dix 3 0 1) ∗ tokD (xp c 2) (dix 3 0 2))
      ∗ ((∃ W', owes (c : Thread nD τ) (owedFrom c 15) W')
          ∗ posD c (dix 1 0 0) 1 ∗ posD c (dix 1 0 1) 1 ∗ posD c (dix 1 0 2) 1
          ∗ zAt m ρ c 0 0 ∗ zAt m ρ c 0 1 ∗ zAt m ρ c 0 2
          ∗ xr m ρ c 0 keepShare
          ∗ credD c (dix 2 0 0) ∗ credD c (dix 2 0 1) ∗ credD c (dix 2 0 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (dsem (dix 1 0 0)) (xRow c 0) (zSlot 0 0) hsrcw0 hdstw0) fun _ =>
            .op (.waitDma2 (dsem (dix 1 0 1)) (xRow c 0) (zSlot 0 1) hsrcw1 hdstw1) fun _ =>
            .op (.waitDma2 (dsem (dix 1 0 2)) (xRow c 0) (zSlot 0 2) hsrcw2 hdstw2) fun _ =>
            .op (.load xM (rowRect2 c 0).toLoadRect hlx) fun x =>
            .op (.load zM (slotRect 0 0).toLoadRect hlz0) fun x1 =>
            .op (.load zM (slotRect 0 1).toLoadRect hlz1) fun x2 =>
            .op (.load zM (slotRect 0 2).toLoadRect hlz2) fun x3 =>
            .op (.load oM (rowRect2 c 0).toLoadRect hlo) fun _ =>
            .op (.store oM (rowRect2 c 0) (k0_pay2 (k0_pay1 x x1 x2) x3) Finset.univ hst hsm) fun _ =>
            .op (.enqueueDma (oRow c 0) (.remote (Dev.tc p0 : Thread nD τ) (oRow c 0) (.dma (dsem (dix 2 0 0))) hsc0) (.dma (dsem (dix 3 0 0))) hsrc0 hdst0 hsem0) fun _ =>
            .op (.enqueueDma (oRow c 0) (.remote (Dev.tc p1 : Thread nD τ) (oRow c 0) (.dma (dsem (dix 2 0 1))) hsc1) (.dma (dsem (dix 3 0 1))) hsrc1 hdst1 hsem1) fun _ =>
            .op (.enqueueDma (oRow c 0) (.remote (Dev.tc p2 : Thread nD τ) (oRow c 0) (.dma (dsem (dix 2 0 2))) hsc2) (.dma (dsem (dix 3 0 2))) hsrc2 hdst2 hsem2) k) Q := by
  subst e0 e1 e2
  iintro ⟨⟨#HR, #Hlev, HO, Hc0, Hc1, Hc2, Hp0, Hp1, Hp2, Hx, Hoc, Ho0, Ho1, Ho2, Hts0, Hts1, Hts2, Htr0, Htr1, Htr2⟩, Hk⟩
  -- the three ring receive waits: each hands over its slot at what landed
  iapply (step_waitD m ρ K c (dix 1 0 0) (owedFrom c 12) (W) (src := xRow c 0) (dst := zSlot 0 0) (zSlot_credit 0 0)) $$ [HO Hc0 Hp0]
  · isplitr; · iexact HR
    isplitl [Hc0]; · iexact Hc0
    isplitl [HO]; · iexact HO
    isplitr; · iapply (mayWait_zrecv (F := F) c 0 0 12 (by omega)); iexact Hlev
    iexact Hp0
  iintro ⟨HO, Hp0, Hz0⟩
  ihave Hz0 := (Entails.of_eq (dmaPay_zrecv m ρ c 0 0)) $$ Hz0
  iapply (step_waitD m ρ K c (dix 1 0 1) (owedFrom c 12) (insert (SemLoc.dma (dsem (dix 1 0 0)), ()) W) (src := xRow c 0) (dst := zSlot 0 1) (zSlot_credit 0 1)) $$ [HO Hc1 Hp1]
  · isplitr; · iexact HR
    isplitl [Hc1]; · iexact Hc1
    isplitl [HO]; · iexact HO
    isplitr; · iapply (mayWait_zrecv (F := F) c 0 1 12 (by omega)); iexact Hlev
    iexact Hp1
  iintro ⟨HO, Hp1, Hz1⟩
  ihave Hz1 := (Entails.of_eq (dmaPay_zrecv m ρ c 0 1)) $$ Hz1
  iapply (step_waitD m ρ K c (dix 1 0 2) (owedFrom c 12) (insert (SemLoc.dma (dsem (dix 1 0 1)), ()) (insert (SemLoc.dma (dsem (dix 1 0 0)), ()) W)) (src := xRow c 0) (dst := zSlot 0 2) (zSlot_credit 0 2)) $$ [HO Hc2 Hp2]
  · isplitr; · iexact HR
    isplitl [Hc2]; · iexact Hc2
    isplitl [HO]; · iexact HO
    isplitr; · iapply (mayWait_zrecv (F := F) c 0 2 12 (by omega)); iexact Hlev
    iexact Hp2
  iintro ⟨HO, Hp2, Hz2⟩
  ihave Hz2 := (Entails.of_eq (dmaPay_zrecv m ρ c 0 2)) $$ Hz2
  -- the loads: the device's rows of `x`, its three slots, its rows of the result
  iapply (wp_load 𝒱₀ (c : Thread nD τ) none Set.univ (m := xM) (xload_sub c 0)) $$ Hx; iintro Hx
  iapply (wp_load 𝒱₀ (c : Thread nD τ) none Set.univ (m := zM) (zload_sub 0 0)) $$ Hz0; iintro Hz0
  iapply (wp_load 𝒱₀ (c : Thread nD τ) none Set.univ (m := zM) (zload_sub 0 1)) $$ Hz1; iintro Hz1
  iapply (wp_load 𝒱₀ (c : Thread nD τ) none Set.univ (m := zM) (zload_sub 0 2)) $$ Hz2; iintro Hz2
  icases Hoc with ⟨%fo, Hoc⟩
  iapply (wp_load 𝒱₀ (c : Thread nD τ) none Set.univ (m := oM) (oload_sub c 0)) $$ Hoc; iintro Hoc
  -- the store of the sum: the rows are at the final contents
  iapply (wp_store 𝒱₀ (c : Thread nD τ) none Set.univ (m := oM) (r := rowRect2 c 0) (Mk := Finset.univ) (ostore_sub c 0)) $$ Hoc; iintro Hoc
  ihave Hoc := (Entails.of_eq (show
      (((oM.access (rowRect2 c 0)).loc (c : Thread nD τ) ↦[(oRow c 0).view.set]{fullShare}
          (oM.access (rowRect2 c 0)).write (Elt F) fo
          (k0_pay2 (k0_pay1
            (xM.view.readAt (Elt F) (rowRect2 c 0).toLoadRect (xstg m ρ c))
            (zM.view.readAt (Elt F) (slotRect 0 0).toLoadRect (ZV m ρ c))
            (zM.view.readAt (Elt F) (slotRect 0 1).toLoadRect (ZV m ρ c)))
            (zM.view.readAt (Elt F) (slotRect 0 2).toLoadRect (ZV m ρ c))) Finset.univ : sProp 𝕄))
        = ((oRow c 0).view.loc (c : Thread nD τ) ↦[(oRow c 0).view.set]{fullShare} OUTV m ρ c)
      from pointsTo_congr (ostore_eq m ρ c 0 fo))) $$ Hoc
  -- the rows lent in three shares to the three plane sends
  ihave Hoc := (share3 (F := F) (oRow c 0).view.set (OUTV m ρ c)).1 $$ Hoc
  icases Hoc with ⟨Hs0, Hs1, Hs2⟩
  -- the plane send to neighbour 0: due 12
  ihave HO := (Entails.of_eq (congrArg (fun O => (owes (c : Thread nD τ) O (insert (SemLoc.dma (dsem (dix 1 0 2)), ()) (insert (SemLoc.dma (dsem (dix 1 0 1)), ()) (insert (SemLoc.dma (dsem (dix 1 0 0)), ()) W))) : sProp 𝕄))
      (show owedFrom c 12 = owedFrom c 13 + tallyAt (dCell (xp c 0) (dix 3 0 0)) () N from rfl))) $$ HO
  icases Ho0 with ⟨%f0, Ho0⟩
  iapply (step_send m ρ K c (xp c 0) (dix 2 0 0) (dix 3 0 0) (owedFrom c 13) (insert (SemLoc.dma (dsem (dix 1 0 2)), ()) (insert (SemLoc.dma (dsem (dix 1 0 1)), ()) (insert (SemLoc.dma (dsem (dix 1 0 0)), ()) W))) (src := oRow c 0) (dst := oRow c 0)
      (xyshare 0) (OUTV m ρ c) f0 (oRow_credit c 0)
      (Entails.of_eq (dmaPay_xysend m ρ c 0 0).symm)
      (by rw [dmaPay_xyrecv, xp_xp c 0]; exact Entails.of_eq (pointsTo_congr (oland m ρ c 0 0 f0 (OUTV m ρ c) (fun _ _ => rfl))))
      (by routes)) $$ [Hs0 Ho0 HO Hts0 Htr0]
  · isplitr; · iexact HR
    isplitl [Hs0]; · iexact Hs0
    isplitl [Ho0]; · iexact Ho0
    isplitl [HO]; · iexact HO
    isplitl [Hts0]; · iexact Hts0
    iexact Htr0
  iintro ⟨Hcs0, HO⟩
  -- the plane send to neighbour 1: due 13
  ihave HO := (Entails.of_eq (congrArg (fun O => (owes (c : Thread nD τ) O (insert (SemLoc.dma (dsem (dix 1 0 2)), ()) (insert (SemLoc.dma (dsem (dix 1 0 1)), ()) (insert (SemLoc.dma (dsem (dix 1 0 0)), ()) W))) : sProp 𝕄))
      (show owedFrom c 13 = owedFrom c 14 + tallyAt (dCell (xp c 1) (dix 3 0 1)) () N from rfl))) $$ HO
  icases Ho1 with ⟨%f1, Ho1⟩
  iapply (step_send m ρ K c (xp c 1) (dix 2 0 1) (dix 3 0 1) (owedFrom c 14) (insert (SemLoc.dma (dsem (dix 1 0 2)), ()) (insert (SemLoc.dma (dsem (dix 1 0 1)), ()) (insert (SemLoc.dma (dsem (dix 1 0 0)), ()) W))) (src := oRow c 0) (dst := oRow c 0)
      (xyshare 1) (OUTV m ρ c) f1 (oRow_credit c 0)
      (Entails.of_eq (dmaPay_xysend m ρ c 0 1).symm)
      (by rw [dmaPay_xyrecv, xp_xp c 1]; exact Entails.of_eq (pointsTo_congr (oland m ρ c 0 1 f1 (OUTV m ρ c) (fun _ _ => rfl))))
      (by routes)) $$ [Hs1 Ho1 HO Hts1 Htr1]
  · isplitr; · iexact HR
    isplitl [Hs1]; · iexact Hs1
    isplitl [Ho1]; · iexact Ho1
    isplitl [HO]; · iexact HO
    isplitl [Hts1]; · iexact Hts1
    iexact Htr1
  iintro ⟨Hcs1, HO⟩
  -- the plane send to neighbour 2: due 14
  ihave HO := (Entails.of_eq (congrArg (fun O => (owes (c : Thread nD τ) O (insert (SemLoc.dma (dsem (dix 1 0 2)), ()) (insert (SemLoc.dma (dsem (dix 1 0 1)), ()) (insert (SemLoc.dma (dsem (dix 1 0 0)), ()) W))) : sProp 𝕄))
      (show owedFrom c 14 = owedFrom c 15 + tallyAt (dCell (xp c 2) (dix 3 0 2)) () N from rfl))) $$ HO
  icases Ho2 with ⟨%f2, Ho2⟩
  iapply (step_send m ρ K c (xp c 2) (dix 2 0 2) (dix 3 0 2) (owedFrom c 15) (insert (SemLoc.dma (dsem (dix 1 0 2)), ()) (insert (SemLoc.dma (dsem (dix 1 0 1)), ()) (insert (SemLoc.dma (dsem (dix 1 0 0)), ()) W))) (src := oRow c 0) (dst := oRow c 0)
      (xyshare 2) (OUTV m ρ c) f2 (oRow_credit c 0)
      (Entails.of_eq (dmaPay_xysend m ρ c 0 2).symm)
      (by rw [dmaPay_xyrecv, xp_xp c 2]; exact Entails.of_eq (pointsTo_congr (oland m ρ c 0 2 f2 (OUTV m ρ c) (fun _ _ => rfl))))
      (by routes)) $$ [Hs2 Ho2 HO Hts2 Htr2]
  · isplitr; · iexact HR
    isplitl [Hs2]; · iexact Hs2
    isplitl [Ho2]; · iexact Ho2
    isplitl [HO]; · iexact HO
    isplitl [Hts2]; · iexact Hts2
    iexact Htr2
  iintro ⟨Hcs2, HO⟩
  -- what the phase leaves
  iapply Hk
  isplitl [HO]; · iexists (insert (SemLoc.dma (dsem (dix 1 0 2)), ()) (insert (SemLoc.dma (dsem (dix 1 0 1)), ()) (insert (SemLoc.dma (dsem (dix 1 0 0)), ()) W))); iexact HO
  isplitl [Hp0]; · iexact Hp0
  isplitl [Hp1]; · iexact Hp1
  isplitl [Hp2]; · iexact Hp2
  isplitl [Hz0]; · iexact Hz0
  isplitl [Hz1]; · iexact Hz1
  isplitl [Hz2]; · iexact Hz2
  isplitl [Hx]; · iexact Hx
  isplitl [Hcs0]; · iexact Hcs0
  isplitl [Hcs1]; · iexact Hcs1
  iexact Hcs2

/-- info: 'Cert.KernelIdeal.AR.phaseC0'' depends on axioms: [propext, Classical.choice, Quot.sound] -/
#guard_msgs in #print axioms phaseC0'

end Cert.KernelIdeal.AR

end
-- ==== Proof.PhaseC1.lean ====
/- Phase C of a device's body for the second half of its quarter: the three ring receive waits, the five loads, the sum
   stored into the device's own rows of the result, and the three plane sends of those rows. -/
import proofs.«900719_g7700000000000720_dist_ar_v7x_xyz2x2x4_z_m256_n256_f32_1_alg».proof.Proof.Phases

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- Phase C for the second half: from the credits and positions of the three ring receive cells of that half, the kept
    share of the device's own rows of `x`, its rows of its own result and of its three plane neighbours' results and the
    tokens of the six plane cells, through the three waits, the loads, the store of the sum and the three plane sends. -/
theorem phaseC1' {α : Type} {Q : α → sProp 𝕄} (c p0 p1 p2 : Dev nD) (e0 : p0 = xp c 0) (e1 : p1 = xp c 1) (e2 : p2 = xp c 2)
    {hsrcw0 : (xRow c 1).view.WordExact} {hdstw0 : (zSlot 1 0).view.WordExact} {hsrcw1 : (xRow c 1).view.WordExact} {hdstw1 : (zSlot 1 1).view.WordExact} {hsrcw2 : (xRow c 1).view.WordExact} {hdstw2 : (zSlot 1 2).view.WordExact}
    {hlx : xM.view.LoadsAt (rowRect2 c 1).toLoadRect} {hlz0 : zM.view.LoadsAt (slotRect 1 0).toLoadRect} {hlz1 : zM.view.LoadsAt (slotRect 1 1).toLoadRect} {hlz2 : zM.view.LoadsAt (slotRect 1 2).toLoadRect}
    {hlo : oM.view.LoadsAt (rowRect2 c 1).toLoadRect} {hst : (oM.access (rowRect2 c 1)).Stores Finset.univ} {hsm : (Finset.univ : Finset (rowRect2 c 1).shape.Idx) = Finset.univ ∨ ∀ a, (rowRect2 c 1).stride a = 1}
    {hsc0 : ((oRow c 1) : Memref sig (Dev.tc p0 : Thread nD τ).2.kind .vmem S32x256 .f32).view.ref.isScScratch = false}
    {hsrc0 : (oRow c 1).view.WordExact} {hdst0 : (oRow c 1).view.WordExact}
    {hsem0 : DmaTarget.Typed .vmem (.dma (dsem (dix 3 1 0))) (.remote (Dev.tc p0 : Thread nD τ) (oRow c 1) (.dma (dsem (dix 2 1 0))) hsc0)}
    {hsc1 : ((oRow c 1) : Memref sig (Dev.tc p1 : Thread nD τ).2.kind .vmem S32x256 .f32).view.ref.isScScratch = false}
    {hsrc1 : (oRow c 1).view.WordExact} {hdst1 : (oRow c 1).view.WordExact}
    {hsem1 : DmaTarget.Typed .vmem (.dma (dsem (dix 3 1 1))) (.remote (Dev.tc p1 : Thread nD τ) (oRow c 1) (.dma (dsem (dix 2 1 1))) hsc1)}
    {hsc2 : ((oRow c 1) : Memref sig (Dev.tc p2 : Thread nD τ).2.kind .vmem S32x256 .f32).view.ref.isScScratch = false}
    {hsrc2 : (oRow c 1).view.WordExact} {hdst2 : (oRow c 1).view.WordExact}
    {hsem2 : DmaTarget.Typed .vmem (.dma (dsem (dix 3 1 2))) (.remote (Dev.tc p2 : Thread nD τ) (oRow c 1) (.dma (dsem (dix 2 1 2))) hsc2)}
    (W : Waits sig Unit) (k : PUnit → Prog (TpuEff nD τ sig (Elt F) Λ₀ .tc) α) :
    iprop((records m ρ K ∗ levAts L lv ∗ owes (c : Thread nD τ) (owedFrom c 15) W
        ∗ credD c (dix 1 1 0) ∗ credD c (dix 1 1 1) ∗ credD c (dix 1 1 2)
        ∗ posD c (dix 1 1 0) 0 ∗ posD c (dix 1 1 1) 0 ∗ posD c (dix 1 1 2) 0
        ∗ xr m ρ c 1 keepShare ∗ oAny c 1 c
        ∗ oAny c 1 (xp c 0) ∗ oAny c 1 (xp c 1) ∗ oAny c 1 (xp c 2)
        ∗ tokD c (dix 2 1 0) ∗ tokD c (dix 2 1 1) ∗ tokD c (dix 2 1 2)
        ∗ tokD (xp c 0) (dix 3 1 0) ∗ tokD (xp c 1) (dix 3 1 1) ∗ tokD (xp c 2) (dix 3 1 2))
      ∗ ((∃ W', owes (c : Thread nD τ) (owedFrom c 18) W')
          ∗ posD c (dix 1 1 0) 1 ∗ posD c (dix 1 1 1) 1 ∗ posD c (dix 1 1 2) 1
          ∗ zAt m ρ c 1 0 ∗ zAt m ρ c 1 1 ∗ zAt m ρ c 1 2
          ∗ xr m ρ c 1 keepShare
          ∗ credD c (dix 2 1 0) ∗ credD c (dix 2 1 1) ∗ credD c (dix 2 1 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (dsem (dix 1 1 0)) (xRow c 1) (zSlot 1 0) hsrcw0 hdstw0) fun _ =>
            .op (.waitDma2 (dsem (dix 1 1 1)) (xRow c 1) (zSlot 1 1) hsrcw1 hdstw1) fun _ =>
            .op (.waitDma2 (dsem (dix 1 1 2)) (xRow c 1) (zSlot 1 2) hsrcw2 hdstw2) fun _ =>
            .op (.load xM (rowRect2 c 1).toLoadRect hlx) fun x =>
            .op (.load zM (slotRect 1 0).toLoadRect hlz0) fun x1 =>
            .op (.load zM (slotRect 1 1).toLoadRect hlz1) fun x2 =>
            .op (.load zM (slotRect 1 2).toLoadRect hlz2) fun x3 =>
            .op (.load oM (rowRect2 c 1).toLoadRect hlo) fun _ =>
            .op (.store oM (rowRect2 c 1) (k0_pay3 x x1 x2 x3) Finset.univ hst hsm) fun _ =>
            .op (.enqueueDma (oRow c 1) (.remote (Dev.tc p0 : Thread nD τ) (oRow c 1) (.dma (dsem (dix 2 1 0))) hsc0) (.dma (dsem (dix 3 1 0))) hsrc0 hdst0 hsem0) fun _ =>
            .op (.enqueueDma (oRow c 1) (.remote (Dev.tc p1 : Thread nD τ) (oRow c 1) (.dma (dsem (dix 2 1 1))) hsc1) (.dma (dsem (dix 3 1 1))) hsrc1 hdst1 hsem1) fun _ =>
            .op (.enqueueDma (oRow c 1) (.remote (Dev.tc p2 : Thread nD τ) (oRow c 1) (.dma (dsem (dix 2 1 2))) hsc2) (.dma (dsem (dix 3 1 2))) hsrc2 hdst2 hsem2) k) Q := by
  subst e0 e1 e2
  iintro ⟨⟨#HR, #Hlev, HO, Hc0, Hc1, Hc2, Hp0, Hp1, Hp2, Hx, ⟨%fo, Ho⟩, ⟨%f0, Ho0⟩, ⟨%f1, Ho1⟩, ⟨%f2, Ho2⟩, Ts0, Ts1, Ts2, Tr0, Tr1, Tr2⟩, Hk⟩
  -- the three ring receive waits of this half: each slot comes back at what landed
  iapply (step_waitD m ρ K c (dix 1 1 0) (owedFrom c 15) W (show (zSlot 1 0).view.dmaCredit = N from rfl)) $$ [Hc0 HO Hp0]
  · isplitr; · iexact HR
    isplitl [Hc0]; · iexact Hc0
    isplitl [HO]; · iexact HO
    isplitr; · iapply (mayWait_zrecv c 1 0 15 (by omega)); iexact Hlev
    iexact Hp0
  iintro ⟨HO, Hp0, Hpay⟩
  ihave Hz0 := (Entails.of_eq (dmaPay_zrecv m ρ c 1 0)) $$ Hpay
  iapply (step_waitD m ρ K c (dix 1 1 1) (owedFrom c 15) _ (show (zSlot 1 1).view.dmaCredit = N from rfl)) $$ [Hc1 HO Hp1]
  · isplitr; · iexact HR
    isplitl [Hc1]; · iexact Hc1
    isplitl [HO]; · iexact HO
    isplitr; · iapply (mayWait_zrecv c 1 1 15 (by omega)); iexact Hlev
    iexact Hp1
  iintro ⟨HO, Hp1, Hpay⟩
  ihave Hz1 := (Entails.of_eq (dmaPay_zrecv m ρ c 1 1)) $$ Hpay
  iapply (step_waitD m ρ K c (dix 1 1 2) (owedFrom c 15) _ (show (zSlot 1 2).view.dmaCredit = N from rfl)) $$ [Hc2 HO Hp2]
  · isplitr; · iexact HR
    isplitl [Hc2]; · iexact Hc2
    isplitl [HO]; · iexact HO
    isplitr; · iapply (mayWait_zrecv c 1 2 15 (by omega)); iexact Hlev
    iexact Hp2
  iintro ⟨HO, Hp2, Hpay⟩
  ihave Hz2 := (Entails.of_eq (dmaPay_zrecv m ρ c 1 2)) $$ Hpay
  -- the five loads and the store
  iapply (wp_load 𝒱₀ (c : Thread nD τ) none Set.univ (m := xM) (xload_sub c 1)) $$ Hx; iintro Hx
  iapply (wp_load 𝒱₀ (c : Thread nD τ) none Set.univ (m := zM) (zload_sub 1 0)) $$ Hz0; iintro Hz0
  iapply (wp_load 𝒱₀ (c : Thread nD τ) none Set.univ (m := zM) (zload_sub 1 1)) $$ Hz1; iintro Hz1
  iapply (wp_load 𝒱₀ (c : Thread nD τ) none Set.univ (m := zM) (zload_sub 1 2)) $$ Hz2; iintro Hz2
  iapply (wp_load 𝒱₀ (c : Thread nD τ) none Set.univ (m := oM) (oload_sub c 1)) $$ Ho; iintro Ho
  iapply (wp_store 𝒱₀ (c : Thread nD τ) none Set.univ (m := oM) (r := rowRect2 c 1) (Mk := Finset.univ) (ostore_sub c 1)) $$ Ho; iintro Ho
  -- the stored vector is the device's sum of this half: its rows are at the final contents
  ihave Ho := (Entails.of_eq (pointsTo_congr (ostore_eq m ρ c 1 fo))) $$ Ho
  -- a share of them for each of the three plane sends
  ihave Hs := (share3 (F := F) (oRow c 1).view.set (OUTV m ρ c)).1 $$ Ho
  icases Hs with ⟨Hs0, Hs1, Hs2⟩
  -- the three plane sends of the stored rows, paying the last three dues
  iapply (step_send m ρ K c (xp c 0) (dix 2 1 0) (dix 3 1 0) (owedFrom c 16) _ (src := oRow c 1) (dst := oRow c 1)
      (xyshare 0) (OUTV m ρ c) f0 (show (oRow c 1).view.dmaCredit = N from rfl)
      (Entails.of_eq (dmaPay_xysend m ρ c 1 0).symm)
      (by rw [dmaPay_xyrecv, xp_xp c 0]
          exact Entails.of_eq (pointsTo_congr (oland m ρ c 1 0 f0 (OUTV m ρ c) (fun _ _ => rfl))))
      (by routes)) $$ [Hs0 Ho0 HO Ts0 Tr0]
  · isplitr; · iexact HR
    isplitl [Hs0]; · iexact Hs0
    isplitl [Ho0]; · iexact Ho0
    isplitl [HO]; · iexact HO
    isplitl [Ts0]; · iexact Ts0
    iexact Tr0
  iintro ⟨Hcs0, HO⟩
  iapply (step_send m ρ K c (xp c 1) (dix 2 1 1) (dix 3 1 1) (owedFrom c 17) _ (src := oRow c 1) (dst := oRow c 1)
      (xyshare 1) (OUTV m ρ c) f1 (show (oRow c 1).view.dmaCredit = N from rfl)
      (Entails.of_eq (dmaPay_xysend m ρ c 1 1).symm)
      (by rw [dmaPay_xyrecv, xp_xp c 1]
          exact Entails.of_eq (pointsTo_congr (oland m ρ c 1 1 f1 (OUTV m ρ c) (fun _ _ => rfl))))
      (by routes)) $$ [Hs1 Ho1 HO Ts1 Tr1]
  · isplitr; · iexact HR
    isplitl [Hs1]; · iexact Hs1
    isplitl [Ho1]; · iexact Ho1
    isplitl [HO]; · iexact HO
    isplitl [Ts1]; · iexact Ts1
    iexact Tr1
  iintro ⟨Hcs1, HO⟩
  iapply (step_send m ρ K c (xp c 2) (dix 2 1 2) (dix 3 1 2) (owedFrom c 18) _ (src := oRow c 1) (dst := oRow c 1)
      (xyshare 2) (OUTV m ρ c) f2 (show (oRow c 1).view.dmaCredit = N from rfl)
      (Entails.of_eq (dmaPay_xysend m ρ c 1 2).symm)
      (by rw [dmaPay_xyrecv, xp_xp c 2]
          exact Entails.of_eq (pointsTo_congr (oland m ρ c 1 2 f2 (OUTV m ρ c) (fun _ _ => rfl))))
      (by routes)) $$ [Hs2 Ho2 HO Ts2 Tr2]
  · isplitr; · iexact HR
    isplitl [Hs2]; · iexact Hs2
    isplitl [Ho2]; · iexact Ho2
    isplitl [HO]; · iexact HO
    isplitl [Ts2]; · iexact Ts2
    iexact Tr2
  iintro ⟨Hcs2, HO⟩
  -- everything the next phase needs
  iapply Hk
  isplitl [HO]; · iexists _; iexact HO
  isplitl [Hp0]; · iexact Hp0
  isplitl [Hp1]; · iexact Hp1
  isplitl [Hp2]; · iexact Hp2
  isplitl [Hz0]; · iexact Hz0
  isplitl [Hz1]; · iexact Hz1
  isplitl [Hz2]; · iexact Hz2
  isplitl [Hx]; · iexact Hx
  isplitl [Hcs0]; · iexact Hcs0
  isplitl [Hcs1]; · iexact Hcs1
  iexact Hcs2

/-- info: 'Cert.KernelIdeal.AR.phaseC1'' depends on axioms: [propext, Classical.choice, Quot.sound] -/
#guard_msgs in #print axioms phaseC1'

end Cert.KernelIdeal.AR

end
-- ==== Proof.PhaseD.lean ====
/- The exit waits: eighteen waits on the device's own cells, nothing owed. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Tables
import proofs.«900719_g7700000000000720_dist_ar_v7x_xyz2x2x4_z_m256_n256_f32_1_alg».proof.Proof.Owes
import proofs.«900719_g7700000000000720_dist_ar_v7x_xyz2x2x4_z_m256_n256_f32_1_alg».proof.Proof.Regions
import proofs.«900719_g7700000000000720_dist_ar_v7x_xyz2x2x4_z_m256_n256_f32_1_alg».proof.Proof.Landing
import proofs.«900719_g7700000000000720_dist_ar_v7x_xyz2x2x4_z_m256_n256_f32_1_alg».proof.Proof.Glue
import proofs.«900719_g7700000000000720_dist_ar_v7x_xyz2x2x4_z_m256_n256_f32_1_alg».proof.Proof.Steps
import proofs.«900719_g7700000000000720_dist_ar_v7x_xyz2x2x4_z_m256_n256_f32_1_alg».proof.Proof.Phases

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-! ## D: the exit waits -/

set_option maxHeartbeats 2000000 in
theorem phaseD' {α : Type} {Q : α → sProp 𝕄} (c : Dev nD)
    {hs0a : (oRow c 0).view.WordExact} {hs0b : (oRow c 0).view.WordExact} {hr0a : (oRow c 0).view.WordExact} {hr0b : (oRow c 0).view.WordExact}
    {hs1a : (oRow c 0).view.WordExact} {hs1b : (oRow c 0).view.WordExact} {hr1a : (oRow c 0).view.WordExact} {hr1b : (oRow c 0).view.WordExact}
    {hs2a : (oRow c 0).view.WordExact} {hs2b : (oRow c 0).view.WordExact} {hr2a : (oRow c 0).view.WordExact} {hr2b : (oRow c 0).view.WordExact}
    {hs3a : (oRow c 1).view.WordExact} {hs3b : (oRow c 1).view.WordExact} {hr3a : (oRow c 1).view.WordExact} {hr3b : (oRow c 1).view.WordExact}
    {hs4a : (oRow c 1).view.WordExact} {hs4b : (oRow c 1).view.WordExact} {hr4a : (oRow c 1).view.WordExact} {hr4b : (oRow c 1).view.WordExact}
    {hs5a : (oRow c 1).view.WordExact} {hs5b : (oRow c 1).view.WordExact} {hr5a : (oRow c 1).view.WordExact} {hr5b : (oRow c 1).view.WordExact}
    {hz0a : (zSlot 0 0).view.WordExact} {hz0b : (xRow c 0).view.WordExact}
    {hz1a : (zSlot 0 1).view.WordExact} {hz1b : (xRow c 0).view.WordExact}
    {hz2a : (zSlot 0 2).view.WordExact} {hz2b : (xRow c 0).view.WordExact}
    {hz3a : (zSlot 1 0).view.WordExact} {hz3b : (xRow c 1).view.WordExact}
    {hz4a : (zSlot 1 1).view.WordExact} {hz4b : (xRow c 1).view.WordExact}
    {hz5a : (zSlot 1 2).view.WordExact} {hz5b : (xRow c 1).view.WordExact}
    (W : Waits sig Unit) (k : PUnit → Prog (TpuEff nD τ sig (Elt F) Λ₀ .tc) α) :
    iprop((records m ρ K ∗ owes (c : Thread nD τ) 0 W
        ∗ credD c (dix 2 0 0) ∗ credD c (dix 2 0 1) ∗ credD c (dix 2 0 2) ∗ credD c (dix 2 1 0) ∗ credD c (dix 2 1 1) ∗ credD c (dix 2 1 2)
        ∗ credD c (dix 3 0 0) ∗ credD c (dix 3 0 1) ∗ credD c (dix 3 0 2) ∗ credD c (dix 3 1 0) ∗ credD c (dix 3 1 1) ∗ credD c (dix 3 1 2)
        ∗ credD c (dix 0 0 0) ∗ credD c (dix 0 0 1) ∗ credD c (dix 0 0 2) ∗ credD c (dix 0 1 0) ∗ credD c (dix 0 1 1) ∗ credD c (dix 0 1 2)
        ∗ posD c (dix 2 0 0) 0 ∗ posD c (dix 2 0 1) 0 ∗ posD c (dix 2 0 2) 0 ∗ posD c (dix 2 1 0) 0 ∗ posD c (dix 2 1 1) 0 ∗ posD c (dix 2 1 2) 0
        ∗ posD c (dix 3 0 0) 0 ∗ posD c (dix 3 0 1) 0 ∗ posD c (dix 3 0 2) 0 ∗ posD c (dix 3 1 0) 0 ∗ posD c (dix 3 1 1) 0 ∗ posD c (dix 3 1 2) 0
        ∗ posD c (dix 0 0 0) 0 ∗ posD c (dix 0 0 1) 0 ∗ posD c (dix 0 0 2) 0 ∗ posD c (dix 0 1 0) 0 ∗ posD c (dix 0 1 1) 0 ∗ posD c (dix 0 1 2) 0)
      ∗ ((∃ W', owes (c : Thread nD τ) 0 W')
          ∗ posD c (dix 2 0 0) 1 ∗ posD c (dix 2 0 1) 1 ∗ posD c (dix 2 0 2) 1 ∗ posD c (dix 2 1 0) 1 ∗ posD c (dix 2 1 1) 1 ∗ posD c (dix 2 1 2) 1
          ∗ posD c (dix 3 0 0) 1 ∗ posD c (dix 3 0 1) 1 ∗ posD c (dix 3 0 2) 1 ∗ posD c (dix 3 1 0) 1 ∗ posD c (dix 3 1 1) 1 ∗ posD c (dix 3 1 2) 1
          ∗ posD c (dix 0 0 0) 1 ∗ posD c (dix 0 0 1) 1 ∗ posD c (dix 0 0 2) 1 ∗ posD c (dix 0 1 0) 1 ∗ posD c (dix 0 1 1) 1 ∗ posD c (dix 0 1 2) 1
          ∗ oAt m ρ c 0 c (xyshare 0) ∗ oAt m ρ c 0 c (xyshare 1) ∗ oAt m ρ c 0 c (xyshare 2) ∗ oAt m ρ c 1 c (xyshare 0) ∗ oAt m ρ c 1 c (xyshare 1) ∗ oAt m ρ c 1 c (xyshare 2)
          ∗ oAt m ρ (xp c 0) 0 c fullShare ∗ oAt m ρ (xp c 1) 0 c fullShare ∗ oAt m ρ (xp c 2) 0 c fullShare ∗ oAt m ρ (xp c 0) 1 c fullShare ∗ oAt m ρ (xp c 1) 1 c fullShare ∗ oAt m ρ (xp c 2) 1 c fullShare
          ∗ xr m ρ c 0 (zshare 0) ∗ xr m ρ c 0 (zshare 1) ∗ xr m ρ c 0 (zshare 2) ∗ xr m ρ c 1 (zshare 0) ∗ xr m ρ c 1 (zshare 1) ∗ xr m ρ c 1 (zshare 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (dsem (dix 2 0 0)) (oRow c 0) (oRow c 0) hs0a hs0b) fun _ =>
            .op (.waitDma2 (dsem (dix 3 0 0)) (oRow c 0) (oRow c 0) hr0a hr0b) fun _ =>
            .op (.waitDma2 (dsem (dix 2 0 1)) (oRow c 0) (oRow c 0) hs1a hs1b) fun _ =>
            .op (.waitDma2 (dsem (dix 3 0 1)) (oRow c 0) (oRow c 0) hr1a hr1b) fun _ =>
            .op (.waitDma2 (dsem (dix 2 0 2)) (oRow c 0) (oRow c 0) hs2a hs2b) fun _ =>
            .op (.waitDma2 (dsem (dix 3 0 2)) (oRow c 0) (oRow c 0) hr2a hr2b) fun _ =>
            .op (.waitDma2 (dsem (dix 2 1 0)) (oRow c 1) (oRow c 1) hs3a hs3b) fun _ =>
            .op (.waitDma2 (dsem (dix 3 1 0)) (oRow c 1) (oRow c 1) hr3a hr3b) fun _ =>
            .op (.waitDma2 (dsem (dix 2 1 1)) (oRow c 1) (oRow c 1) hs4a hs4b) fun _ =>
            .op (.waitDma2 (dsem (dix 3 1 1)) (oRow c 1) (oRow c 1) hr4a hr4b) fun _ =>
            .op (.waitDma2 (dsem (dix 2 1 2)) (oRow c 1) (oRow c 1) hs5a hs5b) fun _ =>
            .op (.waitDma2 (dsem (dix 3 1 2)) (oRow c 1) (oRow c 1) hr5a hr5b) fun _ =>
            .op (.waitDma2 (dsem (dix 0 0 0)) (zSlot 0 0) (xRow c 0) hz0a hz0b) fun _ =>
            .op (.waitDma2 (dsem (dix 0 0 1)) (zSlot 0 1) (xRow c 0) hz1a hz1b) fun _ =>
            .op (.waitDma2 (dsem (dix 0 0 2)) (zSlot 0 2) (xRow c 0) hz2a hz2b) fun _ =>
            .op (.waitDma2 (dsem (dix 0 1 0)) (zSlot 1 0) (xRow c 1) hz3a hz3b) fun _ =>
            .op (.waitDma2 (dsem (dix 0 1 1)) (zSlot 1 1) (xRow c 1) hz4a hz4b) fun _ =>
            .op (.waitDma2 (dsem (dix 0 1 2)) (zSlot 1 2) (xRow c 1) hz5a hz5b) k) Q := by
  iintro ⟨⟨#HR, HO, Hc2_00, Hc2_01, Hc2_02, Hc2_10, Hc2_11, Hc2_12, Hc3_00, Hc3_01, Hc3_02, Hc3_10, Hc3_11, Hc3_12, Hc0_00, Hc0_01, Hc0_02, Hc0_10, Hc0_11, Hc0_12, Hp2_00, Hp2_01, Hp2_02, Hp2_10, Hp2_11, Hp2_12, Hp3_00, Hp3_01, Hp3_02, Hp3_10, Hp3_11, Hp3_12, Hp0_00, Hp0_01, Hp0_02, Hp0_10, Hp0_11, Hp0_12⟩, Hk⟩
  iapply (step_waitD m ρ K c (dix 2 0 0) 0 _ (show (oRow c 0).view.dmaCredit = N from rfl)) $$ [HO Hc2_00 Hp2_00]
  · isplitr; · iexact HR
    isplitl [Hc2_00]; · iexact Hc2_00
    isplitl [HO]; · iexact HO
    isplitr; · rw [MayWait_zero]; iempintro
    iexact Hp2_00
  iintro ⟨HO, Hq2_00, Hy2_00⟩
  ihave Hy2_00 := (Entails.of_eq (dmaPay_xysend m ρ c 0 0)) $$ Hy2_00
  iapply (step_waitD m ρ K c (dix 3 0 0) 0 _ (show (oRow c 0).view.dmaCredit = N from rfl)) $$ [HO Hc3_00 Hp3_00]
  · isplitr; · iexact HR
    isplitl [Hc3_00]; · iexact Hc3_00
    isplitl [HO]; · iexact HO
    isplitr; · rw [MayWait_zero]; iempintro
    iexact Hp3_00
  iintro ⟨HO, Hq3_00, Hy3_00⟩
  ihave Hy3_00 := (Entails.of_eq (dmaPay_xyrecv m ρ c 0 0)) $$ Hy3_00
  iapply (step_waitD m ρ K c (dix 2 0 1) 0 _ (show (oRow c 0).view.dmaCredit = N from rfl)) $$ [HO Hc2_01 Hp2_01]
  · isplitr; · iexact HR
    isplitl [Hc2_01]; · iexact Hc2_01
    isplitl [HO]; · iexact HO
    isplitr; · rw [MayWait_zero]; iempintro
    iexact Hp2_01
  iintro ⟨HO, Hq2_01, Hy2_01⟩
  ihave Hy2_01 := (Entails.of_eq (dmaPay_xysend m ρ c 0 1)) $$ Hy2_01
  iapply (step_waitD m ρ K c (dix 3 0 1) 0 _ (show (oRow c 0).view.dmaCredit = N from rfl)) $$ [HO Hc3_01 Hp3_01]
  · isplitr; · iexact HR
    isplitl [Hc3_01]; · iexact Hc3_01
    isplitl [HO]; · iexact HO
    isplitr; · rw [MayWait_zero]; iempintro
    iexact Hp3_01
  iintro ⟨HO, Hq3_01, Hy3_01⟩
  ihave Hy3_01 := (Entails.of_eq (dmaPay_xyrecv m ρ c 0 1)) $$ Hy3_01
  iapply (step_waitD m ρ K c (dix 2 0 2) 0 _ (show (oRow c 0).view.dmaCredit = N from rfl)) $$ [HO Hc2_02 Hp2_02]
  · isplitr; · iexact HR
    isplitl [Hc2_02]; · iexact Hc2_02
    isplitl [HO]; · iexact HO
    isplitr; · rw [MayWait_zero]; iempintro
    iexact Hp2_02
  iintro ⟨HO, Hq2_02, Hy2_02⟩
  ihave Hy2_02 := (Entails.of_eq (dmaPay_xysend m ρ c 0 2)) $$ Hy2_02
  iapply (step_waitD m ρ K c (dix 3 0 2) 0 _ (show (oRow c 0).view.dmaCredit = N from rfl)) $$ [HO Hc3_02 Hp3_02]
  · isplitr; · iexact HR
    isplitl [Hc3_02]; · iexact Hc3_02
    isplitl [HO]; · iexact HO
    isplitr; · rw [MayWait_zero]; iempintro
    iexact Hp3_02
  iintro ⟨HO, Hq3_02, Hy3_02⟩
  ihave Hy3_02 := (Entails.of_eq (dmaPay_xyrecv m ρ c 0 2)) $$ Hy3_02
  iapply (step_waitD m ρ K c (dix 2 1 0) 0 _ (show (oRow c 1).view.dmaCredit = N from rfl)) $$ [HO Hc2_10 Hp2_10]
  · isplitr; · iexact HR
    isplitl [Hc2_10]; · iexact Hc2_10
    isplitl [HO]; · iexact HO
    isplitr; · rw [MayWait_zero]; iempintro
    iexact Hp2_10
  iintro ⟨HO, Hq2_10, Hy2_10⟩
  ihave Hy2_10 := (Entails.of_eq (dmaPay_xysend m ρ c 1 0)) $$ Hy2_10
  iapply (step_waitD m ρ K c (dix 3 1 0) 0 _ (show (oRow c 1).view.dmaCredit = N from rfl)) $$ [HO Hc3_10 Hp3_10]
  · isplitr; · iexact HR
    isplitl [Hc3_10]; · iexact Hc3_10
    isplitl [HO]; · iexact HO
    isplitr; · rw [MayWait_zero]; iempintro
    iexact Hp3_10
  iintro ⟨HO, Hq3_10, Hy3_10⟩
  ihave Hy3_10 := (Entails.of_eq (dmaPay_xyrecv m ρ c 1 0)) $$ Hy3_10
  iapply (step_waitD m ρ K c (dix 2 1 1) 0 _ (show (oRow c 1).view.dmaCredit = N from rfl)) $$ [HO Hc2_11 Hp2_11]
  · isplitr; · iexact HR
    isplitl [Hc2_11]; · iexact Hc2_11
    isplitl [HO]; · iexact HO
    isplitr; · rw [MayWait_zero]; iempintro
    iexact Hp2_11
  iintro ⟨HO, Hq2_11, Hy2_11⟩
  ihave Hy2_11 := (Entails.of_eq (dmaPay_xysend m ρ c 1 1)) $$ Hy2_11
  iapply (step_waitD m ρ K c (dix 3 1 1) 0 _ (show (oRow c 1).view.dmaCredit = N from rfl)) $$ [HO Hc3_11 Hp3_11]
  · isplitr; · iexact HR
    isplitl [Hc3_11]; · iexact Hc3_11
    isplitl [HO]; · iexact HO
    isplitr; · rw [MayWait_zero]; iempintro
    iexact Hp3_11
  iintro ⟨HO, Hq3_11, Hy3_11⟩
  ihave Hy3_11 := (Entails.of_eq (dmaPay_xyrecv m ρ c 1 1)) $$ Hy3_11
  iapply (step_waitD m ρ K c (dix 2 1 2) 0 _ (show (oRow c 1).view.dmaCredit = N from rfl)) $$ [HO Hc2_12 Hp2_12]
  · isplitr; · iexact HR
    isplitl [Hc2_12]; · iexact Hc2_12
    isplitl [HO]; · iexact HO
    isplitr; · rw [MayWait_zero]; iempintro
    iexact Hp2_12
  iintro ⟨HO, Hq2_12, Hy2_12⟩
  ihave Hy2_12 := (Entails.of_eq (dmaPay_xysend m ρ c 1 2)) $$ Hy2_12
  iapply (step_waitD m ρ K c (dix 3 1 2) 0 _ (show (oRow c 1).view.dmaCredit = N from rfl)) $$ [HO Hc3_12 Hp3_12]
  · isplitr; · iexact HR
    isplitl [Hc3_12]; · iexact Hc3_12
    isplitl [HO]; · iexact HO
    isplitr; · rw [MayWait_zero]; iempintro
    iexact Hp3_12
  iintro ⟨HO, Hq3_12, Hy3_12⟩
  ihave Hy3_12 := (Entails.of_eq (dmaPay_xyrecv m ρ c 1 2)) $$ Hy3_12
  iapply (step_waitD m ρ K c (dix 0 0 0) 0 _ (show (xRow c 0).view.dmaCredit = N from rfl)) $$ [HO Hc0_00 Hp0_00]
  · isplitr; · iexact HR
    isplitl [Hc0_00]; · iexact Hc0_00
    isplitl [HO]; · iexact HO
    isplitr; · rw [MayWait_zero]; iempintro
    iexact Hp0_00
  iintro ⟨HO, Hq0_00, Hy0_00⟩
  ihave Hy0_00 := (Entails.of_eq (dmaPay_zsend m ρ c 0 0)) $$ Hy0_00
  iapply (step_waitD m ρ K c (dix 0 0 1) 0 _ (show (xRow c 0).view.dmaCredit = N from rfl)) $$ [HO Hc0_01 Hp0_01]
  · isplitr; · iexact HR
    isplitl [Hc0_01]; · iexact Hc0_01
    isplitl [HO]; · iexact HO
    isplitr; · rw [MayWait_zero]; iempintro
    iexact Hp0_01
  iintro ⟨HO, Hq0_01, Hy0_01⟩
  ihave Hy0_01 := (Entails.of_eq (dmaPay_zsend m ρ c 0 1)) $$ Hy0_01
  iapply (step_waitD m ρ K c (dix 0 0 2) 0 _ (show (xRow c 0).view.dmaCredit = N from rfl)) $$ [HO Hc0_02 Hp0_02]
  · isplitr; · iexact HR
    isplitl [Hc0_02]; · iexact Hc0_02
    isplitl [HO]; · iexact HO
    isplitr; · rw [MayWait_zero]; iempintro
    iexact Hp0_02
  iintro ⟨HO, Hq0_02, Hy0_02⟩
  ihave Hy0_02 := (Entails.of_eq (dmaPay_zsend m ρ c 0 2)) $$ Hy0_02
  iapply (step_waitD m ρ K c (dix 0 1 0) 0 _ (show (xRow c 1).view.dmaCredit = N from rfl)) $$ [HO Hc0_10 Hp0_10]
  · isplitr; · iexact HR
    isplitl [Hc0_10]; · iexact Hc0_10
    isplitl [HO]; · iexact HO
    isplitr; · rw [MayWait_zero]; iempintro
    iexact Hp0_10
  iintro ⟨HO, Hq0_10, Hy0_10⟩
  ihave Hy0_10 := (Entails.of_eq (dmaPay_zsend m ρ c 1 0)) $$ Hy0_10
  iapply (step_waitD m ρ K c (dix 0 1 1) 0 _ (show (xRow c 1).view.dmaCredit = N from rfl)) $$ [HO Hc0_11 Hp0_11]
  · isplitr; · iexact HR
    isplitl [Hc0_11]; · iexact Hc0_11
    isplitl [HO]; · iexact HO
    isplitr; · rw [MayWait_zero]; iempintro
    iexact Hp0_11
  iintro ⟨HO, Hq0_11, Hy0_11⟩
  ihave Hy0_11 := (Entails.of_eq (dmaPay_zsend m ρ c 1 1)) $$ Hy0_11
  iapply (step_waitD m ρ K c (dix 0 1 2) 0 _ (show (xRow c 1).view.dmaCredit = N from rfl)) $$ [HO Hc0_12 Hp0_12]
  · isplitr; · iexact HR
    isplitl [Hc0_12]; · iexact Hc0_12
    isplitl [HO]; · iexact HO
    isplitr; · rw [MayWait_zero]; iempintro
    iexact Hp0_12
  iintro ⟨HO, Hq0_12, Hy0_12⟩
  ihave Hy0_12 := (Entails.of_eq (dmaPay_zsend m ρ c 1 2)) $$ Hy0_12
  iapply Hk
  isplitl [HO]; · iexists _; iexact HO
  isplitl [Hq2_00]; · iexact Hq2_00
  isplitl [Hq2_01]; · iexact Hq2_01
  isplitl [Hq2_02]; · iexact Hq2_02
  isplitl [Hq2_10]; · iexact Hq2_10
  isplitl [Hq2_11]; · iexact Hq2_11
  isplitl [Hq2_12]; · iexact Hq2_12
  isplitl [Hq3_00]; · iexact Hq3_00
  isplitl [Hq3_01]; · iexact Hq3_01
  isplitl [Hq3_02]; · iexact Hq3_02
  isplitl [Hq3_10]; · iexact Hq3_10
  isplitl [Hq3_11]; · iexact Hq3_11
  isplitl [Hq3_12]; · iexact Hq3_12
  isplitl [Hq0_00]; · iexact Hq0_00
  isplitl [Hq0_01]; · iexact Hq0_01
  isplitl [Hq0_02]; · iexact Hq0_02
  isplitl [Hq0_10]; · iexact Hq0_10
  isplitl [Hq0_11]; · iexact Hq0_11
  isplitl [Hq0_12]; · iexact Hq0_12
  isplitl [Hy2_00]; · iexact Hy2_00
  isplitl [Hy2_01]; · iexact Hy2_01
  isplitl [Hy2_02]; · iexact Hy2_02
  isplitl [Hy2_10]; · iexact Hy2_10
  isplitl [Hy2_11]; · iexact Hy2_11
  isplitl [Hy2_12]; · iexact Hy2_12
  isplitl [Hy3_00]; · iexact Hy3_00
  isplitl [Hy3_01]; · iexact Hy3_01
  isplitl [Hy3_02]; · iexact Hy3_02
  isplitl [Hy3_10]; · iexact Hy3_10
  isplitl [Hy3_11]; · iexact Hy3_11
  isplitl [Hy3_12]; · iexact Hy3_12
  isplitl [Hy0_00]; · iexact Hy0_00
  isplitl [Hy0_01]; · iexact Hy0_01
  isplitl [Hy0_02]; · iexact Hy0_02
  isplitl [Hy0_10]; · iexact Hy0_10
  isplitl [Hy0_11]; · iexact Hy0_11
  iexact Hy0_12

/-- info: 'Cert.KernelIdeal.AR.phaseD'' depends on axioms: [propext, Classical.choice, Quot.sound] -/
#guard_msgs in #print axioms phaseD'

end Cert.KernelIdeal.AR

end
-- ==== Proof.OpenPre.lean ====
/- The entry of a device's body: the ghost state opened, the landing buffer cut into its slots, the staged result into
   the plane's half-quarters, the staged `x` into the device's own two halves (each into its four shares) and the rest. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Gen.KernelIdeal.Points
import proofs.«900719_g7700000000000720_dist_ar_v7x_xyz2x2x4_z_m256_n256_f32_1_alg».proof.Proof.Tables
import proofs.«900719_g7700000000000720_dist_ar_v7x_xyz2x2x4_z_m256_n256_f32_1_alg».proof.Proof.Owes
import proofs.«900719_g7700000000000720_dist_ar_v7x_xyz2x2x4_z_m256_n256_f32_1_alg».proof.Proof.Regions
import proofs.«900719_g7700000000000720_dist_ar_v7x_xyz2x2x4_z_m256_n256_f32_1_alg».proof.Proof.Landing
import proofs.«900719_g7700000000000720_dist_ar_v7x_xyz2x2x4_z_m256_n256_f32_1_alg».proof.Proof.Glue
import proofs.«900719_g7700000000000720_dist_ar_v7x_xyz2x2x4_z_m256_n256_f32_1_alg».proof.Proof.Steps
import proofs.«900719_g7700000000000720_dist_ar_v7x_xyz2x2x4_z_m256_n256_f32_1_alg».proof.Proof.Phases
import proofs.«900719_g7700000000000720_dist_ar_v7x_xyz2x2x4_z_m256_n256_f32_1_alg».proof.Proof.Pieces

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-! ## The three staged buffers cut into the parts the protocol passes round -/

omit [FloatOps F] in
/-- The landing buffer, at whatever contents, is its six slots, each at some contents. -/
private theorem z_open (c : Dev nD) (f : Buf (Elt F) ((c : Thread nD τ).loc cc0_scratch0)) :
    ((((c : Thread nD τ).loc cc0_scratch0) ↦{fullShare} f : sProp 𝕄))
      ⊢ iprop(zAny c 0 0 ∗ zAny c 0 1 ∗ zAny c 0 2 ∗ zAny c 1 0 ∗ zAny c 1 1 ∗ zAny c 1 2) := by
  have hz : (bigSep (Finset.univ : Finset (Fin 2 × Fin 3)) fun hk =>
        ((zSlot hk.1 hk.2).view.loc (c : Thread nD τ) ↦[(zSlot hk.1 hk.2).view.set]{fullShare} f : sProp 𝕄))
      ⊢ iprop(zAny c 0 0 ∗ zAny c 0 1 ∗ zAny c 0 2 ∗ zAny c 1 0 ∗ zAny c 1 1 ∗ zAny c 1 2) := by
    rw [bigSep_hk]
    iintro ⟨H1, H2, H3, H4, H5, H6⟩
    isplitl [H1]; · iexists f; iexact H1
    isplitl [H2]; · iexists f; iexact H2
    isplitl [H3]; · iexists f; iexact H3
    isplitl [H4]; · iexists f; iexact H4
    isplitl [H5]; · iexists f; iexact H5
    iexists f; iexact H6
  iintro H
  ihave H := (z_split c f).1 $$ H
  iapply hz
  iexact H

omit [FloatOps F] in
/-- The staged result, at whatever contents, is the eight half-quarters of the device's plane, each at some contents. -/
private theorem o_open (c : Dev nD) (f : Buf (Elt F) ((c : Thread nD τ).loc cc0_stg1_0)) :
    ((((c : Thread nD τ).loc cc0_stg1_0) ↦{fullShare} f : sProp 𝕄))
      ⊢ iprop(oAny c 0 c ∗ oAny c 1 c ∗ oAny (xp c 0) 0 c ∗ oAny (xp c 0) 1 c ∗ oAny (xp c 1) 0 c ∗ oAny (xp c 1) 1 c
          ∗ oAny (xp c 2) 0 c ∗ oAny (xp c 2) 1 c) := by
  have ho : (bigSep (Finset.univ : Finset (Fin 4 × Fin 2)) fun jh =>
        ((oRow (pl c jh.1) jh.2).view.loc (c : Thread nD τ) ↦[(oRow (pl c jh.1) jh.2).view.set]{fullShare} f : sProp 𝕄))
      ⊢ iprop(oAny c 0 c ∗ oAny c 1 c ∗ oAny (xp c 0) 0 c ∗ oAny (xp c 0) 1 c ∗ oAny (xp c 1) 0 c ∗ oAny (xp c 1) 1 c
          ∗ oAny (xp c 2) 0 c ∗ oAny (xp c 2) 1 c) := by
    rw [bigSep_jh]
    iintro ⟨H1, H2, H3, H4, H5, H6, H7, H8⟩
    isplitl [H1]; · iexists f; iexact H1
    isplitl [H2]; · iexists f; iexact H2
    isplitl [H3]; · iexists f; iexact H3
    isplitl [H4]; · iexists f; iexact H4
    isplitl [H5]; · iexists f; iexact H5
    isplitl [H6]; · iexists f; iexact H6
    isplitl [H7]; · iexists f; iexact H7
    iexists f; iexact H8
  iintro H
  ihave H := (out_split c f).1 $$ H
  iapply ho
  iexact H

/-- The staged `x` is the device's own two halves, each in the three shares lent to its ring sends and the share kept for
    the load, and the rows outside its quarter. -/
private theorem x_open (c : Dev nD) :
    ((((c : Thread nD τ).loc cc0_stg0_0) ↦{fullShare} xstg m ρ c : sProp 𝕄))
      ⊢ iprop((xr m ρ c 0 (zshare 0) ∗ xr m ρ c 0 (zshare 1) ∗ xr m ρ c 0 (zshare 2)
            ∗ xr m ρ c 1 (zshare 0) ∗ xr m ρ c 1 (zshare 1) ∗ xr m ρ c 1 (zshare 2))
          ∗ xr m ρ c 0 keepShare ∗ xr m ρ c 1 keepShare
          ∗ (((c : Thread nD τ).loc cc0_stg0_0) ↦[xRest c]{fullShare} xstg m ρ c)) := by
  iintro H
  ihave H := (x_split c (xstg m ρ c)).1 $$ H
  icases H with ⟨X0, X1, R⟩
  ihave X0 := (share4 _ _).1 $$ X0
  ihave X1 := (share4 _ _).1 $$ X1
  icases X0 with ⟨A0, A1, A2, AK⟩
  icases X1 with ⟨B0, B1, B2, BK⟩
  isplitl [A0 A1 A2 B0 B1 B2]
  · isplitl [A0]; · iexact A0
    isplitl [A1]; · iexact A1
    isplitl [A2]; · iexact A2
    isplitl [B0]; · iexact B0
    isplitl [B1]; · iexact B1
    iexact B2
  isplitl [AK]; · iexact AK
  isplitl [BK]; · iexact BK
  iexact R

/-! ## The entry -/

theorem open_pre (c : Dev nD) : bodyPre m ρ K c ⊢ iprop(∃ W, pieces m ρ K c W) := by
  -- the finite conjunctions of the ghost state, member by member
  have h24 : (bigSep Finset.univ fun j : Fin 24 => (atPos ER (kcell (c, j.succ)) 0 ∅ 0 : sProp 𝕄))
      = bigSep Finset.univ fun j : Fin 24 => (posD c j 0 : sProp 𝕄) :=
    bigSep_congr fun j _ => by rw [kcell_d]
  have e_pos : (bigSep Finset.univ fun k : Fin 25 => (atPos ER (kcell (c, k)) 0 ∅ 0 : sProp 𝕄))
      = iprop(atPos ER (barCell c) 0 ∅ 0
        ∗ ((posD c (dix 0 0 0) 0 ∗ posD c (dix 0 0 1) 0 ∗ posD c (dix 0 0 2) 0 ∗ posD c (dix 0 1 0) 0 ∗ posD c (dix 0 1 1) 0 ∗ posD c (dix 0 1 2) 0)
          ∗ (posD c (dix 1 0 0) 0 ∗ posD c (dix 1 0 1) 0 ∗ posD c (dix 1 0 2) 0 ∗ posD c (dix 1 1 0) 0 ∗ posD c (dix 1 1 1) 0 ∗ posD c (dix 1 1 2) 0)
          ∗ (posD c (dix 2 0 0) 0 ∗ posD c (dix 2 0 1) 0 ∗ posD c (dix 2 0 2) 0 ∗ posD c (dix 2 1 0) 0 ∗ posD c (dix 2 1 1) 0 ∗ posD c (dix 2 1 2) 0)
          ∗ (posD c (dix 3 0 0) 0 ∗ posD c (dix 3 0 1) 0 ∗ posD c (dix 3 0 2) 0 ∗ posD c (dix 3 1 0) 0 ∗ posD c (dix 3 1 1) 0 ∗ posD c (dix 3 1 2) 0))) := by
    refine (bigSep_fin25_split _).trans ?_
    show iprop(atPos ER (kcell (c, 0)) 0 ∅ 0 ∗ bigSep Finset.univ fun j : Fin 24 => (atPos ER (kcell (c, j.succ)) 0 ∅ 0 : sProp 𝕄)) = _
    rw [h24, bigSep_fin24_cls, bigSep_hk, bigSep_hk, bigSep_hk, bigSep_hk]
    rfl
  have e_lo : (bigSep Finset.univ fun dd : Fin 3 => (dutyTok ER (barCell (zs c (dd.val + 1))) 0 (lo6 dd) : sProp 𝕄))
      = iprop(dutyTok ER (barCell (zs c 1)) 0 (lo6 0) ∗ dutyTok ER (barCell (zs c 2)) 0 (lo6 1) ∗ dutyTok ER (barCell (zs c 3)) 0 (lo6 2)) :=
    bigSep_fin3 _
  have e_hi : (bigSep Finset.univ fun i : Fin 3 => (dutyTok ER (barCell (xp c i)) 0 (hi6 i) : sProp 𝕄))
      = iprop(dutyTok ER (barCell (xp c 0)) 0 (hi6 0) ∗ dutyTok ER (barCell (xp c 1)) 0 (hi6 1) ∗ dutyTok ER (barCell (xp c 2)) 0 (hi6 2)) :=
    bigSep_fin3 _
  have e_t0 : (bigSep Finset.univ fun hk : Fin 2 × Fin 3 => (dutyTok ER (dCell c (dix 0 hk.1 hk.2)) 0 (0 : Fin 6) : sProp 𝕄))
      = iprop(tokD c (dix 0 0 0) ∗ tokD c (dix 0 0 1) ∗ tokD c (dix 0 0 2) ∗ tokD c (dix 0 1 0) ∗ tokD c (dix 0 1 1) ∗ tokD c (dix 0 1 2)) := bigSep_hk _
  have e_t1 : (bigSep Finset.univ fun hk : Fin 2 × Fin 3 => (dutyTok ER (dCell (zs c (hk.2.val + 1)) (dix 1 hk.1 hk.2)) 0 (0 : Fin 6) : sProp 𝕄))
      = iprop(tokD (zs c 1) (dix 1 0 0) ∗ tokD (zs c 2) (dix 1 0 1) ∗ tokD (zs c 3) (dix 1 0 2) ∗ tokD (zs c 1) (dix 1 1 0) ∗ tokD (zs c 2) (dix 1 1 1) ∗ tokD (zs c 3) (dix 1 1 2)) := bigSep_hk _
  have e_t2 : (bigSep Finset.univ fun hk : Fin 2 × Fin 3 => (dutyTok ER (dCell c (dix 2 hk.1 hk.2)) 0 (0 : Fin 6) : sProp 𝕄))
      = iprop(tokD c (dix 2 0 0) ∗ tokD c (dix 2 0 1) ∗ tokD c (dix 2 0 2) ∗ tokD c (dix 2 1 0) ∗ tokD c (dix 2 1 1) ∗ tokD c (dix 2 1 2)) := bigSep_hk _
  have e_t3 : (bigSep Finset.univ fun hk : Fin 2 × Fin 3 => (dutyTok ER (dCell (xp c hk.2) (dix 3 hk.1 hk.2)) 0 (0 : Fin 6) : sProp 𝕄))
      = iprop(tokD (xp c 0) (dix 3 0 0) ∗ tokD (xp c 1) (dix 3 0 1) ∗ tokD (xp c 2) (dix 3 0 2) ∗ tokD (xp c 0) (dix 3 1 0) ∗ tokD (xp c 1) (dix 3 1 1) ∗ tokD (xp c 2) (dix 3 1 2)) := bigSep_hk _
  have e_c1 : (bigSep Finset.univ fun hk : Fin 2 × Fin 3 => (cred (tallyAt (dCell c (dix 1 hk.1 hk.2)) () N) : sProp 𝕄))
      = iprop(credD c (dix 1 0 0) ∗ credD c (dix 1 0 1) ∗ credD c (dix 1 0 2) ∗ credD c (dix 1 1 0) ∗ credD c (dix 1 1 1) ∗ credD c (dix 1 1 2)) := bigSep_hk _
  have e_c3 : (bigSep Finset.univ fun hk : Fin 2 × Fin 3 => (cred (tallyAt (dCell c (dix 3 hk.1 hk.2)) () N) : sProp 𝕄))
      = iprop(credD c (dix 3 0 0) ∗ credD c (dix 3 0 1) ∗ credD c (dix 3 0 2) ∗ credD c (dix 3 1 0) ∗ credD c (dix 3 1 1) ∗ credD c (dix 3 1 2)) := bigSep_hk _
  unfold bodyPre ghost linear payToks creds
  rw [e_pos, e_lo, e_hi, e_t0, e_t1, e_t2, e_t3, e_c1, e_c3]
  iintro ⟨⟨⟨HR, ⟨Hpb, Hpos⟩, ⟨Hlo1, Hlo2, Hlo3⟩, ⟨Hhi1, Hhi2, Hhi3⟩, Ht0, Ht1, Ht2, Ht3⟩, ⟨Hcb, Hc1, Hc3⟩, HL, ⟨%fz, HZ⟩⟩, ⟨%W, %hW, HO⟩, ⟨%d0, %g0, %hg0, HX⟩, ⟨%d1, %g1, %hg1, HOut⟩⟩
  -- the staged `x` is the device's argument: the window fetches it whole at the one point
  have hx : g0 = xstg m ρ c := by rw [hg0]; unfold Dat.before; rw [if_pos (Gen.fetch0_0 t₀)]; rfl
  subst hx
  ihave HZ' := (z_open c fz) $$ HZ
  ihave HO' := (o_open c g1) $$ HOut
  ihave HX' := (x_open m ρ c) $$ HX
  iexists W
  unfold pieces
  isplitl [HR]; · iexact HR
  isplitl [HL]; · iexact HL
  isplitl [HO]; · iexact HO
  isplitl [Hcb]; · iexact Hcb
  isplitl [Hpb]; · iexact Hpb
  isplitl [Hc1]; · iexact Hc1
  isplitl [Hc3]; · iexact Hc3
  isplitl [Hpos]; · iexact Hpos
  isplitl [Hlo1 Hlo2 Hlo3 Hhi1 Hhi2 Hhi3]
  · isplitl [Hlo1]; · iexact Hlo1
    isplitl [Hlo2]; · iexact Hlo2
    isplitl [Hlo3]; · iexact Hlo3
    isplitl [Hhi1]; · iexact Hhi1
    isplitl [Hhi2]; · iexact Hhi2
    iexact Hhi3
  isplitl [Ht0]; · iexact Ht0
  isplitl [Ht1]; · iexact Ht1
  isplitl [Ht2]; · iexact Ht2
  isplitl [Ht3]; · iexact Ht3
  isplitl [HZ']; · iexact HZ'
  isplitl [HO']; · iexact HO'
  iexact HX'

/-- info: 'Cert.KernelIdeal.AR.open_pre' depends on axioms: [propext, Classical.choice, Quot.sound] -/
#guard_msgs in #print axioms open_pre

end Cert.KernelIdeal.AR

end
-- ==== Proof.Finish.lean ====
/- The exit of a device's body: its twenty-four cells closed, its three staged buffers rejoined at their final contents. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Tables
import proofs.«900719_g7700000000000720_dist_ar_v7x_xyz2x2x4_z_m256_n256_f32_1_alg».proof.Proof.Owes
import proofs.«900719_g7700000000000720_dist_ar_v7x_xyz2x2x4_z_m256_n256_f32_1_alg».proof.Proof.Regions
import proofs.«900719_g7700000000000720_dist_ar_v7x_xyz2x2x4_z_m256_n256_f32_1_alg».proof.Proof.Landing
import proofs.«900719_g7700000000000720_dist_ar_v7x_xyz2x2x4_z_m256_n256_f32_1_alg».proof.Proof.Glue
import proofs.«900719_g7700000000000720_dist_ar_v7x_xyz2x2x4_z_m256_n256_f32_1_alg».proof.Proof.Steps
import proofs.«900719_g7700000000000720_dist_ar_v7x_xyz2x2x4_z_m256_n256_f32_1_alg».proof.Proof.Phases
import proofs.«900719_g7700000000000720_dist_ar_v7x_xyz2x2x4_z_m256_n256_f32_1_alg».proof.Proof.Pieces

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- The six cells of one class closed: each, its one round consumed, gives its counter back at zero. -/
theorem close6 (c : Dev nD) (a : Fin 4) :
    iprop(records m ρ K ∗ (posD c (dix a 0 0) 1 ∗ posD c (dix a 0 1) 1 ∗ posD c (dix a 0 2) 1
        ∗ posD c (dix a 1 0) 1 ∗ posD c (dix a 1 1) 1 ∗ posD c (dix a 1 2) 1))
      ⊢ |={Set.univ}=> (bigSep Finset.univ fun hk : Fin 2 × Fin 3 => (semVal (dCell c (dix a hk.1 hk.2)) 0 : sProp 𝕄)) := by
  iintro ⟨#HR, P0, P1, P2, P3, P4, P5⟩
  imod (step_close m ρ K c (dix a 0 0)) $$ [P0] with S0
  · isplitr; · iexact HR
    iexact P0
  imod (step_close m ρ K c (dix a 0 1)) $$ [P1] with S1
  · isplitr; · iexact HR
    iexact P1
  imod (step_close m ρ K c (dix a 0 2)) $$ [P2] with S2
  · isplitr; · iexact HR
    iexact P2
  imod (step_close m ρ K c (dix a 1 0)) $$ [P3] with S3
  · isplitr; · iexact HR
    iexact P3
  imod (step_close m ρ K c (dix a 1 1)) $$ [P4] with S4
  · isplitr; · iexact HR
    iexact P4
  imod (step_close m ρ K c (dix a 1 2)) $$ [P5] with S5
  · isplitr; · iexact HR
    iexact P5
  imodintro
  rw [bigSep_hk]
  isplitl [S0]; · iexact S0
  isplitl [S1]; · iexact S1
  isplitl [S2]; · iexact S2
  isplitl [S3]; · iexact S3
  isplitl [S4]; · iexact S4
  iexact S5

/-- The exit: the twenty-four cells closed class by class; the landing buffer rejoined from its six slots; the staged
    `x` from the two halves of the device's quarter, each from its four shares, and the rest; the staged result from the
    eight half-quarters of the plane, the device's own two each from its three shares. -/
theorem finish (c : Dev nD) :
    leftovers m ρ K c ⊢ |={Set.univ}=> iprop(Φ₁ m ρ c ∗ stg c cc0_stg0_0 (xstg m ρ c) ∗ stg c cc0_stg1_0 (OUTV m ρ c)) := by
  unfold leftovers
  iintro ⟨#HR, ⟨P0, P1, P2, P3⟩, HZ, ⟨A00, A01, A02, A10, A11, A12⟩, ⟨B00, B10, B20, B01, B11, B21⟩,
    ⟨X00, X01, X02, X10, X11, X12⟩, Xk0, Xk1, Xrest⟩
  imod (close6 m ρ K c 0) $$ [P0] with S0
  · isplitr; · iexact HR
    iexact P0
  imod (close6 m ρ K c 1) $$ [P1] with S1
  · isplitr; · iexact HR
    iexact P1
  imod (close6 m ρ K c 2) $$ [P2] with S2
  · isplitr; · iexact HR
    iexact P2
  imod (close6 m ρ K c 3) $$ [P3] with S3
  · isplitr; · iexact HR
    iexact P3
  imodintro
  isplitl [HZ S0 S1 S2 S3]
  · unfold Φ₁
    isplitl [HZ]
    · iapply (z_split c (ZV m ρ c)).2
      rw [bigSep_hk]
      iexact HZ
    · rw [bigSep_fin24_cls]
      isplitl [S0]; · iexact S0
      isplitl [S1]; · iexact S1
      isplitl [S2]; · iexact S2
      iexact S3
  isplitl [X00 X01 X02 X10 X11 X12 Xk0 Xk1 Xrest]
  · iexists (xstg m ρ c)
    isplitr; · ipureintro; rfl
    iapply (x_split c (xstg m ρ c)).2
    isplitl [X00 X01 X02 Xk0]
    · iapply (share4 _ _).2
      isplitl [X00]; · iexact X00
      isplitl [X01]; · iexact X01
      isplitl [X02]; · iexact X02
      iexact Xk0
    isplitl [X10 X11 X12 Xk1]
    · iapply (share4 _ _).2
      isplitl [X10]; · iexact X10
      isplitl [X11]; · iexact X11
      isplitl [X12]; · iexact X12
      iexact Xk1
    iexact Xrest
  · iexists (OUTV m ρ c)
    isplitr; · ipureintro; rfl
    iapply (out_split c (OUTV m ρ c)).2
    rw [bigSep_jh]
    isplitl [A00 A01 A02]
    · iapply (share3 _ _).2
      isplitl [A00]; · iexact A00
      isplitl [A01]; · iexact A01
      iexact A02
    isplitl [A10 A11 A12]
    · iapply (share3 _ _).2
      isplitl [A10]; · iexact A10
      isplitl [A11]; · iexact A11
      iexact A12
    isplitl [B00]; · iexact B00
    isplitl [B01]; · iexact B01
    isplitl [B10]; · iexact B10
    isplitl [B11]; · iexact B11
    isplitl [B20]; · iexact B20
    iexact B21

/--
info: 'Cert.KernelIdeal.AR.finish' depends on axioms: [propext, Classical.choice, Quot.sound]
-/
#guard_msgs in #print axioms finish

end Cert.KernelIdeal.AR

end
-- ==== Proof.Body.lean ====
/- The body of one device, from what the launch and the pipeline hand it to what they take back: the staged buffers cut
   into the parts the protocol passes round, the four phases in program order, the cells closed and the buffers rejoined. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Tables
import proofs.«900719_g7700000000000720_dist_ar_v7x_xyz2x2x4_z_m256_n256_f32_1_alg».proof.Proof.Owes
import proofs.«900719_g7700000000000720_dist_ar_v7x_xyz2x2x4_z_m256_n256_f32_1_alg».proof.Proof.Regions
import proofs.«900719_g7700000000000720_dist_ar_v7x_xyz2x2x4_z_m256_n256_f32_1_alg».proof.Proof.Landing
import proofs.«900719_g7700000000000720_dist_ar_v7x_xyz2x2x4_z_m256_n256_f32_1_alg».proof.Proof.Glue
import proofs.«900719_g7700000000000720_dist_ar_v7x_xyz2x2x4_z_m256_n256_f32_1_alg».proof.Proof.Steps
import proofs.«900719_g7700000000000720_dist_ar_v7x_xyz2x2x4_z_m256_n256_f32_1_alg».proof.Proof.Phases
import proofs.«900719_g7700000000000720_dist_ar_v7x_xyz2x2x4_z_m256_n256_f32_1_alg».proof.Proof.Pieces
import proofs.«900719_g7700000000000720_dist_ar_v7x_xyz2x2x4_z_m256_n256_f32_1_alg».proof.Proof.PhaseA
import proofs.«900719_g7700000000000720_dist_ar_v7x_xyz2x2x4_z_m256_n256_f32_1_alg».proof.Proof.PhaseB
import proofs.«900719_g7700000000000720_dist_ar_v7x_xyz2x2x4_z_m256_n256_f32_1_alg».proof.Proof.PhaseC0
import proofs.«900719_g7700000000000720_dist_ar_v7x_xyz2x2x4_z_m256_n256_f32_1_alg».proof.Proof.PhaseC1
import proofs.«900719_g7700000000000720_dist_ar_v7x_xyz2x2x4_z_m256_n256_f32_1_alg».proof.Proof.PhaseD
import proofs.«900719_g7700000000000720_dist_ar_v7x_xyz2x2x4_z_m256_n256_f32_1_alg».proof.Proof.OpenPre
import proofs.«900719_g7700000000000720_dist_ar_v7x_xyz2x2x4_z_m256_n256_f32_1_alg».proof.Proof.Finish

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

set_option maxHeartbeats 4000000 in
set_option maxRecDepth 65536 in
/-- The body, from the pieces to the leftovers, phase by phase. -/
theorem run_body (c : Dev nD) (W : Waits sig Unit) (Kt : PUnit → sProp 𝕄) :
    iprop(pieces m ρ K c W ∗ (iprop(iprop(Φ₁ m ρ c ∗ stg c cc0_stg0_0 (xstg m ρ c) ∗ stg c cc0_stg1_0 (OUTV m ρ c)) ∗ ∃ W', owes (c : Thread nD τ) 0 W') -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold pieces
  iintro ⟨⟨#HR, #Hlev, HO, Hcb, Hpb, ⟨Hc1_00, Hc1_01, Hc1_02, Hc1_10, Hc1_11, Hc1_12⟩, ⟨Hc3_00, Hc3_01, Hc3_02, Hc3_10, Hc3_11, Hc3_12⟩,
    ⟨⟨Hp0_00, Hp0_01, Hp0_02, Hp0_10, Hp0_11, Hp0_12⟩, ⟨Hp1_00, Hp1_01, Hp1_02, Hp1_10, Hp1_11, Hp1_12⟩, ⟨Hp2_00, Hp2_01, Hp2_02, Hp2_10, Hp2_11, Hp2_12⟩, ⟨Hp3_00, Hp3_01, Hp3_02, Hp3_10, Hp3_11, Hp3_12⟩⟩,
    ⟨Htb0, Htb1, Htb2, Htb3, Htb4, Htb5⟩, ⟨Ht0_00, Ht0_01, Ht0_02, Ht0_10, Ht0_11, Ht0_12⟩, ⟨Ht1_00, Ht1_01, Ht1_02, Ht1_10, Ht1_11, Ht1_12⟩, ⟨Ht2_00, Ht2_01, Ht2_02, Ht2_10, Ht2_11, Ht2_12⟩, ⟨Ht3_00, Ht3_01, Ht3_02, Ht3_10, Ht3_11, Ht3_12⟩,
    ⟨Hz_00, Hz_01, Hz_02, Hz_10, Hz_11, Hz_12⟩, ⟨Hoo0, Hoo1, Hox00, Hox01, Hox10, Hox11, Hox20, Hox21⟩,
    ⟨Hxs_00, Hxs_01, Hxs_02, Hxs_10, Hxs_11, Hxs_12⟩, Hxk0, Hxk1, Hxrest⟩, Hk⟩
  -- A: the entry handshake
  iapply (phaseA' m ρ K c _ _ _ _ _ _ (dev1_eq c) (dev2_eq c) (dev3_eq c) (dev4_eq c) (dev5_eq c) (dev6_eq c) W _)
  isplitl [HO Hcb Hpb Htb0 Htb1 Htb2 Htb3 Htb4 Htb5 Hz_00 Hz_01 Hz_02 Hz_10 Hz_11 Hz_12 Hox00 Hox01 Hox10 Hox11 Hox20 Hox21]
  · isplitr; · iexact HR
    isplitr; · iexact Hlev
    isplitl [HO]; · iexact HO
    isplitl [Hcb]; · iexact Hcb
    isplitl [Hpb]; · iexact Hpb
    isplitl [Htb0]; · iexact Htb0
    isplitl [Htb1]; · iexact Htb1
    isplitl [Htb2]; · iexact Htb2
    isplitl [Htb3]; · iexact Htb3
    isplitl [Htb4]; · iexact Htb4
    isplitl [Htb5]; · iexact Htb5
    isplitl [Hz_02]; · iexact Hz_02
    isplitl [Hz_12]; · iexact Hz_12
    isplitl [Hz_01]; · iexact Hz_01
    isplitl [Hz_11]; · iexact Hz_11
    isplitl [Hz_00]; · iexact Hz_00
    isplitl [Hz_10]; · iexact Hz_10
    isplitl [Hox00]; · iexact Hox00
    isplitl [Hox01]; · iexact Hox01
    isplitl [Hox10]; · iexact Hox10
    isplitl [Hox11]; · iexact Hox11
    isplitl [Hox20]; · iexact Hox20
    iexact Hox21
  iintro ⟨⟨%W1, HO⟩, Hpb, Hzp_02, Hzp_12, Hzp_01, Hzp_11, Hzp_00, Hzp_10, Hop00, Hop01, Hop10, Hop11, Hop20, Hop21⟩
  -- B: the ring sends
  iapply (phaseB' m ρ K c _ _ _ _ _ _ (dev7_eq c) (dev8_eq c) (dev9_eq c) (dev10_eq c) (dev11_eq c) (dev12_eq c) W1 _)
  isplitl [HO Hxs_00 Hzp_00 Ht0_00 Ht1_00 Hxs_01 Hzp_01 Ht0_01 Ht1_01 Hxs_02 Hzp_02 Ht0_02 Ht1_02 Hxs_10 Hzp_10 Ht0_10 Ht1_10 Hxs_11 Hzp_11 Ht0_11 Ht1_11 Hxs_12 Hzp_12 Ht0_12 Ht1_12]
  · isplitr; · iexact HR
    isplitl [HO]; · iexact HO
    isplitl [Hxs_00]; · iexact Hxs_00
    isplitl [Hxs_01]; · iexact Hxs_01
    isplitl [Hxs_02]; · iexact Hxs_02
    isplitl [Hxs_10]; · iexact Hxs_10
    isplitl [Hxs_11]; · iexact Hxs_11
    isplitl [Hxs_12]; · iexact Hxs_12
    isplitl [Hzp_00]; · iexact Hzp_00
    isplitl [Hzp_01]; · iexact Hzp_01
    isplitl [Hzp_02]; · iexact Hzp_02
    isplitl [Hzp_10]; · iexact Hzp_10
    isplitl [Hzp_11]; · iexact Hzp_11
    isplitl [Hzp_12]; · iexact Hzp_12
    isplitl [Ht0_00]; · iexact Ht0_00
    isplitl [Ht0_01]; · iexact Ht0_01
    isplitl [Ht0_02]; · iexact Ht0_02
    isplitl [Ht0_10]; · iexact Ht0_10
    isplitl [Ht0_11]; · iexact Ht0_11
    isplitl [Ht0_12]; · iexact Ht0_12
    isplitl [Ht1_00]; · iexact Ht1_00
    isplitl [Ht1_01]; · iexact Ht1_01
    isplitl [Ht1_02]; · iexact Ht1_02
    isplitl [Ht1_10]; · iexact Ht1_10
    isplitl [Ht1_11]; · iexact Ht1_11
    iexact Ht1_12
  iintro ⟨⟨%W2, HO⟩, Hc0_00, Hc0_01, Hc0_02, Hc0_10, Hc0_11, Hc0_12⟩
  -- C, half 0
  iapply (phaseC0' m ρ K c _ _ _ (dev13_eq c) (dev14_eq c) (dev15_eq c) W2 _)
  isplitl [HO Hc1_00 Hc1_01 Hc1_02 Hp1_00 Hp1_01 Hp1_02 Hxk0 Hoo0 Hop00 Hop10 Hop20 Ht2_00 Ht2_01 Ht2_02 Ht3_00 Ht3_01 Ht3_02]
  · isplitr; · iexact HR
    isplitr; · iexact Hlev
    isplitl [HO]; · iexact HO
    isplitl [Hc1_00]; · iexact Hc1_00
    isplitl [Hc1_01]; · iexact Hc1_01
    isplitl [Hc1_02]; · iexact Hc1_02
    isplitl [Hp1_00]; · iexact Hp1_00
    isplitl [Hp1_01]; · iexact Hp1_01
    isplitl [Hp1_02]; · iexact Hp1_02
    isplitl [Hxk0]; · iexact Hxk0
    isplitl [Hoo0]; · iexact Hoo0
    isplitl [Hop00]; · iexact Hop00
    isplitl [Hop10]; · iexact Hop10
    isplitl [Hop20]; · iexact Hop20
    isplitl [Ht2_00]; · iexact Ht2_00
    isplitl [Ht2_01]; · iexact Ht2_01
    isplitl [Ht2_02]; · iexact Ht2_02
    isplitl [Ht3_00]; · iexact Ht3_00
    isplitl [Ht3_01]; · iexact Ht3_01
    iexact Ht3_02
  iintro ⟨⟨%W3, HO⟩, Hq1_00, Hq1_01, Hq1_02, Hza_00, Hza_01, Hza_02, Hxk0, Hc2_00, Hc2_01, Hc2_02⟩
  -- C, half 1
  iapply (phaseC1' m ρ K c _ _ _ (dev16_eq c) (dev17_eq c) (dev18_eq c) W3 _)
  isplitl [HO Hc1_10 Hc1_11 Hc1_12 Hp1_10 Hp1_11 Hp1_12 Hxk1 Hoo1 Hop01 Hop11 Hop21 Ht2_10 Ht2_11 Ht2_12 Ht3_10 Ht3_11 Ht3_12]
  · isplitr; · iexact HR
    isplitr; · iexact Hlev
    isplitl [HO]; · iexact HO
    isplitl [Hc1_10]; · iexact Hc1_10
    isplitl [Hc1_11]; · iexact Hc1_11
    isplitl [Hc1_12]; · iexact Hc1_12
    isplitl [Hp1_10]; · iexact Hp1_10
    isplitl [Hp1_11]; · iexact Hp1_11
    isplitl [Hp1_12]; · iexact Hp1_12
    isplitl [Hxk1]; · iexact Hxk1
    isplitl [Hoo1]; · iexact Hoo1
    isplitl [Hop01]; · iexact Hop01
    isplitl [Hop11]; · iexact Hop11
    isplitl [Hop21]; · iexact Hop21
    isplitl [Ht2_10]; · iexact Ht2_10
    isplitl [Ht2_11]; · iexact Ht2_11
    isplitl [Ht2_12]; · iexact Ht2_12
    isplitl [Ht3_10]; · iexact Ht3_10
    isplitl [Ht3_11]; · iexact Ht3_11
    iexact Ht3_12
  iintro ⟨⟨%W4, HO⟩, Hq1_10, Hq1_11, Hq1_12, Hza_10, Hza_11, Hza_12, Hxk1, Hc2_10, Hc2_11, Hc2_12⟩
  -- D: the exit waits
  rw [owedFrom_18]
  iapply (phaseD' m ρ K c W4 _)
  isplitl [HO Hc2_00 Hc2_01 Hc2_02 Hc2_10 Hc2_11 Hc2_12 Hc3_00 Hc3_01 Hc3_02 Hc3_10 Hc3_11 Hc3_12 Hc0_00 Hc0_01 Hc0_02 Hc0_10 Hc0_11 Hc0_12 Hp2_00 Hp2_01 Hp2_02 Hp2_10 Hp2_11 Hp2_12 Hp3_00 Hp3_01 Hp3_02 Hp3_10 Hp3_11 Hp3_12 Hp0_00 Hp0_01 Hp0_02 Hp0_10 Hp0_11 Hp0_12]
  · isplitr; · iexact HR
    isplitl [HO]; · iexact HO
    isplitl [Hc2_00]; · iexact Hc2_00
    isplitl [Hc2_01]; · iexact Hc2_01
    isplitl [Hc2_02]; · iexact Hc2_02
    isplitl [Hc2_10]; · iexact Hc2_10
    isplitl [Hc2_11]; · iexact Hc2_11
    isplitl [Hc2_12]; · iexact Hc2_12
    isplitl [Hc3_00]; · iexact Hc3_00
    isplitl [Hc3_01]; · iexact Hc3_01
    isplitl [Hc3_02]; · iexact Hc3_02
    isplitl [Hc3_10]; · iexact Hc3_10
    isplitl [Hc3_11]; · iexact Hc3_11
    isplitl [Hc3_12]; · iexact Hc3_12
    isplitl [Hc0_00]; · iexact Hc0_00
    isplitl [Hc0_01]; · iexact Hc0_01
    isplitl [Hc0_02]; · iexact Hc0_02
    isplitl [Hc0_10]; · iexact Hc0_10
    isplitl [Hc0_11]; · iexact Hc0_11
    isplitl [Hc0_12]; · iexact Hc0_12
    isplitl [Hp2_00]; · iexact Hp2_00
    isplitl [Hp2_01]; · iexact Hp2_01
    isplitl [Hp2_02]; · iexact Hp2_02
    isplitl [Hp2_10]; · iexact Hp2_10
    isplitl [Hp2_11]; · iexact Hp2_11
    isplitl [Hp2_12]; · iexact Hp2_12
    isplitl [Hp3_00]; · iexact Hp3_00
    isplitl [Hp3_01]; · iexact Hp3_01
    isplitl [Hp3_02]; · iexact Hp3_02
    isplitl [Hp3_10]; · iexact Hp3_10
    isplitl [Hp3_11]; · iexact Hp3_11
    isplitl [Hp3_12]; · iexact Hp3_12
    isplitl [Hp0_00]; · iexact Hp0_00
    isplitl [Hp0_01]; · iexact Hp0_01
    isplitl [Hp0_02]; · iexact Hp0_02
    isplitl [Hp0_10]; · iexact Hp0_10
    isplitl [Hp0_11]; · iexact Hp0_11
    iexact Hp0_12
  iintro ⟨⟨%W5, HO⟩, Hq2_00, Hq2_01, Hq2_02, Hq2_10, Hq2_11, Hq2_12, Hq3_00, Hq3_01, Hq3_02, Hq3_10, Hq3_11, Hq3_12, Hq0_00, Hq0_01, Hq0_02, Hq0_10, Hq0_11, Hq0_12, Hos_00, Hos_01, Hos_02, Hos_10, Hos_11, Hos_12, Hor_00, Hor_01, Hor_02, Hor_10, Hor_11, Hor_12, Hxs_00, Hxs_01, Hxs_02, Hxs_10, Hxs_11, Hxs_12⟩
  imod (finish m ρ K c) $$ [Hq0_00 Hq0_01 Hq0_02 Hq0_10 Hq0_11 Hq0_12 Hq1_00 Hq1_01 Hq1_02 Hq1_10 Hq1_11 Hq1_12 Hq2_00 Hq2_01 Hq2_02 Hq2_10 Hq2_11 Hq2_12 Hq3_00 Hq3_01 Hq3_02 Hq3_10 Hq3_11 Hq3_12 Hza_00 Hza_01 Hza_02 Hza_10 Hza_11 Hza_12 Hos_00 Hos_01 Hos_02 Hos_10 Hos_11 Hos_12 Hor_00 Hor_01 Hor_02 Hor_10 Hor_11 Hor_12 Hxs_00 Hxs_01 Hxs_02 Hxs_10 Hxs_11 Hxs_12 Hxk0 Hxk1 Hxrest] with Hfin
  · unfold leftovers
    isplitr; · iexact HR
    isplitl [Hq0_00 Hq0_01 Hq0_02 Hq0_10 Hq0_11 Hq0_12 Hq1_00 Hq1_01 Hq1_02 Hq1_10 Hq1_11 Hq1_12 Hq2_00 Hq2_01 Hq2_02 Hq2_10 Hq2_11 Hq2_12 Hq3_00 Hq3_01 Hq3_02 Hq3_10 Hq3_11 Hq3_12]
    · isplitl [Hq0_00 Hq0_01 Hq0_02 Hq0_10 Hq0_11 Hq0_12]
      · isplitl [Hq0_00]; · iexact Hq0_00
        isplitl [Hq0_01]; · iexact Hq0_01
        isplitl [Hq0_02]; · iexact Hq0_02
        isplitl [Hq0_10]; · iexact Hq0_10
        isplitl [Hq0_11]; · iexact Hq0_11
        iexact Hq0_12
      isplitl [Hq1_00 Hq1_01 Hq1_02 Hq1_10 Hq1_11 Hq1_12]
      · isplitl [Hq1_00]; · iexact Hq1_00
        isplitl [Hq1_01]; · iexact Hq1_01
        isplitl [Hq1_02]; · iexact Hq1_02
        isplitl [Hq1_10]; · iexact Hq1_10
        isplitl [Hq1_11]; · iexact Hq1_11
        iexact Hq1_12
      isplitl [Hq2_00 Hq2_01 Hq2_02 Hq2_10 Hq2_11 Hq2_12]
      · isplitl [Hq2_00]; · iexact Hq2_00
        isplitl [Hq2_01]; · iexact Hq2_01
        isplitl [Hq2_02]; · iexact Hq2_02
        isplitl [Hq2_10]; · iexact Hq2_10
        isplitl [Hq2_11]; · iexact Hq2_11
        iexact Hq2_12
      isplitl [Hq3_00]; · iexact Hq3_00
      isplitl [Hq3_01]; · iexact Hq3_01
      isplitl [Hq3_02]; · iexact Hq3_02
      isplitl [Hq3_10]; · iexact Hq3_10
      isplitl [Hq3_11]; · iexact Hq3_11
      iexact Hq3_12
    isplitl [Hza_00 Hza_01 Hza_02 Hza_10 Hza_11 Hza_12]
    · isplitl [Hza_00]; · iexact Hza_00
      isplitl [Hza_01]; · iexact Hza_01
      isplitl [Hza_02]; · iexact Hza_02
      isplitl [Hza_10]; · iexact Hza_10
      isplitl [Hza_11]; · iexact Hza_11
      iexact Hza_12
    isplitl [Hos_00 Hos_01 Hos_02 Hos_10 Hos_11 Hos_12]
    · isplitl [Hos_00]; · iexact Hos_00
      isplitl [Hos_01]; · iexact Hos_01
      isplitl [Hos_02]; · iexact Hos_02
      isplitl [Hos_10]; · iexact Hos_10
      isplitl [Hos_11]; · iexact Hos_11
      iexact Hos_12
    isplitl [Hor_00 Hor_01 Hor_02 Hor_10 Hor_11 Hor_12]
    · isplitl [Hor_00]; · iexact Hor_00
      isplitl [Hor_01]; · iexact Hor_01
      isplitl [Hor_02]; · iexact Hor_02
      isplitl [Hor_10]; · iexact Hor_10
      isplitl [Hor_11]; · iexact Hor_11
      iexact Hor_12
    isplitl [Hxs_00 Hxs_01 Hxs_02 Hxs_10 Hxs_11 Hxs_12]
    · isplitl [Hxs_00]; · iexact Hxs_00
      isplitl [Hxs_01]; · iexact Hxs_01
      isplitl [Hxs_02]; · iexact Hxs_02
      isplitl [Hxs_10]; · iexact Hxs_10
      isplitl [Hxs_11]; · iexact Hxs_11
      iexact Hxs_12
    isplitl [Hxk0]; · iexact Hxk0
    isplitl [Hxk1]; · iexact Hxk1
    iexact Hxrest
  rw [wp_ret]; imodintro
  iapply Hk
  isplitl [Hfin]; · iexact Hfin
  iexists W5; iexact HO

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = iprop(Φ (0 : Fin 2) ∗ Φ (1 : Fin 2)) := bigSep_W0 Φ

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  unfold bodyPre' Φ₀ start
  iintro ⟨⟨⟨⟨%K, Hg⟩, Hcr, Hlev⟩, Hscr⟩, Ho, Hx, Hout⟩
  ihave Hp := (open_pre m ρ K c) $$ [Hg Hcr Hlev Hscr Ho Hx Hout]
  · unfold bodyPre
    isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    iexact Hout
  icases Hp with ⟨%W, Hp⟩
  iapply (run_body m ρ K c W fun _ => bodyPost m ρ c)
  isplitl [Hp]; · iexact Hp
  iintro ⟨⟨HΦ, Hx, Hout⟩, ⟨%W', HO⟩⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Hx]; · iexact Hx
  iexact Hout

/-- info: 'Cert.KernelIdeal.AR.body_obligation' depends on axioms: [propext, Classical.choice, Quot.sound] -/
#guard_msgs in #print axioms body_obligation

end Cert.KernelIdeal.AR

end
-- ==== Proof.Launch.lean ====
/- The launch: the protocol's cells allocated for all sixteen devices at once, their tokens dealt to the devices that pay
   them, each device's credit and levels, and the run of @main from any memory with zero counters to each device's arrays
   at their final contents. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Tables
import proofs.«900719_g7700000000000720_dist_ar_v7x_xyz2x2x4_z_m256_n256_f32_1_alg».proof.Proof.Owes
import proofs.«900719_g7700000000000720_dist_ar_v7x_xyz2x2x4_z_m256_n256_f32_1_alg».proof.Proof.Gen.KernelIdeal.Points
import Idealize.ShloMosaic.Lib.Pipeline.Launch
import Idealize.ShloMosaic.Lib.Pipeline.Kit
import Idealize.ShloMosaic.Lib.Pipeline.Cells

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

theorem ownSemFacts : Pipeline.OwnSemFacts cfg0.spec osem := by decide

theorem share_eq (c : Dev nD) (w : Fin cfg0.W) : (dats m ρ 0 c).share w = fullShare := by unfold Dat.share; split <;> rfl

/-- The twenty-five semaphores of a device are pairwise distinct: the barrier is no DMA semaphore, and the DMA
    semaphores differ by their index. -/
private theorem csem_injective : Function.Injective csem := by
  intro k k' h
  unfold csem at h
  by_cases hk : k.val = 0
  · by_cases hk' : k'.val = 0
    · exact Fin.ext (hk.trans hk'.symm)
    · rw [dif_pos hk, dif_neg hk'] at h; cases h
  · by_cases hk' : k'.val = 0
    · rw [dif_neg hk, dif_pos hk'] at h; cases h
    · rw [dif_neg hk, dif_neg hk'] at h
      have h2 := congrArg (fun s : DmaSem sig => s.val) (SemLoc.dma.inj h)
      simp only [dsem] at h2
      exact Fin.ext (by omega)

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

private theorem dix_injective {a a' : Fin 4} {h h' : Fin 2} {k k' : Fin 3} (e : dix a h k = dix a' h' k') : a = a' ∧ h = h' ∧ k = k' := by
  have e' := congrArg Fin.val e
  simp only [dix] at e'
  have := a.isLt; have := a'.isLt; have := h.isLt; have := h'.isLt; have := k.isLt; have := k'.isLt
  exact ⟨Fin.ext (by omega), Fin.ext (by omega), Fin.ext (by omega)⟩

/-- The names of the thirty duty tokens minted on a device's own cells: its barrier's three ring duties, its three plane
    duties, and the one duty of each of its twenty-four DMA cells by class, half and lane. -/
abbrev TI : Type := (Fin 3 ⊕ Fin 3) ⊕ (Fin 4 × (Fin 2 × Fin 3))

def tokOf (cj : Dev nD × TI) : GSem nD τ sig × ℕ × Fin 6 := match cj.2 with
  | .inl (.inl dd) => (barCell cj.1, 0, lo6 dd)
  | .inl (.inr i) => (barCell cj.1, 0, hi6 i)
  | .inr x => (dCell cj.1 (dix x.1 x.2.1 x.2.2), 0, 0)

theorem tokOf_injective : Function.Injective (tokOf : Dev nD × TI → GSem nD τ sig × ℕ × Fin 6) := by
  rintro ⟨c, j⟩ ⟨c', j'⟩ h
  have h1 : c = c' := by
    have := congrArg (fun x : GSem nD τ sig × ℕ × Fin 6 => x.1.1.1) h
    rcases j with (dd | i) | x <;> rcases j' with (dd' | i') | x' <;> exact this
  subst h1
  have hs := congrArg (fun x : GSem nD τ sig × ℕ × Fin 6 => x.1.2) h
  have hd := congrArg (fun x : GSem nD τ sig × ℕ × Fin 6 => x.2.2.val) h
  rcases j with (dd | i) | ⟨a, hh, k⟩ <;> rcases j' with (dd' | i') | ⟨a', hh', k'⟩ <;> simp only [tokOf, lo6, hi6] at hs hd
  · have : dd = dd' := Fin.ext hd
    subst this; rfl
  · have := dd.isLt; omega
  · cases hs
  · have := dd'.isLt; omega
  · have : i = i' := Fin.ext (by omega)
    subst this; rfl
  · cases hs
  · cases hs
  · cases hs
  · have h3 := congrArg (fun s : DmaSem sig => s.val) (SemLoc.dma.inj hs)
    simp only [dsem] at h3
    obtain ⟨rfl, rfl, rfl⟩ := dix_injective (Fin.ext (by omega) : dix a hh k = dix a' hh' k')
    rfl

def ringToks : Finset (GSem nD τ sig × ℕ × Fin 6) := Finset.univ.map ⟨tokOf, tokOf_injective⟩

def u₀ : UU :=
  (initOf (Pipeline.cells cfgs cellOf_inj) (Pipeline.launchToks cfgs cellOf_inj), initOf ringCells ringToks)

/-- The duty tokens of device `c`'s own cells, family by family. -/
def toks (c : Dev nD) : sProp 𝕄 :=
  iprop(((bigSep Finset.univ fun dd : Fin 3 => dutyTok ER (barCell c) 0 (lo6 dd))
      ∗ (bigSep Finset.univ fun i : Fin 3 => dutyTok ER (barCell c) 0 (hi6 i)))
    ∗ (bigSep Finset.univ fun hk : Fin 2 × Fin 3 => dutyTok ER (dCell c (dix 0 hk.1 hk.2)) 0 (0 : Fin 6))
    ∗ (bigSep Finset.univ fun hk : Fin 2 × Fin 3 => dutyTok ER (dCell c (dix 1 hk.1 hk.2)) 0 (0 : Fin 6))
    ∗ (bigSep Finset.univ fun hk : Fin 2 × Fin 3 => dutyTok ER (dCell c (dix 2 hk.1 hk.2)) 0 (0 : Fin 6))
    ∗ (bigSep Finset.univ fun hk : Fin 2 × Fin 3 => dutyTok ER (dCell c (dix 3 hk.1 hk.2)) 0 (0 : Fin 6)))

/-- What the launch element deals device `c`. -/
def dealt (c : Dev nD) : sProp 𝕄 :=
  iprop((bigSep Finset.univ fun k : Fin 25 => roundState ER (sched m ρ) (kcell (c, k)) 0)
    ∗ (bigSep Finset.univ fun k : Fin 25 => iprop(atPos ER (kcell (c, k)) 0 ∅ 0 ∗ reached ER (kcell (c, k)) 0)) ∗ toks c)

/-- What the global step makes of it. -/
def dealt' (c : Dev nD) : sProp 𝕄 := iprop(∃ K, ghost m ρ K c)

private theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_ring : BI.own (ER (initOf ringCells ringToks)) ⊢ (|==> bigSep Finset.univ (dealt m ρ) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_univ_prod, bigSep_fin4]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The counters at zero, and the cells' invariants allocated -/

/-- A `bigSep` over `Fin (n + 1)`: the first summand, then the rest. -/
private theorem bigSep_fin_succ {n : ℕ} (Φ : Fin (n + 1) → sProp 𝕄) :
    bigSep Finset.univ Φ = iprop(Φ 0 ∗ bigSep Finset.univ fun j : Fin n => Φ j.succ) := by
  rw [Fin.univ_succ, Finset.cons_eq_insert, bigSep_insert (by simp [Fin.succ_ne_zero]), bigSep_map]; rfl

private theorem csem_zero : csem (0 : Fin 25) = .reg barS := rfl
private theorem csem_succ (j : Fin 24) : csem j.succ = osem j := by
  unfold csem
  rw [dif_neg (by simp)]
  exact congrArg (fun x => SemLoc.dma (dsem x)) (Fin.ext (by simp))

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [unscopedSems0_eq, bigSep_fin_succ]
  unfold Pipeline.ownSems0
  iintro ⟨HS, HB⟩
  isplitl [HB]
  · iexact HB
  · iapply (Entails.of_eq (bigSep_congr fun j _ => by rw [show kcell (c, j.succ) = ((c : Thread nD τ), osem j) from congrArg (Prod.mk _) (csem_succ j)]))
    iexact HS

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Fin 25 => iprop(∃ κ : ℕ, cellInv ER (sched m ρ) κ (kcell (c, k))))
          ∗ (bigSep Finset.univ fun k : Fin 25 => iprop(atPos ER (kcell (c, k)) 0 ∅ 0 ∗ reached ER (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (sched m ρ) (kcell (c, k)) 0)
      ⊢ (|={Set.univ}=> bigSep Finset.univ fun k : Fin 25 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

private instance records_launch_persistent (K : Dev nD × Fin 25 → ℕ) : BI.Persistent (records m ρ K) := by unfold records; infer_instance

theorem ghost_intro (K : Dev nD × Fin 25 → ℕ) (c : Dev nD) : iprop(records m ρ K ∗ linear c) ⊢ dealt' m ρ c := by
  unfold dealt' ghost
  iintro H
  iexists K
  iexact H

/-! ## The tokens dealt to the devices that pay them -/

/-- A doubly indexed `bigSep` re-indexed in its first index along a permutation that may depend on the second. -/
private theorem bigSep_reindex {α β : Type} [Fintype α] [Fintype β] (e : β → α ≃ α) (Φ : α → β → sProp 𝕄) :
    (bigSep Finset.univ fun a => bigSep Finset.univ fun b => Φ a b) = bigSep Finset.univ fun a => bigSep Finset.univ fun b => Φ (e b a) b := by
  rw [bigSep_univ_comm, bigSep_univ_comm (fun a b => Φ (e b a) b)]
  exact bigSep_congr fun b _ => bigSep_univ_equiv (e b) _

/-- The ring step `dd + 1`, as an index of the permutations of the ring. -/
private def step (dd : Fin 3) : Fin 4 := ⟨dd.val + 1, by omega⟩

/-- Each barrier's ring duty `dd` goes to the device `dd + 1` steps back, its plane duty `i` to plane neighbour `i`; each ring
    receive cell's duty to the device `kk + 1` steps back, each plane receive cell's to plane neighbour `i`; the send cells'
    stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep']
  rw [bigSep_reindex (fun dd : Fin 3 => zsEquiv (step dd)) (fun (c : Dev nD) (dd : Fin 3) => (dutyTok ER (barCell c) 0 (lo6 dd) : sProp 𝕄)),
    bigSep_reindex (fun i : Fin 3 => xpEquiv i) (fun (c : Dev nD) (i : Fin 3) => (dutyTok ER (barCell c) 0 (hi6 i) : sProp 𝕄)),
    bigSep_reindex (fun hk : Fin 2 × Fin 3 => zsEquiv (step hk.2)) (fun (c : Dev nD) (hk : Fin 2 × Fin 3) => (dutyTok ER (dCell c (dix 1 hk.1 hk.2)) 0 (0 : Fin 6) : sProp 𝕄)),
    bigSep_reindex (fun hk : Fin 2 × Fin 3 => xpEquiv hk.2) (fun (c : Dev nD) (hk : Fin 2 × Fin 3) => (dutyTok ER (dCell c (dix 3 hk.1 hk.2)) 0 (0 : Fin 6) : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem regroup :
    (bigSep Finset.univ fun c : Dev nD => iprop((bigSep Finset.univ fun k : Fin 25 => iprop(∃ κ : ℕ, cellInv ER (sched m ρ) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (dealt' m ρ) := by
  rw [bigSep_sep', bigSep_sep', ← bigSep_univ_prod (fun ck : Dev nD × Fin 25 => iprop(∃ κ : ℕ, cellInv ER (sched m ρ) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 25 => (atPos ER (kcell (c, k)) 0 ∅ 0 : sProp 𝕄)) payToks).symm).trans
      (bigSep_mono fun c _ => show _ ⊢ linear c from Entails.of_eq rfl))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (dealt' m ρ) :=
  ((bigSep_mono fun c _ => core_alloc m ρ c).trans (bigSep_fupd _ _)).trans (BI.fupd_mono (regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt' m ρ c)
      ⊢ |={Set.univ}=> iprop(start m ρ c ∗ emp) := by
  iintro ⟨-, Hlev, Hcr, -, HG⟩
  ihave Hc := (creds_intro (F := F) c) $$ Hcr
  imodintro
  unfold start dealt'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (ZV m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, from any memory with zero counters: every weakly fair execution of @main
    terminates, and every final state has each device's arrays at the computed contents — given each device's body. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := dealt' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the staged result's final contents: the one point writes the whole staged block
    back over the whole array. -/
theorem finalA_out (c : Dev nD) : ∀ i, finalA m ρ c (1 : Fin 2) i = OUTV m ρ c i := by
  intro i
  have hs := (dats m ρ 0 c).arrAt_succ (1 : Fin 2) t₀
  rw [flush0_1 t₀, if_pos rfl] at hs
  -- read back through the block what the write-back wrote through it
  have hr := congrArg (((cfg0.win 1).blk t₀).view.read (Elt F)) hs
  rw [View.read_write_univ] at hr
  have hi := congrFun hr i
  rw [View.read_apply] at hi
  -- the block is the whole array: its embedding is the identity
  have he : ((cfg0.win 1).blk t₀).view.emb i = i := by
    funext a
    apply Fin.ext
    show (((cfg0.win 1).rect t₀).emb i a : ℕ) = (i a : ℕ)
    rw [Rect.emb_apply]
    show 0 * _ + 1 * (i a : ℕ) = (i a : ℕ)
    omega
  rw [he] at hi
  exact hi

/-- info: 'Cert.KernelIdeal.AR.run_main' depends on axioms: [propext, Classical.choice, Quot.sound] -/
#guard_msgs in #print axioms run_main

/-- info: 'Cert.KernelIdeal.AR.finalA_out' depends on axioms: [propext, Classical.choice, Quot.sound] -/
#guard_msgs in #print axioms finalA_out

end Cert.KernelIdeal.AR

end
-- ==== Proof.Frame.lean ====
/- The first conjunct about the sixteen-device program, for any float model: given every device's body, the launch's one
   hypothesis, the program runs from any memory with zero counters and leaves every device's argument as it was. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Launch
import Idealize.ShloMosaic.Lib.Pipeline.Launch

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The program runs from any memory with zero counters and every device's argument ends as it began: the argument is
    the launch's window 0, whose array after the run holds what it held. -/
theorem frame_KI {F : FTy → Type} [FloatOps F]
    (hbody : ∀ (m : (ℓ : Loc nD τ sig) → Buf (Elt F) ℓ) (ρ : Dev nD → PrngReg) (c : Dev nD),
      BodyObligation (dats (F := F) m ρ 0 c) (defs₀ (F := F)) 𝒱₀ () Set.univ) :
    ∀ (m : (ℓ : Loc nD τ sig) → Buf (Elt F) ℓ) (g : Dev nD → PrngReg),
      θ_run (defs (F := F)) (onTc (τ := τ) (main (F := F))) ⟨m, fun _ => 0, g⟩
        (fun r => ∀ c : Dev nD, r.2.mem ((c.tc : Thread nD τ).loc main_arg0) = m ((c.tc : Thread nD τ).loc main_arg0)) :=
  fun m g => (θ_run _ _ _).mono (fun r h c => (h c 0).trans (finalA_x m g c)) (run_main m g (hbody m g))

/-- info: 'Cert.KernelIdeal.AR.frame_KI' depends on axioms: [propext, Classical.choice, Quot.sound] -/
#guard_msgs in #print axioms frame_KI

end Cert.KernelIdeal.AR

end
-- ==== Proof.Spec.lean ====
/- The all-reduce as one function of the whole array: entry (r, q) of the result is the sum, over the four blocks of 256
   rows the array is cut into, of entry (r, q) of the block. -/
import Idealize.ShloMosaic.PureOps.Ideal
import Idealize.ShloMosaic.Lib.ValueIdx

noncomputable section

namespace Cert.KernelIdeal.AR

open Idealize.ShloMosaic Idealize.ShloMosaic.ValueIdx
open scoped BigOperators

/-- Row `256 z + r` of the whole array: row `r` of its block `z`. -/
def blkRow (z : Fin 4) (r : Fin 256) : Fin 1024 := ⟨256 * z.val + r.val, by have := z.isLt; have := r.isLt; omega⟩

/-- The sum of the four 256-row blocks, entry by entry, over the extended reals. -/
def G (X : (⟨2, ![1024, 256]⟩ : Shape).Idx → EReal) : (⟨2, ![256, 256]⟩ : Shape).Idx → EReal :=
  fun i => ∑ z : Fin 4, X (ix2 (blkRow z (i 0)) (i 1))

end Cert.KernelIdeal.AR

end
-- ==== Proof.KValue.lean ====
/- The staged result's final contents, read at the ideal instance as one function of the whole array: every entry is the
   sum of the four blocks' entries, whichever device of the plane reduced its row and in whatever order it added. -/
import proofs.«900719_g7700000000000720_dist_ar_v7x_xyz2x2x4_z_m256_n256_f32_1_alg».proof.Proof.Core
import proofs.«900719_g7700000000000720_dist_ar_v7x_xyz2x2x4_z_m256_n256_f32_1_alg».proof.Proof.Regions
import proofs.«900719_g7700000000000720_dist_ar_v7x_xyz2x2x4_z_m256_n256_f32_1_alg».proof.Proof.Landing
import proofs.«900719_g7700000000000720_dist_ar_v7x_xyz2x2x4_z_m256_n256_f32_1_alg».proof.Proof.Spec
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## What the kernel's loads read, for any float instance -/

section AnyInstance

variable {F : FTy → Type} [FloatOps F]
variable (m : (ℓ : Loc nD τ sig) → Buf (Elt F) ℓ) (ρ : Dev nD → PrngReg)

/-- A landed slot, loaded as a 1 × 1 × 32 × 256 vector and cast to 32 × 256, is what its sender sent: the sender's rows. -/
private theorem zload_cast (c : Dev nD) (h : Fin 2) (kk : Fin 3) :
    shapeCast S32x256 (zM.view.readAt (Elt F) (slotRect h kk).toLoadRect (ZV m ρ c)) shapeCasts_S1x1x32x256_S32x256
      = zval m ρ c h kk := by
  have h1 : shapeCast S32x256 (zM.view.readAt (Elt F) (slotRect h kk).toLoadRect (ZV m ρ c)) shapeCasts_S1x1x32x256_S32x256
      = (zSlot h kk).view.read (Elt F) (ZV m ρ c) := rfl
  rw [h1, View.read_congr (fun i hi => ZV_at m ρ c h kk (ZV m ρ c) i hi), View.read_write_univ]

/-- The device's own rows, loaded and cast to their own shape, are its rows of the staged `x`. -/
private theorem xload_cast (c : Dev nD) (h : Fin 2) :
    shapeCast S32x256 (xM.view.readAt (Elt F) (rowRect2 c h).toLoadRect (xstg m ρ c)) shapeCasts_S32x256_S32x256
      = (xRow c h).view.read (Elt F) (xstg m ρ c) := by
  refine (shapeCast_self (s := S32x256) _ shapeCasts_S32x256_S32x256).trans ?_
  exact View.readAt_unit_congr xM.view (off1_eq_off2 c h).symm _ _ _

/-- The sum a device stores: its own rows plus the three landed slots, added left to right. -/
private theorem sumv_eq (c : Dev nD) : ∀ h : Fin 2, sumv m ρ c h
    = addf (addf (addf ((xRow c h).view.read (Elt F) (xstg m ρ c)) (zval m ρ c h 0)) (zval m ρ c h 1)) (zval m ρ c h 2) := by
  rw [Fin.forall_fin_two]
  constructor
  · rw [sumv_zero]; unfold k0_pay2 k0_pay1; dsimp only
    rw [xload_cast m ρ c 0, zload_cast m ρ c 0 0, zload_cast m ρ c 0 1, zload_cast m ρ c 0 2]
  · rw [sumv_one]; unfold k0_pay3; dsimp only
    rw [xload_cast m ρ c 1, zload_cast m ρ c 1 0, zload_cast m ρ c 1 1, zload_cast m ρ c 1 2]

/-- The staged `x` of a device is its argument array: the window is the whole array. -/
private theorem xstg_eq (c : Dev nD) : xstg m ρ c = m ((c.tc : Thread nD τ).loc main_arg0) := by
  unfold xstg
  exact Memref.read_access_unit_zero (Elt F) main_arg0 (funext fun a => Nat.zero_mul _) _ _

omit [FloatOps F] in
/-- Where entry `y` of half `h` of device `d`'s quarter sits in the 256 × 256 arrays: row `qo d + 32 h + y 0`, column `y 1`. -/
private theorem xrow_emb (d : Dev nD) (h : Fin 2) (y : S32x256.Idx) :
    (((xRow d h).view.emb y : S256x256.Idx) 0).val = qo d + 32 * h.val + (y 0).val
      ∧ (((xRow d h).view.emb y : S256x256.Idx) 1).val = (y 1).val := by
  have e : ∀ a, (((xRow d h).view.emb y : S256x256.Idx) a).val = k0_off1 d (BitVec.ofNat 32 (32 * h.val)) a + 1 * (y a).val :=
    fun a => rfl
  rw [e, e, off1_eq_qo]
  constructor
  · show qo d + 32 * h.val + 1 * (y 0).val = _; omega
  · show 0 + 1 * (y 1).val = _; omega

omit [FloatOps F] in
/-- The same for the result array: the half-quarters of `x` and of the result are the same rows. -/
private theorem orow_emb (d : Dev nD) (h : Fin 2) (y : S32x256.Idx) :
    (((oRow d h).view.emb y : S256x256.Idx) 0).val = qo d + 32 * h.val + (y 0).val
      ∧ (((oRow d h).view.emb y : S256x256.Idx) 1).val = (y 1).val := by
  have e : ∀ a, (((oRow d h).view.emb y : S256x256.Idx) a).val = k0_off1 d (BitVec.ofNat 32 (32 * h.val)) a + 1 * (y a).val :=
    fun a => rfl
  rw [e, e, off1_eq_qo]
  constructor
  · show qo d + 32 * h.val + 1 * (y 0).val = _; omega
  · show 0 + 1 * (y 1).val = _; omega

end AnyInstance

/-! ## At the ideal instance: every entry is the sum of the four blocks' entries -/

section AtIdeal

variable (m : (ℓ : Loc nD τ sig) → Buf (Elt Ideal) ℓ) (ρ : Dev nD → PrngReg)

/-- Under the layout hypothesis, entry `y` of half `h` of device `d`'s own quarter of its argument is the whole array's entry in
    block `d % 4`, at the same row and column. -/
private theorem xrow_at (X : (⟨2, ![1024, 256]⟩ : Shape).Idx → Elt Ideal .f32)
    (hagree : ∀ c : Dev nD, m ((c.tc : Thread nD τ).loc main_arg0)
      = Layout.blockN ⟨2, ![256, 256]⟩ ⟨2, ![1024, 256]⟩ (Layout.meshBlock [2, 2, 4] ![[2], []] c) X)
    (d : Dev nD) (h : Fin 2) (y : S32x256.Idx) (z : Fin 4) (r : Fin 256)
    (hz : z.val = d.val % 4) (hr : r.val = qo d + 32 * h.val + (y 0).val) :
    (xRow d h).view.read (Elt Ideal) (xstg m ρ d) y = X (ix2 (blkRow z r) (y 1)) := by
  rw [View.read_apply, xstg_eq, hagree d]
  show (Layout.blockN ⟨2, ![256, 256]⟩ ⟨2, ![1024, 256]⟩ (Layout.meshBlock [2, 2, 4] ![[2], []] d) X) ((xRow d h).view.emb y) = _
  rw [Layout.blockN_apply]
  refine congrArg X (funext fun a => Fin.ext ?_)
  obtain ⟨e0, e1⟩ := xrow_emb d h y
  match a with
  | ⟨0, _⟩ =>
    show Layout.meshLin [2, 2, 4] d.val [2] * 256 + (((xRow d h).view.emb y : S256x256.Idx) 0).val = 256 * z.val + r.val
    rw [e0, hz, hr]
    show ((d.val / 1) % 4 * 1 + 0) * 256 + _ = _
    omega
  | ⟨1, _⟩ =>
    show Layout.meshLin [2, 2, 4] d.val [] * 256 + (((xRow d h).view.emb y : S256x256.Idx) 1).val = (y 1).val
    rw [e1]
    show 0 * 256 + _ = _
    omega

/-- The row offsets of the four devices of a plane are the four quarters of the 256 rows. -/
private theorem qo_cover : ∀ (c : Dev nD) (t : Fin 4), ∃ j : Fin 4, qo (pl c j) = 64 * t.val := by decide

/-- Four terms indexed by a ring position and the three positions after it, in the kernel's order, are the sum over the ring. -/
private theorem ring_sum (f : Fin 4 → EReal) (a b c d : Fin 4) (hb : b.val = (a.val + 3) % 4) (hc : c.val = (a.val + 2) % 4)
    (hd : d.val = (a.val + 1) % 4) : f a + f b + f c + f d = ∑ z : Fin 4, f z := by
  rw [Fin.sum_univ_four]
  have ha := a.isLt
  have h4 : a.val = 0 ∨ a.val = 1 ∨ a.val = 2 ∨ a.val = 3 := by omega
  rcases h4 with h | h | h | h
  · obtain rfl : a = 0 := Fin.ext h
    obtain rfl : b = 3 := Fin.ext (by rw [hb, h]; rfl)
    obtain rfl : c = 2 := Fin.ext (by rw [hc, h]; rfl)
    obtain rfl : d = 1 := Fin.ext (by rw [hd, h]; rfl)
    abel
  · obtain rfl : a = 1 := Fin.ext h
    obtain rfl : b = 0 := Fin.ext (by rw [hb, h]; rfl)
    obtain rfl : c = 3 := Fin.ext (by rw [hc, h]; rfl)
    obtain rfl : d = 2 := Fin.ext (by rw [hd, h]; rfl)
    abel
  · obtain rfl : a = 2 := Fin.ext h
    obtain rfl : b = 1 := Fin.ext (by rw [hb, h]; rfl)
    obtain rfl : c = 0 := Fin.ext (by rw [hc, h]; rfl)
    obtain rfl : d = 3 := Fin.ext (by rw [hd, h]; rfl)
    abel
  · obtain rfl : a = 3 := Fin.ext h
    obtain rfl : b = 2 := Fin.ext (by rw [hb, h]; rfl)
    obtain rfl : c = 1 := Fin.ext (by rw [hc, h]; rfl)
    obtain rfl : d = 0 := Fin.ext (by rw [hd, h]; rfl)
    abel

/-- When every device's argument holds its block of the whole array `X`, every device's staged result ends at the sum of
    the four blocks of `X`. -/
theorem OUTV_ideal (X : (⟨2, ![1024, 256]⟩ : Shape).Idx → Elt Ideal .f32)
    (hagree : ∀ c : Dev nD, m ((c.tc : Thread nD τ).loc main_arg0)
      = Layout.blockN ⟨2, ![256, 256]⟩ ⟨2, ![1024, 256]⟩ (Layout.meshBlock [2, 2, 4] ![[2], []] c) X)
    (c : Dev nD) : ∀ i, OUTV (F := Ideal) m ρ c i = G X i := by
  intro i
  -- the quarter, the half and the row inside the half that hold row `i 0`
  have hi0 : ((i : S256x256.Idx) 0).val < 256 := ((i : S256x256.Idx) 0).isLt
  obtain ⟨j, hj⟩ := qo_cover c ⟨((i : S256x256.Idx) 0).val / 64, by omega⟩
  have hj' : qo (pl c j) = 64 * (((i : S256x256.Idx) 0).val / 64) := hj
  let h : Fin 2 := ⟨((i : S256x256.Idx) 0).val % 64 / 32, by omega⟩
  let y : S32x256.Idx := ix2 (n0 := 32) (n1 := 256) ⟨((i : S256x256.Idx) 0).val % 32, by omega⟩ ((i : S256x256.Idx) 1)
  have hy0 : (y 0).val = ((i : S256x256.Idx) 0).val % 32 := rfl
  have hh : h.val = ((i : S256x256.Idx) 0).val % 64 / 32 := rfl
  have hrow : ((i : S256x256.Idx) 0).val = qo (pl c j) + 32 * h.val + (y 0).val := by rw [hj', hy0, hh]; omega
  have hy : (oRow (pl c j) h).view.emb y = i := by
    obtain ⟨e0, e1⟩ := orow_emb (pl c j) h y
    funext a; apply Fin.ext
    match a with
    | ⟨0, _⟩ => exact e0.trans hrow.symm
    | ⟨1, _⟩ => exact e1
  have hmem : i ∈ (oRow (pl c j) h).view.set := hy ▸ View.emb_mem_set _ y
  rw [OUTV_at m ρ c j h (OUTV m ρ c) i hmem]
  conv_lhs => rw [← hy, View.write_emb_of_mem _ _ (Finset.mem_univ _)]
  show sumv m ρ (pl c j) h y = G X i
  rw [sumv_eq, addf_apply, addf_apply, addf_apply]
  -- the device's own rows and the three that landed, each an entry of the whole array in its sender's block
  have q3 : qo (zs (pl c j) 3) = qo (pl c j) := qo_zs (pl c j) 3
  have q2 : qo (zs (pl c j) 2) = qo (pl c j) := qo_zs (pl c j) 2
  have q1 : qo (zs (pl c j) 1) = qo (pl c j) := qo_zs (pl c j) 1
  have t0 : (xRow (pl c j) h).view.read (Elt Ideal) (xstg m ρ (pl c j)) y
      = X (ix2 (blkRow ⟨(pl c j).val % 4, by omega⟩ ((i : S256x256.Idx) 0)) (y 1)) :=
    xrow_at m ρ X hagree (pl c j) h y _ _ rfl hrow
  have t1 : zval m ρ (pl c j) h 0 y
      = X (ix2 (blkRow ⟨(zs (pl c j) 3).val % 4, by omega⟩ ((i : S256x256.Idx) 0)) (y 1)) :=
    xrow_at m ρ X hagree (zs (pl c j) 3) h y _ _ rfl (by rw [q3]; exact hrow)
  have t2 : zval m ρ (pl c j) h 1 y
      = X (ix2 (blkRow ⟨(zs (pl c j) 2).val % 4, by omega⟩ ((i : S256x256.Idx) 0)) (y 1)) :=
    xrow_at m ρ X hagree (zs (pl c j) 2) h y _ _ rfl (by rw [q2]; exact hrow)
  have t3 : zval m ρ (pl c j) h 2 y
      = X (ix2 (blkRow ⟨(zs (pl c j) 1).val % 4, by omega⟩ ((i : S256x256.Idx) 0)) (y 1)) :=
    xrow_at m ρ X hagree (zs (pl c j) 1) h y _ _ rfl (by rw [q1]; exact hrow)
  rw [t0, t1, t2, t3]
  -- the four senders are the four positions of the ring
  refine ring_sum (fun z => X (ix2 (blkRow z ((i : S256x256.Idx) 0)) ((i : S256x256.Idx) 1))) _ _ _ _ ?_ ?_ ?_
  · show ((pl c j).val / 4 * 4 + ((pl c j).val + 3) % 4) % 4 = ((pl c j).val % 4 + 3) % 4; omega
  · show ((pl c j).val / 4 * 4 + ((pl c j).val + 2) % 4) % 4 = ((pl c j).val % 4 + 2) % 4; omega
  · show ((pl c j).val / 4 * 4 + ((pl c j).val + 1) % 4) % 4 = ((pl c j).val % 4 + 1) % 4; omega

end AtIdeal

/-- info: 'Cert.KernelIdeal.AR.OUTV_ideal' depends on axioms: [propext, Classical.choice, Quot.sound] -/
#guard_msgs in #print axioms OUTV_ideal

end Cert.KernelIdeal.AR

end
-- ==== Proof.RefValue.lean ====
/- The reference's run read as one function of the whole array: its result is the sum of the four 256-row blocks. -/
import proofs.«900719_g7700000000000720_dist_ar_v7x_xyz2x2x4_z_m256_n256_f32_1_alg».proof.Defs
import proofs.«900719_g7700000000000720_dist_ar_v7x_xyz2x2x4_z_m256_n256_f32_1_alg».proof.Proof.Gen.ReferenceIdeal
import proofs.«900719_g7700000000000720_dist_ar_v7x_xyz2x2x4_z_m256_n256_f32_1_alg».proof.Proof.Gen.ReferenceIdeal.Run
import proofs.«900719_g7700000000000720_dist_ar_v7x_xyz2x2x4_z_m256_n256_f32_1_alg».proof.Proof.Gen.ReferenceIdeal.Read
import proofs.«900719_g7700000000000720_dist_ar_v7x_xyz2x2x4_z_m256_n256_f32_1_alg».proof.Proof.Gen.Pre_finite_inputs_ReferenceIdeal
import proofs.«900719_g7700000000000720_dist_ar_v7x_xyz2x2x4_z_m256_n256_f32_1_alg».proof.Proof.Spec
import Idealize.ShloMosaic.Lib.ValueIdx
import Idealize.ShloMosaic.Lib.StableHlo.Run
import Idealize.ShloMosaic.PureOps.Ideal.Laws

noncomputable section

namespace Cert.KernelIdeal.AR.Ref

open Idealize.ShloMosaic Idealize.SL.Sem
open Cert.KernelIdeal.AR

/-- The reshape's read index after the reduction's: block `k`, row `r`, column `q` of the three-axis array is row
    `256 k + r`, column `q` of the whole array, since `((k·256 + r)·256 + q) / 256 = 256 k + r` and its remainder is `q`. -/
theorem idx_comp (i : Cert.ReferenceIdeal.S256x256.Idx) (k : Fin 4) :
    Cert.ReferenceIdeal.Read.idx_main_v0 (Cert.ReferenceIdeal.Read.idx_main_v1 i k)
      = ValueIdx.ix2 (blkRow k (i 0)) (i 1) := by
  have h0 : (i 0).val < 256 := (i 0).isLt
  have h1 : (i 1).val < 256 := (i 1).isLt
  have hk : k.val < 4 := k.isLt
  funext a
  match a with
  | ⟨0, _⟩ =>
    exact Fin.ext (by
      show ((k.val * 256 + (i 0).val) * 256 + (i 1).val) / 256 = 256 * k.val + (i 0).val
      omega)
  | ⟨1, _⟩ =>
    exact Fin.ext (by
      show ((k.val * 256 + (i 0).val) * 256 + (i 1).val) % 256 = (i 1).val
      omega)

/-- The reference's last stage is the sum of the four blocks: its initial value is the zero word, which is `0` on the
    extended reals, and its `k`-th summand reads the reshaped array at block `k`, that is the whole array at row `256 k + r`. -/
theorem ref_value (x0 : (⟨Cert.ReferenceIdeal.S1024x256, .f32⟩ : BufTy).Contents (Elt Ideal)) :
    Cert.ReferenceIdeal.Read.val_main_v1 (F := Ideal) x0 = G x0 := by
  funext i
  rw [Cert.ReferenceIdeal.Read.val_main_v1_apply, Cert.ReferenceIdeal.Read.val_main_cst_apply]
  show Ideal.ofBits .f32 0x00000000#32 + _ = _
  rw [Ideal.ofBits_zero_f32, zero_add]
  unfold G
  refine Finset.sum_congr rfl fun k _ => ?_
  rw [Cert.ReferenceIdeal.Read.val_main_v0_apply, idx_comp]
  rfl

/-- Every weakly fair execution of the reference terminates with its result at the sum of the four blocks of its argument,
    the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
        = G (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
        = m' (((0 : Dev Cert.ReferenceIdeal.nD).tc : Thread Cert.ReferenceIdeal.nD Cert.ReferenceIdeal.τ).loc Cert.ReferenceIdeal.main_arg0)) :=
  (θ_run _ _ _).mono
    (fun r h => ⟨by rw [(h 0).1, Cert.ReferenceIdeal.Read.val_main_v1_eq]; exact ref_value _, (h 0).2⟩)
    (Cert.ReferenceIdeal.Value.run (F := Ideal) m' g')

/--
info: 'Cert.KernelIdeal.AR.Ref.ref_run' depends on axioms: [propext, Classical.choice, Quot.sound]
-/
#guard_msgs in #print axioms ref_run

/-- The reference runs, nothing faulting, and its argument ends unchanged: its run with the result's value dropped. -/
theorem frame_ref : Cert.frame_ReferenceIdeal :=
  fun m ρ _ => (θ_run _ _ _).mono (fun _ h c => (h c).2) (Cert.ReferenceIdeal.Value.run (F := Ideal) m ρ)

/--
info: 'Cert.KernelIdeal.AR.Ref.frame_ref' depends on axioms: [propext, Classical.choice, Quot.sound]
-/
#guard_msgs in #print axioms frame_ref

end Cert.KernelIdeal.AR.Ref

end
-- ==== Proof.Assemble.lean ====
/- The conjunct about the sixteen-device program at the ideal instance, assembled from the launch, the staged result's
   value and the reference's run: when every device's argument is its block of the reference's array, every device's
   result is the reference's result, the sum of the four blocks. It is stated given every device's body, the launch's one
   hypothesis. (That the program runs and leaves every device's argument as it was, for any float model, is `frame_KI`.) -/
import proofs.«900719_g7700000000000720_dist_ar_v7x_xyz2x2x4_z_m256_n256_f32_1_alg».proof.Defs
import proofs.«900719_g7700000000000720_dist_ar_v7x_xyz2x2x4_z_m256_n256_f32_1_alg».proof.Proof.Gen.KernelIdeal
import proofs.«900719_g7700000000000720_dist_ar_v7x_xyz2x2x4_z_m256_n256_f32_1_alg».proof.Proof.Gen.ReferenceIdeal
import proofs.«900719_g7700000000000720_dist_ar_v7x_xyz2x2x4_z_m256_n256_f32_1_alg».proof.Proof.Gen.Pre_finite_inputs_Kernel
import proofs.«900719_g7700000000000720_dist_ar_v7x_xyz2x2x4_z_m256_n256_f32_1_alg».proof.Proof.Core
import proofs.«900719_g7700000000000720_dist_ar_v7x_xyz2x2x4_z_m256_n256_f32_1_alg».proof.Proof.Launch
import proofs.«900719_g7700000000000720_dist_ar_v7x_xyz2x2x4_z_m256_n256_f32_1_alg».proof.Proof.Frame
import proofs.«900719_g7700000000000720_dist_ar_v7x_xyz2x2x4_z_m256_n256_f32_1_alg».proof.Proof.KValue
import proofs.«900719_g7700000000000720_dist_ar_v7x_xyz2x2x4_z_m256_n256_f32_1_alg».proof.Proof.RefValue
import Idealize.ShloMosaic.Lib.Pipeline.Launch
import Idealize.ShloMosaic.Lib.Layout

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- When every device's argument is its block of the reference's array, both programs run, every device's result and the
    reference's are the sum of the four blocks of that array, and the arguments of both end unchanged. The result is the
    launch's window 1, whose array after the run is the staged result's final contents. -/
theorem algebraic_KI
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.algebraic_KernelIdeal_ReferenceIdeal := by
  intro m g m' g' _ hagree
  refine ⟨G (m' (((0 : Dev Cert.ReferenceIdeal.nD).tc : Thread Cert.ReferenceIdeal.nD Cert.ReferenceIdeal.τ).loc Cert.ReferenceIdeal.main_arg0)), ?_, Ref.ref_run m' g'⟩
  refine (θ_run _ _ _).mono (fun r h c => ⟨?_, (h c 0).trans (finalA_x m g c)⟩) (run_main m g (hbody m g))
  refine (h c 1).trans ?_
  funext i
  exact (finalA_out m g c i).trans (OUTV_ideal m g _ hagree c i)

/-- info: 'Cert.KernelIdeal.AR.algebraic_KI' depends on axioms: [propext, Classical.choice, Quot.sound] -/
#guard_msgs in #print axioms algebraic_KI

end Cert.KernelIdeal.AR

end
-- ==== Proof.B.Mesh.lean ====
/- The mesh of sixteen devices as the kernel sees it: device `c` sits at position
   (c / 8, c / 4 % 2, c % 4) of the 2 × 2 × 4 mesh. The kernel talks to its three neighbours along the last axis
   (a ring of four) and to the three other devices of its 2 × 2 plane. Each device-id chain the kernel computes is
   identified here with one of those two families, and the families' group laws are decided over the sixteen devices. -/
import proofs.«900719_g7700000000000720_dist_ar_v7x_xyz2x2x4_z_m256_n256_f32_1_alg».proof.Proof.Gen.Kernel

noncomputable section

namespace Cert.Kernel.AR

open Cert.Kernel Cert.Kernel.Gen
open Idealize.ShloMosaic

/-- The device `k` steps further round the ring of four along the last mesh axis. -/
def zs (c : Dev nD) (k : ℕ) : Dev nD :=
  ⟨(c.val / 4) * 4 + (c.val + k) % 4, by have := c.isLt; simp only [nD] at this ⊢; omega⟩

/-- The three other devices of `c`'s 2 × 2 plane: both plane coordinates flipped, the first flipped, the second flipped. -/
def xp (c : Dev nD) : Fin 3 → Dev nD
  | 0 => ⟨((c.val % 4) + 12) - (8 * (c.val / 8) + 4 * ((c.val / 4) % 2)), by have := c.isLt; simp only [nD] at this ⊢; omega⟩
  | 1 => ⟨(4 * ((c.val / 4) % 2) + (c.val % 4) + 8) - 8 * (c.val / 8), by have := c.isLt; simp only [nD] at this ⊢; omega⟩
  | 2 => ⟨(8 * (c.val / 8) + (c.val % 4) + 4) - 4 * ((c.val / 4) % 2), by have := c.isLt; simp only [nD] at this ⊢; omega⟩

/-- The first row of the quarter of the 256 rows that device `c` reduces: 64 rows per position in the plane. -/
def qo (c : Dev nD) : ℕ := 128 * (c.val / 8) + 64 * ((c.val / 4) % 2)

/-! ## The kernel's device chains -/

theorem dev1_eq (c : Dev nD) : (⟨k0_dev1 c, k0_dev1_lt c⟩ : Dev nD) = zs c 1 := Fin.ext (by revert c; decide +kernel)
theorem dev2_eq (c : Dev nD) : (⟨k0_dev2 c, k0_dev2_lt c⟩ : Dev nD) = zs c 2 := Fin.ext (by revert c; decide +kernel)
theorem dev3_eq (c : Dev nD) : (⟨k0_dev3 c, k0_dev3_lt c⟩ : Dev nD) = zs c 3 := Fin.ext (by revert c; decide +kernel)
theorem dev4_eq (c : Dev nD) : (⟨k0_dev4 c, k0_dev4_lt c⟩ : Dev nD) = xp c 0 := Fin.ext (k0_dev4_eq c)
theorem dev5_eq (c : Dev nD) : (⟨k0_dev5 c, k0_dev5_lt c⟩ : Dev nD) = xp c 1 := Fin.ext (k0_dev5_eq c)
theorem dev6_eq (c : Dev nD) : (⟨k0_dev6 c, k0_dev6_lt c⟩ : Dev nD) = xp c 2 := Fin.ext (k0_dev6_eq c)
theorem dev7_eq (c : Dev nD) : (⟨k0_dev7 c, k0_dev7_lt c⟩ : Dev nD) = zs c 3 := Fin.ext (by revert c; decide +kernel)
theorem dev8_eq (c : Dev nD) : (⟨k0_dev8 c, k0_dev8_lt c⟩ : Dev nD) = zs c 2 := Fin.ext (by revert c; decide +kernel)
theorem dev9_eq (c : Dev nD) : (⟨k0_dev9 c, k0_dev9_lt c⟩ : Dev nD) = zs c 1 := Fin.ext (by revert c; decide +kernel)
theorem dev10_eq (c : Dev nD) : (⟨k0_dev10 c, k0_dev10_lt c⟩ : Dev nD) = zs c 3 := Fin.ext (by revert c; decide +kernel)
theorem dev11_eq (c : Dev nD) : (⟨k0_dev11 c, k0_dev11_lt c⟩ : Dev nD) = zs c 2 := Fin.ext (by revert c; decide +kernel)
theorem dev12_eq (c : Dev nD) : (⟨k0_dev12 c, k0_dev12_lt c⟩ : Dev nD) = zs c 1 := Fin.ext (by revert c; decide +kernel)
theorem dev13_eq (c : Dev nD) : (⟨k0_dev13 c, k0_dev13_lt c⟩ : Dev nD) = xp c 0 := Fin.ext (k0_dev13_eq c)
theorem dev14_eq (c : Dev nD) : (⟨k0_dev14 c, k0_dev14_lt c⟩ : Dev nD) = xp c 1 := Fin.ext (k0_dev14_eq c)
theorem dev15_eq (c : Dev nD) : (⟨k0_dev15 c, k0_dev15_lt c⟩ : Dev nD) = xp c 2 := Fin.ext (k0_dev15_eq c)
theorem dev16_eq (c : Dev nD) : (⟨k0_dev16 c, k0_dev16_lt c⟩ : Dev nD) = xp c 0 := Fin.ext (k0_dev16_eq c)
theorem dev17_eq (c : Dev nD) : (⟨k0_dev17 c, k0_dev17_lt c⟩ : Dev nD) = xp c 1 := Fin.ext (k0_dev17_eq c)
theorem dev18_eq (c : Dev nD) : (⟨k0_dev18 c, k0_dev18_lt c⟩ : Dev nD) = xp c 2 := Fin.ext (k0_dev18_eq c)

/-! ## The two families' laws, decided over the sixteen devices -/

theorem zs_zs (c : Dev nD) : ∀ k : Fin 4, zs (zs c k.val) (4 - k.val) = c := by revert c; decide
theorem zs_back (c : Dev nD) : ∀ k : Fin 4, zs (zs c (4 - k.val)) k.val = c := by revert c; decide
theorem xp_xp (c : Dev nD) : ∀ i : Fin 3, xp (xp c i) i = c := by revert c; decide
theorem zs_ne (c : Dev nD) : ∀ k : Fin 4, k.val ≠ 0 → zs c k.val ≠ c := by revert c; decide
theorem xp_ne (c : Dev nD) : ∀ i : Fin 3, xp c i ≠ c := by revert c; decide
theorem qo_zs (c : Dev nD) : ∀ k : Fin 4, qo (zs c k.val) = qo c := by revert c; decide
theorem zs_xp (c : Dev nD) : ∀ (k : Fin 4) (i : Fin 3), zs (xp c i) k.val = xp (zs c k.val) i := by revert c; decide

/-- The permutation of the devices that moves each `k` steps round its ring. -/
def zsEquiv (k : Fin 4) : Dev nD ≃ Dev nD :=
  ⟨fun c => zs c k.val, fun c => zs c (4 - k.val), fun c => zs_zs c k, fun c => zs_back c k⟩
/-- The involution of the devices that swaps each with its `i`-th plane neighbour. -/
def xpEquiv (i : Fin 3) : Dev nD ≃ Dev nD := ⟨fun c => xp c i, fun c => xp c i, fun c => xp_xp c i, fun c => xp_xp c i⟩

/-- The two row offsets the kernel computes (for its transfers and for its loads and stores) are one. -/
theorem off1_eq_off2 (c : Dev nD) (h : Fin 2) :
    k0_off1 c (BitVec.ofNat 32 (32 * h.val)) = k0_off2 c (BitVec.ofNat 32 (32 * h.val)) := by rw [k0_off1_eq, k0_off2_eq]
theorem off1_eq_qo (c : Dev nD) (h : Fin 2) : k0_off1 c (BitVec.ofNat 32 (32 * h.val)) = ![qo c + 32 * h.val, 0] := by rw [k0_off1_eq]; rfl

end Cert.Kernel.AR

end
-- ==== Proof.B.Core.lean ====
/- The shared vocabulary of the all-reduce's proof: the resource algebra, the memory views the kernel's transfers,
   loads and stores go through, its twenty-five semaphore cells a device, the contents every buffer ends at, the
   schedule of who pays which cell with what, what each device owes at launch, and the pipeline's proof data.

   The protocol. Device `c` reduces the quarter `[qo c, qo c + 64)` of the 256 rows, in two halves of 32 rows.
   * Entry: `c` signals the barrier semaphore of its three ring neighbours and of its three plane neighbours, and waits
     for six. A signal hands its receiver the part of the signaller's memory the receiver is about to write.
   * Ring phase: `c` sends each half of its own quarter of `x` to slot `(h, k - 1)` of the landing buffer of the device
     `k` steps on, `k = 3, 2, 1`; once its own three slots of a half have landed it adds them to its own rows of `x` and
     stores the sum in its rows of the result.
   * Plane phase: it sends that half of the result to the same rows of the result on its three plane neighbours.
   * Exit: it waits for its six plane sends and the six plane transfers into it, then for its six ring sends. -/
import proofs.«900719_g7700000000000720_dist_ar_v7x_xyz2x2x4_z_m256_n256_f32_1_alg».proof.Proof.B.Mesh
import proofs.«900719_g7700000000000720_dist_ar_v7x_xyz2x2x4_z_m256_n256_f32_1_alg».proof.Proof.Gen.Kernel.Skeleton
import proofs.«900719_g7700000000000720_dist_ar_v7x_xyz2x2x4_z_m256_n256_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 6`) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The views -/

abbrev xM : Memref sig .tc .vmem S256x256 .f32 := Memref.whole cc0_stg0_0
abbrev oM : Memref sig .tc .vmem S256x256 .f32 := Memref.whole cc0_stg1_0
abbrev zM : Memref sig .tc .vmem S2x3x32x256 .f32 := Memref.whole cc0_scratch0

/-- The 32 rows of half `h` of device `c`'s quarter, as a rectangle of the 256 × 256 arrays. -/
abbrev rowRect (c : Dev nD) (h : Fin 2) : Rect S256x256 :=
  Rect.unit (s := S256x256) (k0_off1 c (BitVec.ofNat 32 (32 * h.val))) S32x256.size (k0_off1_inb c h)
/-- The same rows through the offsets the kernel computes for its loads and stores. -/
abbrev rowRect2 (c : Dev nD) (h : Fin 2) : Rect S256x256 :=
  Rect.unit (s := S256x256) (k0_off2 c (BitVec.ofNat 32 (32 * h.val))) S32x256.size (k0_off2_inb c h)

/-- Half `h` of `c`'s quarter of the staged `x`; of the staged result. The view is of whichever device's buffer it is read at. -/
abbrev xRow (c : Dev nD) (h : Fin 2) : Memref sig .tc .vmem S32x256 .f32 := xM.slice (rowRect c h) (fun _ => rfl)
abbrev oRow (c : Dev nD) (h : Fin 2) : Memref sig .tc .vmem S32x256 .f32 := oM.slice (rowRect c h) (fun _ => rfl)

theorem slot_inb (h : Fin 2) (kk : Fin 3) : ∀ a, (![h.val, kk.val, 0, 0] : Fin 4 → Nat) a + S1x1x32x256.size a ≤ S2x3x32x256.size a := by
  have := h.isLt; have := kk.isLt
  intro a; fin_cases a <;> simp <;> omega

/-- Slot `(h, kk)` of the landing buffer as the loads read it: a 1 × 1 × 32 × 256 rectangle. -/
abbrev slotRect (h : Fin 2) (kk : Fin 3) : Rect S2x3x32x256 :=
  Rect.unit (s := S2x3x32x256) ![h.val, kk.val, 0, 0] S1x1x32x256.size (slot_inb h kk)

/-- Slot `(h, kk)` of the landing buffer as the transfers write it: 32 × 256. -/
abbrev zSlot (h : Fin 2) (kk : Fin 3) : Memref sig .tc .vmem S32x256 .f32 :=
  (zM.slice (slotRect h kk) (fun _ => rfl)).squeeze S32x256 squeezes_S1x1x32x256_S32x256

/-! ## The semaphore cells -/

/-- The runtime's barrier semaphore of collective id 0. -/
abbrev barS : Sem sig := (SemArray.scalar (sig.barrier 0 rfl) : Sems sig S_).sem
/-- The kernel's twenty-four DMA semaphores: ring sends 0–5, ring receives 6–11, plane sends 12–17, plane receives 18–23,
    each block indexed `3 h + kk`. -/
def dsem (j : Fin 24) : DmaSem sig := ⟨j.val + 2, by have := j.isLt; show j.val + 2 < 26; omega⟩
/-- The index of the semaphore of class `cls` (0 ring send, 1 ring receive, 2 plane send, 3 plane receive), half `h`, lane `kk`. -/
def dix (cls : Fin 4) (h : Fin 2) (kk : Fin 3) : Fin 24 :=
  ⟨6 * cls.val + 3 * h.val + kk.val, by have := cls.isLt; have := h.isLt; have := kk.isLt; omega⟩

abbrev barCell (c : Dev nD) : GSem nD τ sig := ((c : Thread nD τ), .reg barS)
abbrev dCell (c : Dev nD) (j : Fin 24) : GSem nD τ sig := ((c : Thread nD τ), .dma (dsem j))

/-- The kernel's own (scoped) semaphores, as the launch theorem indexes them. -/
abbrev osem : Fin 24 → SemLoc sig := fun j => .dma (dsem j)
/-- All twenty-five of the protocol's: the barrier first. -/
def csem (k : Fin 25) : SemLoc sig := if h : k.val = 0 then .reg barS else .dma (dsem ⟨k.val - 1, by have := k.isLt; omega⟩)
abbrev kcell (ck : Dev nD × Fin 25) : GSem nD τ sig := ((ck.1 : Thread nD τ), csem ck.2)

/-- The units a 32 × 256 block of f32 credits a DMA semaphore. -/
abbrev N : ℕ := (xRow (0 : Dev nD) 0).view.dmaCredit

/-- The class, half and lane of a DMA semaphore index. -/
def jcls (j : Fin 24) : Fin 4 := ⟨j.val / 6, by have := j.isLt; omega⟩
def jh (j : Fin 24) : Fin 2 := ⟨(j.val % 6) / 3, by omega⟩
def jk (j : Fin 24) : Fin 3 := ⟨j.val % 3, by omega⟩

/-! ## Contents -/

/-- The staged `x` of device `c`: its argument array. -/
def xstg (c : Dev nD) : (cc0_stg0_0 : Ref sig .tc).ty.Contents (Elt F) :=
  (win0_0.blk (0 : Fin 1)).view.read (Elt F) ((s₀ m ρ).mem ((c : Thread nD τ).loc main_arg0))

/-- The device that sends into slot `kk` of `c`'s landing buffer: `kk + 1` steps back round the ring. -/
def zsrc (c : Dev nD) (kk : Fin 3) : Dev nD := zs c (3 - kk.val)

/-- What lands in slot `(h, kk)` of `c`'s landing buffer: half `h` of its sender's quarter of `x` (the same rows as `c`'s own). -/
def zval (c : Dev nD) (h : Fin 2) (kk : Fin 3) : S32x256.Idx → Elt F .f32 :=
  (xRow (zsrc c kk) h).view.read (Elt F) (xstg m ρ (zsrc c kk))

/-- One slot of the landing buffer rewritten. -/
def zput (c : Dev nD) (h : Fin 2) (kk : Fin 3) (f : (cc0_scratch0 : Ref sig .tc).ty.Contents (Elt F)) :
    (cc0_scratch0 : Ref sig .tc).ty.Contents (Elt F) :=
  (zSlot h kk).view.write (Elt F) f (zval m ρ c h kk) Finset.univ

/-- The landing buffer of `c` once all six transfers into it have landed. -/
def ZV (c : Dev nD) : (cc0_scratch0 : Ref sig .tc).ty.Contents (Elt F) :=
  zput m ρ c 1 2 (zput m ρ c 1 1 (zput m ρ c 1 0 (zput m ρ c 0 2 (zput m ρ c 0 1 (zput m ρ c 0 0 (fun _ => Classical.arbitrary _))))))

/-- Half `h` of the sum device `c` stores: its own rows of `x` plus its three landed slots, as the kernel adds them. -/
def sumv (c : Dev nD) : Fin 2 → FVec F S32x256 .f32
  | ⟨0, _⟩ => k0_pay2 (k0_pay1
      (xM.view.readAt (Elt F) (rowRect2 c 0).toLoadRect (xstg m ρ c))
      (zM.view.readAt (Elt F) (slotRect 0 0).toLoadRect (ZV m ρ c))
      (zM.view.readAt (Elt F) (slotRect 0 1).toLoadRect (ZV m ρ c)))
      (zM.view.readAt (Elt F) (slotRect 0 2).toLoadRect (ZV m ρ c))
  | ⟨_ + 1, _⟩ => k0_pay3
      (xM.view.readAt (Elt F) (rowRect2 c 1).toLoadRect (xstg m ρ c))
      (zM.view.readAt (Elt F) (slotRect 1 0).toLoadRect (ZV m ρ c))
      (zM.view.readAt (Elt F) (slotRect 1 1).toLoadRect (ZV m ρ c))
      (zM.view.readAt (Elt F) (slotRect 1 2).toLoadRect (ZV m ρ c))

/-- The four devices of `c`'s plane: itself, then its three neighbours. -/
def pl (c : Dev nD) (j : Fin 4) : Dev nD := if h : j.val = 0 then c else xp c ⟨j.val - 1, by have := j.isLt; omega⟩

/-- One half-quarter of the result rewritten with the sum of the device that reduces it. -/
def oput (e : Dev nD) (h : Fin 2) (f : (cc0_stg1_0 : Ref sig .tc).ty.Contents (Elt F)) :
    (cc0_stg1_0 : Ref sig .tc).ty.Contents (Elt F) :=
  (oRow e h).view.write (Elt F) f (sumv m ρ e h) Finset.univ

/-- The staged result of `c` at exit: every half-quarter at the sum of the device of `c`'s plane that reduces it. -/
def OUTV (c : Dev nD) : (cc0_stg1_0 : Ref sig .tc).ty.Contents (Elt F) :=
  oput m ρ (pl c 3) 1 (oput m ρ (pl c 3) 0 (oput m ρ (pl c 2) 1 (oput m ρ (pl c 2) 0
    (oput m ρ (pl c 1) 1 (oput m ρ (pl c 1) 0 (oput m ρ (pl c 0) 1 (oput m ρ (pl c 0) 0 (fun _ => Classical.arbitrary _))))))))

/-! ## Shares -/

/-- The shares of a half-quarter of `x` lent to its three ring sends (`kk = 0, 1, 2`); the fourth quarter stays for the load. -/
def zshare : Fin 3 → PosShare TreeShare
  | 0 => fullShare.left.left
  | 1 => fullShare.left.right
  | 2 => fullShare.right.left
def keepShare : PosShare TreeShare := fullShare.right.right
/-- The shares of a half-quarter of the result lent to its three plane sends. -/
def xyshare : Fin 3 → PosShare TreeShare
  | 0 => fullShare.left
  | 1 => fullShare.right.left
  | 2 => fullShare.right.right

/-! ## The schedule -/

/-- The barrier duty a ring neighbour pays (`dd < 3`), a plane neighbour pays (`3 + i`); a lane reversed. -/
def lo6 (dd : Fin 3) : Fin 6 := ⟨dd.val, by omega⟩
def hi6 (i : Fin 3) : Fin 6 := ⟨i.val + 3, by omega⟩
def rev3 (dd : Fin 3) : Fin 3 := ⟨2 - dd.val, by omega⟩

/-- For a barrier duty `dd < 3`: the lane of the two slots it hands over. For `dd ≥ 3`: which plane neighbour pays it. -/
def barKk (dd : Fin 6) : Fin 3 := ⟨2 - dd.val % 3, by omega⟩
def barI (dd : Fin 6) : Fin 3 := ⟨dd.val % 3, by omega⟩

/-- What duty `dd` of `o`'s barrier cell hands `o`: from the ring neighbour `dd + 1` steps back (`dd < 3`), the two slots
    `(·, 2 - dd)` of its landing buffer, which `o` fills; from plane neighbour `dd - 3`, `o`'s quarter of its result. -/
def barPay (o : Dev nD) (dd : Fin 6) : sProp 𝕄 :=
  if dd.val < 3 then
    iprop((∃ f, ((zSlot 0 (barKk dd)).view.loc ((zs o (3 - dd.val) : Dev nD) : Thread nD τ) ↦[(zSlot 0 (barKk dd)).view.set]{fullShare} f))
        ∗ (∃ f, ((zSlot 1 (barKk dd)).view.loc ((zs o (3 - dd.val) : Dev nD) : Thread nD τ) ↦[(zSlot 1 (barKk dd)).view.set]{fullShare} f)))
  else
    iprop((∃ f, ((oRow o 0).view.loc ((xp o (barI dd) : Dev nD) : Thread nD τ) ↦[(oRow o 0).view.set]{fullShare} f))
        ∗ (∃ f, ((oRow o 1).view.loc ((xp o (barI dd) : Dev nD) : Thread nD τ) ↦[(oRow o 1).view.set]{fullShare} f)))

/-- What the one duty of `o`'s DMA cell `j` hands `o`: a ring send, its share of the source rows back; a ring receive, the
    slot at what landed; a plane send, its share of the result rows back; a plane receive, the neighbour's rows of `o`'s result. -/
def dmaPay (o : Dev nD) (j : Fin 24) : sProp 𝕄 :=
  match jcls j with
  | 0 => ((xRow o (jh j)).view.loc (o : Thread nD τ) ↦[(xRow o (jh j)).view.set]{zshare (jk j)} xstg m ρ o)
  | 1 => ((zSlot (jh j) (jk j)).view.loc (o : Thread nD τ) ↦[(zSlot (jh j) (jk j)).view.set]{fullShare} ZV m ρ o)
  | 2 => ((oRow o (jh j)).view.loc (o : Thread nD τ) ↦[(oRow o (jh j)).view.set]{xyshare (jk j)} OUTV m ρ o)
  | 3 => ((oRow (xp o (jk j)) (jh j)).view.loc (o : Thread nD τ) ↦[(oRow (xp o (jk j)) (jh j)).view.set]{fullShare} OUTV m ρ o)

/-- One round, round 0. A barrier cell: six duties of one unit. A DMA cell of the kernel's: one duty, duty 0, of a block's credit. -/
def sched : Rounds.Schedule (GSem nD τ sig) (Fin 6) 𝕄 where
  duties g r :=
    if r = 0 ∧ g.1.2 = .tc then
      (match g.2 with
        | .reg _ => Finset.univ
        | .dma s => if 2 ≤ s.val then {0} else ∅)
    else ∅
  unitless _ := False
  amount g _ _ := match g.2 with | .reg _ => 1 | .dma _ => N
  payload g _ d :=
    match g.2 with
    | .reg _ => barPay g.1.1 d
    | .dma s => if h : 2 ≤ s.val then dmaPay m ρ g.1.1 ⟨s.val - 2, by have := s.isLt; have : sig.nDmaSem = 26 := rfl; omega⟩ else iprop(emp)
  amount_pos g _ _ _ := by
    cases g.2 with
    | reg _ => exact Nat.one_pos
    | dma _ => exact View.dmaCredit_pos _ (by decide)

/-! ## What each device owes at launch, in the order it pays -/

/-- Device `c`'s eighteen dues in program order: six barrier units, six ring receive credits, six plane receive credits. -/
def dues (c : Dev nD) : List (GSem nD τ sig × ℕ) :=
  [ (barCell (zs c 1), 1), (barCell (zs c 2), 1), (barCell (zs c 3), 1),
    (barCell (xp c 0), 1), (barCell (xp c 1), 1), (barCell (xp c 2), 1),
    (dCell (zs c 3) (dix 1 0 2), N), (dCell (zs c 2) (dix 1 0 1), N), (dCell (zs c 1) (dix 1 0 0), N),
    (dCell (zs c 3) (dix 1 1 2), N), (dCell (zs c 2) (dix 1 1 1), N), (dCell (zs c 1) (dix 1 1 0), N),
    (dCell (xp c 0) (dix 3 0 0), N), (dCell (xp c 1) (dix 3 0 1), N), (dCell (xp c 2) (dix 3 0 2), N),
    (dCell (xp c 0) (dix 3 1 0), N), (dCell (xp c 1) (dix 3 1 1), N), (dCell (xp c 2) (dix 3 1 2), N) ]

/-- The tallies of a list of dues, the FIRST due the outermost summand: paying it peels it off by `rfl`. -/
def owedOf : List (GSem nD τ sig × ℕ) → CellTallies nD τ sig Unit
  | [] => 0
  | d :: ds => owedOf ds + tallyAt d.1 () d.2

/-- What `c` still owes after its first `n` payments. -/
def owedFrom (c : Dev nD) (n : ℕ) : CellTallies nD τ sig Unit := owedOf ((dues c).drop n)
def O₀ (c : Dev nD) : CellTallies nD τ sig Unit := owedFrom c 0

def L (g : GSem nD τ sig) : Finset Unit := if g.1.2 = .tc then {()} else ∅
/-- Barrier cells at 1, ring receive cells at 2, plane receive cells at 3, everything else (staging, sends) at 0. -/
def lv (g : GSem nD τ sig) (_ : Unit) : ℕ :=
  match g.2 with
  | .reg _ => 1
  | .dma s => if 8 ≤ s.val ∧ s.val < 14 then 2 else if 20 ≤ s.val then 3 else 0

/-! ## The ghost state a device's body starts from -/

/-- The invariants of all the protocol's cells, under the names `K` the launch allocated them at, and that every cell has
    reached round 0: both persistent, and the same for every device. -/
def records (K : Dev nD × Fin 25 → ℕ) : sProp 𝕄 :=
  iprop((bigSep Finset.univ fun ck : Dev nD × Fin 25 => cellInv ER (sched m ρ) (K ck) (kcell ck))
    ∗ bigSep Finset.univ fun ck : Dev nD × Fin 25 => reached ER (kcell ck) 0)

/-- The duty tokens device `c` pays with: its six barrier duties on its neighbours' cells, the one duty of each of its
    own twelve send cells, of its ring neighbours' six receive cells it fills and of its plane neighbours' six. -/
def payToks (c : Dev nD) : sProp 𝕄 :=
  iprop((bigSep Finset.univ fun dd : Fin 3 => dutyTok ER (barCell (zs c (dd.val + 1))) 0 (lo6 dd))
    ∗ (bigSep Finset.univ fun i : Fin 3 => dutyTok ER (barCell (xp c i)) 0 (hi6 i))
    ∗ (bigSep Finset.univ fun hk : Fin 2 × Fin 3 => dutyTok ER (dCell c (dix 0 hk.1 hk.2)) 0 (0 : Fin 6))
    ∗ (bigSep Finset.univ fun hk : Fin 2 × Fin 3 => dutyTok ER (dCell (zs c (hk.2.val + 1)) (dix 1 hk.1 hk.2)) 0 (0 : Fin 6))
    ∗ (bigSep Finset.univ fun hk : Fin 2 × Fin 3 => dutyTok ER (dCell c (dix 2 hk.1 hk.2)) 0 (0 : Fin 6))
    ∗ (bigSep Finset.univ fun hk : Fin 2 × Fin 3 => dutyTok ER (dCell (xp c hk.2) (dix 3 hk.1 hk.2)) 0 (0 : Fin 6)))

/-- What stays with device `c`: its positions at round 0 of its twenty-five cells, and the tokens of the duties it pays. -/
def linear (c : Dev nD) : sProp 𝕄 :=
  iprop((bigSep Finset.univ fun k : Fin 25 => atPos ER (kcell (c, k)) 0 ∅ 0) ∗ payToks c)

def ghost (K : Dev nD × Fin 25 → ℕ) (c : Dev nD) : sProp 𝕄 := iprop(records m ρ K ∗ linear c)

/-- The credit the launch deals `c` for the cells others pay: six barrier units and a block's credit on each receive cell. -/
def creds (c : Dev nD) : sProp 𝕄 :=
  iprop(cred (tallyAt (barCell c) () 6)
    ∗ (bigSep Finset.univ fun hk : Fin 2 × Fin 3 => cred (tallyAt (dCell c (dix 1 hk.1 hk.2)) () N))
    ∗ (bigSep Finset.univ fun hk : Fin 2 × Fin 3 => cred (tallyAt (dCell c (dix 3 hk.1 hk.2)) () N)))

/-- What device `c`'s body starts from: the ghost state at some names, its credit and the level facts. -/
def start (c : Dev nD) : sProp 𝕄 :=
  iprop((∃ K, ghost m ρ K c) ∗ creds c ∗ levAts L lv)

def Φ₀ (c : Dev nD) : sProp 𝕄 :=
  iprop(start m ρ c ∗ ∃ f : Buf (Elt F) ((c : Thread nD τ).loc cc0_scratch0), (((c : Thread nD τ).loc cc0_scratch0) ↦{fullShare} f))
/-- After the point: the landing buffer at what landed, the twenty-four own semaphores at zero. -/
def Φ₁ (c : Dev nD) : sProp 𝕄 :=
  iprop((((c : Thread nD τ).loc cc0_scratch0) ↦{fullShare} ZV m ρ c) ∗ bigSep Finset.univ fun j : Fin 24 => semVal (dCell c j) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OUTV m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.AR

end
-- ==== Proof.B.Tables.lean ====
/- The schedule's tables: which duties each cell has, what each is worth, what a round expects, and what each duty
   hands its cell's owner, cell by cell. -/
import proofs.«900719_g7700000000000720_dist_ar_v7x_xyz2x2x4_z_m256_n256_f32_1_alg».proof.Proof.B.Core

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The index arithmetic: a DMA semaphore's number, and its class, half and lane -/

/-- The kernel's DMA semaphore `j` is the runtime's number `j + 2`. -/
theorem dsem_val (j : Fin 24) : (dsem j).val = j.val + 2 := rfl
theorem two_le_dsem (j : Fin 24) : 2 ≤ (dsem j).val := Nat.le_add_left 2 j.val
/-- Taking the 2 off again gives the index back. -/
theorem dsem_back (j : Fin 24) (hj : (dsem j).val - 2 < 24) : (⟨(dsem j).val - 2, hj⟩ : Fin 24) = j :=
  Fin.ext (show j.val + 2 - 2 = j.val from Nat.add_sub_cancel j.val 2)

/-- The index `6 cls + 3 h + kk` decodes to its class, half and lane. -/
theorem jcls_dix (cls : Fin 4) (h : Fin 2) (kk : Fin 3) : jcls (dix cls h kk) = cls := by
  have := h.isLt; have := kk.isLt
  exact Fin.ext (show (6 * cls.val + 3 * h.val + kk.val) / 6 = cls.val by omega)
theorem jh_dix (cls : Fin 4) (h : Fin 2) (kk : Fin 3) : jh (dix cls h kk) = h := by
  have := h.isLt; have := kk.isLt
  exact Fin.ext (show ((6 * cls.val + 3 * h.val + kk.val) % 6) / 3 = h.val by omega)
theorem jk_dix (cls : Fin 4) (h : Fin 2) (kk : Fin 3) : jk (dix cls h kk) = kk := by
  have := kk.isLt
  exact Fin.ext (show (6 * cls.val + 3 * h.val + kk.val) % 3 = kk.val by omega)

/-- The lanes of the barrier's duties: a ring duty `dd` names lane `2 - dd`, a plane duty `3 + i` names neighbour `i`. -/
theorem barKk_lo6 (dd : Fin 3) : barKk (lo6 dd) = rev3 dd := by
  have := dd.isLt
  exact Fin.ext (show 2 - dd.val % 3 = 2 - dd.val by omega)
theorem barI_hi6 (i : Fin 3) : barI (hi6 i) = i := by
  have := i.isLt
  exact Fin.ext (show (i.val + 3) % 3 = i.val by omega)

/-! ## Every payload can be stored in a cell's invariant -/

instance sched_payload_storable (g : GSem nD τ sig) (r : ℕ) (d : Fin 6) :
    BI.Storable (upEmb : UEmb _ 𝕄) ((sched (F := F) m ρ).payload g r d) := by
  dsimp only [sched]
  unfold barPay dmaPay
  (repeat' split) <;> infer_instance

section Tables
variable (c : Dev nD)

theorem duties_bar : (sched (F := F) m ρ).duties (barCell c) 0 = Finset.univ := by
  dsimp only [sched]; exact if_pos ⟨rfl, rfl⟩
theorem duties_d (j : Fin 24) : (sched (F := F) m ρ).duties (dCell c j) 0 = {0} := by
  dsimp only [sched]; rw [if_pos ⟨rfl, rfl⟩]; exact if_pos (two_le_dsem j)
theorem duties_later (g : GSem nD τ sig) : ∀ r, 1 ≤ r → (sched (F := F) m ρ).duties g r = ∅ :=
  fun r hr => by dsimp only [sched]; exact if_neg fun h => by omega

theorem amount_bar (d : Fin 6) : (sched (F := F) m ρ).amount (barCell c) 0 d = 1 := rfl
theorem amount_d (j : Fin 24) (d : Fin 6) : (sched (F := F) m ρ).amount (dCell c j) 0 d = N := rfl

/-- Six duties of one unit each. -/
theorem expect_bar : (sched (F := F) m ρ).expect (barCell c) 0 = 6 := by
  unfold Schedule.expect Schedule.amountOf
  rw [duties_bar, Finset.sum_congr rfl fun d _ => amount_bar m ρ c d, Finset.sum_const, Finset.card_univ, Fintype.card_fin, smul_eq_mul]
/-- One duty of a block's credit. -/
theorem expect_d (j : Fin 24) : (sched (F := F) m ρ).expect (dCell c j) 0 = N := by
  unfold Schedule.expect Schedule.amountOf; rw [duties_d, Finset.sum_singleton, amount_d]

theorem payload_bar (d : Fin 6) : (sched (F := F) m ρ).payload (barCell c) 0 d = barPay c d := rfl
theorem payload_d (j : Fin 24) (d : Fin 6) : (sched (F := F) m ρ).payload (dCell c j) 0 d = dmaPay m ρ c j := by
  dsimp only [sched]
  rw [dif_pos (two_le_dsem j)]
  exact congrArg (dmaPay m ρ c) (dsem_back j _)

/-- The whole of the barrier cell's round, no duty taken: the six neighbours' payloads. -/
theorem rest_bar : bigSep ((sched (F := F) m ρ).duties (barCell c) 0 \ ∅) (fun d => (sched (F := F) m ρ).payload (barCell c) 0 d)
    = iprop(barPay c 0 ∗ barPay c 1 ∗ barPay c 2 ∗ barPay c 3 ∗ barPay c 4 ∗ barPay c 5) := by
  rw [Finset.sdiff_empty, duties_bar, bigSep_univ_eq_bigSepL [0, 1, 2, 3, 4, 5] (by decide) (by decide),
    bigSepL_cons_cons, bigSepL_cons_cons, bigSepL_cons_cons, bigSepL_cons_cons, bigSepL_cons_cons, bigSepL_singleton,
    payload_bar, payload_bar, payload_bar, payload_bar, payload_bar, payload_bar]
  rfl
theorem rest_d (j : Fin 24) : bigSep ((sched (F := F) m ρ).duties (dCell c j) 0 \ ∅) (fun d => (sched (F := F) m ρ).payload (dCell c j) 0 d)
    = dmaPay m ρ c j := by
  rw [Finset.sdiff_empty, duties_d, bigSep_singleton, payload_d]

/-! ## The payloads spelt out -/

theorem dmaPay_zsend (h : Fin 2) (kk : Fin 3) : dmaPay m ρ c (dix 0 h kk)
    = ((xRow c h).view.loc (c : Thread nD τ) ↦[(xRow c h).view.set]{zshare kk} xstg m ρ c) := by
  unfold dmaPay; rw [jcls_dix, jh_dix, jk_dix]
theorem dmaPay_zrecv (h : Fin 2) (kk : Fin 3) : dmaPay m ρ c (dix 1 h kk)
    = ((zSlot h kk).view.loc (c : Thread nD τ) ↦[(zSlot h kk).view.set]{fullShare} ZV m ρ c) := by
  unfold dmaPay; rw [jcls_dix, jh_dix, jk_dix]
theorem dmaPay_xysend (h : Fin 2) (i : Fin 3) : dmaPay m ρ c (dix 2 h i)
    = ((oRow c h).view.loc (c : Thread nD τ) ↦[(oRow c h).view.set]{xyshare i} OUTV m ρ c) := by
  unfold dmaPay; rw [jcls_dix, jh_dix, jk_dix]
theorem dmaPay_xyrecv (h : Fin 2) (i : Fin 3) : dmaPay m ρ c (dix 3 h i)
    = ((oRow (xp c i) h).view.loc (c : Thread nD τ) ↦[(oRow (xp c i) h).view.set]{fullShare} OUTV m ρ c) := by
  unfold dmaPay; rw [jcls_dix, jh_dix, jk_dix]

/-- Barrier duty `dd < 3`, paid by the ring neighbour `dd + 1` steps back: the two slots of lane `2 - dd` of ITS landing buffer. -/
theorem barPay_z (dd : Fin 3) : barPay (F := F) c (lo6 dd)
    = iprop((∃ f, ((zSlot 0 (rev3 dd)).view.loc ((zs c (3 - dd.val) : Dev nD) : Thread nD τ) ↦[(zSlot 0 (rev3 dd)).view.set]{fullShare} f))
        ∗ (∃ f, ((zSlot 1 (rev3 dd)).view.loc ((zs c (3 - dd.val) : Dev nD) : Thread nD τ) ↦[(zSlot 1 (rev3 dd)).view.set]{fullShare} f))) := by
  unfold barPay
  rw [if_pos (show (lo6 dd).val < 3 from dd.isLt), barKk_lo6]
  rfl
/-- Barrier duty `3 + i`, paid by plane neighbour `i`: `c`'s quarter of the neighbour's staged result. -/
theorem barPay_xy (i : Fin 3) : barPay (F := F) c (hi6 i)
    = iprop((∃ f, ((oRow c 0).view.loc ((xp c i : Dev nD) : Thread nD τ) ↦[(oRow c 0).view.set]{fullShare} f))
        ∗ (∃ f, ((oRow c 1).view.loc ((xp c i : Dev nD) : Thread nD τ) ↦[(oRow c 1).view.set]{fullShare} f))) := by
  unfold barPay
  rw [if_neg (show ¬ (hi6 i).val < 3 from Nat.not_lt.mpr (Nat.le_add_left 3 i.val)), barI_hi6]

end Tables

/-- info: 'Cert.Kernel.AR.rest_bar' depends on axioms: [propext, Classical.choice, Quot.sound] -/
#guard_msgs in #print axioms rest_bar
/-- info: 'Cert.Kernel.AR.sched_payload_storable' depends on axioms: [propext, Classical.choice, Quot.sound] -/
#guard_msgs in #print axioms sched_payload_storable

end Cert.Kernel.AR

end
-- ==== Proof.B.Owes.lean ====
/- What a device owes after each of its eighteen payments, the levels that order its waits below what it then owes, and
   the credit the launch deals it for the cells its neighbours pay. -/
import proofs.«900719_g7700000000000720_dist_ar_v7x_xyz2x2x4_z_m256_n256_f32_1_alg».proof.Proof.B.Core

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cells carry a level -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

/-- Every cell of a TensorCore carries a level at its one index. -/
theorem mem_L {g : GSem nD τ sig} (h : g.1.2 = .tc) (u : Unit) : u ∈ L g := by
  unfold L; rw [if_pos h]; exact Finset.mem_singleton.mpr rfl

/-! ## The dues, one by one -/

omit [FloatOps F] in
/-- Paying the next due peels it off what is owed. -/
theorem owedFrom_succ (c : Dev nD) (n : Fin 18) :
    owedFrom c n.val = owedFrom c (n.val + 1) + tallyAt ((dues c).get ⟨n.val, by simp [dues]⟩).1 () ((dues c).get ⟨n.val, by simp [dues]⟩).2 := by
  fin_cases n <;> rfl
omit [FloatOps F] in
theorem owedFrom_18 (c : Dev nD) : owedFrom c 18 = 0 := rfl

theorem dues_length (c : Dev nD) : (dues c).length = 18 := rfl

/-- A list of dues is owed only at the cells it names. -/
theorem owedOf_pos {l : List (GSem nD τ sig × ℕ)} {g : GSem nD τ sig} {u : Unit} (h : 0 < owedOf l g u) : ∃ d ∈ l, g = d.1 := by
  induction l with
  | nil => exact absurd h (Nat.lt_irrefl 0)
  | cons d ds ih =>
    rcases Pipeline.add_pos_cases (D₁ := owedOf ds) (D₂ := tallyAt d.1 () d.2) h with h | h
    · obtain ⟨e, he, rfl⟩ := ih h; exact ⟨e, List.mem_cons_of_mem _ he, rfl⟩
    · exact ⟨d, List.mem_cons_self, (Pipeline.tallyAt_pos h).1⟩

/-- The `i`-th due names a cell of a TensorCore: at level 1 the six barrier dues, at level 2 the six ring receive dues
    (semaphores 8 to 13), at level 3 the six plane receive dues (semaphores 20 to 25). -/
theorem dues_lv (c : Dev nD) (i : Fin 18) (u : Unit) :
    ((dues c)[i.val]'(by rw [dues_length]; exact i.isLt)).1.1.2 = .tc
      ∧ lv ((dues c)[i.val]'(by rw [dues_length]; exact i.isLt)).1 u = i.val / 6 + 1 := by
  fin_cases i <;> exact ⟨rfl, rfl⟩

/-- What is still owed after `n` payments is owed to TensorCore cells, at level `n / 6 + 1` or above: the dues are paid
    in the order of their levels. -/
theorem owedFrom_pos (c : Dev nD) (n : ℕ) {g : GSem nD τ sig} {u : Unit} (h : 0 < owedFrom c n g u) :
    g.1.2 = .tc ∧ n / 6 + 1 ≤ lv g u := by
  obtain ⟨d, hd, rfl⟩ := owedOf_pos h
  obtain ⟨i, hi, rfl⟩ := List.mem_drop_iff_getElem.mp hd
  have hi' : n + i < 18 := by rw [dues_length] at hi; omega
  have key := dues_lv c ⟨n + i, hi'⟩ u
  refine ⟨key.1, ?_⟩
  rw [key.2]
  show n / 6 + 1 ≤ (n + i) / 6 + 1
  omega

/-! ## The waits' evidence -/

omit [FloatOps F] in
/-- The pipeline's staging cells sit below everything a device ever owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L := L) (lev := lv) (mem_L rfl ()) fun g i hg => ?_
    have key := owedFrom_pos c 0 hg
    refine ⟨mem_L key.1 i, ?_⟩
    have h0 : lv ((c : Thread nD τ), SemLoc.dma q) () = 0 := by
      show (if 8 ≤ q.val ∧ q.val < 14 then 2 else if 20 ≤ q.val then 3 else 0) = 0
      rw [if_neg (by omega), if_neg (by omega)]
    rw [h0]; have := key.2; omega
  · rw [MayWait_zero]; iintro -; iempintro
omit [FloatOps F] in
/-- At its barrier wait a device owes receive credits only: above its barrier cell. -/
theorem mayWait_bar (c : Dev nD) : (levAts L lv : sProp 𝕄) ⊢ MayWait (c : Thread nD τ) (.reg barS) () (owedFrom c 6) := by
  refine Pipeline.mayWait_of_levAts (L := L) (lev := lv) (mem_L rfl ()) fun g i hg => ?_
  have key := owedFrom_pos c 6 hg
  refine ⟨mem_L key.1 i, ?_⟩
  show 1 < lv g i
  have := key.2; omega
omit [FloatOps F] in
/-- At a ring receive wait a device owes plane receive credits only: above its ring receive cells. -/
theorem mayWait_zrecv (c : Dev nD) (h : Fin 2) (kk : Fin 3) (n : ℕ) (hn : 12 ≤ n) :
    (levAts L lv : sProp 𝕄) ⊢ MayWait (c : Thread nD τ) (.dma (dsem (dix 1 h kk))) () (owedFrom c n) := by
  refine Pipeline.mayWait_of_levAts (L := L) (lev := lv) (mem_L rfl ()) fun g i hg => ?_
  have key := owedFrom_pos c n hg
  refine ⟨mem_L key.1 i, ?_⟩
  have h2 : lv ((c : Thread nD τ), SemLoc.dma (dsem (dix 1 h kk))) () = 2 := by
    fin_cases h <;> fin_cases kk <;> rfl
  rw [h2]; have := key.2; omega

/-! ## The launch credit

Each of a device's eighteen dues names the same semaphore of a device that is a permutation of the payer (a step round
the ring, a flip in the plane), so summed over the payers each due credits every device's own semaphore once. -/

omit [FloatOps F] in
/-- A due to the device `k` steps on round the ring credits `c` from the device `k'` steps on, `k + k'` a full turn. -/
theorem cred_zs (sm : SemLoc sig) (k k' : ℕ) (h1 : ∀ c : Dev nD, zs (zs c k') k = c) (h2 : ∀ d : Dev nD, zs (zs d k) k' = d) (n : ℕ) (c : Dev nD) :
    (Pipeline.launchCred (fun d : Dev nD => (tallyAt (((zs d k : Dev nD) : Thread nD τ), sm) () n : CellTallies nD τ sig Unit)) c : sProp 𝕄)
      ⊢ cred (tallyAt ((c : Thread nD τ), sm) () n) :=
  Pipeline.launchCred_tallyAt sm (fun d => zs d k) (fun d => zs d k') h1 h2 () n c

omit [FloatOps F] in
/-- A due to the `i`-th plane neighbour credits `c` from its own `i`-th plane neighbour. -/
theorem cred_xp (sm : SemLoc sig) (i : Fin 3) (n : ℕ) (c : Dev nD) :
    (Pipeline.launchCred (fun d : Dev nD => (tallyAt (((xp d i : Dev nD) : Thread nD τ), sm) () n : CellTallies nD τ sig Unit)) c : sProp 𝕄)
      ⊢ cred (tallyAt ((c : Thread nD τ), sm) () n) :=
  Pipeline.launchCred_tallyAt sm (fun d => xp d i) (fun d => xp d i) (fun d => xp_xp d i) (fun d => xp_xp d i) () n c

omit [FloatOps F] in
/-- The launch credit under the eighteen dues is the eighteen launch credits under one due each. -/
theorem launchCred_split (c : Dev nD) :
    (Pipeline.launchCred O₀ c : sProp 𝕄) =
      iprop((((((((((((((((((Pipeline.launchCred (fun _ : Dev nD => (0 : CellTallies nD τ sig Unit)) c
        ∗ Pipeline.launchCred (fun d : Dev nD => (tallyAt (dCell (xp d 2) (dix 3 1 2)) () N : CellTallies nD τ sig Unit)) c)
        ∗ Pipeline.launchCred (fun d : Dev nD => (tallyAt (dCell (xp d 1) (dix 3 1 1)) () N : CellTallies nD τ sig Unit)) c)
        ∗ Pipeline.launchCred (fun d : Dev nD => (tallyAt (dCell (xp d 0) (dix 3 1 0)) () N : CellTallies nD τ sig Unit)) c)
        ∗ Pipeline.launchCred (fun d : Dev nD => (tallyAt (dCell (xp d 2) (dix 3 0 2)) () N : CellTallies nD τ sig Unit)) c)
        ∗ Pipeline.launchCred (fun d : Dev nD => (tallyAt (dCell (xp d 1) (dix 3 0 1)) () N : CellTallies nD τ sig Unit)) c)
        ∗ Pipeline.launchCred (fun d : Dev nD => (tallyAt (dCell (xp d 0) (dix 3 0 0)) () N : CellTallies nD τ sig Unit)) c)
        ∗ Pipeline.launchCred (fun d : Dev nD => (tallyAt (dCell (zs d 1) (dix 1 1 0)) () N : CellTallies nD τ sig Unit)) c)
        ∗ Pipeline.launchCred (fun d : Dev nD => (tallyAt (dCell (zs d 2) (dix 1 1 1)) () N : CellTallies nD τ sig Unit)) c)
        ∗ Pipeline.launchCred (fun d : Dev nD => (tallyAt (dCell (zs d 3) (dix 1 1 2)) () N : CellTallies nD τ sig Unit)) c)
        ∗ Pipeline.launchCred (fun d : Dev nD => (tallyAt (dCell (zs d 1) (dix 1 0 0)) () N : CellTallies nD τ sig Unit)) c)
        ∗ Pipeline.launchCred (fun d : Dev nD => (tallyAt (dCell (zs d 2) (dix 1 0 1)) () N : CellTallies nD τ sig Unit)) c)
        ∗ Pipeline.launchCred (fun d : Dev nD => (tallyAt (dCell (zs d 3) (dix 1 0 2)) () N : CellTallies nD τ sig Unit)) c)
        ∗ Pipeline.launchCred (fun d : Dev nD => (tallyAt (barCell (xp d 2)) () 1 : CellTallies nD τ sig Unit)) c)
        ∗ Pipeline.launchCred (fun d : Dev nD => (tallyAt (barCell (xp d 1)) () 1 : CellTallies nD τ sig Unit)) c)
        ∗ Pipeline.launchCred (fun d : Dev nD => (tallyAt (barCell (xp d 0)) () 1 : CellTallies nD τ sig Unit)) c)
        ∗ Pipeline.launchCred (fun d : Dev nD => (tallyAt (barCell (zs d 3)) () 1 : CellTallies nD τ sig Unit)) c)
        ∗ Pipeline.launchCred (fun d : Dev nD => (tallyAt (barCell (zs d 2)) () 1 : CellTallies nD τ sig Unit)) c)
        ∗ Pipeline.launchCred (fun d : Dev nD => (tallyAt (barCell (zs d 1)) () 1 : CellTallies nD τ sig Unit)) c) := by
  rw [← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add]
  rfl

omit [FloatOps F] in
/-- Six units on one cell are one credit of six. -/
theorem cred_six (g : GSem nD τ sig) :
    iprop(cred (tallyAt g () 1) ∗ cred (tallyAt g () 1) ∗ cred (tallyAt g () 1) ∗ cred (tallyAt g () 1) ∗ cred (tallyAt g () 1) ∗ cred (tallyAt g () 1))
      ⊢ (cred (tallyAt g () 6) : sProp 𝕄) := by
  rw [show (tallyAt g () 6 : CellTallies nD τ sig Unit)
      = tallyAt g () 1 + (tallyAt g () 1 + (tallyAt g () 1 + (tallyAt g () 1 + (tallyAt g () 1 + tallyAt g () 1)))) from by
    rw [tallyAt_add, tallyAt_add, tallyAt_add, tallyAt_add, tallyAt_add]]
  exact (sep_mono_right <| (sep_mono_right <| (sep_mono_right <| (sep_mono_right (cred_add _ _).2).trans (cred_add _ _).2).trans
    (cred_add _ _).2).trans (cred_add _ _).2).trans (cred_add _ _).2

omit [FloatOps F] in
/-- The six (half, lane) pairs, listed. -/
theorem bigSep_six (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

omit [FloatOps F] in
/-- The launch credit: what the sixteen devices together owe each of `c`'s cells. -/
theorem creds_intro (c : Dev nD) : (Pipeline.launchCred O₀ c : sProp 𝕄) ⊢ creds c := by
  rw [launchCred_split (F := F) c]
  unfold creds
  rw [bigSep_six, bigSep_six]
  iintro ⟨⟨⟨⟨⟨⟨⟨⟨⟨⟨⟨⟨⟨⟨⟨⟨⟨⟨-, P12⟩, P11⟩, P10⟩, P02⟩, P01⟩, P00⟩, Z10⟩, Z11⟩, Z12⟩, Z00⟩, Z01⟩, Z02⟩, B5⟩, B4⟩, B3⟩, B2⟩, B1⟩, B0⟩
  ihave B0' := (cred_zs (F := F) (.reg barS) 1 3 (fun c => zs_back c 1) (fun d => zs_zs d 1) 1 c) $$ B0
  ihave B1' := (cred_zs (F := F) (.reg barS) 2 2 (fun c => zs_back c 2) (fun d => zs_zs d 2) 1 c) $$ B1
  ihave B2' := (cred_zs (F := F) (.reg barS) 3 1 (fun c => zs_back c 3) (fun d => zs_zs d 3) 1 c) $$ B2
  ihave B3' := (cred_xp (F := F) (.reg barS) 0 1 c) $$ B3
  ihave B4' := (cred_xp (F := F) (.reg barS) 1 1 c) $$ B4
  ihave B5' := (cred_xp (F := F) (.reg barS) 2 1 c) $$ B5
  ihave Z02' := (cred_zs (F := F) (.dma (dsem (dix 1 0 2))) 3 1 (fun c => zs_back c 3) (fun d => zs_zs d 3) N c) $$ Z02
  ihave Z01' := (cred_zs (F := F) (.dma (dsem (dix 1 0 1))) 2 2 (fun c => zs_back c 2) (fun d => zs_zs d 2) N c) $$ Z01
  ihave Z00' := (cred_zs (F := F) (.dma (dsem (dix 1 0 0))) 1 3 (fun c => zs_back c 1) (fun d => zs_zs d 1) N c) $$ Z00
  ihave Z12' := (cred_zs (F := F) (.dma (dsem (dix 1 1 2))) 3 1 (fun c => zs_back c 3) (fun d => zs_zs d 3) N c) $$ Z12
  ihave Z11' := (cred_zs (F := F) (.dma (dsem (dix 1 1 1))) 2 2 (fun c => zs_back c 2) (fun d => zs_zs d 2) N c) $$ Z11
  ihave Z10' := (cred_zs (F := F) (.dma (dsem (dix 1 1 0))) 1 3 (fun c => zs_back c 1) (fun d => zs_zs d 1) N c) $$ Z10
  ihave P00' := (cred_xp (F := F) (.dma (dsem (dix 3 0 0))) 0 N c) $$ P00
  ihave P01' := (cred_xp (F := F) (.dma (dsem (dix 3 0 1))) 1 N c) $$ P01
  ihave P02' := (cred_xp (F := F) (.dma (dsem (dix 3 0 2))) 2 N c) $$ P02
  ihave P10' := (cred_xp (F := F) (.dma (dsem (dix 3 1 0))) 0 N c) $$ P10
  ihave P11' := (cred_xp (F := F) (.dma (dsem (dix 3 1 1))) 1 N c) $$ P11
  ihave P12' := (cred_xp (F := F) (.dma (dsem (dix 3 1 2))) 2 N c) $$ P12
  isplitl [B0' B1' B2' B3' B4' B5']
  · iapply (cred_six (F := F) (barCell c))
    isplitl [B0']; · iexact B0'
    isplitl [B1']; · iexact B1'
    isplitl [B2']; · iexact B2'
    isplitl [B3']; · iexact B3'
    isplitl [B4']; · iexact B4'
    iexact B5'
  isplitl [Z00' Z01' Z02' Z10' Z11' Z12']
  ·
    isplitl [Z00']; · iexact Z00'
    isplitl [Z01']; · iexact Z01'
    isplitl [Z02']; · iexact Z02'
    isplitl [Z10']; · iexact Z10'
    isplitl [Z11']; · iexact Z11'
    iexact Z12'
  ·
    isplitl [P00']; · iexact P00'
    isplitl [P01']; · iexact P01'
    isplitl [P02']; · iexact P02'
    isplitl [P10']; · iexact P10'
    isplitl [P11']; · iexact P11'
    iexact P12'

/-- info: 'Cert.Kernel.AR.creds_intro' depends on axioms: [propext, Classical.choice, Quot.sound] -/
#guard_msgs in #print axioms creds_intro
/-- info: 'Cert.Kernel.AR.mayWait_zrecv' depends on axioms: [propext, Classical.choice, Quot.sound] -/
#guard_msgs in #print axioms mayWait_zrecv

end Cert.Kernel.AR

end
-- ==== Proof.B.Regions.lean ====
/- The three staged buffers of a device cut into the parts the protocol hands round: the result into the eight half-quarters
   of the device's plane, the landing buffer into its six slots, `x` into the two halves of the device's own quarter and
   the rest; a part's full share into the shares lent to its transfers; and the footprints of the kernel's loads and its
   store inside those parts. -/
import proofs.«900719_g7700000000000720_dist_ar_v7x_xyz2x2x4_z_m256_n256_f32_1_alg».proof.Proof.B.Core
import Idealize.ShloMosaic.Rules.PointsTo
import Idealize.ShloMosaic.Lib.Pipeline.Value

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The element sets of the views, and membership in them -/

/-- A half-quarter of either 256 × 256 buffer is its rectangle of rows; a slot of the landing buffer, re-indexed as
    32 × 256, keeps the elements of its 1 × 1 × 32 × 256 rectangle. -/
theorem xRow_set (c : Dev nD) (h : Fin 2) : (xRow c h).view.set = (rowRect c h).set := View.set_slice_whole _ _
theorem oRow_set (c : Dev nD) (h : Fin 2) : (oRow c h).view.set = (rowRect c h).set := View.set_slice_whole _ _
theorem zSlot_set (h : Fin 2) (kk : Fin 3) : (zSlot h kk).view.set = (slotRect h kk).set :=
  (View.set_reshape _ _).trans (View.set_slice_whole _ _)

/-- An index lies in half `h` of `c`'s quarter exactly when its row lies in the 32 rows from `qo c + 32 h`:
    the column axis is kept whole. -/
theorem mem_rowRect (c : Dev nD) (h : Fin 2) (i : S256x256.Idx) :
    i ∈ (rowRect c h).set ↔ qo c + 32 * h.val ≤ (i 0).val ∧ (i 0).val < qo c + 32 * h.val + 32 := by
  rw [Rect.mem_set_unit, off1_eq_qo, Fin.forall_fin_two]
  have h1 : (i 1).val < 256 := (i 1).isLt
  simp only [Matrix.cons_val_zero, Matrix.cons_val_one]
  omega

/-- The two spellings of the row offsets give one rectangle of elements. -/
theorem mem_rowRect2 (c : Dev nD) (h : Fin 2) (i : S256x256.Idx) :
    i ∈ (rowRect2 c h).set ↔ i ∈ (rowRect c h).set := by
  rw [Rect.mem_set_unit, Rect.mem_set_unit, off1_eq_off2]

theorem rowRect2_set (c : Dev nD) (h : Fin 2) : (rowRect2 c h).set = (rowRect c h).set := by
  ext i; exact mem_rowRect2 c h i

/-- An index lies in slot `(h, kk)` exactly when its first two coordinates are `h` and `kk`: the last two axes are kept whole. -/
theorem mem_slotRect (h : Fin 2) (kk : Fin 3) (i : S2x3x32x256.Idx) :
    i ∈ (slotRect h kk).set ↔ (i 0).val = h.val ∧ (i 1).val = kk.val := by
  rw [Rect.mem_set_unit]
  have h2 : (i 2).val < 32 := (i 2).isLt
  have h3 : (i 3).val < 256 := (i 3).isLt
  simp [Fin.forall_fin_succ]
  omega

/-! ## The four quarters of a plane

The first rows of the quarters of the four devices of a plane are multiples of 64, pairwise different, and are all of
0, 64, 128, 192: decided over the sixteen devices. -/

theorem qo_pl_mod (c : Dev nD) : ∀ j : Fin 4, qo (pl c j) % 64 = 0 := by revert c; decide
theorem qo_pl_inj (c : Dev nD) : ∀ j j' : Fin 4, qo (pl c j) = qo (pl c j') → j = j' := by revert c; decide
theorem qo_pl_surj (c : Dev nD) : ∀ p : Fin 4, ∃ j : Fin 4, qo (pl c j) = 64 * p.val := by revert c; decide

/-! ## Disjointness -/

omit [FloatOps F] in
/-- Two different slots of the landing buffer share no element. -/
theorem zSlot_disj (h h' : Fin 2) (kk kk' : Fin 3) (hne : (h, kk) ≠ (h', kk')) :
    Disjoint (zSlot h kk).view.set (zSlot h' kk').view.set := by
  rw [zSlot_set, zSlot_set, Finset.disjoint_left]
  intro i h1 h2
  rw [mem_slotRect] at h1 h2
  have e1 : h = h' := Fin.ext (by omega)
  have e2 : kk = kk' := Fin.ext (by omega)
  exact hne (by rw [e1, e2])

omit [FloatOps F] in
/-- Two different half-quarters of one plane share no row. -/
theorem oRow_disj (c : Dev nD) (j j' : Fin 4) (h h' : Fin 2) (hne : (j, h) ≠ (j', h')) :
    Disjoint (oRow (pl c j) h).view.set (oRow (pl c j') h').view.set := by
  rw [oRow_set, oRow_set, Finset.disjoint_left]
  intro i h1 h2
  rw [mem_rowRect] at h1 h2
  have m1 := qo_pl_mod c j
  have m2 := qo_pl_mod c j'
  -- two multiples of 64 whose blocks of 32 or 64 rows meet are equal
  have e : qo (pl c j) = qo (pl c j') := by omega
  have ej := qo_pl_inj c j j' e
  have eh : h = h' := Fin.ext (by omega)
  exact hne (by rw [ej, eh])

/-! ## The covers -/

/-- The rows of half-quarter `jh` of `c`'s plane, as elements of `c`'s staged result. -/
def oPart (c : Dev nD) (jh : Fin 4 × Fin 2) : Finset (Idx ((c : Thread nD τ).loc cc0_stg1_0)) := (oRow (pl c jh.1) jh.2).view.set
/-- Slot `hk`, as elements of `c`'s landing buffer. -/
def zPart (c : Dev nD) (hk : Fin 2 × Fin 3) : Finset (Idx ((c : Thread nD τ).loc cc0_scratch0)) := (zSlot hk.1 hk.2).view.set

/-- Row `r` lies in the quarter starting at `64 (r / 64)`, which some device of the plane reduces, in its half `r % 64 / 32`. -/
theorem out_cover (c : Dev nD) : (Finset.univ : Finset (Fin 4 × Fin 2)).biUnion (oPart c) = Finset.univ := by
  unfold oPart
  ext i
  simp only [Finset.mem_biUnion, Finset.mem_univ, true_and, iff_true]
  have h0 : (i 0).val < 256 := (i 0).isLt
  obtain ⟨j, hj⟩ := qo_pl_surj c ⟨(i 0).val / 64, by omega⟩
  refine ⟨(j, ⟨((i 0).val % 64) / 32, by omega⟩), ?_⟩
  rw [oRow_set]
  refine (mem_rowRect _ _ _).mpr ?_
  simp only at hj ⊢
  omega

/-- An index of the landing buffer lies in the slot its first two coordinates name. -/
theorem z_cover (c : Dev nD) : (Finset.univ : Finset (Fin 2 × Fin 3)).biUnion (zPart c) = Finset.univ := by
  unfold zPart
  ext i
  simp only [Finset.mem_biUnion, Finset.mem_univ, true_and, iff_true]
  refine ⟨(⟨(i 0).val, (i 0).isLt⟩, ⟨(i 1).val, (i 1).isLt⟩), ?_⟩
  rw [zSlot_set]
  exact (mem_slotRect _ _ _).mpr ⟨rfl, rfl⟩

/-- The two halves of a device's own quarter share no row. -/
theorem xRow_disj (c : Dev nD) : Disjoint (xRow c 0).view.set (xRow c 1).view.set := by
  rw [xRow_set, xRow_set, Finset.disjoint_left]
  intro i h1 h2
  rw [mem_rowRect] at h1 h2
  simp only [Fin.val_zero, Fin.val_one] at h1 h2
  omega

/-! ## The buffers cut and rejoined -/

omit [FloatOps F] in
/-- The staged result is the eight half-quarters of the device's plane. -/
theorem out_split (c : Dev nD) (f : Buf (Elt F) ((c : Thread nD τ).loc cc0_stg1_0)) :
    ((((c : Thread nD τ).loc cc0_stg1_0) ↦{fullShare} f : sProp 𝕄)) ⊣⊢
      bigSep (Finset.univ : Finset (Fin 4 × Fin 2)) fun jh =>
        ((oRow (pl c jh.1) jh.2).view.loc (c : Thread nD τ) ↦[(oRow (pl c jh.1) jh.2).view.set]{fullShare} f) := by
  refine BiEntails.of_eq ?_
  rw [← out_cover c]
  exact pointsTo_biUnion Finset.univ (oPart c) fun t _ t' _ hne => oRow_disj c t.1 t'.1 t.2 t'.2 hne

omit [FloatOps F] in
/-- The landing buffer is its six slots. -/
theorem z_split (c : Dev nD) (f : Buf (Elt F) ((c : Thread nD τ).loc cc0_scratch0)) :
    ((((c : Thread nD τ).loc cc0_scratch0) ↦{fullShare} f : sProp 𝕄)) ⊣⊢
      bigSep (Finset.univ : Finset (Fin 2 × Fin 3)) fun hk =>
        ((zSlot hk.1 hk.2).view.loc (c : Thread nD τ) ↦[(zSlot hk.1 hk.2).view.set]{fullShare} f) := by
  refine BiEntails.of_eq ?_
  rw [← z_cover c]
  exact pointsTo_biUnion Finset.univ (zPart c) fun t _ t' _ hne => zSlot_disj t.1 t'.1 t.2 t'.2 hne

/-- The rows of the staged `x` outside the device's own quarter. -/
def xRest (c : Dev nD) : Finset (Idx ((c : Thread nD τ).loc cc0_stg0_0)) :=
  (Finset.univ \ (xRow c 0).view.set) \ (xRow c 1).view.set

omit [FloatOps F] in
/-- The staged `x` is the two halves of the device's quarter and the rest. -/
theorem x_split (c : Dev nD) (f : Buf (Elt F) ((c : Thread nD τ).loc cc0_stg0_0)) :
    ((((c : Thread nD τ).loc cc0_stg0_0) ↦{fullShare} f : sProp 𝕄)) ⊣⊢
      iprop(((xRow c 0).view.loc (c : Thread nD τ) ↦[(xRow c 0).view.set]{fullShare} f)
        ∗ ((xRow c 1).view.loc (c : Thread nD τ) ↦[(xRow c 1).view.set]{fullShare} f)
        ∗ (((c : Thread nD τ).loc cc0_stg0_0) ↦[xRest c]{fullShare} f)) := by
  have hsub : ((xRow c 1).view.set : Finset (Idx ((c : Thread nD τ).loc cc0_stg0_0))) ⊆ Finset.univ \ (xRow c 0).view.set := by
    intro i hi
    exact Finset.mem_sdiff.mpr ⟨Finset.mem_univ _, fun h0 => Finset.disjoint_left.mp (xRow_disj c) h0 hi⟩
  exact (pointsTo_split_subset (Finset.subset_univ _)).trans (sep_congr_right (pointsTo_split_subset hsub))

omit [FloatOps F] in
/-- A full share is the three shares lent to the ring sends and the share kept for the load. -/
theorem share4 {ℓ : Loc nD τ sig} (I : Finset (Idx ℓ)) (f : Buf (Elt F) ℓ) :
    (ℓ ↦[I]{fullShare} f : sProp 𝕄) ⊣⊢
      iprop((ℓ ↦[I]{zshare 0} f) ∗ (ℓ ↦[I]{zshare 1} f) ∗ (ℓ ↦[I]{zshare 2} f) ∗ (ℓ ↦[I]{keepShare} f)) := by
  refine (pointsTo_share (PosShare.mem_left_op_right fullShare)).trans ?_
  refine (sep_congr (pointsTo_share (PosShare.mem_left_op_right fullShare.left))
    (pointsTo_share (PosShare.mem_left_op_right fullShare.right))).trans ?_
  exact sep_assoc

omit [FloatOps F] in
/-- A full share is the three shares lent to the plane sends. -/
theorem share3 {ℓ : Loc nD τ sig} (I : Finset (Idx ℓ)) (f : Buf (Elt F) ℓ) :
    (ℓ ↦[I]{fullShare} f : sProp 𝕄) ⊣⊢
      iprop((ℓ ↦[I]{xyshare 0} f) ∗ (ℓ ↦[I]{xyshare 1} f) ∗ (ℓ ↦[I]{xyshare 2} f)) := by
  refine (pointsTo_share (PosShare.mem_left_op_right fullShare)).trans ?_
  exact sep_congr_right (pointsTo_share (PosShare.mem_left_op_right fullShare.right))

/-! ## The loads' and the store's footprints -/

omit [FloatOps F] in
theorem xload_sub (c : Dev nD) (h : Fin 2) : xM.view.setOn (rowRect2 c h).toLoadRect.set ⊆ (xRow c h).view.set := by
  rw [xRow_set, ← rowRect2_set]
  intro i hi
  obtain ⟨x, hx, rfl⟩ := Finset.mem_map.mp hi
  exact hx
omit [FloatOps F] in
theorem oload_sub (c : Dev nD) (h : Fin 2) : oM.view.setOn (rowRect2 c h).toLoadRect.set ⊆ (oRow c h).view.set := by
  rw [oRow_set, ← rowRect2_set]
  intro i hi
  obtain ⟨x, hx, rfl⟩ := Finset.mem_map.mp hi
  exact hx
omit [FloatOps F] in
theorem zload_sub (h : Fin 2) (kk : Fin 3) : zM.view.setOn (slotRect h kk).toLoadRect.set ⊆ (zSlot h kk).view.set := by
  rw [zSlot_set]
  intro i hi
  obtain ⟨x, hx, rfl⟩ := Finset.mem_map.mp hi
  exact hx
omit [FloatOps F] in
theorem ostore_sub (c : Dev nD) (h : Fin 2) : (oM.access (rowRect2 c h)).setOn Finset.univ ⊆ (oRow c h).view.set := by
  rw [oRow_set, ← rowRect2_set]
  exact subset_of_eq (View.set_slice_whole _ _)

/-- info: 'Cert.Kernel.AR.out_split' depends on axioms: [propext, Classical.choice, Quot.sound] -/
#guard_msgs in #print axioms out_split
/-- info: 'Cert.Kernel.AR.z_split' depends on axioms: [propext, Classical.choice, Quot.sound] -/
#guard_msgs in #print axioms z_split

end Cert.Kernel.AR

end
-- ==== Proof.B.Landing.lean ====
/- What lands where. A transfer writes its destination view from its source's contents; on the destination's elements the
   result is the named final contents of the buffer, whatever the buffer held before: a ring transfer's slot of the
   landing buffer, a plane transfer's half-quarter of the neighbour's result, and the kernel's own store of its sum. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Regions
import Idealize.ShloMosaic.Lib.Pipeline.Value

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Writing through a view at one of its own elements -/

/-- A write through a view on its whole index set does not depend, at an element under the view, on what the buffer held before. -/
theorem write_univ_base {Val : EltTy → Type} {κ : Kind} {sp : Space} {s : Shape} {e : EltTy} (v : View sig κ sp s e)
    (f g : v.ty.Contents Val) (w : s.Idx → Val e) {i : v.ty.Idx} (hi : i ∈ v.set) :
    v.write Val f w Finset.univ i = v.write Val g w Finset.univ i := by
  obtain ⟨x, rfl⟩ := View.exists_emb_of_mem_set v hi
  rw [View.write_emb_of_mem f w (Finset.mem_univ x), View.write_emb_of_mem g w (Finset.mem_univ x)]

/-- Writes through unit-stride rectangles of the same sizes at equal offsets are the same write. -/
theorem write_slice_unit_congr {Val : EltTy → Type} {κ : Kind} {sp : Space} {s : Shape} {e : EltTy} (v : View sig κ sp s e)
    {off off' size : Fin s.rank → Nat} (h : off = off') (p : ∀ a, off a + size a ≤ s.size a)
    (p' : ∀ a, off' a + size a ≤ s.size a) (f : v.ty.Contents Val) (w : (Rect.unit off size p).shape.Idx → Val e)
    (M : Finset (Rect.unit off size p).shape.Idx) :
    (v.slice (Rect.unit off size p)).write Val f w M = (v.slice (Rect.unit off' size p')).write Val f w M := by
  subst h; rfl

/-! ## One slot, one half-quarter rewritten -/

/-- Rewriting another slot leaves a slot's elements alone. -/
theorem zput_other (c : Dev nD) (h h' : Fin 2) (kk kk' : Fin 3) (hne : (h, kk) ≠ (h', kk'))
    (f : (cc0_scratch0 : Ref sig .tc).ty.Contents (Elt F)) {i : (cc0_scratch0 : Ref sig .tc).ty.Idx}
    (hi : i ∈ (zSlot h kk).view.set) : zput m ρ c h' kk' f i = f i :=
  View.write_of_not_mem _ _ _ (Finset.disjoint_left.mp (zSlot_disj h h' kk kk' hne) hi)

/-- Rewriting a slot gives, on its elements, the same over any two buffers. -/
theorem zput_self (c : Dev nD) (h : Fin 2) (kk : Fin 3) (f g : (cc0_scratch0 : Ref sig .tc).ty.Contents (Elt F))
    {i : (cc0_scratch0 : Ref sig .tc).ty.Idx} (hi : i ∈ (zSlot h kk).view.set) :
    zput m ρ c h kk f i = (zSlot h kk).view.write (Elt F) g (zval m ρ c h kk) Finset.univ i :=
  write_univ_base (zSlot h kk).view f g (zval m ρ c h kk) hi

/-- Rewriting another half-quarter of the plane leaves a half-quarter's elements alone. -/
theorem oput_other (c : Dev nD) (j j' : Fin 4) (h h' : Fin 2) (hne : (j, h) ≠ (j', h'))
    (f : (cc0_stg1_0 : Ref sig .tc).ty.Contents (Elt F)) {i : (cc0_stg1_0 : Ref sig .tc).ty.Idx}
    (hi : i ∈ (oRow (pl c j) h).view.set) : oput m ρ (pl c j') h' f i = f i :=
  View.write_of_not_mem _ _ _ (Finset.disjoint_left.mp (oRow_disj c j j' h h' hne) hi)

/-- Rewriting a half-quarter gives, on its elements, the same over any two buffers. -/
theorem oput_self (e : Dev nD) (h : Fin 2) (f g : (cc0_stg1_0 : Ref sig .tc).ty.Contents (Elt F))
    {i : (cc0_stg1_0 : Ref sig .tc).ty.Idx} (hi : i ∈ (oRow e h).view.set) :
    oput m ρ e h f i = (oRow e h).view.write (Elt F) g (sumv m ρ e h) Finset.univ i :=
  write_univ_base (oRow e h).view f g (sumv m ρ e h) hi

/-- The final landing buffer on the elements of slot `(h, kk)`: that slot written, over anything. -/
theorem ZV_at (c : Dev nD) (h : Fin 2) (kk : Fin 3) (g : (cc0_scratch0 : Ref sig .tc).ty.Contents (Elt F)) :
    ∀ i ∈ (zSlot h kk).view.set, ZV m ρ c i = (zSlot h kk).view.write (Elt F) g (zval m ρ c h kk) Finset.univ i := by
  intro i hi
  unfold ZV
  fin_cases h <;> fin_cases kk
  · rw [zput_other m ρ c 0 1 0 2 (by decide) _ hi, zput_other m ρ c 0 1 0 1 (by decide) _ hi,
      zput_other m ρ c 0 1 0 0 (by decide) _ hi, zput_other m ρ c 0 0 0 2 (by decide) _ hi,
      zput_other m ρ c 0 0 0 1 (by decide) _ hi]
    exact zput_self m ρ c 0 0 _ g hi
  · rw [zput_other m ρ c 0 1 1 2 (by decide) _ hi, zput_other m ρ c 0 1 1 1 (by decide) _ hi,
      zput_other m ρ c 0 1 1 0 (by decide) _ hi, zput_other m ρ c 0 0 1 2 (by decide) _ hi]
    exact zput_self m ρ c 0 1 _ g hi
  · rw [zput_other m ρ c 0 1 2 2 (by decide) _ hi, zput_other m ρ c 0 1 2 1 (by decide) _ hi,
      zput_other m ρ c 0 1 2 0 (by decide) _ hi]
    exact zput_self m ρ c 0 2 _ g hi
  · rw [zput_other m ρ c 1 1 0 2 (by decide) _ hi, zput_other m ρ c 1 1 0 1 (by decide) _ hi]
    exact zput_self m ρ c 1 0 _ g hi
  · rw [zput_other m ρ c 1 1 1 2 (by decide) _ hi]
    exact zput_self m ρ c 1 1 _ g hi
  · exact zput_self m ρ c 1 2 _ g hi

/-- The final staged result on the elements of the half-quarter of plane device `j`: that device's sum written, over anything. -/
theorem OUTV_at (c : Dev nD) (j : Fin 4) (h : Fin 2) (g : (cc0_stg1_0 : Ref sig .tc).ty.Contents (Elt F)) :
    ∀ i ∈ (oRow (pl c j) h).view.set, OUTV m ρ c i = (oRow (pl c j) h).view.write (Elt F) g (sumv m ρ (pl c j) h) Finset.univ i := by
  intro i hi
  unfold OUTV
  fin_cases j <;> fin_cases h
  · rw [oput_other m ρ c 0 3 0 1 (by decide) _ hi,
      oput_other m ρ c 0 3 0 0 (by decide) _ hi,
      oput_other m ρ c 0 2 0 1 (by decide) _ hi,
      oput_other m ρ c 0 2 0 0 (by decide) _ hi,
      oput_other m ρ c 0 1 0 1 (by decide) _ hi,
      oput_other m ρ c 0 1 0 0 (by decide) _ hi,
      oput_other m ρ c 0 0 0 1 (by decide) _ hi]
    exact oput_self m ρ (pl c 0) 0 _ g hi
  · rw [oput_other m ρ c 0 3 1 1 (by decide) _ hi,
      oput_other m ρ c 0 3 1 0 (by decide) _ hi,
      oput_other m ρ c 0 2 1 1 (by decide) _ hi,
      oput_other m ρ c 0 2 1 0 (by decide) _ hi,
      oput_other m ρ c 0 1 1 1 (by decide) _ hi,
      oput_other m ρ c 0 1 1 0 (by decide) _ hi]
    exact oput_self m ρ (pl c 0) 1 _ g hi
  · rw [oput_other m ρ c 1 3 0 1 (by decide) _ hi,
      oput_other m ρ c 1 3 0 0 (by decide) _ hi,
      oput_other m ρ c 1 2 0 1 (by decide) _ hi,
      oput_other m ρ c 1 2 0 0 (by decide) _ hi,
      oput_other m ρ c 1 1 0 1 (by decide) _ hi]
    exact oput_self m ρ (pl c 1) 0 _ g hi
  · rw [oput_other m ρ c 1 3 1 1 (by decide) _ hi,
      oput_other m ρ c 1 3 1 0 (by decide) _ hi,
      oput_other m ρ c 1 2 1 1 (by decide) _ hi,
      oput_other m ρ c 1 2 1 0 (by decide) _ hi]
    exact oput_self m ρ (pl c 1) 1 _ g hi
  · rw [oput_other m ρ c 2 3 0 1 (by decide) _ hi,
      oput_other m ρ c 2 3 0 0 (by decide) _ hi,
      oput_other m ρ c 2 2 0 1 (by decide) _ hi]
    exact oput_self m ρ (pl c 2) 0 _ g hi
  · rw [oput_other m ρ c 2 3 1 1 (by decide) _ hi,
      oput_other m ρ c 2 3 1 0 (by decide) _ hi]
    exact oput_self m ρ (pl c 2) 1 _ g hi
  · rw [oput_other m ρ c 3 3 0 1 (by decide) _ hi]
    exact oput_self m ρ (pl c 3) 0 _ g hi
  · exact oput_self m ρ (pl c 3) 1 _ g hi

/-- The final staged result on the device's own half-quarter: its own sum written, over anything. -/
theorem OUTV_own (c : Dev nD) (h : Fin 2) (g : (cc0_stg1_0 : Ref sig .tc).ty.Contents (Elt F)) :
    ∀ i ∈ (oRow c h).view.set, OUTV m ρ c i = (oRow c h).view.write (Elt F) g (sumv m ρ c h) Finset.univ i :=
  OUTV_at m ρ c 0 h g

/-- The sender into slot `kk` of the device `kk + 1` steps on from `c` is `c` itself. -/
theorem zsrc_zs (c : Dev nD) : ∀ kk : Fin 3, zsrc (zs c (kk.val + 1)) kk = c := by revert c; decide

/-- Seen from plane neighbour `i3` of `c`, the device `c` is its own plane neighbour `i3`. -/
theorem pl_xp (c : Dev nD) : ∀ i3 : Fin 3, pl (xp c i3) ⟨i3.val + 1, by omega⟩ = c := by revert c; decide

/-- A ring transfer from `c`, lane `kk` (to the device `kk + 1` steps on), lands that device's final slot. -/
theorem zland (c : Dev nD) (h : Fin 2) (kk : Fin 3)
    (fd : Buf (Elt F) ((zSlot h kk).view.loc ((zs c (kk.val + 1) : Dev nD) : Thread nD τ))) :
    ∀ i ∈ (zSlot h kk).view.set,
      (zSlot h kk).view.write (Elt F) fd ((xRow c h).view.read (Elt F) (xstg m ρ c)) Finset.univ i = ZV m ρ (zs c (kk.val + 1)) i := by
  intro i hi
  have hv : zval m ρ (zs c (kk.val + 1)) h kk = (xRow c h).view.read (Elt F) (xstg m ρ c) := by
    unfold zval; rw [zsrc_zs c kk]
  rw [ZV_at m ρ (zs c (kk.val + 1)) h kk fd i hi, hv]

/-- The kernel's store of its sum leaves its half-quarter at the final contents. -/
theorem ostore_eq (c : Dev nD) (h : Fin 2) (f : Buf (Elt F) ((c : Thread nD τ).loc cc0_stg1_0)) :
    ∀ i ∈ (oRow c h).view.set, (oM.access (rowRect2 c h)).write (Elt F) f (sumv m ρ c h) Finset.univ i = OUTV m ρ c i := by
  intro i hi
  have e := write_slice_unit_congr (Val := Elt F) oM.view (off1_eq_off2 c h).symm (k0_off2_inb c h) (k0_off1_inb c h)
    f (sumv m ρ c h) Finset.univ
  exact (congrFun e i).trans (OUTV_own m ρ c h f i hi).symm

/-- A plane transfer from `c` to neighbour `i3`, its source at the final contents on `c`'s half-quarter, lands the
    neighbour's final contents there. -/
theorem oland (c : Dev nD) (h : Fin 2) (i3 : Fin 3)
    (fd : Buf (Elt F) ((oRow c h).view.loc ((xp c i3 : Dev nD) : Thread nD τ)))
    (fs : Buf (Elt F) ((oRow c h).view.loc (c : Thread nD τ)))
    (hfs : ∀ i ∈ (oRow c h).view.set, fs i = OUTV m ρ c i) :
    ∀ i ∈ (oRow c h).view.set,
      (oRow c h).view.write (Elt F) fd ((oRow c h).view.read (Elt F) fs) Finset.univ i = OUTV m ρ (xp c i3) i := by
  intro i hi
  have hr : (oRow c h).view.read (Elt F) fs = sumv m ρ c h :=
    (View.read_congr hfs).trans ((View.read_congr (OUTV_own m ρ c h fs)).trans (View.read_write_univ (v := (oRow c h).view) (Val := Elt F) fs (sumv m ρ c h)))
  have h1 := OUTV_at m ρ (xp c i3) ⟨i3.val + 1, by omega⟩ h fd
  rw [pl_xp c i3] at h1
  rw [h1 i hi, hr]

/-- What the kernel's loads read: its own rows of `x` and its landed slots are the arguments of its sum. -/
theorem sumv_zero (c : Dev nD) : sumv m ρ c 0 = k0_pay2 (k0_pay1
      (xM.view.readAt (Elt F) (rowRect2 c 0).toLoadRect (xstg m ρ c))
      (zM.view.readAt (Elt F) (slotRect 0 0).toLoadRect (ZV m ρ c))
      (zM.view.readAt (Elt F) (slotRect 0 1).toLoadRect (ZV m ρ c)))
      (zM.view.readAt (Elt F) (slotRect 0 2).toLoadRect (ZV m ρ c)) := rfl
theorem sumv_one (c : Dev nD) : sumv m ρ c 1 = k0_pay3
      (xM.view.readAt (Elt F) (rowRect2 c 1).toLoadRect (xstg m ρ c))
      (zM.view.readAt (Elt F) (slotRect 1 0).toLoadRect (ZV m ρ c))
      (zM.view.readAt (Elt F) (slotRect 1 1).toLoadRect (ZV m ρ c))
      (zM.view.readAt (Elt F) (slotRect 1 2).toLoadRect (ZV m ρ c)) := rfl

/-- info: 'Cert.Kernel.AR.zland' depends on axioms: [propext, Classical.choice, Quot.sound] -/
#guard_msgs in #print axioms zland

/-- info: 'Cert.Kernel.AR.oland' depends on axioms: [propext, Classical.choice, Quot.sound] -/
#guard_msgs in #print axioms oland

/-- info: 'Cert.Kernel.AR.ostore_eq' depends on axioms: [propext, Classical.choice, Quot.sound] -/
#guard_msgs in #print axioms ostore_eq

end Cert.Kernel.AR

end
-- ==== Proof.B.Glue.lean ====
/- Finite conjunctions over the protocol's index sets written out member by member. -/
import proofs.«900719_g7700000000000720_dist_ar_v7x_xyz2x2x4_z_m256_n256_f32_1_alg».proof.Proof.B.Core

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) :=
  bigSep_univ_eq_bigSepL ([0, 1, 2] : List (Fin 3)) (by decide) (by decide) Φ
omit [FloatOps F] in
/-- The four classes of DMA cell, one by one. -/
theorem bigSep_cls4 (Φ : Fin 4 → sProp 𝕄) : bigSep Finset.univ Φ = iprop(Φ 0 ∗ Φ 1 ∗ Φ 2 ∗ Φ 3) :=
  bigSep_univ_eq_bigSepL ([0, 1, 2, 3] : List (Fin 4)) (by decide) (by decide) Φ
omit [FloatOps F] in
theorem bigSep_hk (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL ([(0, 0), (0, 1), (0, 2), (1, 0), (1, 1), (1, 2)] : List (Fin 2 × Fin 3)) (by decide) (by decide) Φ
omit [FloatOps F] in
theorem bigSep_jh (Φ : Fin 4 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL ([(0, 0), (0, 1), (1, 0), (1, 1), (2, 0), (2, 1), (3, 0), (3, 1)] : List (Fin 4 × Fin 2)) (by decide) (by decide) Φ
omit [FloatOps F] in
/-- The twenty-five cells of a device: the barrier cell and the twenty-four DMA cells. -/
theorem bigSep_fin25_split (Φ : Fin 25 → sProp 𝕄) :
    bigSep Finset.univ Φ = iprop(Φ 0 ∗ bigSep Finset.univ fun j : Fin 24 => Φ j.succ) := by
  have h0 : (0 : Fin 25) ∉ (Finset.univ : Finset (Fin 24)).map ⟨Fin.succ, Fin.succ_injective _⟩ := fun h => by
    obtain ⟨j, -, hj⟩ := Finset.mem_map.mp h
    exact Fin.succ_ne_zero j hj
  rw [Fin.univ_succ 24, Finset.cons_eq_insert, bigSep_insert h0, bigSep_map]
  rfl

/-- A DMA semaphore index is its class, half and lane, and back: `6 cls + 3 h + kk`. -/
def dixEquiv : Fin 4 × (Fin 2 × Fin 3) ≃ Fin 24 where
  toFun p := dix p.1 p.2.1 p.2.2
  invFun j := (jcls j, (jh j, jk j))
  left_inv := fun p => by revert p; decide
  right_inv := fun j => by revert j; decide

omit [FloatOps F] in
/-- The twenty-four DMA cells by class: ring sends, ring receives, plane sends, plane receives. -/
theorem bigSep_fin24_cls (Φ : Fin 24 → sProp 𝕄) :
    bigSep Finset.univ Φ = iprop((bigSep Finset.univ fun hk : Fin 2 × Fin 3 => Φ (dix 0 hk.1 hk.2))
      ∗ (bigSep Finset.univ fun hk : Fin 2 × Fin 3 => Φ (dix 1 hk.1 hk.2))
      ∗ (bigSep Finset.univ fun hk : Fin 2 × Fin 3 => Φ (dix 2 hk.1 hk.2))
      ∗ (bigSep Finset.univ fun hk : Fin 2 × Fin 3 => Φ (dix 3 hk.1 hk.2))) :=
  (bigSep_univ_equiv dixEquiv Φ).trans
    ((bigSep_univ_prod fun p : Fin 4 × (Fin 2 × Fin 3) => Φ (dixEquiv p)).trans
      (bigSep_cls4 fun a : Fin 4 => bigSep Finset.univ fun hk : Fin 2 × Fin 3 => Φ (dixEquiv (a, hk))))

omit [FloatOps F] in
theorem pl_zero (c : Dev nD) : pl c 0 = c := rfl
omit [FloatOps F] in
theorem pl_one (c : Dev nD) : pl c 1 = xp c 0 := rfl
omit [FloatOps F] in
theorem pl_two (c : Dev nD) : pl c 2 = xp c 1 := rfl
omit [FloatOps F] in
theorem pl_three (c : Dev nD) : pl c 3 = xp c 2 := rfl

/-- info: 'Cert.Kernel.AR.bigSep_fin24_cls' depends on axioms: [propext, Classical.choice, Quot.sound] -/
#guard_msgs in #print axioms bigSep_fin24_cls
/-- info: 'Cert.Kernel.AR.bigSep_fin25_split' depends on axioms: [propext, Classical.choice, Quot.sound] -/
#guard_msgs in #print axioms bigSep_fin25_split

end Cert.Kernel.AR

end
-- ==== Proof.B.Steps.lean ====
/- The rules of the rounds discipline at this protocol's cells: one signal to a neighbour's barrier cell, one wait for the
   rest of a round of one of the device's own cells, one addressed transfer between two cells, one cell closed — each
   taking the cells' invariants out of the launch's records. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Tables
import proofs.«900719_g7700000000000720_dist_ar_v7x_xyz2x2x4_z_m256_n256_f32_1_alg».proof.Proof.B.Owes

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

omit [FloatOps F] in
theorem kcell_bar (t : Dev nD) : kcell (t, (0 : Fin 25)) = barCell t := rfl
omit [FloatOps F] in
theorem kcell_d (t : Dev nD) (j : Fin 24) : kcell (t, j.succ) = dCell t j := by
  show ((t : Thread nD τ), csem j.succ) = ((t : Thread nD τ), SemLoc.dma (dsem j))
  unfold csem
  rw [dif_neg (by simp)]
  exact congrArg (fun s => ((t : Thread nD τ), SemLoc.dma (dsem s))) (Fin.ext (by simp))

theorem inv_bar (t : Dev nD) : records m ρ K ⊢ cellInv ER (sched m ρ) (K (t, 0)) (barCell t) := by
  unfold records
  iintro ⟨HI, -⟩
  iapply (show (bigSep Finset.univ fun ck : Dev nD × Fin 25 => (cellInv ER (sched m ρ) (K ck) (kcell ck) : sProp 𝕄)) ⊢ cellInv ER (sched m ρ) (K (t, (0 : Fin 25))) (kcell (t, (0 : Fin 25))) from bigSep_elim (Finset.mem_univ _))
  iexact HI
theorem inv_d (t : Dev nD) (j : Fin 24) : records m ρ K ⊢ cellInv ER (sched m ρ) (K (t, j.succ)) (dCell t j) := by
  unfold records
  rw [← kcell_d t j]
  iintro ⟨HI, -⟩
  iapply (show (bigSep Finset.univ fun ck : Dev nD × Fin 25 => (cellInv ER (sched m ρ) (K ck) (kcell ck) : sProp 𝕄)) ⊢ cellInv ER (sched m ρ) (K (t, j.succ)) (kcell (t, j.succ)) from bigSep_elim (Finset.mem_univ _))
  iexact HI
theorem reached_bar (t : Dev nD) : records m ρ K ⊢ reached ER (barCell t) 0 := by
  unfold records
  iintro ⟨-, HR⟩
  iapply (show (bigSep Finset.univ fun ck : Dev nD × Fin 25 => (reached ER (kcell ck) 0 : sProp 𝕄)) ⊢ reached ER (kcell (t, (0 : Fin 25))) 0 from bigSep_elim (Finset.mem_univ _))
  iexact HR
theorem reached_d (t : Dev nD) (j : Fin 24) : records m ρ K ⊢ reached ER (dCell t j) 0 := by
  unfold records
  rw [← kcell_d t j]
  iintro ⟨-, HR⟩
  iapply (show (bigSep Finset.univ fun ck : Dev nD × Fin 25 => (reached ER (kcell ck) 0 : sProp 𝕄)) ⊢ reached ER (kcell (t, j.succ)) 0 from bigSep_elim (Finset.mem_univ _))
  iexact HR

instance records_persistent : BI.Persistent (records m ρ K) := by unfold records; infer_instance

section Rules

/-- A signal of one unit to device `t`'s barrier cell, paying its duty `dd`. -/
theorem step_signal {α : Type} {Q : α → sProp 𝕄} (c t : Dev nD) (dd : Fin 6) (O : CellTallies nD τ sig Unit) (W : Waits sig Unit)
    {k : PUnit → Prog (TpuEff nD τ sig (Elt F) Λ₀ .tc) α} (hr : τ.routes (c : Thread nD τ) (t : Thread nD τ) = true) :
    iprop(records m ρ K ∗ owes (c : Thread nD τ) (O + tallyAt (barCell t) () 1) W ∗ dutyTok ER (barCell t) 0 dd ∗ barPay t dd)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS 1) k) Q) := by
  iintro ⟨#HR, HO, Ht, Hp⟩
  iapply (Rounds.wp_signal 𝒱₀ ER (sched m ρ) (c : Thread nD τ) none (dst := (t : Thread nD τ)) (κ := K (t, 0))
      (d := dd) (by rw [duties_bar]; exact Finset.mem_univ _) (amount_bar m ρ t dd) () O rfl (hr := hr)) $$ [HO Ht Hp]
  isplitr; · iapply (inv_bar m ρ K t); iexact HR
  isplitl [HO]; · iexact HO
  isplitl [Ht]; · iexact Ht
  isplitl [Hp]; · rw [payload_bar]; iexact Hp
  iapply (reached_bar m ρ K t); iexact HR

/-- The wait for all six units of the device's own barrier cell. -/
theorem step_waitBar {α : Type} {Q : α → sProp 𝕄} (c : Dev nD) (O : CellTallies nD τ sig Unit) (W : Waits sig Unit)
    {k : PUnit → Prog (TpuEff nD τ sig (Elt F) Λ₀ .tc) α} :
    iprop(records m ρ K ∗ cred (tallyAt (barCell c) () 6) ∗ owes (c : Thread nD τ) O W ∗ MayWait (c : Thread nD τ) (.reg barS) () O
        ∗ atPos ER (barCell c) 0 ∅ 0)
      ⊢ iprop(((owes (c : Thread nD τ) O (insert (SemLoc.reg barS, ()) W) ∗ atPos ER (barCell c) 1 ∅ 0
              ∗ barPay c 0 ∗ barPay c 1 ∗ barPay c 2 ∗ barPay c 3 ∗ barPay c 4 ∗ barPay c 5)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 6) k) Q) := by
  iintro ⟨#HR, Hc, HO, Hm, Hat⟩ Hk
  iapply (Rounds.wp_wait_rest_token 𝒱₀ ER (sched m ρ) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hm Hat]
  · isplitr; · iapply (inv_bar m ρ K c); iexact HR
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  iapply (Entails.of_eq (rest_bar m ρ c)) $$ Hpay

/-- The wait for the one block's credit of the device's own DMA cell `j`. -/
theorem step_waitD {α : Type} {Q : α → sProp 𝕄} (c : Dev nD) (j : Fin 24) (O : CellTallies nD τ sig Unit) (W : Waits sig Unit)
    {sp sp' : Space} {s s' : Shape} {e e' : EltTy}
    {src : Memref sig .tc sp' s' e'} {dst : Memref sig .tc sp s e} {hsrc : src.view.WordExact} {hdst : dst.view.WordExact}
    (hN : dst.view.dmaCredit = N)
    {k : PUnit → Prog (TpuEff nD τ sig (Elt F) Λ₀ .tc) α} :
    iprop(records m ρ K ∗ cred (tallyAt (dCell c j) () N) ∗ owes (c : Thread nD τ) O W ∗ MayWait (c : Thread nD τ) (.dma (dsem j)) () O
        ∗ atPos ER (dCell c j) 0 ∅ 0)
      ⊢ iprop(((owes (c : Thread nD τ) O (insert (SemLoc.dma (dsem j), ()) W) ∗ atPos ER (dCell c j) 1 ∅ 0 ∗ dmaPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem j) src dst hsrc hdst) k) Q) := by
  iintro ⟨#HR, Hc, HO, Hm, Hat⟩ Hk
  iapply (Rounds.wp_wait_rest_token 𝒱₀ ER (sched m ρ) (c : Thread nD τ) none (κ := K (c, j.succ))
      (fun Kk => (wpE_waitDma2_eq 𝒱₀ (c : Thread nD τ) none Set.univ Kk).trans (by rw [hN])) (Set.mem_univ _) () (O := O) (W := W) (R := 0) (m := 0) (T := ∅)
      (by rw [Nat.zero_add, expect_d])) $$ [Hc HO Hm Hat]
  · isplitr; · iapply (inv_d m ρ K c j); iexact HR
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  iapply (Entails.of_eq (rest_d m ρ c j)) $$ Hpay

/-- One of the device's own DMA cells, its one round consumed, closed: its counter at zero is the device's again. -/
theorem step_close (c : Dev nD) (j : Fin 24) :
    iprop(records m ρ K ∗ atPos ER (dCell c j) 1 ∅ 0) ⊢ |={Set.univ}=> (semVal (dCell c j) 0 : sProp 𝕄) := by
  iintro ⟨#HR, Hat⟩
  iapply (Rounds.cell_close ER (sched m ρ) (Set.mem_univ (K (c, j.succ))) (fun h => h) (R := 0 + 1) (duties_later m ρ (dCell c j))) $$ [Hat]
  isplitr; · iapply (inv_d m ρ K c j); iexact HR
  iexact Hat

/-- An addressed transfer from the device's view `src` (held at share `q`) into `dst` on device `t`, completing on `t`'s
    DMA cell `jr` and, for the sender, on its own DMA cell `js`. -/
theorem step_send {α : Type} {Q : α → sProp 𝕄} (c t : Dev nD) (js jr : Fin 24) (O : CellTallies nD τ sig Unit) (W : Waits sig Unit)
    {src dst : Memref sig .tc .vmem S32x256 .f32}
    {hsc : (dst : Memref sig (Dev.tc t : Thread nD τ).2.kind .vmem S32x256 .f32).view.ref.isScScratch = false}
    {hsrc : src.view.WordExact} {hdst : dst.view.WordExact}
    {hsem : DmaTarget.Typed .vmem (.dma (dsem jr)) (.remote (Dev.tc t : Thread nD τ) dst (.dma (dsem js)) hsc)}
    (q : PosShare TreeShare) (fs : Buf (Elt F) (src.view.loc (c : Thread nD τ))) (fd : Buf (Elt F) (dst.view.loc (t : Thread nD τ)))
    (hN : dst.view.dmaCredit = N)
    (hpay₁ : (src.view.loc (c : Thread nD τ) ↦[src.view.set]{q} fs : sProp 𝕄) ⊢ dmaPay m ρ c js)
    (hpay₂ : (dst.view.loc (t : Thread nD τ) ↦[dst.view.set]{fullShare} (dst.view.write (Elt F) fd (src.view.read (Elt F) fs) Finset.univ) : sProp 𝕄)
      ⊢ dmaPay m ρ t jr)
    (hr : τ.routes (c : Thread nD τ) (t : Thread nD τ) = true)
    {k : PUnit → Prog (TpuEff nD τ sig (Elt F) Λ₀ .tc) α} :
    iprop(records m ρ K
        ∗ (src.view.loc (c : Thread nD τ) ↦[src.view.set]{q} fs) ∗ (dst.view.loc (t : Thread nD τ) ↦[dst.view.set]{fullShare} fd)
        ∗ owes (c : Thread nD τ) (O + tallyAt (dCell t jr) () N) W
        ∗ dutyTok ER (dCell c js) 0 (0 : Fin 6) ∗ dutyTok ER (dCell t jr) 0 (0 : Fin 6))
      ⊢ iprop(((cred (tallyAt (dCell c js) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) dst (.dma (dsem js)) hsc) (.dma (dsem jr)) hsrc hdst hsem) k) Q) := by
  iintro ⟨#HR, Hs, Hd, HO, Hts, Htr⟩
  iapply (Rounds.wp_send_pointsTo 𝒱₀ ER (sched m ρ) (c : Thread nD τ) none (c' := (t : Thread nD τ)) (src := src) (dst := dst) (q := q) (fs := fs)
      (κ₁ := K (c, js.succ)) (κ₂ := K (t, jr.succ)) (r₁ := 0) (r₂ := 0) (d₁ := (0 : Fin 6)) (d₂ := (0 : Fin 6)) (fd := fd)
      (by rw [duties_d]; exact Finset.mem_singleton_self _) (by rw [duties_d]; exact Finset.mem_singleton_self _)
      () () N (show dst.view.amount (SemLoc.dma (dsem jr)) = N from hN) (amount_d m ρ c js 0) (amount_d m ρ t jr 0) O rfl (W := W)
      (by rw [payload_d]; exact hpay₁) (by rw [payload_d]; exact hpay₂) (hr := hr)) $$ [Hs Hd HO Hts Htr]
  isplitr; · iapply (inv_d m ρ K c js); iexact HR
  isplitr; · iapply (inv_d m ρ K t jr); iexact HR
  isplitl [Hs]; · iexact Hs
  isplitl [Hd]; · iexact Hd
  isplitl [HO]; · iexact HO
  isplitl [Hts]; · iexact Hts
  isplitr; · iapply (reached_d m ρ K c js); iexact HR
  isplitl [Htr]; · iexact Htr
  iapply (reached_d m ρ K t jr); iexact HR

end Rules

/-- info: 'Cert.Kernel.AR.step_send' depends on axioms: [propext, Classical.choice, Quot.sound] -/
#guard_msgs in #print axioms step_send

end Cert.Kernel.AR

end
-- ==== Proof.B.Phases.lean ====
/- The pieces of memory and of ghost state the phases of a device's body pass on to one another. The phases: A the six
   barrier signals and the wait for six; B the six ring sends; C, for one half, the three ring receive waits, the loads,
   the sum stored and the three plane sends; D the twelve plane waits and the six ring send waits. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Tables
import proofs.«900719_g7700000000000720_dist_ar_v7x_xyz2x2x4_z_m256_n256_f32_1_alg».proof.Proof.B.Owes
import proofs.«900719_g7700000000000720_dist_ar_v7x_xyz2x2x4_z_m256_n256_f32_1_alg».proof.Proof.B.Regions
import proofs.«900719_g7700000000000720_dist_ar_v7x_xyz2x2x4_z_m256_n256_f32_1_alg».proof.Proof.B.Landing
import proofs.«900719_g7700000000000720_dist_ar_v7x_xyz2x2x4_z_m256_n256_f32_1_alg».proof.Proof.B.Glue
import proofs.«900719_g7700000000000720_dist_ar_v7x_xyz2x2x4_z_m256_n256_f32_1_alg».proof.Proof.B.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-! ## The pieces of memory the phases pass on -/

/-- Half `h` of `c`'s own quarter of its staged `x`, at share `q`. -/
abbrev xr (c : Dev nD) (h : Fin 2) (q : PosShare TreeShare) : sProp 𝕄 :=
  ((xRow c h).view.loc (c : Thread nD τ) ↦[(xRow c h).view.set]{q} xstg m ρ c)
/-- Slot `(h, kk)` of device `d`'s landing buffer, at some contents; at its final contents. -/
abbrev zAny (d : Dev nD) (h : Fin 2) (kk : Fin 3) : sProp 𝕄 :=
  iprop(∃ f, ((zSlot h kk).view.loc (d : Thread nD τ) ↦[(zSlot h kk).view.set]{fullShare} f))
abbrev zAt (d : Dev nD) (h : Fin 2) (kk : Fin 3) : sProp 𝕄 :=
  ((zSlot h kk).view.loc (d : Thread nD τ) ↦[(zSlot h kk).view.set]{fullShare} ZV m ρ d)
/-- The rows of half `h` of `e`'s quarter in device `d`'s staged result, at some contents; at `d`'s final contents and share `q`. -/
abbrev oAny (e : Dev nD) (h : Fin 2) (d : Dev nD) : sProp 𝕄 :=
  iprop(∃ f, ((oRow e h).view.loc (d : Thread nD τ) ↦[(oRow e h).view.set]{fullShare} f))
abbrev oAt (e : Dev nD) (h : Fin 2) (d : Dev nD) (q : PosShare TreeShare) : sProp 𝕄 :=
  ((oRow e h).view.loc (d : Thread nD τ) ↦[(oRow e h).view.set]{q} OUTV m ρ d)

/-- The token of the one duty of device `d`'s DMA cell `j`; the device's position at round `r` of its own cell `j`; a block's credit on it. -/
abbrev tokD (d : Dev nD) (j : Fin 24) : sProp 𝕄 := dutyTok ER (dCell d j) 0 (0 : Fin 6)
abbrev posD (c : Dev nD) (j : Fin 24) (r : ℕ) : sProp 𝕄 := atPos ER (dCell c j) r ∅ 0
abbrev credD (c : Dev nD) (j : Fin 24) : sProp 𝕄 := cred (tallyAt (dCell c j) () N)

end Cert.Kernel.AR

end
-- ==== Proof.B.Pieces.lean ====
/- What a device's body starts from and ends at, as the pipeline states it, and the same resources spelt out piece by
   piece: the ghost state opened and the three staged buffers cut into the parts the protocol passes round. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Tables
import proofs.«900719_g7700000000000720_dist_ar_v7x_xyz2x2x4_z_m256_n256_f32_1_alg».proof.Proof.B.Owes
import proofs.«900719_g7700000000000720_dist_ar_v7x_xyz2x2x4_z_m256_n256_f32_1_alg».proof.Proof.B.Regions
import proofs.«900719_g7700000000000720_dist_ar_v7x_xyz2x2x4_z_m256_n256_f32_1_alg».proof.Proof.B.Landing
import proofs.«900719_g7700000000000720_dist_ar_v7x_xyz2x2x4_z_m256_n256_f32_1_alg».proof.Proof.B.Glue
import proofs.«900719_g7700000000000720_dist_ar_v7x_xyz2x2x4_z_m256_n256_f32_1_alg».proof.Proof.B.Steps
import proofs.«900719_g7700000000000720_dist_ar_v7x_xyz2x2x4_z_m256_n256_f32_1_alg».proof.Proof.B.Phases

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv ∗ ∃ f : Buf (Elt F) ((c : Thread nD τ).loc cc0_scratch0), (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (OUTV m ρ c))

/-- Everything the device holds once its ghost state is opened and its three staged buffers are cut. -/
def pieces (c : Dev nD) (W : Waits sig Unit) : sProp 𝕄 :=
  iprop(records m ρ K ∗ levAts L lv ∗ owes (c : Thread nD τ) (owedFrom c 0) W
    ∗ cred (tallyAt (barCell c) () 6) ∗ atPos ER (barCell c) 0 ∅ 0
    ∗ (credD c (dix 1 0 0) ∗ credD c (dix 1 0 1) ∗ credD c (dix 1 0 2) ∗ credD c (dix 1 1 0) ∗ credD c (dix 1 1 1) ∗ credD c (dix 1 1 2))
    ∗ (credD c (dix 3 0 0) ∗ credD c (dix 3 0 1) ∗ credD c (dix 3 0 2) ∗ credD c (dix 3 1 0) ∗ credD c (dix 3 1 1) ∗ credD c (dix 3 1 2))
    ∗ ((posD c (dix 0 0 0) 0 ∗ posD c (dix 0 0 1) 0 ∗ posD c (dix 0 0 2) 0 ∗ posD c (dix 0 1 0) 0 ∗ posD c (dix 0 1 1) 0 ∗ posD c (dix 0 1 2) 0)
      ∗ (posD c (dix 1 0 0) 0 ∗ posD c (dix 1 0 1) 0 ∗ posD c (dix 1 0 2) 0 ∗ posD c (dix 1 1 0) 0 ∗ posD c (dix 1 1 1) 0 ∗ posD c (dix 1 1 2) 0)
      ∗ (posD c (dix 2 0 0) 0 ∗ posD c (dix 2 0 1) 0 ∗ posD c (dix 2 0 2) 0 ∗ posD c (dix 2 1 0) 0 ∗ posD c (dix 2 1 1) 0 ∗ posD c (dix 2 1 2) 0)
      ∗ (posD c (dix 3 0 0) 0 ∗ posD c (dix 3 0 1) 0 ∗ posD c (dix 3 0 2) 0 ∗ posD c (dix 3 1 0) 0 ∗ posD c (dix 3 1 1) 0 ∗ posD c (dix 3 1 2) 0))
    ∗ (dutyTok ER (barCell (zs c 1)) 0 (lo6 0) ∗ dutyTok ER (barCell (zs c 2)) 0 (lo6 1) ∗ dutyTok ER (barCell (zs c 3)) 0 (lo6 2)
      ∗ dutyTok ER (barCell (xp c 0)) 0 (hi6 0) ∗ dutyTok ER (barCell (xp c 1)) 0 (hi6 1) ∗ dutyTok ER (barCell (xp c 2)) 0 (hi6 2))
    ∗ (tokD c (dix 0 0 0) ∗ tokD c (dix 0 0 1) ∗ tokD c (dix 0 0 2) ∗ tokD c (dix 0 1 0) ∗ tokD c (dix 0 1 1) ∗ tokD c (dix 0 1 2))
    ∗ (tokD (zs c 1) (dix 1 0 0) ∗ tokD (zs c 2) (dix 1 0 1) ∗ tokD (zs c 3) (dix 1 0 2) ∗ tokD (zs c 1) (dix 1 1 0) ∗ tokD (zs c 2) (dix 1 1 1) ∗ tokD (zs c 3) (dix 1 1 2))
    ∗ (tokD c (dix 2 0 0) ∗ tokD c (dix 2 0 1) ∗ tokD c (dix 2 0 2) ∗ tokD c (dix 2 1 0) ∗ tokD c (dix 2 1 1) ∗ tokD c (dix 2 1 2))
    ∗ (tokD (xp c 0) (dix 3 0 0) ∗ tokD (xp c 1) (dix 3 0 1) ∗ tokD (xp c 2) (dix 3 0 2) ∗ tokD (xp c 0) (dix 3 1 0) ∗ tokD (xp c 1) (dix 3 1 1) ∗ tokD (xp c 2) (dix 3 1 2))
    ∗ (zAny c 0 0 ∗ zAny c 0 1 ∗ zAny c 0 2 ∗ zAny c 1 0 ∗ zAny c 1 1 ∗ zAny c 1 2)
    ∗ (oAny c 0 c ∗ oAny c 1 c ∗ oAny (xp c 0) 0 c ∗ oAny (xp c 0) 1 c ∗ oAny (xp c 1) 0 c ∗ oAny (xp c 1) 1 c ∗ oAny (xp c 2) 0 c ∗ oAny (xp c 2) 1 c)
    ∗ (xr m ρ c 0 (zshare 0) ∗ xr m ρ c 0 (zshare 1) ∗ xr m ρ c 0 (zshare 2) ∗ xr m ρ c 1 (zshare 0) ∗ xr m ρ c 1 (zshare 1) ∗ xr m ρ c 1 (zshare 2))
    ∗ xr m ρ c 0 keepShare ∗ xr m ρ c 1 keepShare
    ∗ (((c : Thread nD τ).loc cc0_stg0_0) ↦[xRest c]{fullShare} xstg m ρ c))

/-- What the device holds after its last wait. -/
def leftovers (c : Dev nD) : sProp 𝕄 :=
  iprop(records m ρ K
    ∗ ((posD c (dix 0 0 0) 1 ∗ posD c (dix 0 0 1) 1 ∗ posD c (dix 0 0 2) 1 ∗ posD c (dix 0 1 0) 1 ∗ posD c (dix 0 1 1) 1 ∗ posD c (dix 0 1 2) 1)
      ∗ (posD c (dix 1 0 0) 1 ∗ posD c (dix 1 0 1) 1 ∗ posD c (dix 1 0 2) 1 ∗ posD c (dix 1 1 0) 1 ∗ posD c (dix 1 1 1) 1 ∗ posD c (dix 1 1 2) 1)
      ∗ (posD c (dix 2 0 0) 1 ∗ posD c (dix 2 0 1) 1 ∗ posD c (dix 2 0 2) 1 ∗ posD c (dix 2 1 0) 1 ∗ posD c (dix 2 1 1) 1 ∗ posD c (dix 2 1 2) 1)
      ∗ (posD c (dix 3 0 0) 1 ∗ posD c (dix 3 0 1) 1 ∗ posD c (dix 3 0 2) 1 ∗ posD c (dix 3 1 0) 1 ∗ posD c (dix 3 1 1) 1 ∗ posD c (dix 3 1 2) 1))
    ∗ (zAt m ρ c 0 0 ∗ zAt m ρ c 0 1 ∗ zAt m ρ c 0 2 ∗ zAt m ρ c 1 0 ∗ zAt m ρ c 1 1 ∗ zAt m ρ c 1 2)
    ∗ (oAt m ρ c 0 c (xyshare 0) ∗ oAt m ρ c 0 c (xyshare 1) ∗ oAt m ρ c 0 c (xyshare 2) ∗ oAt m ρ c 1 c (xyshare 0) ∗ oAt m ρ c 1 c (xyshare 1) ∗ oAt m ρ c 1 c (xyshare 2))
    ∗ (oAt m ρ (xp c 0) 0 c fullShare ∗ oAt m ρ (xp c 1) 0 c fullShare ∗ oAt m ρ (xp c 2) 0 c fullShare ∗ oAt m ρ (xp c 0) 1 c fullShare ∗ oAt m ρ (xp c 1) 1 c fullShare ∗ oAt m ρ (xp c 2) 1 c fullShare)
    ∗ (xr m ρ c 0 (zshare 0) ∗ xr m ρ c 0 (zshare 1) ∗ xr m ρ c 0 (zshare 2) ∗ xr m ρ c 1 (zshare 0) ∗ xr m ρ c 1 (zshare 1) ∗ xr m ρ c 1 (zshare 2))
    ∗ xr m ρ c 0 keepShare ∗ xr m ρ c 1 keepShare
    ∗ (((c : Thread nD τ).loc cc0_stg0_0) ↦[xRest c]{fullShare} xstg m ρ c))

end Cert.Kernel.AR

end
-- ==== Proof.B.PhaseA.lean ====
/- The entry handshake of one device: six signals to its neighbours' barrier cells, each handing over the part of this
   device's memory that neighbour is about to write, and the wait for the six units the neighbours pay in turn, which
   bring the parts of their memory this device is about to write. -/
import proofs.«900719_g7700000000000720_dist_ar_v7x_xyz2x2x4_z_m256_n256_f32_1_alg».proof.Proof.B.Phases

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-! ## What the barrier's duties hand over, seen from the payer and from the owner -/

/-- Going dd + 1 steps on round the ring and then 3 - dd more is a full turn. -/
theorem phaseA_zs_turn (c : Dev nD) : ∀ dd : Fin 3, zs (zs c (dd.val + 1)) (3 - dd.val) = c := by revert c; decide

/-- The duty this device pays on the barrier cell of the device dd + 1 steps on: the two slots of lane 2 - dd of its OWN landing buffer. -/
theorem phaseA_sigPay_z (c : Dev nD) (dd : Fin 3) :
    barPay (F := F) (zs c (dd.val + 1)) (lo6 dd) = iprop(zAny c 0 (rev3 dd) ∗ zAny c 1 (rev3 dd)) := by
  rw [barPay_z, phaseA_zs_turn c dd]
/-- The duty this device pays on its i-th plane neighbour's barrier cell: that neighbour's quarter of its OWN staged result. -/
theorem phaseA_sigPay_xy (c : Dev nD) (i : Fin 3) :
    barPay (F := F) (xp c i) (hi6 i) = iprop(oAny (xp c i) 0 c ∗ oAny (xp c i) 1 c) := by
  rw [barPay_xy, xp_xp c i]
/-- What the ring neighbour 3 - dd steps on pays this device: the two slots of lane 2 - dd of that neighbour's landing buffer. -/
theorem phaseA_waitPay_z (c : Dev nD) (dd : Fin 3) :
    barPay (F := F) c (lo6 dd) = iprop(zAny (zs c (3 - dd.val)) 0 (rev3 dd) ∗ zAny (zs c (3 - dd.val)) 1 (rev3 dd)) := barPay_z c dd
/-- What the i-th plane neighbour pays this device: this device's quarter of that neighbour's staged result. -/
theorem phaseA_waitPay_xy (c : Dev nD) (i : Fin 3) :
    barPay (F := F) c (hi6 i) = iprop(oAny c 0 (xp c i) ∗ oAny c 1 (xp c i)) := barPay_xy c i

/-! ## A: the entry handshake -/

theorem phaseA' {α : Type} {Q : α → sProp 𝕄} (c t1 t2 t3 t4 t5 t6 : Dev nD)
    (h1 : t1 = zs c 1) (h2 : t2 = zs c 2) (h3 : t3 = zs c 3) (h4 : t4 = xp c 0) (h5 : t5 = xp c 1) (h6 : t6 = xp c 2)
    (W : Waits sig Unit) (k : PUnit → Prog (TpuEff nD τ sig (Elt F) Λ₀ .tc) α) :
    iprop((records m ρ K ∗ levAts L lv ∗ owes (c : Thread nD τ) (owedFrom c 0) W
        ∗ cred (tallyAt (barCell c) () 6) ∗ atPos ER (barCell c) 0 ∅ 0
        ∗ dutyTok ER (barCell (zs c 1)) 0 (lo6 0) ∗ dutyTok ER (barCell (zs c 2)) 0 (lo6 1) ∗ dutyTok ER (barCell (zs c 3)) 0 (lo6 2)
        ∗ dutyTok ER (barCell (xp c 0)) 0 (hi6 0) ∗ dutyTok ER (barCell (xp c 1)) 0 (hi6 1) ∗ dutyTok ER (barCell (xp c 2)) 0 (hi6 2)
        ∗ zAny c 0 2 ∗ zAny c 1 2 ∗ zAny c 0 1 ∗ zAny c 1 1 ∗ zAny c 0 0 ∗ zAny c 1 0
        ∗ oAny (xp c 0) 0 c ∗ oAny (xp c 0) 1 c ∗ oAny (xp c 1) 0 c ∗ oAny (xp c 1) 1 c ∗ oAny (xp c 2) 0 c ∗ oAny (xp c 2) 1 c)
      ∗ ((∃ W', owes (c : Thread nD τ) (owedFrom c 6) W') ∗ atPos ER (barCell c) 1 ∅ 0
          ∗ zAny (zs c 3) 0 2 ∗ zAny (zs c 3) 1 2 ∗ zAny (zs c 2) 0 1 ∗ zAny (zs c 2) 1 1 ∗ zAny (zs c 1) 0 0 ∗ zAny (zs c 1) 1 0
          ∗ oAny c 0 (xp c 0) ∗ oAny c 1 (xp c 0) ∗ oAny c 0 (xp c 1) ∗ oAny c 1 (xp c 1) ∗ oAny c 0 (xp c 2) ∗ oAny c 1 (xp c 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal ((t1 : Dev nD) : Thread nD τ) barS 1) fun _ =>
            .op (.semSignal ((t2 : Dev nD) : Thread nD τ) barS 1) fun _ =>
            .op (.semSignal ((t3 : Dev nD) : Thread nD τ) barS 1) fun _ =>
            .op (.semSignal ((t4 : Dev nD) : Thread nD τ) barS 1) fun _ =>
            .op (.semSignal ((t5 : Dev nD) : Thread nD τ) barS 1) fun _ =>
            .op (.semSignal ((t6 : Dev nD) : Thread nD τ) barS 1) fun _ =>
            .op (.semWait barS 6) k) Q := by
  subst h1 h2 h3 h4 h5 h6
  iintro ⟨⟨#HR, #Hlev, HO, Hc, Hat, Ht1, Ht2, Ht3, Ht4, Ht5, Ht6, Hz02, Hz12, Hz01, Hz11, Hz00, Hz10, Ho00, Ho01, Ho10, Ho11, Ho20, Ho21⟩, Hk⟩
  -- signal 1, to zs c 1: due 0 paid, duty lo6 0
  rw [show owedFrom c 0 = owedFrom c 1 + tallyAt (barCell (zs c 1)) () 1 from rfl]
  iapply (step_signal m ρ K c (zs c 1) (lo6 0) (owedFrom c 1) W (by routes)) $$ [HO Ht1 Hz02 Hz12]
  · isplitr; · iexact HR
    isplitl [HO]; · iexact HO
    isplitl [Ht1]; · iexact Ht1
    rw [show barPay (F := F) (zs c 1) (lo6 0) = iprop(zAny c 0 2 ∗ zAny c 1 2) from phaseA_sigPay_z c 0]
    isplitl [Hz02]; · iexact Hz02
    iexact Hz12
  iintro HO
  -- signal 2, to zs c 2: due 1 paid, duty lo6 1
  rw [show owedFrom c 1 = owedFrom c 2 + tallyAt (barCell (zs c 2)) () 1 from rfl]
  iapply (step_signal m ρ K c (zs c 2) (lo6 1) (owedFrom c 2) W (by routes)) $$ [HO Ht2 Hz01 Hz11]
  · isplitr; · iexact HR
    isplitl [HO]; · iexact HO
    isplitl [Ht2]; · iexact Ht2
    rw [show barPay (F := F) (zs c 2) (lo6 1) = iprop(zAny c 0 1 ∗ zAny c 1 1) from phaseA_sigPay_z c 1]
    isplitl [Hz01]; · iexact Hz01
    iexact Hz11
  iintro HO
  -- signal 3, to zs c 3: due 2 paid, duty lo6 2
  rw [show owedFrom c 2 = owedFrom c 3 + tallyAt (barCell (zs c 3)) () 1 from rfl]
  iapply (step_signal m ρ K c (zs c 3) (lo6 2) (owedFrom c 3) W (by routes)) $$ [HO Ht3 Hz00 Hz10]
  · isplitr; · iexact HR
    isplitl [HO]; · iexact HO
    isplitl [Ht3]; · iexact Ht3
    rw [show barPay (F := F) (zs c 3) (lo6 2) = iprop(zAny c 0 0 ∗ zAny c 1 0) from phaseA_sigPay_z c 2]
    isplitl [Hz00]; · iexact Hz00
    iexact Hz10
  iintro HO
  -- signal 4, to xp c 0: due 3 paid, duty hi6 0
  rw [show owedFrom c 3 = owedFrom c 4 + tallyAt (barCell (xp c 0)) () 1 from rfl]
  iapply (step_signal m ρ K c (xp c 0) (hi6 0) (owedFrom c 4) W (by routes)) $$ [HO Ht4 Ho00 Ho01]
  · isplitr; · iexact HR
    isplitl [HO]; · iexact HO
    isplitl [Ht4]; · iexact Ht4
    rw [show barPay (F := F) (xp c 0) (hi6 0) = iprop(oAny (xp c 0) 0 c ∗ oAny (xp c 0) 1 c) from phaseA_sigPay_xy c 0]
    isplitl [Ho00]; · iexact Ho00
    iexact Ho01
  iintro HO
  -- signal 5, to xp c 1: due 4 paid, duty hi6 1
  rw [show owedFrom c 4 = owedFrom c 5 + tallyAt (barCell (xp c 1)) () 1 from rfl]
  iapply (step_signal m ρ K c (xp c 1) (hi6 1) (owedFrom c 5) W (by routes)) $$ [HO Ht5 Ho10 Ho11]
  · isplitr; · iexact HR
    isplitl [HO]; · iexact HO
    isplitl [Ht5]; · iexact Ht5
    rw [show barPay (F := F) (xp c 1) (hi6 1) = iprop(oAny (xp c 1) 0 c ∗ oAny (xp c 1) 1 c) from phaseA_sigPay_xy c 1]
    isplitl [Ho10]; · iexact Ho10
    iexact Ho11
  iintro HO
  -- signal 6, to xp c 2: due 5 paid, duty hi6 2
  rw [show owedFrom c 5 = owedFrom c 6 + tallyAt (barCell (xp c 2)) () 1 from rfl]
  iapply (step_signal m ρ K c (xp c 2) (hi6 2) (owedFrom c 6) W (by routes)) $$ [HO Ht6 Ho20 Ho21]
  · isplitr; · iexact HR
    isplitl [HO]; · iexact HO
    isplitl [Ht6]; · iexact Ht6
    rw [show barPay (F := F) (xp c 2) (hi6 2) = iprop(oAny (xp c 2) 0 c ∗ oAny (xp c 2) 1 c) from phaseA_sigPay_xy c 2]
    isplitl [Ho20]; · iexact Ho20
    iexact Ho21
  iintro HO
  -- the wait for six: nothing but receive credits is owed, all above the barrier cell
  iapply (step_waitBar m ρ K c (owedFrom c 6) W) $$ [Hc HO Hat]
  · isplitr; · iexact HR
    isplitl [Hc]; · iexact Hc
    isplitl [HO]; · iexact HO
    isplitr; · iapply (mayWait_bar c); iexact Hlev
    iexact Hat
  rw [show barPay (F := F) c 0 = iprop(zAny (zs c 3) 0 2 ∗ zAny (zs c 3) 1 2) from phaseA_waitPay_z c 0,
    show barPay (F := F) c 1 = iprop(zAny (zs c 2) 0 1 ∗ zAny (zs c 2) 1 1) from phaseA_waitPay_z c 1,
    show barPay (F := F) c 2 = iprop(zAny (zs c 1) 0 0 ∗ zAny (zs c 1) 1 0) from phaseA_waitPay_z c 2,
    show barPay (F := F) c 3 = iprop(oAny c 0 (xp c 0) ∗ oAny c 1 (xp c 0)) from phaseA_waitPay_xy c 0,
    show barPay (F := F) c 4 = iprop(oAny c 0 (xp c 1) ∗ oAny c 1 (xp c 1)) from phaseA_waitPay_xy c 1,
    show barPay (F := F) c 5 = iprop(oAny c 0 (xp c 2) ∗ oAny c 1 (xp c 2)) from phaseA_waitPay_xy c 2]
  iintro ⟨HO, Hat, ⟨Ha0, Ha1⟩, ⟨Hb0, Hb1⟩, ⟨Hc0, Hc1⟩, ⟨Hd0, Hd1⟩, ⟨He0, He1⟩, ⟨Hf0, Hf1⟩⟩
  iapply Hk
  isplitl [HO]; · iexists _; iexact HO
  isplitl [Hat]; · iexact Hat
  isplitl [Ha0]; · iexact Ha0
  isplitl [Ha1]; · iexact Ha1
  isplitl [Hb0]; · iexact Hb0
  isplitl [Hb1]; · iexact Hb1
  isplitl [Hc0]; · iexact Hc0
  isplitl [Hc1]; · iexact Hc1
  isplitl [Hd0]; · iexact Hd0
  isplitl [Hd1]; · iexact Hd1
  isplitl [He0]; · iexact He0
  isplitl [He1]; · iexact He1
  isplitl [Hf0]; · iexact Hf0
  iexact Hf1

/-- info: 'Cert.Kernel.AR.phaseA'' depends on axioms: [propext, Classical.choice, Quot.sound] -/
#guard_msgs in #print axioms phaseA'

end Cert.Kernel.AR

end
-- ==== Proof.B.PhaseB.lean ====
/- The six ring sends of one device: each half of its quarter of `x` to the slot, in the landing buffer of the device
   `kk + 1` steps on, that the device owns for it; each send pays the one duty of the sender's own send cell and of the
   receiver's receive cell, and takes one due off what the sender owes. -/
import proofs.«900719_g7700000000000720_dist_ar_v7x_xyz2x2x4_z_m256_n256_f32_1_alg».proof.Proof.B.Phases
import Idealize.ShloMosaic.Rules.PointsTo

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- One ring send: half `h` of the device's quarter of `x`, lane `kk`, to slot `(h, kk)` of the device `t`, `kk + 1` steps on. It lends the
    lane's share of the source rows to the transfer, fills the slot the receiver handed over, and pays the receiver's due. -/
theorem sendZ {α : Type} {Q : α → sProp 𝕄} (c t : Dev nD) (h : Fin 2) (kk : Fin 3) (ht : zs c (kk.val + 1) = t)
    (O : CellTallies nD τ sig Unit) (W : Waits sig Unit)
    {hsc : ((zSlot h kk) : Memref sig (Dev.tc t : Thread nD τ).2.kind .vmem S32x256 .f32).view.ref.isScScratch = false}
    {hsrc : (xRow c h).view.WordExact} {hdst : (zSlot h kk).view.WordExact}
    {hsem : DmaTarget.Typed .vmem (.dma (dsem (dix 1 h kk))) (.remote (Dev.tc t : Thread nD τ) (zSlot h kk) (.dma (dsem (dix 0 h kk))) hsc)}
    (hr : τ.routes (c : Thread nD τ) (t : Thread nD τ) = true)
    {k : PUnit → Prog (TpuEff nD τ sig (Elt F) Λ₀ .tc) α} :
    iprop(records m ρ K ∗ xr m ρ c h (zshare kk) ∗ zAny t h kk
        ∗ owes (c : Thread nD τ) (O + tallyAt (dCell t (dix 1 h kk)) () N) W
        ∗ tokD c (dix 0 h kk) ∗ tokD t (dix 1 h kk))
      ⊢ iprop(((credD c (dix 0 h kk) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xRow c h) (.remote (Dev.tc t : Thread nD τ) (zSlot h kk) (.dma (dsem (dix 0 h kk))) hsc) (.dma (dsem (dix 1 h kk))) hsrc hdst hsem) k) Q) := by
  subst ht
  iintro ⟨#HR, Hx, ⟨%fd, Hz⟩, HO, Hts, Htr⟩
  iapply (step_send m ρ K c (zs c (kk.val + 1)) (dix 0 h kk) (dix 1 h kk) O W (src := xRow c h) (dst := zSlot h kk)
      (zshare kk) (xstg m ρ c) fd rfl
      (Entails.of_eq (dmaPay_zsend m ρ c h kk).symm)
      (Entails.of_eq ((pointsTo_congr (zland m ρ c h kk fd)).trans (dmaPay_zrecv m ρ (zs c (kk.val + 1)) h kk).symm))
      hr) $$ [Hx Hz HO Hts Htr]
  isplitr; · iexact HR
  isplitl [Hx]; · iexact Hx
  isplitl [Hz]; · iexact Hz
  isplitl [HO]; · iexact HO
  isplitl [Hts]; · iexact Hts
  iexact Htr

/-! ## B: the six ring sends -/

theorem phaseB' {α : Type} {Q : α → sProp 𝕄} (c u0 u1 u2 u3 u4 u5 : Dev nD)
    (e0 : u0 = zs c 3) (e1 : u1 = zs c 2) (e2 : u2 = zs c 1) (e3 : u3 = zs c 3) (e4 : u4 = zs c 2) (e5 : u5 = zs c 1)
    {hsc0 : ((zSlot 0 2) : Memref sig (Dev.tc u0 : Thread nD τ).2.kind .vmem S32x256 .f32).view.ref.isScScratch = false}
    {hsrc0 : (xRow c 0).view.WordExact} {hdst0 : (zSlot 0 2).view.WordExact}
    {hsem0 : DmaTarget.Typed .vmem (.dma (dsem (dix 1 0 2))) (.remote (Dev.tc u0 : Thread nD τ) (zSlot 0 2) (.dma (dsem (dix 0 0 2))) hsc0)}
    {hsc1 : ((zSlot 0 1) : Memref sig (Dev.tc u1 : Thread nD τ).2.kind .vmem S32x256 .f32).view.ref.isScScratch = false}
    {hsrc1 : (xRow c 0).view.WordExact} {hdst1 : (zSlot 0 1).view.WordExact}
    {hsem1 : DmaTarget.Typed .vmem (.dma (dsem (dix 1 0 1))) (.remote (Dev.tc u1 : Thread nD τ) (zSlot 0 1) (.dma (dsem (dix 0 0 1))) hsc1)}
    {hsc2 : ((zSlot 0 0) : Memref sig (Dev.tc u2 : Thread nD τ).2.kind .vmem S32x256 .f32).view.ref.isScScratch = false}
    {hsrc2 : (xRow c 0).view.WordExact} {hdst2 : (zSlot 0 0).view.WordExact}
    {hsem2 : DmaTarget.Typed .vmem (.dma (dsem (dix 1 0 0))) (.remote (Dev.tc u2 : Thread nD τ) (zSlot 0 0) (.dma (dsem (dix 0 0 0))) hsc2)}
    {hsc3 : ((zSlot 1 2) : Memref sig (Dev.tc u3 : Thread nD τ).2.kind .vmem S32x256 .f32).view.ref.isScScratch = false}
    {hsrc3 : (xRow c 1).view.WordExact} {hdst3 : (zSlot 1 2).view.WordExact}
    {hsem3 : DmaTarget.Typed .vmem (.dma (dsem (dix 1 1 2))) (.remote (Dev.tc u3 : Thread nD τ) (zSlot 1 2) (.dma (dsem (dix 0 1 2))) hsc3)}
    {hsc4 : ((zSlot 1 1) : Memref sig (Dev.tc u4 : Thread nD τ).2.kind .vmem S32x256 .f32).view.ref.isScScratch = false}
    {hsrc4 : (xRow c 1).view.WordExact} {hdst4 : (zSlot 1 1).view.WordExact}
    {hsem4 : DmaTarget.Typed .vmem (.dma (dsem (dix 1 1 1))) (.remote (Dev.tc u4 : Thread nD τ) (zSlot 1 1) (.dma (dsem (dix 0 1 1))) hsc4)}
    {hsc5 : ((zSlot 1 0) : Memref sig (Dev.tc u5 : Thread nD τ).2.kind .vmem S32x256 .f32).view.ref.isScScratch = false}
    {hsrc5 : (xRow c 1).view.WordExact} {hdst5 : (zSlot 1 0).view.WordExact}
    {hsem5 : DmaTarget.Typed .vmem (.dma (dsem (dix 1 1 0))) (.remote (Dev.tc u5 : Thread nD τ) (zSlot 1 0) (.dma (dsem (dix 0 1 0))) hsc5)}
    (W : Waits sig Unit) (k : PUnit → Prog (TpuEff nD τ sig (Elt F) Λ₀ .tc) α) :
    iprop((records m ρ K ∗ owes (c : Thread nD τ) (owedFrom c 6) W
        ∗ xr m ρ c 0 (zshare 0) ∗ xr m ρ c 0 (zshare 1) ∗ xr m ρ c 0 (zshare 2) ∗ xr m ρ c 1 (zshare 0) ∗ xr m ρ c 1 (zshare 1) ∗ xr m ρ c 1 (zshare 2)
        ∗ zAny (zs c 1) 0 0 ∗ zAny (zs c 2) 0 1 ∗ zAny (zs c 3) 0 2 ∗ zAny (zs c 1) 1 0 ∗ zAny (zs c 2) 1 1 ∗ zAny (zs c 3) 1 2
        ∗ tokD c (dix 0 0 0) ∗ tokD c (dix 0 0 1) ∗ tokD c (dix 0 0 2) ∗ tokD c (dix 0 1 0) ∗ tokD c (dix 0 1 1) ∗ tokD c (dix 0 1 2)
        ∗ tokD (zs c 1) (dix 1 0 0) ∗ tokD (zs c 2) (dix 1 0 1) ∗ tokD (zs c 3) (dix 1 0 2) ∗ tokD (zs c 1) (dix 1 1 0) ∗ tokD (zs c 2) (dix 1 1 1) ∗ tokD (zs c 3) (dix 1 1 2))
      ∗ ((∃ W', owes (c : Thread nD τ) (owedFrom c 12) W')
          ∗ credD c (dix 0 0 0) ∗ credD c (dix 0 0 1) ∗ credD c (dix 0 0 2) ∗ credD c (dix 0 1 0) ∗ credD c (dix 0 1 1) ∗ credD c (dix 0 1 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.enqueueDma (xRow c 0) (.remote (Dev.tc u0 : Thread nD τ) (zSlot 0 2) (.dma (dsem (dix 0 0 2))) hsc0) (.dma (dsem (dix 1 0 2))) hsrc0 hdst0 hsem0) fun _ =>
            .op (.enqueueDma (xRow c 0) (.remote (Dev.tc u1 : Thread nD τ) (zSlot 0 1) (.dma (dsem (dix 0 0 1))) hsc1) (.dma (dsem (dix 1 0 1))) hsrc1 hdst1 hsem1) fun _ =>
            .op (.enqueueDma (xRow c 0) (.remote (Dev.tc u2 : Thread nD τ) (zSlot 0 0) (.dma (dsem (dix 0 0 0))) hsc2) (.dma (dsem (dix 1 0 0))) hsrc2 hdst2 hsem2) fun _ =>
            .op (.enqueueDma (xRow c 1) (.remote (Dev.tc u3 : Thread nD τ) (zSlot 1 2) (.dma (dsem (dix 0 1 2))) hsc3) (.dma (dsem (dix 1 1 2))) hsrc3 hdst3 hsem3) fun _ =>
            .op (.enqueueDma (xRow c 1) (.remote (Dev.tc u4 : Thread nD τ) (zSlot 1 1) (.dma (dsem (dix 0 1 1))) hsc4) (.dma (dsem (dix 1 1 1))) hsrc4 hdst4 hsem4) fun _ =>
            .op (.enqueueDma (xRow c 1) (.remote (Dev.tc u5 : Thread nD τ) (zSlot 1 0) (.dma (dsem (dix 0 1 0))) hsc5) (.dma (dsem (dix 1 1 0))) hsrc5 hdst5 hsem5) k) Q := by
  subst e0 e1 e2 e3 e4 e5
  iintro ⟨⟨#HR, HO, X00, X01, X02, X10, X11, X12, Z00, Z01, Z02, Z10, Z11, Z12, S00, S01, S02, S10, S11, S12, R00, R01, R02, R10, R11, R12⟩, Hk⟩
  iapply (sendZ m ρ K c (zs c 3) 0 2 rfl (owedFrom c 7) W (by routes)) $$ [X02 Z02 HO S02 R02]
  · isplitr; · iexact HR
    isplitl [X02]; · iexact X02
    isplitl [Z02]; · iexact Z02
    isplitl [HO]; · iexact HO
    isplitl [S02]; · iexact S02
    iexact R02
  iintro ⟨C02, HO⟩
  iapply (sendZ m ρ K c (zs c 2) 0 1 rfl (owedFrom c 8) W (by routes)) $$ [X01 Z01 HO S01 R01]
  · isplitr; · iexact HR
    isplitl [X01]; · iexact X01
    isplitl [Z01]; · iexact Z01
    isplitl [HO]; · iexact HO
    isplitl [S01]; · iexact S01
    iexact R01
  iintro ⟨C01, HO⟩
  iapply (sendZ m ρ K c (zs c 1) 0 0 rfl (owedFrom c 9) W (by routes)) $$ [X00 Z00 HO S00 R00]
  · isplitr; · iexact HR
    isplitl [X00]; · iexact X00
    isplitl [Z00]; · iexact Z00
    isplitl [HO]; · iexact HO
    isplitl [S00]; · iexact S00
    iexact R00
  iintro ⟨C00, HO⟩
  iapply (sendZ m ρ K c (zs c 3) 1 2 rfl (owedFrom c 10) W (by routes)) $$ [X12 Z12 HO S12 R12]
  · isplitr; · iexact HR
    isplitl [X12]; · iexact X12
    isplitl [Z12]; · iexact Z12
    isplitl [HO]; · iexact HO
    isplitl [S12]; · iexact S12
    iexact R12
  iintro ⟨C12, HO⟩
  iapply (sendZ m ρ K c (zs c 2) 1 1 rfl (owedFrom c 11) W (by routes)) $$ [X11 Z11 HO S11 R11]
  · isplitr; · iexact HR
    isplitl [X11]; · iexact X11
    isplitl [Z11]; · iexact Z11
    isplitl [HO]; · iexact HO
    isplitl [S11]; · iexact S11
    iexact R11
  iintro ⟨C11, HO⟩
  iapply (sendZ m ρ K c (zs c 1) 1 0 rfl (owedFrom c 12) W (by routes)) $$ [X10 Z10 HO S10 R10]
  · isplitr; · iexact HR
    isplitl [X10]; · iexact X10
    isplitl [Z10]; · iexact Z10
    isplitl [HO]; · iexact HO
    isplitl [S10]; · iexact S10
    iexact R10
  iintro ⟨C10, HO⟩
  iapply Hk
  isplitl [HO]; · iexists W; iexact HO
  isplitl [C00]; · iexact C00
  isplitl [C01]; · iexact C01
  isplitl [C02]; · iexact C02
  isplitl [C10]; · iexact C10
  isplitl [C11]; · iexact C11
  iexact C12

/-- info: 'Cert.Kernel.AR.phaseB'' depends on axioms: [propext, Classical.choice, Quot.sound] -/
#guard_msgs in #print axioms phaseB'

end Cert.Kernel.AR

end
-- ==== Proof.B.PhaseC0.lean ====
/- Phase C of a device's body for half 0 of its quarter. The device waits for the three ring transfers into its slots
   `(0, 0)`, `(0, 1)`, `(0, 2)`: each wait sits below the plane receive credits it still owes, and hands it the slot at what
   landed. It loads its own 32 rows of `x` and the three slots, stores their sum in its rows of the result — which are
   then at their final contents — and sends those rows, lent in three shares, to the same rows of the result on its
   three plane neighbours, paying dues 12, 13 and 14. Each send leaves the credit of its send cell; the shares come back
   at the exit waits. -/
import proofs.«900719_g7700000000000720_dist_ar_v7x_xyz2x2x4_z_m256_n256_f32_1_alg».proof.Proof.B.Phases

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

omit [FloatOps F] in
/-- A slot of the landing buffer and a half-quarter of the result credit a DMA semaphore as a half-quarter of `x` does: the
    credit counts a 32 × 256 block of f32, whichever buffer holds it. -/
private theorem zSlot_credit (h : Fin 2) (kk : Fin 3) : (zSlot h kk).view.dmaCredit = N := rfl
omit [FloatOps F] in
private theorem oRow_credit (c : Dev nD) (h : Fin 2) : (oRow c h).view.dmaCredit = N := rfl

/-! ## C, half 0: the ring receive waits, the sum, the plane sends -/

theorem phaseC0' {α : Type} {Q : α → sProp 𝕄} (c p0 p1 p2 : Dev nD) (e0 : p0 = xp c 0) (e1 : p1 = xp c 1) (e2 : p2 = xp c 2)
    {hsrcw0 : (xRow c 0).view.WordExact} {hdstw0 : (zSlot 0 0).view.WordExact} {hsrcw1 : (xRow c 0).view.WordExact} {hdstw1 : (zSlot 0 1).view.WordExact} {hsrcw2 : (xRow c 0).view.WordExact} {hdstw2 : (zSlot 0 2).view.WordExact}
    {hlx : xM.view.LoadsAt (rowRect2 c 0).toLoadRect} {hlz0 : zM.view.LoadsAt (slotRect 0 0).toLoadRect} {hlz1 : zM.view.LoadsAt (slotRect 0 1).toLoadRect} {hlz2 : zM.view.LoadsAt (slotRect 0 2).toLoadRect}
    {hlo : oM.view.LoadsAt (rowRect2 c 0).toLoadRect} {hst : (oM.access (rowRect2 c 0)).Stores Finset.univ} {hsm : (Finset.univ : Finset (rowRect2 c 0).shape.Idx) = Finset.univ ∨ ∀ a, (rowRect2 c 0).stride a = 1}
    {hsc0 : ((oRow c 0) : Memref sig (Dev.tc p0 : Thread nD τ).2.kind .vmem S32x256 .f32).view.ref.isScScratch = false}
    {hsrc0 : (oRow c 0).view.WordExact} {hdst0 : (oRow c 0).view.WordExact}
    {hsem0 : DmaTarget.Typed .vmem (.dma (dsem (dix 3 0 0))) (.remote (Dev.tc p0 : Thread nD τ) (oRow c 0) (.dma (dsem (dix 2 0 0))) hsc0)}
    {hsc1 : ((oRow c 0) : Memref sig (Dev.tc p1 : Thread nD τ).2.kind .vmem S32x256 .f32).view.ref.isScScratch = false}
    {hsrc1 : (oRow c 0).view.WordExact} {hdst1 : (oRow c 0).view.WordExact}
    {hsem1 : DmaTarget.Typed .vmem (.dma (dsem (dix 3 0 1))) (.remote (Dev.tc p1 : Thread nD τ) (oRow c 0) (.dma (dsem (dix 2 0 1))) hsc1)}
    {hsc2 : ((oRow c 0) : Memref sig (Dev.tc p2 : Thread nD τ).2.kind .vmem S32x256 .f32).view.ref.isScScratch = false}
    {hsrc2 : (oRow c 0).view.WordExact} {hdst2 : (oRow c 0).view.WordExact}
    {hsem2 : DmaTarget.Typed .vmem (.dma (dsem (dix 3 0 2))) (.remote (Dev.tc p2 : Thread nD τ) (oRow c 0) (.dma (dsem (dix 2 0 2))) hsc2)}
    (W : Waits sig Unit) (k : PUnit → Prog (TpuEff nD τ sig (Elt F) Λ₀ .tc) α) :
    iprop((records m ρ K ∗ levAts L lv ∗ owes (c : Thread nD τ) (owedFrom c 12) W
        ∗ credD c (dix 1 0 0) ∗ credD c (dix 1 0 1) ∗ credD c (dix 1 0 2)
        ∗ posD c (dix 1 0 0) 0 ∗ posD c (dix 1 0 1) 0 ∗ posD c (dix 1 0 2) 0
        ∗ xr m ρ c 0 keepShare ∗ oAny c 0 c
        ∗ oAny c 0 (xp c 0) ∗ oAny c 0 (xp c 1) ∗ oAny c 0 (xp c 2)
        ∗ tokD c (dix 2 0 0) ∗ tokD c (dix 2 0 1) ∗ tokD c (dix 2 0 2)
        ∗ tokD (xp c 0) (dix 3 0 0) ∗ tokD (xp c 1) (dix 3 0 1) ∗ tokD (xp c 2) (dix 3 0 2))
      ∗ ((∃ W', owes (c : Thread nD τ) (owedFrom c 15) W')
          ∗ posD c (dix 1 0 0) 1 ∗ posD c (dix 1 0 1) 1 ∗ posD c (dix 1 0 2) 1
          ∗ zAt m ρ c 0 0 ∗ zAt m ρ c 0 1 ∗ zAt m ρ c 0 2
          ∗ xr m ρ c 0 keepShare
          ∗ credD c (dix 2 0 0) ∗ credD c (dix 2 0 1) ∗ credD c (dix 2 0 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (dsem (dix 1 0 0)) (xRow c 0) (zSlot 0 0) hsrcw0 hdstw0) fun _ =>
            .op (.waitDma2 (dsem (dix 1 0 1)) (xRow c 0) (zSlot 0 1) hsrcw1 hdstw1) fun _ =>
            .op (.waitDma2 (dsem (dix 1 0 2)) (xRow c 0) (zSlot 0 2) hsrcw2 hdstw2) fun _ =>
            .op (.load xM (rowRect2 c 0).toLoadRect hlx) fun x =>
            .op (.load zM (slotRect 0 0).toLoadRect hlz0) fun x1 =>
            .op (.load zM (slotRect 0 1).toLoadRect hlz1) fun x2 =>
            .op (.load zM (slotRect 0 2).toLoadRect hlz2) fun x3 =>
            .op (.load oM (rowRect2 c 0).toLoadRect hlo) fun _ =>
            .op (.store oM (rowRect2 c 0) (k0_pay2 (k0_pay1 x x1 x2) x3) Finset.univ hst hsm) fun _ =>
            .op (.enqueueDma (oRow c 0) (.remote (Dev.tc p0 : Thread nD τ) (oRow c 0) (.dma (dsem (dix 2 0 0))) hsc0) (.dma (dsem (dix 3 0 0))) hsrc0 hdst0 hsem0) fun _ =>
            .op (.enqueueDma (oRow c 0) (.remote (Dev.tc p1 : Thread nD τ) (oRow c 0) (.dma (dsem (dix 2 0 1))) hsc1) (.dma (dsem (dix 3 0 1))) hsrc1 hdst1 hsem1) fun _ =>
            .op (.enqueueDma (oRow c 0) (.remote (Dev.tc p2 : Thread nD τ) (oRow c 0) (.dma (dsem (dix 2 0 2))) hsc2) (.dma (dsem (dix 3 0 2))) hsrc2 hdst2 hsem2) k) Q := by
  subst e0 e1 e2
  iintro ⟨⟨#HR, #Hlev, HO, Hc0, Hc1, Hc2, Hp0, Hp1, Hp2, Hx, Hoc, Ho0, Ho1, Ho2, Hts0, Hts1, Hts2, Htr0, Htr1, Htr2⟩, Hk⟩
  -- the three ring receive waits: each hands over its slot at what landed
  iapply (step_waitD m ρ K c (dix 1 0 0) (owedFrom c 12) (W) (src := xRow c 0) (dst := zSlot 0 0) (zSlot_credit 0 0)) $$ [HO Hc0 Hp0]
  · isplitr; · iexact HR
    isplitl [Hc0]; · iexact Hc0
    isplitl [HO]; · iexact HO
    isplitr; · iapply (mayWait_zrecv (F := F) c 0 0 12 (by omega)); iexact Hlev
    iexact Hp0
  iintro ⟨HO, Hp0, Hz0⟩
  ihave Hz0 := (Entails.of_eq (dmaPay_zrecv m ρ c 0 0)) $$ Hz0
  iapply (step_waitD m ρ K c (dix 1 0 1) (owedFrom c 12) (insert (SemLoc.dma (dsem (dix 1 0 0)), ()) W) (src := xRow c 0) (dst := zSlot 0 1) (zSlot_credit 0 1)) $$ [HO Hc1 Hp1]
  · isplitr; · iexact HR
    isplitl [Hc1]; · iexact Hc1
    isplitl [HO]; · iexact HO
    isplitr; · iapply (mayWait_zrecv (F := F) c 0 1 12 (by omega)); iexact Hlev
    iexact Hp1
  iintro ⟨HO, Hp1, Hz1⟩
  ihave Hz1 := (Entails.of_eq (dmaPay_zrecv m ρ c 0 1)) $$ Hz1
  iapply (step_waitD m ρ K c (dix 1 0 2) (owedFrom c 12) (insert (SemLoc.dma (dsem (dix 1 0 1)), ()) (insert (SemLoc.dma (dsem (dix 1 0 0)), ()) W)) (src := xRow c 0) (dst := zSlot 0 2) (zSlot_credit 0 2)) $$ [HO Hc2 Hp2]
  · isplitr; · iexact HR
    isplitl [Hc2]; · iexact Hc2
    isplitl [HO]; · iexact HO
    isplitr; · iapply (mayWait_zrecv (F := F) c 0 2 12 (by omega)); iexact Hlev
    iexact Hp2
  iintro ⟨HO, Hp2, Hz2⟩
  ihave Hz2 := (Entails.of_eq (dmaPay_zrecv m ρ c 0 2)) $$ Hz2
  -- the loads: the device's rows of `x`, its three slots, its rows of the result
  iapply (wp_load 𝒱₀ (c : Thread nD τ) none Set.univ (m := xM) (xload_sub c 0)) $$ Hx; iintro Hx
  iapply (wp_load 𝒱₀ (c : Thread nD τ) none Set.univ (m := zM) (zload_sub 0 0)) $$ Hz0; iintro Hz0
  iapply (wp_load 𝒱₀ (c : Thread nD τ) none Set.univ (m := zM) (zload_sub 0 1)) $$ Hz1; iintro Hz1
  iapply (wp_load 𝒱₀ (c : Thread nD τ) none Set.univ (m := zM) (zload_sub 0 2)) $$ Hz2; iintro Hz2
  icases Hoc with ⟨%fo, Hoc⟩
  iapply (wp_load 𝒱₀ (c : Thread nD τ) none Set.univ (m := oM) (oload_sub c 0)) $$ Hoc; iintro Hoc
  -- the store of the sum: the rows are at the final contents
  iapply (wp_store 𝒱₀ (c : Thread nD τ) none Set.univ (m := oM) (r := rowRect2 c 0) (Mk := Finset.univ) (ostore_sub c 0)) $$ Hoc; iintro Hoc
  ihave Hoc := (Entails.of_eq (show
      (((oM.access (rowRect2 c 0)).loc (c : Thread nD τ) ↦[(oRow c 0).view.set]{fullShare}
          (oM.access (rowRect2 c 0)).write (Elt F) fo
          (k0_pay2 (k0_pay1
            (xM.view.readAt (Elt F) (rowRect2 c 0).toLoadRect (xstg m ρ c))
            (zM.view.readAt (Elt F) (slotRect 0 0).toLoadRect (ZV m ρ c))
            (zM.view.readAt (Elt F) (slotRect 0 1).toLoadRect (ZV m ρ c)))
            (zM.view.readAt (Elt F) (slotRect 0 2).toLoadRect (ZV m ρ c))) Finset.univ : sProp 𝕄))
        = ((oRow c 0).view.loc (c : Thread nD τ) ↦[(oRow c 0).view.set]{fullShare} OUTV m ρ c)
      from pointsTo_congr (ostore_eq m ρ c 0 fo))) $$ Hoc
  -- the rows lent in three shares to the three plane sends
  ihave Hoc := (share3 (F := F) (oRow c 0).view.set (OUTV m ρ c)).1 $$ Hoc
  icases Hoc with ⟨Hs0, Hs1, Hs2⟩
  -- the plane send to neighbour 0: due 12
  ihave HO := (Entails.of_eq (congrArg (fun O => (owes (c : Thread nD τ) O (insert (SemLoc.dma (dsem (dix 1 0 2)), ()) (insert (SemLoc.dma (dsem (dix 1 0 1)), ()) (insert (SemLoc.dma (dsem (dix 1 0 0)), ()) W))) : sProp 𝕄))
      (show owedFrom c 12 = owedFrom c 13 + tallyAt (dCell (xp c 0) (dix 3 0 0)) () N from rfl))) $$ HO
  icases Ho0 with ⟨%f0, Ho0⟩
  iapply (step_send m ρ K c (xp c 0) (dix 2 0 0) (dix 3 0 0) (owedFrom c 13) (insert (SemLoc.dma (dsem (dix 1 0 2)), ()) (insert (SemLoc.dma (dsem (dix 1 0 1)), ()) (insert (SemLoc.dma (dsem (dix 1 0 0)), ()) W))) (src := oRow c 0) (dst := oRow c 0)
      (xyshare 0) (OUTV m ρ c) f0 (oRow_credit c 0)
      (Entails.of_eq (dmaPay_xysend m ρ c 0 0).symm)
      (by rw [dmaPay_xyrecv, xp_xp c 0]; exact Entails.of_eq (pointsTo_congr (oland m ρ c 0 0 f0 (OUTV m ρ c) (fun _ _ => rfl))))
      (by routes)) $$ [Hs0 Ho0 HO Hts0 Htr0]
  · isplitr; · iexact HR
    isplitl [Hs0]; · iexact Hs0
    isplitl [Ho0]; · iexact Ho0
    isplitl [HO]; · iexact HO
    isplitl [Hts0]; · iexact Hts0
    iexact Htr0
  iintro ⟨Hcs0, HO⟩
  -- the plane send to neighbour 1: due 13
  ihave HO := (Entails.of_eq (congrArg (fun O => (owes (c : Thread nD τ) O (insert (SemLoc.dma (dsem (dix 1 0 2)), ()) (insert (SemLoc.dma (dsem (dix 1 0 1)), ()) (insert (SemLoc.dma (dsem (dix 1 0 0)), ()) W))) : sProp 𝕄))
      (show owedFrom c 13 = owedFrom c 14 + tallyAt (dCell (xp c 1) (dix 3 0 1)) () N from rfl))) $$ HO
  icases Ho1 with ⟨%f1, Ho1⟩
  iapply (step_send m ρ K c (xp c 1) (dix 2 0 1) (dix 3 0 1) (owedFrom c 14) (insert (SemLoc.dma (dsem (dix 1 0 2)), ()) (insert (SemLoc.dma (dsem (dix 1 0 1)), ()) (insert (SemLoc.dma (dsem (dix 1 0 0)), ()) W))) (src := oRow c 0) (dst := oRow c 0)
      (xyshare 1) (OUTV m ρ c) f1 (oRow_credit c 0)
      (Entails.of_eq (dmaPay_xysend m ρ c 0 1).symm)
      (by rw [dmaPay_xyrecv, xp_xp c 1]; exact Entails.of_eq (pointsTo_congr (oland m ρ c 0 1 f1 (OUTV m ρ c) (fun _ _ => rfl))))
      (by routes)) $$ [Hs1 Ho1 HO Hts1 Htr1]
  · isplitr; · iexact HR
    isplitl [Hs1]; · iexact Hs1
    isplitl [Ho1]; · iexact Ho1
    isplitl [HO]; · iexact HO
    isplitl [Hts1]; · iexact Hts1
    iexact Htr1
  iintro ⟨Hcs1, HO⟩
  -- the plane send to neighbour 2: due 14
  ihave HO := (Entails.of_eq (congrArg (fun O => (owes (c : Thread nD τ) O (insert (SemLoc.dma (dsem (dix 1 0 2)), ()) (insert (SemLoc.dma (dsem (dix 1 0 1)), ()) (insert (SemLoc.dma (dsem (dix 1 0 0)), ()) W))) : sProp 𝕄))
      (show owedFrom c 14 = owedFrom c 15 + tallyAt (dCell (xp c 2) (dix 3 0 2)) () N from rfl))) $$ HO
  icases Ho2 with ⟨%f2, Ho2⟩
  iapply (step_send m ρ K c (xp c 2) (dix 2 0 2) (dix 3 0 2) (owedFrom c 15) (insert (SemLoc.dma (dsem (dix 1 0 2)), ()) (insert (SemLoc.dma (dsem (dix 1 0 1)), ()) (insert (SemLoc.dma (dsem (dix 1 0 0)), ()) W))) (src := oRow c 0) (dst := oRow c 0)
      (xyshare 2) (OUTV m ρ c) f2 (oRow_credit c 0)
      (Entails.of_eq (dmaPay_xysend m ρ c 0 2).symm)
      (by rw [dmaPay_xyrecv, xp_xp c 2]; exact Entails.of_eq (pointsTo_congr (oland m ρ c 0 2 f2 (OUTV m ρ c) (fun _ _ => rfl))))
      (by routes)) $$ [Hs2 Ho2 HO Hts2 Htr2]
  · isplitr; · iexact HR
    isplitl [Hs2]; · iexact Hs2
    isplitl [Ho2]; · iexact Ho2
    isplitl [HO]; · iexact HO
    isplitl [Hts2]; · iexact Hts2
    iexact Htr2
  iintro ⟨Hcs2, HO⟩
  -- what the phase leaves
  iapply Hk
  isplitl [HO]; · iexists (insert (SemLoc.dma (dsem (dix 1 0 2)), ()) (insert (SemLoc.dma (dsem (dix 1 0 1)), ()) (insert (SemLoc.dma (dsem (dix 1 0 0)), ()) W))); iexact HO
  isplitl [Hp0]; · iexact Hp0
  isplitl [Hp1]; · iexact Hp1
  isplitl [Hp2]; · iexact Hp2
  isplitl [Hz0]; · iexact Hz0
  isplitl [Hz1]; · iexact Hz1
  isplitl [Hz2]; · iexact Hz2
  isplitl [Hx]; · iexact Hx
  isplitl [Hcs0]; · iexact Hcs0
  isplitl [Hcs1]; · iexact Hcs1
  iexact Hcs2

/-- info: 'Cert.Kernel.AR.phaseC0'' depends on axioms: [propext, Classical.choice, Quot.sound] -/
#guard_msgs in #print axioms phaseC0'

end Cert.Kernel.AR

end
-- ==== Proof.B.PhaseC1.lean ====
/- Phase C of a device's body for the second half of its quarter: the three ring receive waits, the five loads, the sum
   stored into the device's own rows of the result, and the three plane sends of those rows. -/
import proofs.«900719_g7700000000000720_dist_ar_v7x_xyz2x2x4_z_m256_n256_f32_1_alg».proof.Proof.B.Phases

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- Phase C for the second half: from the credits and positions of the three ring receive cells of that half, the kept
    share of the device's own rows of `x`, its rows of its own result and of its three plane neighbours' results and the
    tokens of the six plane cells, through the three waits, the loads, the store of the sum and the three plane sends. -/
theorem phaseC1' {α : Type} {Q : α → sProp 𝕄} (c p0 p1 p2 : Dev nD) (e0 : p0 = xp c 0) (e1 : p1 = xp c 1) (e2 : p2 = xp c 2)
    {hsrcw0 : (xRow c 1).view.WordExact} {hdstw0 : (zSlot 1 0).view.WordExact} {hsrcw1 : (xRow c 1).view.WordExact} {hdstw1 : (zSlot 1 1).view.WordExact} {hsrcw2 : (xRow c 1).view.WordExact} {hdstw2 : (zSlot 1 2).view.WordExact}
    {hlx : xM.view.LoadsAt (rowRect2 c 1).toLoadRect} {hlz0 : zM.view.LoadsAt (slotRect 1 0).toLoadRect} {hlz1 : zM.view.LoadsAt (slotRect 1 1).toLoadRect} {hlz2 : zM.view.LoadsAt (slotRect 1 2).toLoadRect}
    {hlo : oM.view.LoadsAt (rowRect2 c 1).toLoadRect} {hst : (oM.access (rowRect2 c 1)).Stores Finset.univ} {hsm : (Finset.univ : Finset (rowRect2 c 1).shape.Idx) = Finset.univ ∨ ∀ a, (rowRect2 c 1).stride a = 1}
    {hsc0 : ((oRow c 1) : Memref sig (Dev.tc p0 : Thread nD τ).2.kind .vmem S32x256 .f32).view.ref.isScScratch = false}
    {hsrc0 : (oRow c 1).view.WordExact} {hdst0 : (oRow c 1).view.WordExact}
    {hsem0 : DmaTarget.Typed .vmem (.dma (dsem (dix 3 1 0))) (.remote (Dev.tc p0 : Thread nD τ) (oRow c 1) (.dma (dsem (dix 2 1 0))) hsc0)}
    {hsc1 : ((oRow c 1) : Memref sig (Dev.tc p1 : Thread nD τ).2.kind .vmem S32x256 .f32).view.ref.isScScratch = false}
    {hsrc1 : (oRow c 1).view.WordExact} {hdst1 : (oRow c 1).view.WordExact}
    {hsem1 : DmaTarget.Typed .vmem (.dma (dsem (dix 3 1 1))) (.remote (Dev.tc p1 : Thread nD τ) (oRow c 1) (.dma (dsem (dix 2 1 1))) hsc1)}
    {hsc2 : ((oRow c 1) : Memref sig (Dev.tc p2 : Thread nD τ).2.kind .vmem S32x256 .f32).view.ref.isScScratch = false}
    {hsrc2 : (oRow c 1).view.WordExact} {hdst2 : (oRow c 1).view.WordExact}
    {hsem2 : DmaTarget.Typed .vmem (.dma (dsem (dix 3 1 2))) (.remote (Dev.tc p2 : Thread nD τ) (oRow c 1) (.dma (dsem (dix 2 1 2))) hsc2)}
    (W : Waits sig Unit) (k : PUnit → Prog (TpuEff nD τ sig (Elt F) Λ₀ .tc) α) :
    iprop((records m ρ K ∗ levAts L lv ∗ owes (c : Thread nD τ) (owedFrom c 15) W
        ∗ credD c (dix 1 1 0) ∗ credD c (dix 1 1 1) ∗ credD c (dix 1 1 2)
        ∗ posD c (dix 1 1 0) 0 ∗ posD c (dix 1 1 1) 0 ∗ posD c (dix 1 1 2) 0
        ∗ xr m ρ c 1 keepShare ∗ oAny c 1 c
        ∗ oAny c 1 (xp c 0) ∗ oAny c 1 (xp c 1) ∗ oAny c 1 (xp c 2)
        ∗ tokD c (dix 2 1 0) ∗ tokD c (dix 2 1 1) ∗ tokD c (dix 2 1 2)
        ∗ tokD (xp c 0) (dix 3 1 0) ∗ tokD (xp c 1) (dix 3 1 1) ∗ tokD (xp c 2) (dix 3 1 2))
      ∗ ((∃ W', owes (c : Thread nD τ) (owedFrom c 18) W')
          ∗ posD c (dix 1 1 0) 1 ∗ posD c (dix 1 1 1) 1 ∗ posD c (dix 1 1 2) 1
          ∗ zAt m ρ c 1 0 ∗ zAt m ρ c 1 1 ∗ zAt m ρ c 1 2
          ∗ xr m ρ c 1 keepShare
          ∗ credD c (dix 2 1 0) ∗ credD c (dix 2 1 1) ∗ credD c (dix 2 1 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (dsem (dix 1 1 0)) (xRow c 1) (zSlot 1 0) hsrcw0 hdstw0) fun _ =>
            .op (.waitDma2 (dsem (dix 1 1 1)) (xRow c 1) (zSlot 1 1) hsrcw1 hdstw1) fun _ =>
            .op (.waitDma2 (dsem (dix 1 1 2)) (xRow c 1) (zSlot 1 2) hsrcw2 hdstw2) fun _ =>
            .op (.load xM (rowRect2 c 1).toLoadRect hlx) fun x =>
            .op (.load zM (slotRect 1 0).toLoadRect hlz0) fun x1 =>
            .op (.load zM (slotRect 1 1).toLoadRect hlz1) fun x2 =>
            .op (.load zM (slotRect 1 2).toLoadRect hlz2) fun x3 =>
            .op (.load oM (rowRect2 c 1).toLoadRect hlo) fun _ =>
            .op (.store oM (rowRect2 c 1) (k0_pay3 x x1 x2 x3) Finset.univ hst hsm) fun _ =>
            .op (.enqueueDma (oRow c 1) (.remote (Dev.tc p0 : Thread nD τ) (oRow c 1) (.dma (dsem (dix 2 1 0))) hsc0) (.dma (dsem (dix 3 1 0))) hsrc0 hdst0 hsem0) fun _ =>
            .op (.enqueueDma (oRow c 1) (.remote (Dev.tc p1 : Thread nD τ) (oRow c 1) (.dma (dsem (dix 2 1 1))) hsc1) (.dma (dsem (dix 3 1 1))) hsrc1 hdst1 hsem1) fun _ =>
            .op (.enqueueDma (oRow c 1) (.remote (Dev.tc p2 : Thread nD τ) (oRow c 1) (.dma (dsem (dix 2 1 2))) hsc2) (.dma (dsem (dix 3 1 2))) hsrc2 hdst2 hsem2) k) Q := by
  subst e0 e1 e2
  iintro ⟨⟨#HR, #Hlev, HO, Hc0, Hc1, Hc2, Hp0, Hp1, Hp2, Hx, ⟨%fo, Ho⟩, ⟨%f0, Ho0⟩, ⟨%f1, Ho1⟩, ⟨%f2, Ho2⟩, Ts0, Ts1, Ts2, Tr0, Tr1, Tr2⟩, Hk⟩
  -- the three ring receive waits of this half: each slot comes back at what landed
  iapply (step_waitD m ρ K c (dix 1 1 0) (owedFrom c 15) W (show (zSlot 1 0).view.dmaCredit = N from rfl)) $$ [Hc0 HO Hp0]
  · isplitr; · iexact HR
    isplitl [Hc0]; · iexact Hc0
    isplitl [HO]; · iexact HO
    isplitr; · iapply (mayWait_zrecv c 1 0 15 (by omega)); iexact Hlev
    iexact Hp0
  iintro ⟨HO, Hp0, Hpay⟩
  ihave Hz0 := (Entails.of_eq (dmaPay_zrecv m ρ c 1 0)) $$ Hpay
  iapply (step_waitD m ρ K c (dix 1 1 1) (owedFrom c 15) _ (show (zSlot 1 1).view.dmaCredit = N from rfl)) $$ [Hc1 HO Hp1]
  · isplitr; · iexact HR
    isplitl [Hc1]; · iexact Hc1
    isplitl [HO]; · iexact HO
    isplitr; · iapply (mayWait_zrecv c 1 1 15 (by omega)); iexact Hlev
    iexact Hp1
  iintro ⟨HO, Hp1, Hpay⟩
  ihave Hz1 := (Entails.of_eq (dmaPay_zrecv m ρ c 1 1)) $$ Hpay
  iapply (step_waitD m ρ K c (dix 1 1 2) (owedFrom c 15) _ (show (zSlot 1 2).view.dmaCredit = N from rfl)) $$ [Hc2 HO Hp2]
  · isplitr; · iexact HR
    isplitl [Hc2]; · iexact Hc2
    isplitl [HO]; · iexact HO
    isplitr; · iapply (mayWait_zrecv c 1 2 15 (by omega)); iexact Hlev
    iexact Hp2
  iintro ⟨HO, Hp2, Hpay⟩
  ihave Hz2 := (Entails.of_eq (dmaPay_zrecv m ρ c 1 2)) $$ Hpay
  -- the five loads and the store
  iapply (wp_load 𝒱₀ (c : Thread nD τ) none Set.univ (m := xM) (xload_sub c 1)) $$ Hx; iintro Hx
  iapply (wp_load 𝒱₀ (c : Thread nD τ) none Set.univ (m := zM) (zload_sub 1 0)) $$ Hz0; iintro Hz0
  iapply (wp_load 𝒱₀ (c : Thread nD τ) none Set.univ (m := zM) (zload_sub 1 1)) $$ Hz1; iintro Hz1
  iapply (wp_load 𝒱₀ (c : Thread nD τ) none Set.univ (m := zM) (zload_sub 1 2)) $$ Hz2; iintro Hz2
  iapply (wp_load 𝒱₀ (c : Thread nD τ) none Set.univ (m := oM) (oload_sub c 1)) $$ Ho; iintro Ho
  iapply (wp_store 𝒱₀ (c : Thread nD τ) none Set.univ (m := oM) (r := rowRect2 c 1) (Mk := Finset.univ) (ostore_sub c 1)) $$ Ho; iintro Ho
  -- the stored vector is the device's sum of this half: its rows are at the final contents
  ihave Ho := (Entails.of_eq (pointsTo_congr (ostore_eq m ρ c 1 fo))) $$ Ho
  -- a share of them for each of the three plane sends
  ihave Hs := (share3 (F := F) (oRow c 1).view.set (OUTV m ρ c)).1 $$ Ho
  icases Hs with ⟨Hs0, Hs1, Hs2⟩
  -- the three plane sends of the stored rows, paying the last three dues
  iapply (step_send m ρ K c (xp c 0) (dix 2 1 0) (dix 3 1 0) (owedFrom c 16) _ (src := oRow c 1) (dst := oRow c 1)
      (xyshare 0) (OUTV m ρ c) f0 (show (oRow c 1).view.dmaCredit = N from rfl)
      (Entails.of_eq (dmaPay_xysend m ρ c 1 0).symm)
      (by rw [dmaPay_xyrecv, xp_xp c 0]
          exact Entails.of_eq (pointsTo_congr (oland m ρ c 1 0 f0 (OUTV m ρ c) (fun _ _ => rfl))))
      (by routes)) $$ [Hs0 Ho0 HO Ts0 Tr0]
  · isplitr; · iexact HR
    isplitl [Hs0]; · iexact Hs0
    isplitl [Ho0]; · iexact Ho0
    isplitl [HO]; · iexact HO
    isplitl [Ts0]; · iexact Ts0
    iexact Tr0
  iintro ⟨Hcs0, HO⟩
  iapply (step_send m ρ K c (xp c 1) (dix 2 1 1) (dix 3 1 1) (owedFrom c 17) _ (src := oRow c 1) (dst := oRow c 1)
      (xyshare 1) (OUTV m ρ c) f1 (show (oRow c 1).view.dmaCredit = N from rfl)
      (Entails.of_eq (dmaPay_xysend m ρ c 1 1).symm)
      (by rw [dmaPay_xyrecv, xp_xp c 1]
          exact Entails.of_eq (pointsTo_congr (oland m ρ c 1 1 f1 (OUTV m ρ c) (fun _ _ => rfl))))
      (by routes)) $$ [Hs1 Ho1 HO Ts1 Tr1]
  · isplitr; · iexact HR
    isplitl [Hs1]; · iexact Hs1
    isplitl [Ho1]; · iexact Ho1
    isplitl [HO]; · iexact HO
    isplitl [Ts1]; · iexact Ts1
    iexact Tr1
  iintro ⟨Hcs1, HO⟩
  iapply (step_send m ρ K c (xp c 2) (dix 2 1 2) (dix 3 1 2) (owedFrom c 18) _ (src := oRow c 1) (dst := oRow c 1)
      (xyshare 2) (OUTV m ρ c) f2 (show (oRow c 1).view.dmaCredit = N from rfl)
      (Entails.of_eq (dmaPay_xysend m ρ c 1 2).symm)
      (by rw [dmaPay_xyrecv, xp_xp c 2]
          exact Entails.of_eq (pointsTo_congr (oland m ρ c 1 2 f2 (OUTV m ρ c) (fun _ _ => rfl))))
      (by routes)) $$ [Hs2 Ho2 HO Ts2 Tr2]
  · isplitr; · iexact HR
    isplitl [Hs2]; · iexact Hs2
    isplitl [Ho2]; · iexact Ho2
    isplitl [HO]; · iexact HO
    isplitl [Ts2]; · iexact Ts2
    iexact Tr2
  iintro ⟨Hcs2, HO⟩
  -- everything the next phase needs
  iapply Hk
  isplitl [HO]; · iexists _; iexact HO
  isplitl [Hp0]; · iexact Hp0
  isplitl [Hp1]; · iexact Hp1
  isplitl [Hp2]; · iexact Hp2
  isplitl [Hz0]; · iexact Hz0
  isplitl [Hz1]; · iexact Hz1
  isplitl [Hz2]; · iexact Hz2
  isplitl [Hx]; · iexact Hx
  isplitl [Hcs0]; · iexact Hcs0
  isplitl [Hcs1]; · iexact Hcs1
  iexact Hcs2

/-- info: 'Cert.Kernel.AR.phaseC1'' depends on axioms: [propext, Classical.choice, Quot.sound] -/
#guard_msgs in #print axioms phaseC1'

end Cert.Kernel.AR

end
-- ==== Proof.B.PhaseD.lean ====
/- The exit waits: eighteen waits on the device's own cells, nothing owed. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Tables
import proofs.«900719_g7700000000000720_dist_ar_v7x_xyz2x2x4_z_m256_n256_f32_1_alg».proof.Proof.B.Owes
import proofs.«900719_g7700000000000720_dist_ar_v7x_xyz2x2x4_z_m256_n256_f32_1_alg».proof.Proof.B.Regions
import proofs.«900719_g7700000000000720_dist_ar_v7x_xyz2x2x4_z_m256_n256_f32_1_alg».proof.Proof.B.Landing
import proofs.«900719_g7700000000000720_dist_ar_v7x_xyz2x2x4_z_m256_n256_f32_1_alg».proof.Proof.B.Glue
import proofs.«900719_g7700000000000720_dist_ar_v7x_xyz2x2x4_z_m256_n256_f32_1_alg».proof.Proof.B.Steps
import proofs.«900719_g7700000000000720_dist_ar_v7x_xyz2x2x4_z_m256_n256_f32_1_alg».proof.Proof.B.Phases

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-! ## D: the exit waits -/

set_option maxHeartbeats 2000000 in
theorem phaseD' {α : Type} {Q : α → sProp 𝕄} (c : Dev nD)
    {hs0a : (oRow c 0).view.WordExact} {hs0b : (oRow c 0).view.WordExact} {hr0a : (oRow c 0).view.WordExact} {hr0b : (oRow c 0).view.WordExact}
    {hs1a : (oRow c 0).view.WordExact} {hs1b : (oRow c 0).view.WordExact} {hr1a : (oRow c 0).view.WordExact} {hr1b : (oRow c 0).view.WordExact}
    {hs2a : (oRow c 0).view.WordExact} {hs2b : (oRow c 0).view.WordExact} {hr2a : (oRow c 0).view.WordExact} {hr2b : (oRow c 0).view.WordExact}
    {hs3a : (oRow c 1).view.WordExact} {hs3b : (oRow c 1).view.WordExact} {hr3a : (oRow c 1).view.WordExact} {hr3b : (oRow c 1).view.WordExact}
    {hs4a : (oRow c 1).view.WordExact} {hs4b : (oRow c 1).view.WordExact} {hr4a : (oRow c 1).view.WordExact} {hr4b : (oRow c 1).view.WordExact}
    {hs5a : (oRow c 1).view.WordExact} {hs5b : (oRow c 1).view.WordExact} {hr5a : (oRow c 1).view.WordExact} {hr5b : (oRow c 1).view.WordExact}
    {hz0a : (zSlot 0 0).view.WordExact} {hz0b : (xRow c 0).view.WordExact}
    {hz1a : (zSlot 0 1).view.WordExact} {hz1b : (xRow c 0).view.WordExact}
    {hz2a : (zSlot 0 2).view.WordExact} {hz2b : (xRow c 0).view.WordExact}
    {hz3a : (zSlot 1 0).view.WordExact} {hz3b : (xRow c 1).view.WordExact}
    {hz4a : (zSlot 1 1).view.WordExact} {hz4b : (xRow c 1).view.WordExact}
    {hz5a : (zSlot 1 2).view.WordExact} {hz5b : (xRow c 1).view.WordExact}
    (W : Waits sig Unit) (k : PUnit → Prog (TpuEff nD τ sig (Elt F) Λ₀ .tc) α) :
    iprop((records m ρ K ∗ owes (c : Thread nD τ) 0 W
        ∗ credD c (dix 2 0 0) ∗ credD c (dix 2 0 1) ∗ credD c (dix 2 0 2) ∗ credD c (dix 2 1 0) ∗ credD c (dix 2 1 1) ∗ credD c (dix 2 1 2)
        ∗ credD c (dix 3 0 0) ∗ credD c (dix 3 0 1) ∗ credD c (dix 3 0 2) ∗ credD c (dix 3 1 0) ∗ credD c (dix 3 1 1) ∗ credD c (dix 3 1 2)
        ∗ credD c (dix 0 0 0) ∗ credD c (dix 0 0 1) ∗ credD c (dix 0 0 2) ∗ credD c (dix 0 1 0) ∗ credD c (dix 0 1 1) ∗ credD c (dix 0 1 2)
        ∗ posD c (dix 2 0 0) 0 ∗ posD c (dix 2 0 1) 0 ∗ posD c (dix 2 0 2) 0 ∗ posD c (dix 2 1 0) 0 ∗ posD c (dix 2 1 1) 0 ∗ posD c (dix 2 1 2) 0
        ∗ posD c (dix 3 0 0) 0 ∗ posD c (dix 3 0 1) 0 ∗ posD c (dix 3 0 2) 0 ∗ posD c (dix 3 1 0) 0 ∗ posD c (dix 3 1 1) 0 ∗ posD c (dix 3 1 2) 0
        ∗ posD c (dix 0 0 0) 0 ∗ posD c (dix 0 0 1) 0 ∗ posD c (dix 0 0 2) 0 ∗ posD c (dix 0 1 0) 0 ∗ posD c (dix 0 1 1) 0 ∗ posD c (dix 0 1 2) 0)
      ∗ ((∃ W', owes (c : Thread nD τ) 0 W')
          ∗ posD c (dix 2 0 0) 1 ∗ posD c (dix 2 0 1) 1 ∗ posD c (dix 2 0 2) 1 ∗ posD c (dix 2 1 0) 1 ∗ posD c (dix 2 1 1) 1 ∗ posD c (dix 2 1 2) 1
          ∗ posD c (dix 3 0 0) 1 ∗ posD c (dix 3 0 1) 1 ∗ posD c (dix 3 0 2) 1 ∗ posD c (dix 3 1 0) 1 ∗ posD c (dix 3 1 1) 1 ∗ posD c (dix 3 1 2) 1
          ∗ posD c (dix 0 0 0) 1 ∗ posD c (dix 0 0 1) 1 ∗ posD c (dix 0 0 2) 1 ∗ posD c (dix 0 1 0) 1 ∗ posD c (dix 0 1 1) 1 ∗ posD c (dix 0 1 2) 1
          ∗ oAt m ρ c 0 c (xyshare 0) ∗ oAt m ρ c 0 c (xyshare 1) ∗ oAt m ρ c 0 c (xyshare 2) ∗ oAt m ρ c 1 c (xyshare 0) ∗ oAt m ρ c 1 c (xyshare 1) ∗ oAt m ρ c 1 c (xyshare 2)
          ∗ oAt m ρ (xp c 0) 0 c fullShare ∗ oAt m ρ (xp c 1) 0 c fullShare ∗ oAt m ρ (xp c 2) 0 c fullShare ∗ oAt m ρ (xp c 0) 1 c fullShare ∗ oAt m ρ (xp c 1) 1 c fullShare ∗ oAt m ρ (xp c 2) 1 c fullShare
          ∗ xr m ρ c 0 (zshare 0) ∗ xr m ρ c 0 (zshare 1) ∗ xr m ρ c 0 (zshare 2) ∗ xr m ρ c 1 (zshare 0) ∗ xr m ρ c 1 (zshare 1) ∗ xr m ρ c 1 (zshare 2)
        -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (dsem (dix 2 0 0)) (oRow c 0) (oRow c 0) hs0a hs0b) fun _ =>
            .op (.waitDma2 (dsem (dix 3 0 0)) (oRow c 0) (oRow c 0) hr0a hr0b) fun _ =>
            .op (.waitDma2 (dsem (dix 2 0 1)) (oRow c 0) (oRow c 0) hs1a hs1b) fun _ =>
            .op (.waitDma2 (dsem (dix 3 0 1)) (oRow c 0) (oRow c 0) hr1a hr1b) fun _ =>
            .op (.waitDma2 (dsem (dix 2 0 2)) (oRow c 0) (oRow c 0) hs2a hs2b) fun _ =>
            .op (.waitDma2 (dsem (dix 3 0 2)) (oRow c 0) (oRow c 0) hr2a hr2b) fun _ =>
            .op (.waitDma2 (dsem (dix 2 1 0)) (oRow c 1) (oRow c 1) hs3a hs3b) fun _ =>
            .op (.waitDma2 (dsem (dix 3 1 0)) (oRow c 1) (oRow c 1) hr3a hr3b) fun _ =>
            .op (.waitDma2 (dsem (dix 2 1 1)) (oRow c 1) (oRow c 1) hs4a hs4b) fun _ =>
            .op (.waitDma2 (dsem (dix 3 1 1)) (oRow c 1) (oRow c 1) hr4a hr4b) fun _ =>
            .op (.waitDma2 (dsem (dix 2 1 2)) (oRow c 1) (oRow c 1) hs5a hs5b) fun _ =>
            .op (.waitDma2 (dsem (dix 3 1 2)) (oRow c 1) (oRow c 1) hr5a hr5b) fun _ =>
            .op (.waitDma2 (dsem (dix 0 0 0)) (zSlot 0 0) (xRow c 0) hz0a hz0b) fun _ =>
            .op (.waitDma2 (dsem (dix 0 0 1)) (zSlot 0 1) (xRow c 0) hz1a hz1b) fun _ =>
            .op (.waitDma2 (dsem (dix 0 0 2)) (zSlot 0 2) (xRow c 0) hz2a hz2b) fun _ =>
            .op (.waitDma2 (dsem (dix 0 1 0)) (zSlot 1 0) (xRow c 1) hz3a hz3b) fun _ =>
            .op (.waitDma2 (dsem (dix 0 1 1)) (zSlot 1 1) (xRow c 1) hz4a hz4b) fun _ =>
            .op (.waitDma2 (dsem (dix 0 1 2)) (zSlot 1 2) (xRow c 1) hz5a hz5b) k) Q := by
  iintro ⟨⟨#HR, HO, Hc2_00, Hc2_01, Hc2_02, Hc2_10, Hc2_11, Hc2_12, Hc3_00, Hc3_01, Hc3_02, Hc3_10, Hc3_11, Hc3_12, Hc0_00, Hc0_01, Hc0_02, Hc0_10, Hc0_11, Hc0_12, Hp2_00, Hp2_01, Hp2_02, Hp2_10, Hp2_11, Hp2_12, Hp3_00, Hp3_01, Hp3_02, Hp3_10, Hp3_11, Hp3_12, Hp0_00, Hp0_01, Hp0_02, Hp0_10, Hp0_11, Hp0_12⟩, Hk⟩
  iapply (step_waitD m ρ K c (dix 2 0 0) 0 _ (show (oRow c 0).view.dmaCredit = N from rfl)) $$ [HO Hc2_00 Hp2_00]
  · isplitr; · iexact HR
    isplitl [Hc2_00]; · iexact Hc2_00
    isplitl [HO]; · iexact HO
    isplitr; · rw [MayWait_zero]; iempintro
    iexact Hp2_00
  iintro ⟨HO, Hq2_00, Hy2_00⟩
  ihave Hy2_00 := (Entails.of_eq (dmaPay_xysend m ρ c 0 0)) $$ Hy2_00
  iapply (step_waitD m ρ K c (dix 3 0 0) 0 _ (show (oRow c 0).view.dmaCredit = N from rfl)) $$ [HO Hc3_00 Hp3_00]
  · isplitr; · iexact HR
    isplitl [Hc3_00]; · iexact Hc3_00
    isplitl [HO]; · iexact HO
    isplitr; · rw [MayWait_zero]; iempintro
    iexact Hp3_00
  iintro ⟨HO, Hq3_00, Hy3_00⟩
  ihave Hy3_00 := (Entails.of_eq (dmaPay_xyrecv m ρ c 0 0)) $$ Hy3_00
  iapply (step_waitD m ρ K c (dix 2 0 1) 0 _ (show (oRow c 0).view.dmaCredit = N from rfl)) $$ [HO Hc2_01 Hp2_01]
  · isplitr; · iexact HR
    isplitl [Hc2_01]; · iexact Hc2_01
    isplitl [HO]; · iexact HO
    isplitr; · rw [MayWait_zero]; iempintro
    iexact Hp2_01
  iintro ⟨HO, Hq2_01, Hy2_01⟩
  ihave Hy2_01 := (Entails.of_eq (dmaPay_xysend m ρ c 0 1)) $$ Hy2_01
  iapply (step_waitD m ρ K c (dix 3 0 1) 0 _ (show (oRow c 0).view.dmaCredit = N from rfl)) $$ [HO Hc3_01 Hp3_01]
  · isplitr; · iexact HR
    isplitl [Hc3_01]; · iexact Hc3_01
    isplitl [HO]; · iexact HO
    isplitr; · rw [MayWait_zero]; iempintro
    iexact Hp3_01
  iintro ⟨HO, Hq3_01, Hy3_01⟩
  ihave Hy3_01 := (Entails.of_eq (dmaPay_xyrecv m ρ c 0 1)) $$ Hy3_01
  iapply (step_waitD m ρ K c (dix 2 0 2) 0 _ (show (oRow c 0).view.dmaCredit = N from rfl)) $$ [HO Hc2_02 Hp2_02]
  · isplitr; · iexact HR
    isplitl [Hc2_02]; · iexact Hc2_02
    isplitl [HO]; · iexact HO
    isplitr; · rw [MayWait_zero]; iempintro
    iexact Hp2_02
  iintro ⟨HO, Hq2_02, Hy2_02⟩
  ihave Hy2_02 := (Entails.of_eq (dmaPay_xysend m ρ c 0 2)) $$ Hy2_02
  iapply (step_waitD m ρ K c (dix 3 0 2) 0 _ (show (oRow c 0).view.dmaCredit = N from rfl)) $$ [HO Hc3_02 Hp3_02]
  · isplitr; · iexact HR
    isplitl [Hc3_02]; · iexact Hc3_02
    isplitl [HO]; · iexact HO
    isplitr; · rw [MayWait_zero]; iempintro
    iexact Hp3_02
  iintro ⟨HO, Hq3_02, Hy3_02⟩
  ihave Hy3_02 := (Entails.of_eq (dmaPay_xyrecv m ρ c 0 2)) $$ Hy3_02
  iapply (step_waitD m ρ K c (dix 2 1 0) 0 _ (show (oRow c 1).view.dmaCredit = N from rfl)) $$ [HO Hc2_10 Hp2_10]
  · isplitr; · iexact HR
    isplitl [Hc2_10]; · iexact Hc2_10
    isplitl [HO]; · iexact HO
    isplitr; · rw [MayWait_zero]; iempintro
    iexact Hp2_10
  iintro ⟨HO, Hq2_10, Hy2_10⟩
  ihave Hy2_10 := (Entails.of_eq (dmaPay_xysend m ρ c 1 0)) $$ Hy2_10
  iapply (step_waitD m ρ K c (dix 3 1 0) 0 _ (show (oRow c 1).view.dmaCredit = N from rfl)) $$ [HO Hc3_10 Hp3_10]
  · isplitr; · iexact HR
    isplitl [Hc3_10]; · iexact Hc3_10
    isplitl [HO]; · iexact HO
    isplitr; · rw [MayWait_zero]; iempintro
    iexact Hp3_10
  iintro ⟨HO, Hq3_10, Hy3_10⟩
  ihave Hy3_10 := (Entails.of_eq (dmaPay_xyrecv m ρ c 1 0)) $$ Hy3_10
  iapply (step_waitD m ρ K c (dix 2 1 1) 0 _ (show (oRow c 1).view.dmaCredit = N from rfl)) $$ [HO Hc2_11 Hp2_11]
  · isplitr; · iexact HR
    isplitl [Hc2_11]; · iexact Hc2_11
    isplitl [HO]; · iexact HO
    isplitr; · rw [MayWait_zero]; iempintro
    iexact Hp2_11
  iintro ⟨HO, Hq2_11, Hy2_11⟩
  ihave Hy2_11 := (Entails.of_eq (dmaPay_xysend m ρ c 1 1)) $$ Hy2_11
  iapply (step_waitD m ρ K c (dix 3 1 1) 0 _ (show (oRow c 1).view.dmaCredit = N from rfl)) $$ [HO Hc3_11 Hp3_11]
  · isplitr; · iexact HR
    isplitl [Hc3_11]; · iexact Hc3_11
    isplitl [HO]; · iexact HO
    isplitr; · rw [MayWait_zero]; iempintro
    iexact Hp3_11
  iintro ⟨HO, Hq3_11, Hy3_11⟩
  ihave Hy3_11 := (Entails.of_eq (dmaPay_xyrecv m ρ c 1 1)) $$ Hy3_11
  iapply (step_waitD m ρ K c (dix 2 1 2) 0 _ (show (oRow c 1).view.dmaCredit = N from rfl)) $$ [HO Hc2_12 Hp2_12]
  · isplitr; · iexact HR
    isplitl [Hc2_12]; · iexact Hc2_12
    isplitl [HO]; · iexact HO
    isplitr; · rw [MayWait_zero]; iempintro
    iexact Hp2_12
  iintro ⟨HO, Hq2_12, Hy2_12⟩
  ihave Hy2_12 := (Entails.of_eq (dmaPay_xysend m ρ c 1 2)) $$ Hy2_12
  iapply (step_waitD m ρ K c (dix 3 1 2) 0 _ (show (oRow c 1).view.dmaCredit = N from rfl)) $$ [HO Hc3_12 Hp3_12]
  · isplitr; · iexact HR
    isplitl [Hc3_12]; · iexact Hc3_12
    isplitl [HO]; · iexact HO
    isplitr; · rw [MayWait_zero]; iempintro
    iexact Hp3_12
  iintro ⟨HO, Hq3_12, Hy3_12⟩
  ihave Hy3_12 := (Entails.of_eq (dmaPay_xyrecv m ρ c 1 2)) $$ Hy3_12
  iapply (step_waitD m ρ K c (dix 0 0 0) 0 _ (show (xRow c 0).view.dmaCredit = N from rfl)) $$ [HO Hc0_00 Hp0_00]
  · isplitr; · iexact HR
    isplitl [Hc0_00]; · iexact Hc0_00
    isplitl [HO]; · iexact HO
    isplitr; · rw [MayWait_zero]; iempintro
    iexact Hp0_00
  iintro ⟨HO, Hq0_00, Hy0_00⟩
  ihave Hy0_00 := (Entails.of_eq (dmaPay_zsend m ρ c 0 0)) $$ Hy0_00
  iapply (step_waitD m ρ K c (dix 0 0 1) 0 _ (show (xRow c 0).view.dmaCredit = N from rfl)) $$ [HO Hc0_01 Hp0_01]
  · isplitr; · iexact HR
    isplitl [Hc0_01]; · iexact Hc0_01
    isplitl [HO]; · iexact HO
    isplitr; · rw [MayWait_zero]; iempintro
    iexact Hp0_01
  iintro ⟨HO, Hq0_01, Hy0_01⟩
  ihave Hy0_01 := (Entails.of_eq (dmaPay_zsend m ρ c 0 1)) $$ Hy0_01
  iapply (step_waitD m ρ K c (dix 0 0 2) 0 _ (show (xRow c 0).view.dmaCredit = N from rfl)) $$ [HO Hc0_02 Hp0_02]
  · isplitr; · iexact HR
    isplitl [Hc0_02]; · iexact Hc0_02
    isplitl [HO]; · iexact HO
    isplitr; · rw [MayWait_zero]; iempintro
    iexact Hp0_02
  iintro ⟨HO, Hq0_02, Hy0_02⟩
  ihave Hy0_02 := (Entails.of_eq (dmaPay_zsend m ρ c 0 2)) $$ Hy0_02
  iapply (step_waitD m ρ K c (dix 0 1 0) 0 _ (show (xRow c 1).view.dmaCredit = N from rfl)) $$ [HO Hc0_10 Hp0_10]
  · isplitr; · iexact HR
    isplitl [Hc0_10]; · iexact Hc0_10
    isplitl [HO]; · iexact HO
    isplitr; · rw [MayWait_zero]; iempintro
    iexact Hp0_10
  iintro ⟨HO, Hq0_10, Hy0_10⟩
  ihave Hy0_10 := (Entails.of_eq (dmaPay_zsend m ρ c 1 0)) $$ Hy0_10
  iapply (step_waitD m ρ K c (dix 0 1 1) 0 _ (show (xRow c 1).view.dmaCredit = N from rfl)) $$ [HO Hc0_11 Hp0_11]
  · isplitr; · iexact HR
    isplitl [Hc0_11]; · iexact Hc0_11
    isplitl [HO]; · iexact HO
    isplitr; · rw [MayWait_zero]; iempintro
    iexact Hp0_11
  iintro ⟨HO, Hq0_11, Hy0_11⟩
  ihave Hy0_11 := (Entails.of_eq (dmaPay_zsend m ρ c 1 1)) $$ Hy0_11
  iapply (step_waitD m ρ K c (dix 0 1 2) 0 _ (show (xRow c 1).view.dmaCredit = N from rfl)) $$ [HO Hc0_12 Hp0_12]
  · isplitr; · iexact HR
    isplitl [Hc0_12]; · iexact Hc0_12
    isplitl [HO]; · iexact HO
    isplitr; · rw [MayWait_zero]; iempintro
    iexact Hp0_12
  iintro ⟨HO, Hq0_12, Hy0_12⟩
  ihave Hy0_12 := (Entails.of_eq (dmaPay_zsend m ρ c 1 2)) $$ Hy0_12
  iapply Hk
  isplitl [HO]; · iexists _; iexact HO
  isplitl [Hq2_00]; · iexact Hq2_00
  isplitl [Hq2_01]; · iexact Hq2_01
  isplitl [Hq2_02]; · iexact Hq2_02
  isplitl [Hq2_10]; · iexact Hq2_10
  isplitl [Hq2_11]; · iexact Hq2_11
  isplitl [Hq2_12]; · iexact Hq2_12
  isplitl [Hq3_00]; · iexact Hq3_00
  isplitl [Hq3_01]; · iexact Hq3_01
  isplitl [Hq3_02]; · iexact Hq3_02
  isplitl [Hq3_10]; · iexact Hq3_10
  isplitl [Hq3_11]; · iexact Hq3_11
  isplitl [Hq3_12]; · iexact Hq3_12
  isplitl [Hq0_00]; · iexact Hq0_00
  isplitl [Hq0_01]; · iexact Hq0_01
  isplitl [Hq0_02]; · iexact Hq0_02
  isplitl [Hq0_10]; · iexact Hq0_10
  isplitl [Hq0_11]; · iexact Hq0_11
  isplitl [Hq0_12]; · iexact Hq0_12
  isplitl [Hy2_00]; · iexact Hy2_00
  isplitl [Hy2_01]; · iexact Hy2_01
  isplitl [Hy2_02]; · iexact Hy2_02
  isplitl [Hy2_10]; · iexact Hy2_10
  isplitl [Hy2_11]; · iexact Hy2_11
  isplitl [Hy2_12]; · iexact Hy2_12
  isplitl [Hy3_00]; · iexact Hy3_00
  isplitl [Hy3_01]; · iexact Hy3_01
  isplitl [Hy3_02]; · iexact Hy3_02
  isplitl [Hy3_10]; · iexact Hy3_10
  isplitl [Hy3_11]; · iexact Hy3_11
  isplitl [Hy3_12]; · iexact Hy3_12
  isplitl [Hy0_00]; · iexact Hy0_00
  isplitl [Hy0_01]; · iexact Hy0_01
  isplitl [Hy0_02]; · iexact Hy0_02
  isplitl [Hy0_10]; · iexact Hy0_10
  isplitl [Hy0_11]; · iexact Hy0_11
  iexact Hy0_12

/-- info: 'Cert.Kernel.AR.phaseD'' depends on axioms: [propext, Classical.choice, Quot.sound] -/
#guard_msgs in #print axioms phaseD'

end Cert.Kernel.AR

end
-- ==== Proof.B.OpenPre.lean ====
/- The entry of a device's body: the ghost state opened, the landing buffer cut into its slots, the staged result into
   the plane's half-quarters, the staged `x` into the device's own two halves (each into its four shares) and the rest. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.Gen.Kernel.Points
import proofs.«900719_g7700000000000720_dist_ar_v7x_xyz2x2x4_z_m256_n256_f32_1_alg».proof.Proof.B.Tables
import proofs.«900719_g7700000000000720_dist_ar_v7x_xyz2x2x4_z_m256_n256_f32_1_alg».proof.Proof.B.Owes
import proofs.«900719_g7700000000000720_dist_ar_v7x_xyz2x2x4_z_m256_n256_f32_1_alg».proof.Proof.B.Regions
import proofs.«900719_g7700000000000720_dist_ar_v7x_xyz2x2x4_z_m256_n256_f32_1_alg».proof.Proof.B.Landing
import proofs.«900719_g7700000000000720_dist_ar_v7x_xyz2x2x4_z_m256_n256_f32_1_alg».proof.Proof.B.Glue
import proofs.«900719_g7700000000000720_dist_ar_v7x_xyz2x2x4_z_m256_n256_f32_1_alg».proof.Proof.B.Steps
import proofs.«900719_g7700000000000720_dist_ar_v7x_xyz2x2x4_z_m256_n256_f32_1_alg».proof.Proof.B.Phases
import proofs.«900719_g7700000000000720_dist_ar_v7x_xyz2x2x4_z_m256_n256_f32_1_alg».proof.Proof.B.Pieces

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-! ## The three staged buffers cut into the parts the protocol passes round -/

omit [FloatOps F] in
/-- The landing buffer, at whatever contents, is its six slots, each at some contents. -/
private theorem z_open (c : Dev nD) (f : Buf (Elt F) ((c : Thread nD τ).loc cc0_scratch0)) :
    ((((c : Thread nD τ).loc cc0_scratch0) ↦{fullShare} f : sProp 𝕄))
      ⊢ iprop(zAny c 0 0 ∗ zAny c 0 1 ∗ zAny c 0 2 ∗ zAny c 1 0 ∗ zAny c 1 1 ∗ zAny c 1 2) := by
  have hz : (bigSep (Finset.univ : Finset (Fin 2 × Fin 3)) fun hk =>
        ((zSlot hk.1 hk.2).view.loc (c : Thread nD τ) ↦[(zSlot hk.1 hk.2).view.set]{fullShare} f : sProp 𝕄))
      ⊢ iprop(zAny c 0 0 ∗ zAny c 0 1 ∗ zAny c 0 2 ∗ zAny c 1 0 ∗ zAny c 1 1 ∗ zAny c 1 2) := by
    rw [bigSep_hk]
    iintro ⟨H1, H2, H3, H4, H5, H6⟩
    isplitl [H1]; · iexists f; iexact H1
    isplitl [H2]; · iexists f; iexact H2
    isplitl [H3]; · iexists f; iexact H3
    isplitl [H4]; · iexists f; iexact H4
    isplitl [H5]; · iexists f; iexact H5
    iexists f; iexact H6
  iintro H
  ihave H := (z_split c f).1 $$ H
  iapply hz
  iexact H

omit [FloatOps F] in
/-- The staged result, at whatever contents, is the eight half-quarters of the device's plane, each at some contents. -/
private theorem o_open (c : Dev nD) (f : Buf (Elt F) ((c : Thread nD τ).loc cc0_stg1_0)) :
    ((((c : Thread nD τ).loc cc0_stg1_0) ↦{fullShare} f : sProp 𝕄))
      ⊢ iprop(oAny c 0 c ∗ oAny c 1 c ∗ oAny (xp c 0) 0 c ∗ oAny (xp c 0) 1 c ∗ oAny (xp c 1) 0 c ∗ oAny (xp c 1) 1 c
          ∗ oAny (xp c 2) 0 c ∗ oAny (xp c 2) 1 c) := by
  have ho : (bigSep (Finset.univ : Finset (Fin 4 × Fin 2)) fun jh =>
        ((oRow (pl c jh.1) jh.2).view.loc (c : Thread nD τ) ↦[(oRow (pl c jh.1) jh.2).view.set]{fullShare} f : sProp 𝕄))
      ⊢ iprop(oAny c 0 c ∗ oAny c 1 c ∗ oAny (xp c 0) 0 c ∗ oAny (xp c 0) 1 c ∗ oAny (xp c 1) 0 c ∗ oAny (xp c 1) 1 c
          ∗ oAny (xp c 2) 0 c ∗ oAny (xp c 2) 1 c) := by
    rw [bigSep_jh]
    iintro ⟨H1, H2, H3, H4, H5, H6, H7, H8⟩
    isplitl [H1]; · iexists f; iexact H1
    isplitl [H2]; · iexists f; iexact H2
    isplitl [H3]; · iexists f; iexact H3
    isplitl [H4]; · iexists f; iexact H4
    isplitl [H5]; · iexists f; iexact H5
    isplitl [H6]; · iexists f; iexact H6
    isplitl [H7]; · iexists f; iexact H7
    iexists f; iexact H8
  iintro H
  ihave H := (out_split c f).1 $$ H
  iapply ho
  iexact H

/-- The staged `x` is the device's own two halves, each in the three shares lent to its ring sends and the share kept for
    the load, and the rows outside its quarter. -/
private theorem x_open (c : Dev nD) :
    ((((c : Thread nD τ).loc cc0_stg0_0) ↦{fullShare} xstg m ρ c : sProp 𝕄))
      ⊢ iprop((xr m ρ c 0 (zshare 0) ∗ xr m ρ c 0 (zshare 1) ∗ xr m ρ c 0 (zshare 2)
            ∗ xr m ρ c 1 (zshare 0) ∗ xr m ρ c 1 (zshare 1) ∗ xr m ρ c 1 (zshare 2))
          ∗ xr m ρ c 0 keepShare ∗ xr m ρ c 1 keepShare
          ∗ (((c : Thread nD τ).loc cc0_stg0_0) ↦[xRest c]{fullShare} xstg m ρ c)) := by
  iintro H
  ihave H := (x_split c (xstg m ρ c)).1 $$ H
  icases H with ⟨X0, X1, R⟩
  ihave X0 := (share4 _ _).1 $$ X0
  ihave X1 := (share4 _ _).1 $$ X1
  icases X0 with ⟨A0, A1, A2, AK⟩
  icases X1 with ⟨B0, B1, B2, BK⟩
  isplitl [A0 A1 A2 B0 B1 B2]
  · isplitl [A0]; · iexact A0
    isplitl [A1]; · iexact A1
    isplitl [A2]; · iexact A2
    isplitl [B0]; · iexact B0
    isplitl [B1]; · iexact B1
    iexact B2
  isplitl [AK]; · iexact AK
  isplitl [BK]; · iexact BK
  iexact R

/-! ## The entry -/

theorem open_pre (c : Dev nD) : bodyPre m ρ K c ⊢ iprop(∃ W, pieces m ρ K c W) := by
  -- the finite conjunctions of the ghost state, member by member
  have h24 : (bigSep Finset.univ fun j : Fin 24 => (atPos ER (kcell (c, j.succ)) 0 ∅ 0 : sProp 𝕄))
      = bigSep Finset.univ fun j : Fin 24 => (posD c j 0 : sProp 𝕄) :=
    bigSep_congr fun j _ => by rw [kcell_d]
  have e_pos : (bigSep Finset.univ fun k : Fin 25 => (atPos ER (kcell (c, k)) 0 ∅ 0 : sProp 𝕄))
      = iprop(atPos ER (barCell c) 0 ∅ 0
        ∗ ((posD c (dix 0 0 0) 0 ∗ posD c (dix 0 0 1) 0 ∗ posD c (dix 0 0 2) 0 ∗ posD c (dix 0 1 0) 0 ∗ posD c (dix 0 1 1) 0 ∗ posD c (dix 0 1 2) 0)
          ∗ (posD c (dix 1 0 0) 0 ∗ posD c (dix 1 0 1) 0 ∗ posD c (dix 1 0 2) 0 ∗ posD c (dix 1 1 0) 0 ∗ posD c (dix 1 1 1) 0 ∗ posD c (dix 1 1 2) 0)
          ∗ (posD c (dix 2 0 0) 0 ∗ posD c (dix 2 0 1) 0 ∗ posD c (dix 2 0 2) 0 ∗ posD c (dix 2 1 0) 0 ∗ posD c (dix 2 1 1) 0 ∗ posD c (dix 2 1 2) 0)
          ∗ (posD c (dix 3 0 0) 0 ∗ posD c (dix 3 0 1) 0 ∗ posD c (dix 3 0 2) 0 ∗ posD c (dix 3 1 0) 0 ∗ posD c (dix 3 1 1) 0 ∗ posD c (dix 3 1 2) 0))) := by
    refine (bigSep_fin25_split _).trans ?_
    show iprop(atPos ER (kcell (c, 0)) 0 ∅ 0 ∗ bigSep Finset.univ fun j : Fin 24 => (atPos ER (kcell (c, j.succ)) 0 ∅ 0 : sProp 𝕄)) = _
    rw [h24, bigSep_fin24_cls, bigSep_hk, bigSep_hk, bigSep_hk, bigSep_hk]
    rfl
  have e_lo : (bigSep Finset.univ fun dd : Fin 3 => (dutyTok ER (barCell (zs c (dd.val + 1))) 0 (lo6 dd) : sProp 𝕄))
      = iprop(dutyTok ER (barCell (zs c 1)) 0 (lo6 0) ∗ dutyTok ER (barCell (zs c 2)) 0 (lo6 1) ∗ dutyTok ER (barCell (zs c 3)) 0 (lo6 2)) :=
    bigSep_fin3 _
  have e_hi : (bigSep Finset.univ fun i : Fin 3 => (dutyTok ER (barCell (xp c i)) 0 (hi6 i) : sProp 𝕄))
      = iprop(dutyTok ER (barCell (xp c 0)) 0 (hi6 0) ∗ dutyTok ER (barCell (xp c 1)) 0 (hi6 1) ∗ dutyTok ER (barCell (xp c 2)) 0 (hi6 2)) :=
    bigSep_fin3 _
  have e_t0 : (bigSep Finset.univ fun hk : Fin 2 × Fin 3 => (dutyTok ER (dCell c (dix 0 hk.1 hk.2)) 0 (0 : Fin 6) : sProp 𝕄))
      = iprop(tokD c (dix 0 0 0) ∗ tokD c (dix 0 0 1) ∗ tokD c (dix 0 0 2) ∗ tokD c (dix 0 1 0) ∗ tokD c (dix 0 1 1) ∗ tokD c (dix 0 1 2)) := bigSep_hk _
  have e_t1 : (bigSep Finset.univ fun hk : Fin 2 × Fin 3 => (dutyTok ER (dCell (zs c (hk.2.val + 1)) (dix 1 hk.1 hk.2)) 0 (0 : Fin 6) : sProp 𝕄))
      = iprop(tokD (zs c 1) (dix 1 0 0) ∗ tokD (zs c 2) (dix 1 0 1) ∗ tokD (zs c 3) (dix 1 0 2) ∗ tokD (zs c 1) (dix 1 1 0) ∗ tokD (zs c 2) (dix 1 1 1) ∗ tokD (zs c 3) (dix 1 1 2)) := bigSep_hk _
  have e_t2 : (bigSep Finset.univ fun hk : Fin 2 × Fin 3 => (dutyTok ER (dCell c (dix 2 hk.1 hk.2)) 0 (0 : Fin 6) : sProp 𝕄))
      = iprop(tokD c (dix 2 0 0) ∗ tokD c (dix 2 0 1) ∗ tokD c (dix 2 0 2) ∗ tokD c (dix 2 1 0) ∗ tokD c (dix 2 1 1) ∗ tokD c (dix 2 1 2)) := bigSep_hk _
  have e_t3 : (bigSep Finset.univ fun hk : Fin 2 × Fin 3 => (dutyTok ER (dCell (xp c hk.2) (dix 3 hk.1 hk.2)) 0 (0 : Fin 6) : sProp 𝕄))
      = iprop(tokD (xp c 0) (dix 3 0 0) ∗ tokD (xp c 1) (dix 3 0 1) ∗ tokD (xp c 2) (dix 3 0 2) ∗ tokD (xp c 0) (dix 3 1 0) ∗ tokD (xp c 1) (dix 3 1 1) ∗ tokD (xp c 2) (dix 3 1 2)) := bigSep_hk _
  have e_c1 : (bigSep Finset.univ fun hk : Fin 2 × Fin 3 => (cred (tallyAt (dCell c (dix 1 hk.1 hk.2)) () N) : sProp 𝕄))
      = iprop(credD c (dix 1 0 0) ∗ credD c (dix 1 0 1) ∗ credD c (dix 1 0 2) ∗ credD c (dix 1 1 0) ∗ credD c (dix 1 1 1) ∗ credD c (dix 1 1 2)) := bigSep_hk _
  have e_c3 : (bigSep Finset.univ fun hk : Fin 2 × Fin 3 => (cred (tallyAt (dCell c (dix 3 hk.1 hk.2)) () N) : sProp 𝕄))
      = iprop(credD c (dix 3 0 0) ∗ credD c (dix 3 0 1) ∗ credD c (dix 3 0 2) ∗ credD c (dix 3 1 0) ∗ credD c (dix 3 1 1) ∗ credD c (dix 3 1 2)) := bigSep_hk _
  unfold bodyPre ghost linear payToks creds
  rw [e_pos, e_lo, e_hi, e_t0, e_t1, e_t2, e_t3, e_c1, e_c3]
  iintro ⟨⟨⟨HR, ⟨Hpb, Hpos⟩, ⟨Hlo1, Hlo2, Hlo3⟩, ⟨Hhi1, Hhi2, Hhi3⟩, Ht0, Ht1, Ht2, Ht3⟩, ⟨Hcb, Hc1, Hc3⟩, HL, ⟨%fz, HZ⟩⟩, ⟨%W, %hW, HO⟩, ⟨%d0, %g0, %hg0, HX⟩, ⟨%d1, %g1, %hg1, HOut⟩⟩
  -- the staged `x` is the device's argument: the window fetches it whole at the one point
  have hx : g0 = xstg m ρ c := by rw [hg0]; unfold Dat.before; rw [if_pos (Gen.fetch0_0 t₀)]; rfl
  subst hx
  ihave HZ' := (z_open c fz) $$ HZ
  ihave HO' := (o_open c g1) $$ HOut
  ihave HX' := (x_open m ρ c) $$ HX
  iexists W
  unfold pieces
  isplitl [HR]; · iexact HR
  isplitl [HL]; · iexact HL
  isplitl [HO]; · iexact HO
  isplitl [Hcb]; · iexact Hcb
  isplitl [Hpb]; · iexact Hpb
  isplitl [Hc1]; · iexact Hc1
  isplitl [Hc3]; · iexact Hc3
  isplitl [Hpos]; · iexact Hpos
  isplitl [Hlo1 Hlo2 Hlo3 Hhi1 Hhi2 Hhi3]
  · isplitl [Hlo1]; · iexact Hlo1
    isplitl [Hlo2]; · iexact Hlo2
    isplitl [Hlo3]; · iexact Hlo3
    isplitl [Hhi1]; · iexact Hhi1
    isplitl [Hhi2]; · iexact Hhi2
    iexact Hhi3
  isplitl [Ht0]; · iexact Ht0
  isplitl [Ht1]; · iexact Ht1
  isplitl [Ht2]; · iexact Ht2
  isplitl [Ht3]; · iexact Ht3
  isplitl [HZ']; · iexact HZ'
  isplitl [HO']; · iexact HO'
  iexact HX'

/-- info: 'Cert.Kernel.AR.open_pre' depends on axioms: [propext, Classical.choice, Quot.sound] -/
#guard_msgs in #print axioms open_pre

end Cert.Kernel.AR

end
-- ==== Proof.B.Finish.lean ====
/- The exit of a device's body: its twenty-four cells closed, its three staged buffers rejoined at their final contents. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Tables
import proofs.«900719_g7700000000000720_dist_ar_v7x_xyz2x2x4_z_m256_n256_f32_1_alg».proof.Proof.B.Owes
import proofs.«900719_g7700000000000720_dist_ar_v7x_xyz2x2x4_z_m256_n256_f32_1_alg».proof.Proof.B.Regions
import proofs.«900719_g7700000000000720_dist_ar_v7x_xyz2x2x4_z_m256_n256_f32_1_alg».proof.Proof.B.Landing
import proofs.«900719_g7700000000000720_dist_ar_v7x_xyz2x2x4_z_m256_n256_f32_1_alg».proof.Proof.B.Glue
import proofs.«900719_g7700000000000720_dist_ar_v7x_xyz2x2x4_z_m256_n256_f32_1_alg».proof.Proof.B.Steps
import proofs.«900719_g7700000000000720_dist_ar_v7x_xyz2x2x4_z_m256_n256_f32_1_alg».proof.Proof.B.Phases
import proofs.«900719_g7700000000000720_dist_ar_v7x_xyz2x2x4_z_m256_n256_f32_1_alg».proof.Proof.B.Pieces

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- The six cells of one class closed: each, its one round consumed, gives its counter back at zero. -/
theorem close6 (c : Dev nD) (a : Fin 4) :
    iprop(records m ρ K ∗ (posD c (dix a 0 0) 1 ∗ posD c (dix a 0 1) 1 ∗ posD c (dix a 0 2) 1
        ∗ posD c (dix a 1 0) 1 ∗ posD c (dix a 1 1) 1 ∗ posD c (dix a 1 2) 1))
      ⊢ |={Set.univ}=> (bigSep Finset.univ fun hk : Fin 2 × Fin 3 => (semVal (dCell c (dix a hk.1 hk.2)) 0 : sProp 𝕄)) := by
  iintro ⟨#HR, P0, P1, P2, P3, P4, P5⟩
  imod (step_close m ρ K c (dix a 0 0)) $$ [P0] with S0
  · isplitr; · iexact HR
    iexact P0
  imod (step_close m ρ K c (dix a 0 1)) $$ [P1] with S1
  · isplitr; · iexact HR
    iexact P1
  imod (step_close m ρ K c (dix a 0 2)) $$ [P2] with S2
  · isplitr; · iexact HR
    iexact P2
  imod (step_close m ρ K c (dix a 1 0)) $$ [P3] with S3
  · isplitr; · iexact HR
    iexact P3
  imod (step_close m ρ K c (dix a 1 1)) $$ [P4] with S4
  · isplitr; · iexact HR
    iexact P4
  imod (step_close m ρ K c (dix a 1 2)) $$ [P5] with S5
  · isplitr; · iexact HR
    iexact P5
  imodintro
  rw [bigSep_hk]
  isplitl [S0]; · iexact S0
  isplitl [S1]; · iexact S1
  isplitl [S2]; · iexact S2
  isplitl [S3]; · iexact S3
  isplitl [S4]; · iexact S4
  iexact S5

/-- The exit: the twenty-four cells closed class by class; the landing buffer rejoined from its six slots; the staged
    `x` from the two halves of the device's quarter, each from its four shares, and the rest; the staged result from the
    eight half-quarters of the plane, the device's own two each from its three shares. -/
theorem finish (c : Dev nD) :
    leftovers m ρ K c ⊢ |={Set.univ}=> iprop(Φ₁ m ρ c ∗ stg c cc0_stg0_0 (xstg m ρ c) ∗ stg c cc0_stg1_0 (OUTV m ρ c)) := by
  unfold leftovers
  iintro ⟨#HR, ⟨P0, P1, P2, P3⟩, HZ, ⟨A00, A01, A02, A10, A11, A12⟩, ⟨B00, B10, B20, B01, B11, B21⟩,
    ⟨X00, X01, X02, X10, X11, X12⟩, Xk0, Xk1, Xrest⟩
  imod (close6 m ρ K c 0) $$ [P0] with S0
  · isplitr; · iexact HR
    iexact P0
  imod (close6 m ρ K c 1) $$ [P1] with S1
  · isplitr; · iexact HR
    iexact P1
  imod (close6 m ρ K c 2) $$ [P2] with S2
  · isplitr; · iexact HR
    iexact P2
  imod (close6 m ρ K c 3) $$ [P3] with S3
  · isplitr; · iexact HR
    iexact P3
  imodintro
  isplitl [HZ S0 S1 S2 S3]
  · unfold Φ₁
    isplitl [HZ]
    · iapply (z_split c (ZV m ρ c)).2
      rw [bigSep_hk]
      iexact HZ
    · rw [bigSep_fin24_cls]
      isplitl [S0]; · iexact S0
      isplitl [S1]; · iexact S1
      isplitl [S2]; · iexact S2
      iexact S3
  isplitl [X00 X01 X02 X10 X11 X12 Xk0 Xk1 Xrest]
  · iexists (xstg m ρ c)
    isplitr; · ipureintro; rfl
    iapply (x_split c (xstg m ρ c)).2
    isplitl [X00 X01 X02 Xk0]
    · iapply (share4 _ _).2
      isplitl [X00]; · iexact X00
      isplitl [X01]; · iexact X01
      isplitl [X02]; · iexact X02
      iexact Xk0
    isplitl [X10 X11 X12 Xk1]
    · iapply (share4 _ _).2
      isplitl [X10]; · iexact X10
      isplitl [X11]; · iexact X11
      isplitl [X12]; · iexact X12
      iexact Xk1
    iexact Xrest
  · iexists (OUTV m ρ c)
    isplitr; · ipureintro; rfl
    iapply (out_split c (OUTV m ρ c)).2
    rw [bigSep_jh]
    isplitl [A00 A01 A02]
    · iapply (share3 _ _).2
      isplitl [A00]; · iexact A00
      isplitl [A01]; · iexact A01
      iexact A02
    isplitl [A10 A11 A12]
    · iapply (share3 _ _).2
      isplitl [A10]; · iexact A10
      isplitl [A11]; · iexact A11
      iexact A12
    isplitl [B00]; · iexact B00
    isplitl [B01]; · iexact B01
    isplitl [B10]; · iexact B10
    isplitl [B11]; · iexact B11
    isplitl [B20]; · iexact B20
    iexact B21

/--
info: 'Cert.Kernel.AR.finish' depends on axioms: [propext, Classical.choice, Quot.sound]
-/
#guard_msgs in #print axioms finish

end Cert.Kernel.AR

end
-- ==== Proof.B.Body.lean ====
/- The body of one device, from what the launch and the pipeline hand it to what they take back: the staged buffers cut
   into the parts the protocol passes round, the four phases in program order, the cells closed and the buffers rejoined. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Tables
import proofs.«900719_g7700000000000720_dist_ar_v7x_xyz2x2x4_z_m256_n256_f32_1_alg».proof.Proof.B.Owes
import proofs.«900719_g7700000000000720_dist_ar_v7x_xyz2x2x4_z_m256_n256_f32_1_alg».proof.Proof.B.Regions
import proofs.«900719_g7700000000000720_dist_ar_v7x_xyz2x2x4_z_m256_n256_f32_1_alg».proof.Proof.B.Landing
import proofs.«900719_g7700000000000720_dist_ar_v7x_xyz2x2x4_z_m256_n256_f32_1_alg».proof.Proof.B.Glue
import proofs.«900719_g7700000000000720_dist_ar_v7x_xyz2x2x4_z_m256_n256_f32_1_alg».proof.Proof.B.Steps
import proofs.«900719_g7700000000000720_dist_ar_v7x_xyz2x2x4_z_m256_n256_f32_1_alg».proof.Proof.B.Phases
import proofs.«900719_g7700000000000720_dist_ar_v7x_xyz2x2x4_z_m256_n256_f32_1_alg».proof.Proof.B.Pieces
import proofs.«900719_g7700000000000720_dist_ar_v7x_xyz2x2x4_z_m256_n256_f32_1_alg».proof.Proof.B.PhaseA
import proofs.«900719_g7700000000000720_dist_ar_v7x_xyz2x2x4_z_m256_n256_f32_1_alg».proof.Proof.B.PhaseB
import proofs.«900719_g7700000000000720_dist_ar_v7x_xyz2x2x4_z_m256_n256_f32_1_alg».proof.Proof.B.PhaseC0
import proofs.«900719_g7700000000000720_dist_ar_v7x_xyz2x2x4_z_m256_n256_f32_1_alg».proof.Proof.B.PhaseC1
import proofs.«900719_g7700000000000720_dist_ar_v7x_xyz2x2x4_z_m256_n256_f32_1_alg».proof.Proof.B.PhaseD
import proofs.«900719_g7700000000000720_dist_ar_v7x_xyz2x2x4_z_m256_n256_f32_1_alg».proof.Proof.B.OpenPre
import proofs.«900719_g7700000000000720_dist_ar_v7x_xyz2x2x4_z_m256_n256_f32_1_alg».proof.Proof.B.Finish

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

set_option maxHeartbeats 4000000 in
set_option maxRecDepth 65536 in
/-- The body, from the pieces to the leftovers, phase by phase. -/
theorem run_body (c : Dev nD) (W : Waits sig Unit) (Kt : PUnit → sProp 𝕄) :
    iprop(pieces m ρ K c W ∗ (iprop(iprop(Φ₁ m ρ c ∗ stg c cc0_stg0_0 (xstg m ρ c) ∗ stg c cc0_stg1_0 (OUTV m ρ c)) ∗ ∃ W', owes (c : Thread nD τ) 0 W') -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold pieces
  iintro ⟨⟨#HR, #Hlev, HO, Hcb, Hpb, ⟨Hc1_00, Hc1_01, Hc1_02, Hc1_10, Hc1_11, Hc1_12⟩, ⟨Hc3_00, Hc3_01, Hc3_02, Hc3_10, Hc3_11, Hc3_12⟩,
    ⟨⟨Hp0_00, Hp0_01, Hp0_02, Hp0_10, Hp0_11, Hp0_12⟩, ⟨Hp1_00, Hp1_01, Hp1_02, Hp1_10, Hp1_11, Hp1_12⟩, ⟨Hp2_00, Hp2_01, Hp2_02, Hp2_10, Hp2_11, Hp2_12⟩, ⟨Hp3_00, Hp3_01, Hp3_02, Hp3_10, Hp3_11, Hp3_12⟩⟩,
    ⟨Htb0, Htb1, Htb2, Htb3, Htb4, Htb5⟩, ⟨Ht0_00, Ht0_01, Ht0_02, Ht0_10, Ht0_11, Ht0_12⟩, ⟨Ht1_00, Ht1_01, Ht1_02, Ht1_10, Ht1_11, Ht1_12⟩, ⟨Ht2_00, Ht2_01, Ht2_02, Ht2_10, Ht2_11, Ht2_12⟩, ⟨Ht3_00, Ht3_01, Ht3_02, Ht3_10, Ht3_11, Ht3_12⟩,
    ⟨Hz_00, Hz_01, Hz_02, Hz_10, Hz_11, Hz_12⟩, ⟨Hoo0, Hoo1, Hox00, Hox01, Hox10, Hox11, Hox20, Hox21⟩,
    ⟨Hxs_00, Hxs_01, Hxs_02, Hxs_10, Hxs_11, Hxs_12⟩, Hxk0, Hxk1, Hxrest⟩, Hk⟩
  -- A: the entry handshake
  iapply (phaseA' m ρ K c _ _ _ _ _ _ (dev1_eq c) (dev2_eq c) (dev3_eq c) (dev4_eq c) (dev5_eq c) (dev6_eq c) W _)
  isplitl [HO Hcb Hpb Htb0 Htb1 Htb2 Htb3 Htb4 Htb5 Hz_00 Hz_01 Hz_02 Hz_10 Hz_11 Hz_12 Hox00 Hox01 Hox10 Hox11 Hox20 Hox21]
  · isplitr; · iexact HR
    isplitr; · iexact Hlev
    isplitl [HO]; · iexact HO
    isplitl [Hcb]; · iexact Hcb
    isplitl [Hpb]; · iexact Hpb
    isplitl [Htb0]; · iexact Htb0
    isplitl [Htb1]; · iexact Htb1
    isplitl [Htb2]; · iexact Htb2
    isplitl [Htb3]; · iexact Htb3
    isplitl [Htb4]; · iexact Htb4
    isplitl [Htb5]; · iexact Htb5
    isplitl [Hz_02]; · iexact Hz_02
    isplitl [Hz_12]; · iexact Hz_12
    isplitl [Hz_01]; · iexact Hz_01
    isplitl [Hz_11]; · iexact Hz_11
    isplitl [Hz_00]; · iexact Hz_00
    isplitl [Hz_10]; · iexact Hz_10
    isplitl [Hox00]; · iexact Hox00
    isplitl [Hox01]; · iexact Hox01
    isplitl [Hox10]; · iexact Hox10
    isplitl [Hox11]; · iexact Hox11
    isplitl [Hox20]; · iexact Hox20
    iexact Hox21
  iintro ⟨⟨%W1, HO⟩, Hpb, Hzp_02, Hzp_12, Hzp_01, Hzp_11, Hzp_00, Hzp_10, Hop00, Hop01, Hop10, Hop11, Hop20, Hop21⟩
  -- B: the ring sends
  iapply (phaseB' m ρ K c _ _ _ _ _ _ (dev7_eq c) (dev8_eq c) (dev9_eq c) (dev10_eq c) (dev11_eq c) (dev12_eq c) W1 _)
  isplitl [HO Hxs_00 Hzp_00 Ht0_00 Ht1_00 Hxs_01 Hzp_01 Ht0_01 Ht1_01 Hxs_02 Hzp_02 Ht0_02 Ht1_02 Hxs_10 Hzp_10 Ht0_10 Ht1_10 Hxs_11 Hzp_11 Ht0_11 Ht1_11 Hxs_12 Hzp_12 Ht0_12 Ht1_12]
  · isplitr; · iexact HR
    isplitl [HO]; · iexact HO
    isplitl [Hxs_00]; · iexact Hxs_00
    isplitl [Hxs_01]; · iexact Hxs_01
    isplitl [Hxs_02]; · iexact Hxs_02
    isplitl [Hxs_10]; · iexact Hxs_10
    isplitl [Hxs_11]; · iexact Hxs_11
    isplitl [Hxs_12]; · iexact Hxs_12
    isplitl [Hzp_00]; · iexact Hzp_00
    isplitl [Hzp_01]; · iexact Hzp_01
    isplitl [Hzp_02]; · iexact Hzp_02
    isplitl [Hzp_10]; · iexact Hzp_10
    isplitl [Hzp_11]; · iexact Hzp_11
    isplitl [Hzp_12]; · iexact Hzp_12
    isplitl [Ht0_00]; · iexact Ht0_00
    isplitl [Ht0_01]; · iexact Ht0_01
    isplitl [Ht0_02]; · iexact Ht0_02
    isplitl [Ht0_10]; · iexact Ht0_10
    isplitl [Ht0_11]; · iexact Ht0_11
    isplitl [Ht0_12]; · iexact Ht0_12
    isplitl [Ht1_00]; · iexact Ht1_00
    isplitl [Ht1_01]; · iexact Ht1_01
    isplitl [Ht1_02]; · iexact Ht1_02
    isplitl [Ht1_10]; · iexact Ht1_10
    isplitl [Ht1_11]; · iexact Ht1_11
    iexact Ht1_12
  iintro ⟨⟨%W2, HO⟩, Hc0_00, Hc0_01, Hc0_02, Hc0_10, Hc0_11, Hc0_12⟩
  -- C, half 0
  iapply (phaseC0' m ρ K c _ _ _ (dev13_eq c) (dev14_eq c) (dev15_eq c) W2 _)
  isplitl [HO Hc1_00 Hc1_01 Hc1_02 Hp1_00 Hp1_01 Hp1_02 Hxk0 Hoo0 Hop00 Hop10 Hop20 Ht2_00 Ht2_01 Ht2_02 Ht3_00 Ht3_01 Ht3_02]
  · isplitr; · iexact HR
    isplitr; · iexact Hlev
    isplitl [HO]; · iexact HO
    isplitl [Hc1_00]; · iexact Hc1_00
    isplitl [Hc1_01]; · iexact Hc1_01
    isplitl [Hc1_02]; · iexact Hc1_02
    isplitl [Hp1_00]; · iexact Hp1_00
    isplitl [Hp1_01]; · iexact Hp1_01
    isplitl [Hp1_02]; · iexact Hp1_02
    isplitl [Hxk0]; · iexact Hxk0
    isplitl [Hoo0]; · iexact Hoo0
    isplitl [Hop00]; · iexact Hop00
    isplitl [Hop10]; · iexact Hop10
    isplitl [Hop20]; · iexact Hop20
    isplitl [Ht2_00]; · iexact Ht2_00
    isplitl [Ht2_01]; · iexact Ht2_01
    isplitl [Ht2_02]; · iexact Ht2_02
    isplitl [Ht3_00]; · iexact Ht3_00
    isplitl [Ht3_01]; · iexact Ht3_01
    iexact Ht3_02
  iintro ⟨⟨%W3, HO⟩, Hq1_00, Hq1_01, Hq1_02, Hza_00, Hza_01, Hza_02, Hxk0, Hc2_00, Hc2_01, Hc2_02⟩
  -- C, half 1
  iapply (phaseC1' m ρ K c _ _ _ (dev16_eq c) (dev17_eq c) (dev18_eq c) W3 _)
  isplitl [HO Hc1_10 Hc1_11 Hc1_12 Hp1_10 Hp1_11 Hp1_12 Hxk1 Hoo1 Hop01 Hop11 Hop21 Ht2_10 Ht2_11 Ht2_12 Ht3_10 Ht3_11 Ht3_12]
  · isplitr; · iexact HR
    isplitr; · iexact Hlev
    isplitl [HO]; · iexact HO
    isplitl [Hc1_10]; · iexact Hc1_10
    isplitl [Hc1_11]; · iexact Hc1_11
    isplitl [Hc1_12]; · iexact Hc1_12
    isplitl [Hp1_10]; · iexact Hp1_10
    isplitl [Hp1_11]; · iexact Hp1_11
    isplitl [Hp1_12]; · iexact Hp1_12
    isplitl [Hxk1]; · iexact Hxk1
    isplitl [Hoo1]; · iexact Hoo1
    isplitl [Hop01]; · iexact Hop01
    isplitl [Hop11]; · iexact Hop11
    isplitl [Hop21]; · iexact Hop21
    isplitl [Ht2_10]; · iexact Ht2_10
    isplitl [Ht2_11]; · iexact Ht2_11
    isplitl [Ht2_12]; · iexact Ht2_12
    isplitl [Ht3_10]; · iexact Ht3_10
    isplitl [Ht3_11]; · iexact Ht3_11
    iexact Ht3_12
  iintro ⟨⟨%W4, HO⟩, Hq1_10, Hq1_11, Hq1_12, Hza_10, Hza_11, Hza_12, Hxk1, Hc2_10, Hc2_11, Hc2_12⟩
  -- D: the exit waits
  rw [owedFrom_18]
  iapply (phaseD' m ρ K c W4 _)
  isplitl [HO Hc2_00 Hc2_01 Hc2_02 Hc2_10 Hc2_11 Hc2_12 Hc3_00 Hc3_01 Hc3_02 Hc3_10 Hc3_11 Hc3_12 Hc0_00 Hc0_01 Hc0_02 Hc0_10 Hc0_11 Hc0_12 Hp2_00 Hp2_01 Hp2_02 Hp2_10 Hp2_11 Hp2_12 Hp3_00 Hp3_01 Hp3_02 Hp3_10 Hp3_11 Hp3_12 Hp0_00 Hp0_01 Hp0_02 Hp0_10 Hp0_11 Hp0_12]
  · isplitr; · iexact HR
    isplitl [HO]; · iexact HO
    isplitl [Hc2_00]; · iexact Hc2_00
    isplitl [Hc2_01]; · iexact Hc2_01
    isplitl [Hc2_02]; · iexact Hc2_02
    isplitl [Hc2_10]; · iexact Hc2_10
    isplitl [Hc2_11]; · iexact Hc2_11
    isplitl [Hc2_12]; · iexact Hc2_12
    isplitl [Hc3_00]; · iexact Hc3_00
    isplitl [Hc3_01]; · iexact Hc3_01
    isplitl [Hc3_02]; · iexact Hc3_02
    isplitl [Hc3_10]; · iexact Hc3_10
    isplitl [Hc3_11]; · iexact Hc3_11
    isplitl [Hc3_12]; · iexact Hc3_12
    isplitl [Hc0_00]; · iexact Hc0_00
    isplitl [Hc0_01]; · iexact Hc0_01
    isplitl [Hc0_02]; · iexact Hc0_02
    isplitl [Hc0_10]; · iexact Hc0_10
    isplitl [Hc0_11]; · iexact Hc0_11
    isplitl [Hc0_12]; · iexact Hc0_12
    isplitl [Hp2_00]; · iexact Hp2_00
    isplitl [Hp2_01]; · iexact Hp2_01
    isplitl [Hp2_02]; · iexact Hp2_02
    isplitl [Hp2_10]; · iexact Hp2_10
    isplitl [Hp2_11]; · iexact Hp2_11
    isplitl [Hp2_12]; · iexact Hp2_12
    isplitl [Hp3_00]; · iexact Hp3_00
    isplitl [Hp3_01]; · iexact Hp3_01
    isplitl [Hp3_02]; · iexact Hp3_02
    isplitl [Hp3_10]; · iexact Hp3_10
    isplitl [Hp3_11]; · iexact Hp3_11
    isplitl [Hp3_12]; · iexact Hp3_12
    isplitl [Hp0_00]; · iexact Hp0_00
    isplitl [Hp0_01]; · iexact Hp0_01
    isplitl [Hp0_02]; · iexact Hp0_02
    isplitl [Hp0_10]; · iexact Hp0_10
    isplitl [Hp0_11]; · iexact Hp0_11
    iexact Hp0_12
  iintro ⟨⟨%W5, HO⟩, Hq2_00, Hq2_01, Hq2_02, Hq2_10, Hq2_11, Hq2_12, Hq3_00, Hq3_01, Hq3_02, Hq3_10, Hq3_11, Hq3_12, Hq0_00, Hq0_01, Hq0_02, Hq0_10, Hq0_11, Hq0_12, Hos_00, Hos_01, Hos_02, Hos_10, Hos_11, Hos_12, Hor_00, Hor_01, Hor_02, Hor_10, Hor_11, Hor_12, Hxs_00, Hxs_01, Hxs_02, Hxs_10, Hxs_11, Hxs_12⟩
  imod (finish m ρ K c) $$ [Hq0_00 Hq0_01 Hq0_02 Hq0_10 Hq0_11 Hq0_12 Hq1_00 Hq1_01 Hq1_02 Hq1_10 Hq1_11 Hq1_12 Hq2_00 Hq2_01 Hq2_02 Hq2_10 Hq2_11 Hq2_12 Hq3_00 Hq3_01 Hq3_02 Hq3_10 Hq3_11 Hq3_12 Hza_00 Hza_01 Hza_02 Hza_10 Hza_11 Hza_12 Hos_00 Hos_01 Hos_02 Hos_10 Hos_11 Hos_12 Hor_00 Hor_01 Hor_02 Hor_10 Hor_11 Hor_12 Hxs_00 Hxs_01 Hxs_02 Hxs_10 Hxs_11 Hxs_12 Hxk0 Hxk1 Hxrest] with Hfin
  · unfold leftovers
    isplitr; · iexact HR
    isplitl [Hq0_00 Hq0_01 Hq0_02 Hq0_10 Hq0_11 Hq0_12 Hq1_00 Hq1_01 Hq1_02 Hq1_10 Hq1_11 Hq1_12 Hq2_00 Hq2_01 Hq2_02 Hq2_10 Hq2_11 Hq2_12 Hq3_00 Hq3_01 Hq3_02 Hq3_10 Hq3_11 Hq3_12]
    · isplitl [Hq0_00 Hq0_01 Hq0_02 Hq0_10 Hq0_11 Hq0_12]
      · isplitl [Hq0_00]; · iexact Hq0_00
        isplitl [Hq0_01]; · iexact Hq0_01
        isplitl [Hq0_02]; · iexact Hq0_02
        isplitl [Hq0_10]; · iexact Hq0_10
        isplitl [Hq0_11]; · iexact Hq0_11
        iexact Hq0_12
      isplitl [Hq1_00 Hq1_01 Hq1_02 Hq1_10 Hq1_11 Hq1_12]
      · isplitl [Hq1_00]; · iexact Hq1_00
        isplitl [Hq1_01]; · iexact Hq1_01
        isplitl [Hq1_02]; · iexact Hq1_02
        isplitl [Hq1_10]; · iexact Hq1_10
        isplitl [Hq1_11]; · iexact Hq1_11
        iexact Hq1_12
      isplitl [Hq2_00 Hq2_01 Hq2_02 Hq2_10 Hq2_11 Hq2_12]
      · isplitl [Hq2_00]; · iexact Hq2_00
        isplitl [Hq2_01]; · iexact Hq2_01
        isplitl [Hq2_02]; · iexact Hq2_02
        isplitl [Hq2_10]; · iexact Hq2_10
        isplitl [Hq2_11]; · iexact Hq2_11
        iexact Hq2_12
      isplitl [Hq3_00]; · iexact Hq3_00
      isplitl [Hq3_01]; · iexact Hq3_01
      isplitl [Hq3_02]; · iexact Hq3_02
      isplitl [Hq3_10]; · iexact Hq3_10
      isplitl [Hq3_11]; · iexact Hq3_11
      iexact Hq3_12
    isplitl [Hza_00 Hza_01 Hza_02 Hza_10 Hza_11 Hza_12]
    · isplitl [Hza_00]; · iexact Hza_00
      isplitl [Hza_01]; · iexact Hza_01
      isplitl [Hza_02]; · iexact Hza_02
      isplitl [Hza_10]; · iexact Hza_10
      isplitl [Hza_11]; · iexact Hza_11
      iexact Hza_12
    isplitl [Hos_00 Hos_01 Hos_02 Hos_10 Hos_11 Hos_12]
    · isplitl [Hos_00]; · iexact Hos_00
      isplitl [Hos_01]; · iexact Hos_01
      isplitl [Hos_02]; · iexact Hos_02
      isplitl [Hos_10]; · iexact Hos_10
      isplitl [Hos_11]; · iexact Hos_11
      iexact Hos_12
    isplitl [Hor_00 Hor_01 Hor_02 Hor_10 Hor_11 Hor_12]
    · isplitl [Hor_00]; · iexact Hor_00
      isplitl [Hor_01]; · iexact Hor_01
      isplitl [Hor_02]; · iexact Hor_02
      isplitl [Hor_10]; · iexact Hor_10
      isplitl [Hor_11]; · iexact Hor_11
      iexact Hor_12
    isplitl [Hxs_00 Hxs_01 Hxs_02 Hxs_10 Hxs_11 Hxs_12]
    · isplitl [Hxs_00]; · iexact Hxs_00
      isplitl [Hxs_01]; · iexact Hxs_01
      isplitl [Hxs_02]; · iexact Hxs_02
      isplitl [Hxs_10]; · iexact Hxs_10
      isplitl [Hxs_11]; · iexact Hxs_11
      iexact Hxs_12
    isplitl [Hxk0]; · iexact Hxk0
    isplitl [Hxk1]; · iexact Hxk1
    iexact Hxrest
  rw [wp_ret]; imodintro
  iapply Hk
  isplitl [Hfin]; · iexact Hfin
  iexists W5; iexact HO

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = iprop(Φ (0 : Fin 2) ∗ Φ (1 : Fin 2)) := bigSep_W0 Φ

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  unfold bodyPre' Φ₀ start
  iintro ⟨⟨⟨⟨%K, Hg⟩, Hcr, Hlev⟩, Hscr⟩, Ho, Hx, Hout⟩
  ihave Hp := (open_pre m ρ K c) $$ [Hg Hcr Hlev Hscr Ho Hx Hout]
  · unfold bodyPre
    isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    iexact Hout
  icases Hp with ⟨%W, Hp⟩
  iapply (run_body m ρ K c W fun _ => bodyPost m ρ c)
  isplitl [Hp]; · iexact Hp
  iintro ⟨⟨HΦ, Hx, Hout⟩, ⟨%W', HO⟩⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Hx]; · iexact Hx
  iexact Hout

/-- info: 'Cert.Kernel.AR.body_obligation' depends on axioms: [propext, Classical.choice, Quot.sound] -/
#guard_msgs in #print axioms body_obligation

end Cert.Kernel.AR

end
-- ==== Proof.B.Launch.lean ====
/- The launch: the protocol's cells allocated for all sixteen devices at once, their tokens dealt to the devices that pay
   them, each device's credit and levels, and the run of @main from any memory with zero counters to each device's arrays
   at their final contents. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Tables
import proofs.«900719_g7700000000000720_dist_ar_v7x_xyz2x2x4_z_m256_n256_f32_1_alg».proof.Proof.B.Owes
import proofs.«900719_g7700000000000720_dist_ar_v7x_xyz2x2x4_z_m256_n256_f32_1_alg».proof.Proof.Gen.Kernel.Points
import Idealize.ShloMosaic.Lib.Pipeline.Launch
import Idealize.ShloMosaic.Lib.Pipeline.Kit
import Idealize.ShloMosaic.Lib.Pipeline.Cells

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

theorem ownSemFacts : Pipeline.OwnSemFacts cfg0.spec osem := by decide

theorem share_eq (c : Dev nD) (w : Fin cfg0.W) : (dats m ρ 0 c).share w = fullShare := by unfold Dat.share; split <;> rfl

/-- The twenty-five semaphores of a device are pairwise distinct: the barrier is no DMA semaphore, and the DMA
    semaphores differ by their index. -/
private theorem csem_injective : Function.Injective csem := by
  intro k k' h
  unfold csem at h
  by_cases hk : k.val = 0
  · by_cases hk' : k'.val = 0
    · exact Fin.ext (hk.trans hk'.symm)
    · rw [dif_pos hk, dif_neg hk'] at h; cases h
  · by_cases hk' : k'.val = 0
    · rw [dif_neg hk, dif_pos hk'] at h; cases h
    · rw [dif_neg hk, dif_neg hk'] at h
      have h2 := congrArg (fun s : DmaSem sig => s.val) (SemLoc.dma.inj h)
      simp only [dsem] at h2
      exact Fin.ext (by omega)

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

private theorem dix_injective {a a' : Fin 4} {h h' : Fin 2} {k k' : Fin 3} (e : dix a h k = dix a' h' k') : a = a' ∧ h = h' ∧ k = k' := by
  have e' := congrArg Fin.val e
  simp only [dix] at e'
  have := a.isLt; have := a'.isLt; have := h.isLt; have := h'.isLt; have := k.isLt; have := k'.isLt
  exact ⟨Fin.ext (by omega), Fin.ext (by omega), Fin.ext (by omega)⟩

/-- The names of the thirty duty tokens minted on a device's own cells: its barrier's three ring duties, its three plane
    duties, and the one duty of each of its twenty-four DMA cells by class, half and lane. -/
abbrev TI : Type := (Fin 3 ⊕ Fin 3) ⊕ (Fin 4 × (Fin 2 × Fin 3))

def tokOf (cj : Dev nD × TI) : GSem nD τ sig × ℕ × Fin 6 := match cj.2 with
  | .inl (.inl dd) => (barCell cj.1, 0, lo6 dd)
  | .inl (.inr i) => (barCell cj.1, 0, hi6 i)
  | .inr x => (dCell cj.1 (dix x.1 x.2.1 x.2.2), 0, 0)

theorem tokOf_injective : Function.Injective (tokOf : Dev nD × TI → GSem nD τ sig × ℕ × Fin 6) := by
  rintro ⟨c, j⟩ ⟨c', j'⟩ h
  have h1 : c = c' := by
    have := congrArg (fun x : GSem nD τ sig × ℕ × Fin 6 => x.1.1.1) h
    rcases j with (dd | i) | x <;> rcases j' with (dd' | i') | x' <;> exact this
  subst h1
  have hs := congrArg (fun x : GSem nD τ sig × ℕ × Fin 6 => x.1.2) h
  have hd := congrArg (fun x : GSem nD τ sig × ℕ × Fin 6 => x.2.2.val) h
  rcases j with (dd | i) | ⟨a, hh, k⟩ <;> rcases j' with (dd' | i') | ⟨a', hh', k'⟩ <;> simp only [tokOf, lo6, hi6] at hs hd
  · have : dd = dd' := Fin.ext hd
    subst this; rfl
  · have := dd.isLt; omega
  · cases hs
  · have := dd'.isLt; omega
  · have : i = i' := Fin.ext (by omega)
    subst this; rfl
  · cases hs
  · cases hs
  · cases hs
  · have h3 := congrArg (fun s : DmaSem sig => s.val) (SemLoc.dma.inj hs)
    simp only [dsem] at h3
    obtain ⟨rfl, rfl, rfl⟩ := dix_injective (Fin.ext (by omega) : dix a hh k = dix a' hh' k')
    rfl

def ringToks : Finset (GSem nD τ sig × ℕ × Fin 6) := Finset.univ.map ⟨tokOf, tokOf_injective⟩

def u₀ : UU :=
  (initOf (Pipeline.cells cfgs cellOf_inj) (Pipeline.launchToks cfgs cellOf_inj), initOf ringCells ringToks)

/-- The duty tokens of device `c`'s own cells, family by family. -/
def toks (c : Dev nD) : sProp 𝕄 :=
  iprop(((bigSep Finset.univ fun dd : Fin 3 => dutyTok ER (barCell c) 0 (lo6 dd))
      ∗ (bigSep Finset.univ fun i : Fin 3 => dutyTok ER (barCell c) 0 (hi6 i)))
    ∗ (bigSep Finset.univ fun hk : Fin 2 × Fin 3 => dutyTok ER (dCell c (dix 0 hk.1 hk.2)) 0 (0 : Fin 6))
    ∗ (bigSep Finset.univ fun hk : Fin 2 × Fin 3 => dutyTok ER (dCell c (dix 1 hk.1 hk.2)) 0 (0 : Fin 6))
    ∗ (bigSep Finset.univ fun hk : Fin 2 × Fin 3 => dutyTok ER (dCell c (dix 2 hk.1 hk.2)) 0 (0 : Fin 6))
    ∗ (bigSep Finset.univ fun hk : Fin 2 × Fin 3 => dutyTok ER (dCell c (dix 3 hk.1 hk.2)) 0 (0 : Fin 6)))

/-- What the launch element deals device `c`. -/
def dealt (c : Dev nD) : sProp 𝕄 :=
  iprop((bigSep Finset.univ fun k : Fin 25 => roundState ER (sched m ρ) (kcell (c, k)) 0)
    ∗ (bigSep Finset.univ fun k : Fin 25 => iprop(atPos ER (kcell (c, k)) 0 ∅ 0 ∗ reached ER (kcell (c, k)) 0)) ∗ toks c)

/-- What the global step makes of it. -/
def dealt' (c : Dev nD) : sProp 𝕄 := iprop(∃ K, ghost m ρ K c)

private theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_ring : BI.own (ER (initOf ringCells ringToks)) ⊢ (|==> bigSep Finset.univ (dealt m ρ) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_univ_prod, bigSep_fin4]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The counters at zero, and the cells' invariants allocated -/

/-- A `bigSep` over `Fin (n + 1)`: the first summand, then the rest. -/
private theorem bigSep_fin_succ {n : ℕ} (Φ : Fin (n + 1) → sProp 𝕄) :
    bigSep Finset.univ Φ = iprop(Φ 0 ∗ bigSep Finset.univ fun j : Fin n => Φ j.succ) := by
  rw [Fin.univ_succ, Finset.cons_eq_insert, bigSep_insert (by simp [Fin.succ_ne_zero]), bigSep_map]; rfl

private theorem csem_zero : csem (0 : Fin 25) = .reg barS := rfl
private theorem csem_succ (j : Fin 24) : csem j.succ = osem j := by
  unfold csem
  rw [dif_neg (by simp)]
  exact congrArg (fun x => SemLoc.dma (dsem x)) (Fin.ext (by simp))

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [unscopedSems0_eq, bigSep_fin_succ]
  unfold Pipeline.ownSems0
  iintro ⟨HS, HB⟩
  isplitl [HB]
  · iexact HB
  · iapply (Entails.of_eq (bigSep_congr fun j _ => by rw [show kcell (c, j.succ) = ((c : Thread nD τ), osem j) from congrArg (Prod.mk _) (csem_succ j)]))
    iexact HS

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Fin 25 => iprop(∃ κ : ℕ, cellInv ER (sched m ρ) κ (kcell (c, k))))
          ∗ (bigSep Finset.univ fun k : Fin 25 => iprop(atPos ER (kcell (c, k)) 0 ∅ 0 ∗ reached ER (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (sched m ρ) (kcell (c, k)) 0)
      ⊢ (|={Set.univ}=> bigSep Finset.univ fun k : Fin 25 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

private instance records_launch_persistent (K : Dev nD × Fin 25 → ℕ) : BI.Persistent (records m ρ K) := by unfold records; infer_instance

theorem ghost_intro (K : Dev nD × Fin 25 → ℕ) (c : Dev nD) : iprop(records m ρ K ∗ linear c) ⊢ dealt' m ρ c := by
  unfold dealt' ghost
  iintro H
  iexists K
  iexact H

/-! ## The tokens dealt to the devices that pay them -/

/-- A doubly indexed `bigSep` re-indexed in its first index along a permutation that may depend on the second. -/
private theorem bigSep_reindex {α β : Type} [Fintype α] [Fintype β] (e : β → α ≃ α) (Φ : α → β → sProp 𝕄) :
    (bigSep Finset.univ fun a => bigSep Finset.univ fun b => Φ a b) = bigSep Finset.univ fun a => bigSep Finset.univ fun b => Φ (e b a) b := by
  rw [bigSep_univ_comm, bigSep_univ_comm (fun a b => Φ (e b a) b)]
  exact bigSep_congr fun b _ => bigSep_univ_equiv (e b) _

/-- The ring step `dd + 1`, as an index of the permutations of the ring. -/
private def step (dd : Fin 3) : Fin 4 := ⟨dd.val + 1, by omega⟩

/-- Each barrier's ring duty `dd` goes to the device `dd + 1` steps back, its plane duty `i` to plane neighbour `i`; each ring
    receive cell's duty to the device `kk + 1` steps back, each plane receive cell's to plane neighbour `i`; the send cells'
    stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep']
  rw [bigSep_reindex (fun dd : Fin 3 => zsEquiv (step dd)) (fun (c : Dev nD) (dd : Fin 3) => (dutyTok ER (barCell c) 0 (lo6 dd) : sProp 𝕄)),
    bigSep_reindex (fun i : Fin 3 => xpEquiv i) (fun (c : Dev nD) (i : Fin 3) => (dutyTok ER (barCell c) 0 (hi6 i) : sProp 𝕄)),
    bigSep_reindex (fun hk : Fin 2 × Fin 3 => zsEquiv (step hk.2)) (fun (c : Dev nD) (hk : Fin 2 × Fin 3) => (dutyTok ER (dCell c (dix 1 hk.1 hk.2)) 0 (0 : Fin 6) : sProp 𝕄)),
    bigSep_reindex (fun hk : Fin 2 × Fin 3 => xpEquiv hk.2) (fun (c : Dev nD) (hk : Fin 2 × Fin 3) => (dutyTok ER (dCell c (dix 3 hk.1 hk.2)) 0 (0 : Fin 6) : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem regroup :
    (bigSep Finset.univ fun c : Dev nD => iprop((bigSep Finset.univ fun k : Fin 25 => iprop(∃ κ : ℕ, cellInv ER (sched m ρ) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (dealt' m ρ) := by
  rw [bigSep_sep', bigSep_sep', ← bigSep_univ_prod (fun ck : Dev nD × Fin 25 => iprop(∃ κ : ℕ, cellInv ER (sched m ρ) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 25 => (atPos ER (kcell (c, k)) 0 ∅ 0 : sProp 𝕄)) payToks).symm).trans
      (bigSep_mono fun c _ => show _ ⊢ linear c from Entails.of_eq rfl))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (dealt' m ρ) :=
  ((bigSep_mono fun c _ => core_alloc m ρ c).trans (bigSep_fupd _ _)).trans (BI.fupd_mono (regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt' m ρ c)
      ⊢ |={Set.univ}=> iprop(start m ρ c ∗ emp) := by
  iintro ⟨-, Hlev, Hcr, -, HG⟩
  ihave Hc := (creds_intro (F := F) c) $$ Hcr
  imodintro
  unfold start dealt'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (ZV m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, from any memory with zero counters: every weakly fair execution of @main
    terminates, and every final state has each device's arrays at the computed contents — given each device's body. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := dealt' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the staged result's final contents: the one point writes the whole staged block
    back over the whole array. -/
theorem finalA_out (c : Dev nD) : ∀ i, finalA m ρ c (1 : Fin 2) i = OUTV m ρ c i := by
  intro i
  have hs := (dats m ρ 0 c).arrAt_succ (1 : Fin 2) t₀
  rw [flush0_1 t₀, if_pos rfl] at hs
  -- read back through the block what the write-back wrote through it
  have hr := congrArg (((cfg0.win 1).blk t₀).view.read (Elt F)) hs
  rw [View.read_write_univ] at hr
  have hi := congrFun hr i
  rw [View.read_apply] at hi
  -- the block is the whole array: its embedding is the identity
  have he : ((cfg0.win 1).blk t₀).view.emb i = i := by
    funext a
    apply Fin.ext
    show (((cfg0.win 1).rect t₀).emb i a : ℕ) = (i a : ℕ)
    rw [Rect.emb_apply]
    show 0 * _ + 1 * (i a : ℕ) = (i a : ℕ)
    omega
  rw [he] at hi
  exact hi

/-- info: 'Cert.Kernel.AR.run_main' depends on axioms: [propext, Classical.choice, Quot.sound] -/
#guard_msgs in #print axioms run_main

/-- info: 'Cert.Kernel.AR.finalA_out' depends on axioms: [propext, Classical.choice, Quot.sound] -/
#guard_msgs in #print axioms finalA_out

end Cert.Kernel.AR

end
-- ==== Proof.B.Frame.lean ====
/- The first conjunct about the sixteen-device program, for any float model: given every device's body, the launch's one
   hypothesis, the program runs from any memory with zero counters and leaves every device's argument as it was. -/
import proofs.«900719_g7700000000000720_dist_ar_v7x_xyz2x2x4_z_m256_n256_f32_1_alg».proof.Proof.B.Core
import proofs.«900719_g7700000000000720_dist_ar_v7x_xyz2x2x4_z_m256_n256_f32_1_alg».proof.Proof.B.Launch
import Idealize.ShloMosaic.Lib.Pipeline.Launch

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The program runs from any memory with zero counters and every device's argument ends as it began: the argument is
    the launch's window 0, whose array after the run holds what it held. -/
theorem frame_KI {F : FTy → Type} [FloatOps F]
    (hbody : ∀ (m : (ℓ : Loc nD τ sig) → Buf (Elt F) ℓ) (ρ : Dev nD → PrngReg) (c : Dev nD),
      BodyObligation (dats (F := F) m ρ 0 c) (defs₀ (F := F)) 𝒱₀ () Set.univ) :
    ∀ (m : (ℓ : Loc nD τ sig) → Buf (Elt F) ℓ) (g : Dev nD → PrngReg),
      θ_run (defs (F := F)) (onTc (τ := τ) (main (F := F))) ⟨m, fun _ => 0, g⟩
        (fun r => ∀ c : Dev nD, r.2.mem ((c.tc : Thread nD τ).loc main_arg0) = m ((c.tc : Thread nD τ).loc main_arg0)) :=
  fun m g => (θ_run _ _ _).mono (fun r h c => (h c 0).trans (finalA_x m g c)) (run_main m g (hbody m g))

/-- info: 'Cert.Kernel.AR.frame_KI' depends on axioms: [propext, Classical.choice, Quot.sound] -/
#guard_msgs in #print axioms frame_KI

end Cert.Kernel.AR

end
-- ==== Proof.lean ====
/- An all-reduce over a 2 × 2 × 4 mesh of sixteen devices against the sum of the four 256-row blocks of the whole array.

   Each device holds one block (the block its position along the last mesh axis names) and reduces one quarter of the
   256 rows, in two halves: it sends each half of its own quarter to the other three devices of its ring of four, adds
   the three halves it receives to its own, and sends the sum to the other three devices of its 2 × 2 plane, which hold
   the other three quarters. Every device therefore ends with, in every row, the sum of the four blocks' rows — four
   terms added in an order that depends on the device's place in its ring, which over the extended reals is the sum in
   any order.

   The frames: every device's body is run once at a symbolic device, phase by phase, under the rounds discipline — a
   device's barrier cell has six duties, one per neighbour, each handing over the part of the neighbour's memory the
   device is about to write; each DMA cell has one duty whose payload is the landed (or returned) part at its final
   contents — and the launch allocates the twenty-five cells of all sixteen devices at once. The same text is read at the
   word level and at the ideal level. The reference's run is its generated run. The value: the final staged result is,
   entry by entry, the four-term sum, and the reference's reduce is the same sum with a leading zero. -/
import proofs.«900719_g7700000000000720_dist_ar_v7x_xyz2x2x4_z_m256_n256_f32_1_alg».proof.Defs
import proofs.«900719_g7700000000000720_dist_ar_v7x_xyz2x2x4_z_m256_n256_f32_1_alg».proof.Proof.Gen.Kernel
import proofs.«900719_g7700000000000720_dist_ar_v7x_xyz2x2x4_z_m256_n256_f32_1_alg».proof.Proof.Gen.Kernel.Skeleton
import proofs.«900719_g7700000000000720_dist_ar_v7x_xyz2x2x4_z_m256_n256_f32_1_alg».proof.Proof.Gen.Kernel.Launch
import proofs.«900719_g7700000000000720_dist_ar_v7x_xyz2x2x4_z_m256_n256_f32_1_alg».proof.Proof.Gen.Kernel.Points
import proofs.«900719_g7700000000000720_dist_ar_v7x_xyz2x2x4_z_m256_n256_f32_1_alg».proof.Proof.Gen.Kernel.Frame
import proofs.«900719_g7700000000000720_dist_ar_v7x_xyz2x2x4_z_m256_n256_f32_1_alg».proof.Proof.Gen.KernelIdeal
import proofs.«900719_g7700000000000720_dist_ar_v7x_xyz2x2x4_z_m256_n256_f32_1_alg».proof.Proof.Gen.KernelIdeal.Skeleton
import proofs.«900719_g7700000000000720_dist_ar_v7x_xyz2x2x4_z_m256_n256_f32_1_alg».proof.Proof.Gen.KernelIdeal.Launch
import proofs.«900719_g7700000000000720_dist_ar_v7x_xyz2x2x4_z_m256_n256_f32_1_alg».proof.Proof.Gen.KernelIdeal.Points
import proofs.«900719_g7700000000000720_dist_ar_v7x_xyz2x2x4_z_m256_n256_f32_1_alg».proof.Proof.Gen.KernelIdeal.Frame
import proofs.«900719_g7700000000000720_dist_ar_v7x_xyz2x2x4_z_m256_n256_f32_1_alg».proof.Proof.Gen.ReferenceIdeal
import proofs.«900719_g7700000000000720_dist_ar_v7x_xyz2x2x4_z_m256_n256_f32_1_alg».proof.Proof.Gen.Pre_finite_inputs_Kernel
import proofs.«900719_g7700000000000720_dist_ar_v7x_xyz2x2x4_z_m256_n256_f32_1_alg».proof.Proof.Gen.Pre_finite_inputs_ReferenceIdeal
import proofs.«900719_g7700000000000720_dist_ar_v7x_xyz2x2x4_z_m256_n256_f32_1_alg».proof.Proof.Body
import proofs.«900719_g7700000000000720_dist_ar_v7x_xyz2x2x4_z_m256_n256_f32_1_alg».proof.Proof.Frame
import proofs.«900719_g7700000000000720_dist_ar_v7x_xyz2x2x4_z_m256_n256_f32_1_alg».proof.Proof.Assemble
import proofs.«900719_g7700000000000720_dist_ar_v7x_xyz2x2x4_z_m256_n256_f32_1_alg».proof.Proof.RefValue
import proofs.«900719_g7700000000000720_dist_ar_v7x_xyz2x2x4_z_m256_n256_f32_1_alg».proof.Proof.B.Body
import proofs.«900719_g7700000000000720_dist_ar_v7x_xyz2x2x4_z_m256_n256_f32_1_alg».proof.Proof.B.Frame
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m g _ => Cert.Kernel.AR.frame_KI (F := Bits) (fun m ρ c => Cert.Kernel.AR.body_obligation m ρ c) m g,
  fun m g _ => Cert.KernelIdeal.AR.frame_KI (F := Ideal) (fun m ρ c => Cert.KernelIdeal.AR.body_obligation m ρ c) m g,
  Cert.KernelIdeal.AR.Ref.frame_ref,
  trivial,
  Cert.KernelIdeal.AR.algebraic_KI (fun m ρ c => Cert.KernelIdeal.AR.body_obligation m ρ c)⟩

end Cert.Proof

end
